-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S20000 : Shape := ⟨1, ![20000]⟩
abbrev S3x128x256 : Shape := ⟨3, ![3, 128, 256]⟩
abbrev S3x128 : Shape := ⟨2, ![3, 128]⟩
abbrev S3x384x128 : Shape := ⟨3, ![3, 384, 128]⟩
abbrev S3x384 : Shape := ⟨2, ![3, 384]⟩
abbrev S1x128 : Shape := ⟨2, ![1, 128]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_
  bcast_S_S3x128 : S_.BroadcastsInDim S3x128 (![] : Fin 0 → Fin S3x128.rank)
  reducesTo_S3x128_S_d0_1 : S3x128.ReducesTo [0, 1] S_
  bcast_S_S3x384x128 : S_.BroadcastsInDim S3x384x128 (![] : Fin 0 → Fin S3x384x128.rank)
  reducesTo_S3x384x128_S_d0_1_2 : S3x384x128.ReducesTo [0, 1, 2] S_
  bcast_S_S3x384 : S_.BroadcastsInDim S3x384 (![] : Fin 0 → Fin S3x384.rank)
  reducesTo_S3x384_S_d0_1 : S3x384.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_arg9 : FVec F S1x128 .f32) (main_arg10 : FVec F S1 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x640000 32 := broadcastInDim S2x640000 ![] bcast_S_S2x640000 main_c_16
  let main_v45 : IVec S2x640000 1 := cmpi .sge main_arg1 main_v44
  let main_c_17 : IVec S_ 32 := constantI S_ 32 20000#32
  let main_v46 : IVec S2x640000 32 := broadcastInDim S2x640000 ![] bcast_S_S2x640000 main_c_17
  let main_v47 : IVec S2x640000 1 := cmpi .slt main_arg1 main_v46
  let main_v48 : IVec S2x640000 1 := andi main_v45 main_v47
  let main_c_18 : IVec S_ 1 := constantI S_ 1 1#1
  let main_v49 : IVec S_ 1 := (fun x v => Host.reduce IntOp.andi x v reducesTo_S2x640000_S_d0_1 h_S_) main_v48 main_c_18
  let main_v50 : IVec S_ 1 := andi main_v43 main_v49
  main_v50

def fn_part1 {F : FTy → Type} [FloatOps F] (main_arg1 : IVec S2x640000 32) (main_arg6 : FVec F S3x384x128 .f32) (main_arg7 : FVec F S3x384 .f32) (main_arg8 : FVec F S3x384 .f32) (main_arg9 : FVec F S1x128 .f32) (main_arg10 : FVec F S1 .f32) (main_v13 : IVec S_ 1) (main_v16 : IVec S3x384x128 1) : IVec S_ 1 :=
  let main_c_5 : IVec S_ 1 := constantI S_ 1 1#1
  let main_v17 : IVec S_ 1 := (fun x v => Host.reduce IntOp.andi x v reducesTo_S3x384x128_S_d0_1_2 h_S_) main_v16 main_c_5
  let main_v18 : IVec S_ 1 := andi main_v13 main_v17
  let main_v19 : FVec F S3x384x128 .f32 := Host.absf main_arg6
  let main_cst_6 : FVec F S_ .f32 := constant S_ .f32 0x7F800000#32
  let main_v20 : FVec F S3x384x128 .f32 := broadcastInDim S3x384x128 ![] bcast_S_S3x384x128 main_cst_6
  let main_v21 : IVec S3x384x128 1 := cmpf .olt main_v19 main_v20
  let main_c_7 : IVec S_ 1 := constantI S_ 1 1#1
  let main_v22 : IVec S_ 1 := (fun x v => Host.reduce IntOp.andi x v reducesTo_S3x384x128_S_d0_1_2 h_S_) main_v21 main_c_7
  let main_v23 : IVec S_ 1 := andi main_v18 main_v22
  let main_v24 : FVec F S3x384 .f32 := Host.absf main_arg7
  let main_cst_8 : FVec F S_ .f32 := constant S_ .f32 0x7F800000#32
  let main_v25 : FVec F S3x384 .f32 := broadcastInDim S3x384 ![] bcast_S_S3x384 main_cst_8
  let main_v26 : IVec S3x384 1 := cmpf .olt main_v24 main_v25
  let main_c_9 : IVec S_ 1 := constantI S_ 1 1#1
  let main_v27 : IVec S_ 1 := (fun x v => Host.reduce IntOp.andi x v reducesTo_S3x384_S_d0_1 h_S_) main_v26 main_c_9
  let main_v28 : IVec S_ 1 := andi main_v23 main_v27
  let main_v29 : FVec F S3x384 .f32 := Host.absf main_arg8
  let main_cst_10 : FVec F S_ .f32 := constant S_ .f32 0x7F800000#32
  let main_v30 : FVec F S3x384 .f32 := broadcastInDim S3x384 ![] bcast_S_S3x384 main_cst_10
  let main_v31 : IVec S3x384 1 := cmpf .olt main_v29 main_v30
  let main_c_11 : IVec S_ 1 := constantI S_ 1 1#1
  let main_v32 : IVec S_ 1 := (fun x v => Host.reduce IntOp.andi x v reducesTo_S3x384_S_d0_1 h_S_) main_v31 main_c_11
  let main_v33 : IVec S_ 1 := andi main_v28 main_v32
  fn_part2 (F := F) main_arg1 main_arg9 main_arg10 main_v33

def fn {F : FTy → Type} [FloatOps F] (main_arg0 : FVec F S20000x128 .f32) (main_arg1 : IVec S2x640000 32) (main_arg2 : IVec S20000 32) (main_arg3 : FVec F S3x128x256 .f32) (main_arg4 : FVec F S3x128 .f32) (main_arg5 : FVec F S3x384x128 .f32) (main_arg6 : FVec F S3x384x128 .f32) (main_arg7 : FVec F S3x384 .f32) (main_arg8 : FVec F S3x384 .f32) (main_arg9 : FVec F S1x128 .f32) (main_arg10 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S3x128x256 .f32 := Host.absf main_arg3
  let main_cst_0 : FVec F S_ .f32 := constant S_ .f32 0x7F800000#32
  let main_v5 : FVec F S3x128x256 .f32 := broadcastInDim S3x128x256 ![] bcast_S_S3x128x256 main_cst_0
  let main_v6 : IVec S3x128x256 1 := cmpf .olt main_v4 main_v5
  let main_c_1 : IVec S_ 1 := constantI S_ 1 1#1
  let main_v7 : IVec S_ 1 := (fun x v => Host.reduce IntOp.andi x v reducesTo_S3x128x256_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x384x128 .f32 := Host.absf main_arg5
  let main_cst_4 : FVec F S_ .f32 := constant S_ .f32 0x7F800000#32
  let main_v15 : FVec F S3x384x128 .f32 := broadcastInDim S3x384x128 ![] bcast_S_S3x384x128 main_cst_4
  let main_v16 : IVec S3x384x128 1 := cmpf .olt main_v14 main_v15
  fn_part1 (F := F) main_arg1 main_arg6 main_arg7 main_arg8 main_arg9 main_arg10 main_v13 main_v16
-- ==== Kernel.lean ====
abbrev S20000x128 : Shape := ⟨2, ![20000, 128]⟩
abbrev S2x640000 : Shape := ⟨2, ![2, 640000]⟩
abbrev S20000 : Shape := ⟨1, ![20000]⟩
abbrev S3x128x256 : Shape := ⟨3, ![3, 128, 256]⟩
abbrev S3x128 : Shape := ⟨2, ![3, 128]⟩
abbrev S3x384x128 : Shape := ⟨3, ![3, 384, 128]⟩
abbrev S3x384 : Shape := ⟨2, ![3, 384]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S640000x256 : Shape := ⟨2, ![640000, 256]⟩
abbrev S1x128x256 : Shape := ⟨3, ![1, 128, 256]⟩
abbrev S128x256 : Shape := ⟨2, ![128, 256]⟩
abbrev S256x128 : Shape := ⟨2, ![256, 128]⟩
abbrev S128 : Shape := ⟨1, ![128]⟩
abbrev S6400x256 : Shape := ⟨2, ![6400, 256]⟩
abbrev S6400x128 : Shape := ⟨2, ![6400, 128]⟩
abbrev S1x384x128 : Shape := ⟨3, ![1, 384, 128]⟩
abbrev S384x128 : Shape := ⟨2, ![384, 128]⟩
abbrev S128x384 : Shape := ⟨2, ![128, 384]⟩
abbrev S1x384 : Shape := ⟨2, ![1, 384]⟩
abbrev S384 : Shape := ⟨1, ![384]⟩
abbrev S2000x128 : Shape := ⟨2, ![2000, 128]⟩
abbrev S2000x384 : Shape := ⟨2, ![2000, 384]⟩
abbrev S128x128 : Shape := ⟨2, ![128, 128]⟩
abbrev S20000x1 : Shape := ⟨2, ![20000, 1]⟩
abbrev S128x1 : Shape := ⟨2, ![128, 1]⟩

abbrev nBuf : Space → Nat
  | .hbm => 250
  | .vmem => 48
  | .smem => 0
  | _ => 0

abbrev hbmTy0_0 (i : Nat) : BufTy := match i % 128 with
  | 0 => ⟨S20000x128, .f32⟩
  | 1 => ⟨S2x640000, .i32⟩
  | 2 => ⟨S20000, .i32⟩
  | 3 => ⟨S3x128x256, .f32⟩
  | 4 => ⟨S3x128, .f32⟩
  | 5 => ⟨S3x384x128, .f32⟩
  | 6 => ⟨S3x384x128, .f32⟩
  | 7 => ⟨S3x384, .f32⟩
  | 8 => ⟨S3x384, .f32⟩
  | 9 => ⟨S1x128, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S1, .i32⟩
  | 24 => ⟨S_, .i32⟩
  | 25 => ⟨S640000x1, .i32⟩
  | 26 => ⟨S640000x1, .i1⟩
  | 27 => ⟨S1x1, .i32⟩
  | 28 => ⟨S640000x1, .i32⟩
  | 29 => ⟨S640000x1, .i1⟩
  | 30 => ⟨S640000x1, .i1⟩
  | 31 => ⟨S_, .i1⟩
  | 32 => ⟨S640000, .i1⟩
  | 33 => ⟨S640000x128, .f32⟩
  | 34 => ⟨S640000x128, .i1⟩
  | 35 => ⟨S_, .f32⟩
  | 36 => ⟨S640000x128, .f32⟩
  | 37 => ⟨S640000x128, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S1, .i32⟩
  | 47 => ⟨S_, .i32⟩
  | 48 => ⟨S640000x1, .i32⟩
  | 49 => ⟨S640000x1, .i1⟩
  | 50 => ⟨S1x1, .i32⟩
  | 51 => ⟨S640000x1, .i32⟩
  | 52 => ⟨S640000x1, .i1⟩
  | 53 => ⟨S640000x1, .i1⟩
  | 54 => ⟨S_, .i1⟩
  | 55 => ⟨S640000, .i1⟩
  | 56 => ⟨S640000x128, .f32⟩
  | 57 => ⟨S640000x128, .i1⟩
  | 58 => ⟨S_, .f32⟩
  | 59 => ⟨S640000x128, .f32⟩
  | 60 => ⟨S640000x128, .f32⟩
  | 61 => ⟨S640000x256, .f32⟩
  | 62 => ⟨S1x128x256, .f32⟩
  | 63 => ⟨S128x256, .f32⟩
  | 64 => ⟨S256x128, .f32⟩
  | 65 => ⟨S1x128, .f32⟩
  | 66 => ⟨S128, .f32⟩
  | 67 => ⟨S1x128, .f32⟩
  | 68 => ⟨S640000x128, .f32⟩
  | 69 => ⟨S_, .f32⟩
  | 70 => ⟨S20000x128, .f32⟩
  | 71 => ⟨S640000x1, .i32⟩
  | 72 => ⟨S20000x128, .f32⟩
  | 73 => ⟨S1x384x128, .f32⟩
  | 74 => ⟨S384x128, .f32⟩
  | 75 => ⟨S128x384, .f32⟩
  | 76 => ⟨S1x384x128, .f32⟩
  | 77 => ⟨S384x128, .f32⟩
  | 78 => ⟨S128x384, .f32⟩
  | 79 => ⟨S1x384, .f32⟩
  | 80 => ⟨S384, .f32⟩
  | 81 => ⟨S1x384, .f32⟩
  | 82 => ⟨S1x384, .f32⟩
  | 83 => ⟨S384, .f32⟩
  | 84 => ⟨S1x384, .f32⟩
  | 85 => ⟨S20000x128, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S1, .i32⟩
  | 95 => ⟨S_, .i32⟩
  | 96 => ⟨S640000x1, .i32⟩
  | 97 => ⟨S640000x1, .i1⟩
  | 98 => ⟨S1x1, .i32⟩
  | 99 => ⟨S640000x1, .i32⟩
  | 100 => ⟨S640000x1, .i1⟩
  | 101 => ⟨S640000x1, .i1⟩
  | 102 => ⟨S_, .i1⟩
  | 103 => ⟨S640000, .i1⟩
  | 104 => ⟨S640000x128, .f32⟩
  | 105 => ⟨S640000x128, .i1⟩
  | 106 => ⟨S_, .f32⟩
  | 107 => ⟨S640000x128, .f32⟩
  | 108 => ⟨S640000x128, .f32⟩
  | 109 => ⟨S_, .i32⟩
  | 110 => ⟨S640000, .i32⟩
  | 111 => ⟨S640000, .i1⟩
  | 112 => ⟨S_, .i32⟩
  | 113 => ⟨S640000, .i32⟩
  | 114 => ⟨S640000, .i32⟩
  | 115 => ⟨S640000, .i32⟩
  | 116 => ⟨S640000x1, .i32⟩
  | 117 => ⟨S1, .i32⟩
  | 118 => ⟨S_, .i32⟩
  | 119 => ⟨S640000x1, .i32⟩
  | 120 => ⟨S640000x1, .i1⟩
  | 121 => ⟨S1x1, .i32⟩
  | 122 => ⟨S640000x1, .i32⟩
  | 123 => ⟨S640000x1, .i1⟩
  | 124 => ⟨S640000x1, .i1⟩
  | 125 => ⟨S_, .i1⟩
  | 126 => ⟨S640000, .i1⟩
  | 127 => ⟨S640000x128, .f32⟩
  | _ => ⟨S20000x128, .f32⟩

abbrev hbmTy0_1 (i : Nat) : BufTy := match i % 128 with
  | 0 => ⟨S640000x128, .i1⟩
  | 1 => ⟨S_, .f32⟩
  | 2 => ⟨S640000x128, .f32⟩
  | 3 => ⟨S640000x128, .f32⟩
  | 4 => ⟨S640000x256, .f32⟩
  | 5 => ⟨S1x128x256, .f32⟩
  | 6 => ⟨S128x256, .f32⟩
  | 7 => ⟨S256x128, .f32⟩
  | 8 => ⟨S1x128, .f32⟩
  | 9 => ⟨S128, .f32⟩
  | 10 => ⟨S1x128, .f32⟩
  | 11 => ⟨S640000x128, .f32⟩
  | 12 => ⟨S_, .f32⟩
  | 13 => ⟨S20000x128, .f32⟩
  | 14 => ⟨S640000x1, .i32⟩
  | 15 => ⟨S20000x128, .f32⟩
  | 16 => ⟨S1x384x128, .f32⟩
  | 17 => ⟨S384x128, .f32⟩
  | 18 => ⟨S128x384, .f32⟩
  | 19 => ⟨S1x384x128, .f32⟩
  | 20 => ⟨S384x128, .f32⟩
  | 21 => ⟨S128x384, .f32⟩
  | 22 => ⟨S1x384, .f32⟩
  | 23 => ⟨S384, .f32⟩
  | 24 => ⟨S1x384, .f32⟩
  | 25 => ⟨S1x384, .f32⟩
  | 26 => ⟨S384, .f32⟩
  | 27 => ⟨S1x384, .f32⟩
  | 28 => ⟨S20000x128, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S1, .i32⟩
  | 38 => ⟨S_, .i32⟩
  | 39 => ⟨S640000x1, .i32⟩
  | 40 => ⟨S640000x1, .i1⟩
  | 41 => ⟨S1x1, .i32⟩
  | 42 => ⟨S640000x1, .i32⟩
  | 43 => ⟨S640000x1, .i1⟩
  | 44 => ⟨S640000x1, .i1⟩
  | 45 => ⟨S_, .i1⟩
  | 46 => ⟨S640000, .i1⟩
  | 47 => ⟨S640000x128, .f32⟩
  | 48 => ⟨S640000x128, .i1⟩
  | 49 => ⟨S_, .f32⟩
  | 50 => ⟨S640000x128, .f32⟩
  | 51 => ⟨S640000x128, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S1, .i32⟩
  | 61 => ⟨S_, .i32⟩
  | 62 => ⟨S640000x1, .i32⟩
  | 63 => ⟨S640000x1, .i1⟩
  | 64 => ⟨S1x1, .i32⟩
  | 65 => ⟨S640000x1, .i32⟩
  | 66 => ⟨S640000x1, .i1⟩
  | 67 => ⟨S640000x1, .i1⟩
  | 68 => ⟨S_, .i1⟩
  | 69 => ⟨S640000, .i1⟩
  | 70 => ⟨S640000x128, .f32⟩
  | 71 => ⟨S640000x128, .i1⟩
  | 72 => ⟨S_, .f32⟩
  | 73 => ⟨S640000x128, .f32⟩
  | 74 => ⟨S640000x128, .f32⟩
  | 75 => ⟨S640000x256, .f32⟩
  | 76 => ⟨S1x128x256, .f32⟩
  | 77 => ⟨S128x256, .f32⟩
  | 78 => ⟨S256x128, .f32⟩
  | 79 => ⟨S1x128, .f32⟩
  | 80 => ⟨S128, .f32⟩
  | 81 => ⟨S1x128, .f32⟩
  | 82 => ⟨S640000x128, .f32⟩
  | 83 => ⟨S_, .f32⟩
  | 84 => ⟨S20000x128, .f32⟩
  | 85 => ⟨S640000x1, .i32⟩
  | 86 => ⟨S20000x128, .f32⟩
  | 87 => ⟨S1x384x128, .f32⟩
  | 88 => ⟨S384x128, .f32⟩
  | 89 => ⟨S128x384, .f32⟩
  | 90 => ⟨S1x384x128, .f32⟩
  | 91 => ⟨S384x128, .f32⟩
  | 92 => ⟨S128x384, .f32⟩
  | 93 => ⟨S1x384, .f32⟩
  | 94 => ⟨S384, .f32⟩
  | 95 => ⟨S1x384, .f32⟩
  | 96 => ⟨S1x384, .f32⟩
  | 97 => ⟨S384, .f32⟩
  | 98 => ⟨S1x384, .f32⟩
  | 99 => ⟨S20000x128, .f32⟩
  | 100 => ⟨S_, .f32⟩
  | 101 => ⟨S128x128, .f32⟩
  | 102 => ⟨S20000x1, .i32⟩
  | 103 => ⟨S128x128, .f32⟩
  | 104 => ⟨S_, .f32⟩
  | 105 => ⟨S20000, .f32⟩
  | 106 => ⟨S_, .f32⟩
  | 107 => ⟨S128, .f32⟩
  | 108 => ⟨S20000x1, .i32⟩
  | 109 => ⟨S128, .f32⟩
  | 110 => ⟨S_, .f32⟩
  | 111 => ⟨S128, .f32⟩
  | 112 => ⟨S128, .f32⟩
  | 113 => ⟨S128x1, .f32⟩
  | 114 => ⟨S128x128, .f32⟩
  | 115 => ⟨S128x128, .f32⟩
  | 116 => ⟨S128x1, .f32⟩
  | 117 => ⟨S128x1, .f32⟩
  | 118 => ⟨S1x1, .f32⟩
  | 119 => ⟨S128x1, .f32⟩
  | 120 => ⟨S128x1, .f32⟩
  | 121 => ⟨S128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S6400x256, .f32⟩
  | .local _ .vmem, ⟨1, _⟩ => ⟨S6400x256, .f32⟩
  | .local _ .vmem, ⟨2, _⟩ => ⟨S256x128, .f32⟩
  | .local _ .vmem, ⟨3, _⟩ => ⟨S1x128, .f32⟩
  | .local _ .vmem, ⟨4, _⟩ => ⟨S6400x128, .f32⟩
  | .local _ .vmem, ⟨5, _⟩ => ⟨S6400x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x384, .f32⟩
  | .local _ .vmem, ⟨11, _⟩ => ⟨S128x384, .f32⟩
  | .local _ .vmem, ⟨12, _⟩ => ⟨S1x384, .f32⟩
  | .local _ .vmem, ⟨13, _⟩ => ⟨S1x384, .f32⟩
  | .local _ .vmem, ⟨14, _⟩ => ⟨S2000x128, .f32⟩
  | .local _ .vmem, ⟨15, _⟩ => ⟨S2000x128, .f32⟩
  | .local _ .vmem, ⟨16, _⟩ => ⟨S6400x256, .f32⟩
  | .local _ .vmem, ⟨17, _⟩ => ⟨S6400x256, .f32⟩
  | .local _ .vmem, ⟨18, _⟩ => ⟨S256x128, .f32⟩
  | .local _ .vmem, ⟨19, _⟩ => ⟨S1x128, .f32⟩
  | .local _ .vmem, ⟨20, _⟩ => ⟨S6400x128, .f32⟩
  | .local _ .vmem, ⟨21, _⟩ => ⟨S6400x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x384, .f32⟩
  | .local _ .vmem, ⟨27, _⟩ => ⟨S128x384, .f32⟩
  | .local _ .vmem, ⟨28, _⟩ => ⟨S1x384, .f32⟩
  | .local _ .vmem, ⟨29, _⟩ => ⟨S1x384, .f32⟩
  | .local _ .vmem, ⟨30, _⟩ => ⟨S2000x128, .f32⟩
  | .local _ .vmem, ⟨31, _⟩ => ⟨S2000x128, .f32⟩
  | .local _ .vmem, ⟨32, _⟩ => ⟨S6400x256, .f32⟩
  | .local _ .vmem, ⟨33, _⟩ => ⟨S6400x256, .f32⟩
  | .local _ .vmem, ⟨34, _⟩ => ⟨S256x128, .f32⟩
  | .local _ .vmem, ⟨35, _⟩ => ⟨S1x128, .f32⟩
  | .local _ .vmem, ⟨36, _⟩ => ⟨S6400x128, .f32⟩
  | .local _ .vmem, ⟨37, _⟩ => ⟨S6400x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x384, .f32⟩
  | .local _ .vmem, ⟨43, _⟩ => ⟨S128x384, .f32⟩
  | .local _ .vmem, ⟨44, _⟩ => ⟨S1x384, .f32⟩
  | .local _ .vmem, ⟨45, _⟩ => ⟨S1x384, .f32⟩
  | .local _ .vmem, ⟨46, _⟩ => ⟨S2000x128, .f32⟩
  | .local _ .vmem, ⟨47, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_cst : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v30 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_cst_0 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_call4_c : Ref sig .tc := ⟨.hbm, 157, rfl⟩
abbrev main_call4_v0 : Ref sig .tc := ⟨.hbm, 158, rfl⟩
abbrev main_call4_v1 : Ref sig .tc := ⟨.hbm, 159, rfl⟩
abbrev main_call4_c_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_c_1 : Ref sig .tc := ⟨.hbm, 165, rfl⟩
abbrev main_call4_c_2 : Ref sig .tc := ⟨.hbm, 166, rfl⟩
abbrev main_call4_v6 : Ref sig .tc := ⟨.hbm, 167, rfl⟩
abbrev main_call4_v7 : Ref sig .tc := ⟨.hbm, 168, rfl⟩
abbrev main_call4_v8 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_c_3 : Ref sig .tc := ⟨.hbm, 173, rfl⟩
abbrev main_call4_v12 : Ref sig .tc := ⟨.hbm, 174, rfl⟩
abbrev main_call4_v13 : Ref sig .tc := ⟨.hbm, 175, rfl⟩
abbrev main_call4_v14 : Ref sig .tc := ⟨.hbm, 176, rfl⟩
abbrev main_call4_cst : Ref sig .tc := ⟨.hbm, 177, rfl⟩
abbrev main_call4_v15 : Ref sig .tc := ⟨.hbm, 178, rfl⟩
abbrev main_v56 : Ref sig .tc := ⟨.hbm, 179, rfl⟩
abbrev main_call5_c : Ref sig .tc := ⟨.hbm, 180, rfl⟩
abbrev main_call5_v0 : Ref sig .tc := ⟨.hbm, 181, rfl⟩
abbrev main_call5_v1 : Ref sig .tc := ⟨.hbm, 182, rfl⟩
abbrev main_call5_c_0 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_call5_v5 : Ref sig .tc := ⟨.hbm, 187, rfl⟩
abbrev main_call5_c_1 : Ref sig .tc := ⟨.hbm, 188, rfl⟩
abbrev main_call5_c_2 : Ref sig .tc := ⟨.hbm, 189, rfl⟩
abbrev main_call5_v6 : Ref sig .tc := ⟨.hbm, 190, rfl⟩
abbrev main_call5_v7 : Ref sig .tc := ⟨.hbm, 191, rfl⟩
abbrev main_call5_v8 : Ref sig .tc := ⟨.hbm, 192, rfl⟩
abbrev main_call5_v9 : Ref sig .tc := ⟨.hbm, 193, rfl⟩
abbrev main_call5_v10 : Ref sig .tc := ⟨.hbm, 194, rfl⟩
abbrev main_call5_v11 : Ref sig .tc := ⟨.hbm, 195, rfl⟩
abbrev main_call5_c_3 : Ref sig .tc := ⟨.hbm, 196, rfl⟩
abbrev main_call5_v12 : Ref sig .tc := ⟨.hbm, 197, rfl⟩
abbrev main_call5_v13 : Ref sig .tc := ⟨.hbm, 198, rfl⟩
abbrev main_call5_v14 : Ref sig .tc := ⟨.hbm, 199, rfl⟩
abbrev main_call5_cst : Ref sig .tc := ⟨.hbm, 200, rfl⟩
abbrev main_call5_v15 : Ref sig .tc := ⟨.hbm, 201, rfl⟩
abbrev main_v57 : Ref sig .tc := ⟨.hbm, 202, rfl⟩
abbrev main_v58 : Ref sig .tc := ⟨.hbm, 203, rfl⟩
abbrev main_v59 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_v63 : Ref sig .tc := ⟨.hbm, 208, rfl⟩
abbrev main_v64 : Ref sig .tc := ⟨.hbm, 209, rfl⟩
abbrev main_v65 : Ref sig .tc := ⟨.hbm, 210, rfl⟩
abbrev main_cst_1 : Ref sig .tc := ⟨.hbm, 211, rfl⟩
abbrev main_v66 : Ref sig .tc := ⟨.hbm, 212, rfl⟩
abbrev main_v67 : Ref sig .tc := ⟨.hbm, 213, rfl⟩
abbrev main_v68 : Ref sig .tc := ⟨.hbm, 214, rfl⟩
abbrev main_v69 : Ref sig .tc := ⟨.hbm, 215, rfl⟩
abbrev main_v70 : Ref sig .tc := ⟨.hbm, 216, rfl⟩
abbrev main_v71 : Ref sig .tc := ⟨.hbm, 217, rfl⟩
abbrev main_v72 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩
abbrev main_v76 : Ref sig .tc := ⟨.hbm, 222, rfl⟩
abbrev main_v77 : Ref sig .tc := ⟨.hbm, 223, rfl⟩
abbrev main_v78 : Ref sig .tc := ⟨.hbm, 224, rfl⟩
abbrev main_v79 : Ref sig .tc := ⟨.hbm, 225, rfl⟩
abbrev main_v80 : Ref sig .tc := ⟨.hbm, 226, rfl⟩
abbrev main_v81 : Ref sig .tc := ⟨.hbm, 227, rfl⟩
abbrev main_cst_2 : Ref sig .tc := ⟨.hbm, 228, rfl⟩
abbrev main_v82 : Ref sig .tc := ⟨.hbm, 229, rfl⟩
abbrev main_v83 : Ref sig .tc := ⟨.hbm, 230, rfl⟩
abbrev main_v84 : Ref sig .tc := ⟨.hbm, 231, rfl⟩
abbrev main_cst_3 : Ref sig .tc := ⟨.hbm, 232, rfl⟩
abbrev main_v85 : Ref sig .tc := ⟨.hbm, 233, rfl⟩
abbrev main_cst_4 : Ref sig .tc := ⟨.hbm, 234, rfl⟩
abbrev main_v86 : Ref sig .tc := ⟨.hbm, 235, rfl⟩
abbrev main_v87 : Ref sig .tc := ⟨.hbm, 236, rfl⟩
abbrev main_v88 : Ref sig .tc := ⟨.hbm, 237, rfl⟩
abbrev main_cst_5 : Ref sig .tc := ⟨.hbm, 238, rfl⟩
abbrev main_v89 : Ref sig .tc := ⟨.hbm, 239, rfl⟩
abbrev main_v90 : Ref sig .tc := ⟨.hbm, 240, rfl⟩
abbrev main_v91 : Ref sig .tc := ⟨.hbm, 241, rfl⟩
abbrev main_v92 : Ref sig .tc := ⟨.hbm, 242, rfl⟩
abbrev main_v93 : Ref sig .tc := ⟨.hbm, 243, rfl⟩
abbrev main_v94 : Ref sig .tc := ⟨.hbm, 244, rfl⟩
abbrev main_v95 : Ref sig .tc := ⟨.hbm, 245, rfl⟩
abbrev main_v96 : Ref sig .tc := ⟨.hbm, 246, rfl⟩
abbrev main_v97 : Ref sig .tc := ⟨.hbm, 247, rfl⟩
abbrev main_v98 : Ref sig .tc := ⟨.hbm, 248, rfl⟩
abbrev main_v99 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S6400x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  concatenates_S640000x128_S640000x128_S640000x256_d1 : Shape.Concatenates [S640000x128, S640000x128] S640000x256 1
  slices_S3x128x256_S1x128x256_0_0_0 : S3x128x256.Slices ![0, 0, 0] S1x128x256
  shapeCasts_S1x128x256_S128x256 : S1x128x256.ShapeCasts S128x256
  transposes_S128x256_S256x128_1_0 : S128x256.Transposes [1, 0] S256x128
  slices_S3x128_S1x128_0_0 : S3x128.Slices ![0, 0] S1x128
  shapeCasts_S1x128_S128 : S1x128.ShapeCasts S128
  shapeCasts_S128_S1x128 : S128.ShapeCasts S1x128
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  bcast_S_S20000x128 : S_.BroadcastsInDim S20000x128 (![] : Fin 0 → Fin S20000x128.rank)
  slices_S3x384x128_S1x384x128_0_0_0 : S3x384x128.Slices ![0, 0, 0] S1x384x128
  shapeCasts_S1x384x128_S384x128 : S1x384x128.ShapeCasts S384x128
  transposes_S384x128_S128x384_1_0 : S384x128.Transposes [1, 0] S128x384
  slices_S3x384_S1x384_0_0 : S3x384.Slices ![0, 0] S1x384
  shapeCasts_S1x384_S384 : S1x384.ShapeCasts S384
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S3x128x256_S1x128x256_1_0_0 : S3x128x256.Slices ![1, 0, 0] S1x128x256
  slices_S3x128_S1x128_1_0 : S3x128.Slices ![1, 0] S1x128
  slices_S3x384x128_S1x384x128_1_0_0 : S3x384x128.Slices ![1, 0, 0] S1x384x128
  slices_S3x384_S1x384_1_0 : S3x384.Slices ![1, 0] S1x384
  slices_S3x128x256_S1x128x256_2_0_0 : S3x128x256.Slices ![2, 0, 0] S1x128x256
  slices_S3x128_S1x128_2_0 : S3x128.Slices ![2, 0] S1x128
  slices_S3x384x128_S1x384x128_2_0_0 : S3x384x128.Slices ![2, 0, 0] S1x384x128
  slices_S3x384_S1x384_2_0 : S3x384.Slices ![2, 0] S1x384
  bcast_S_S128x128 : S_.BroadcastsInDim S128x128 (![] : Fin 0 → Fin S128x128.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S1x128_S128x1_1_0 : S1x128.Transposes [1, 0] S128x1
  bcast_S1x1_S128x1_0_1 : S1x1.BroadcastsInDim S128x1 (![0, 1] : Fin 2 → Fin S128x1.rank)
  shapeCasts_S128x1_S128 : S128x1.ShapeCasts S128
  gather_S20000x128_S640000x1_S640000x128_1_0_n_n_0_1_1128_wf : GatherDims.WF S20000x128 S640000x1 S640000x128 [1] [0] [] [0] [] 1 ![1, 128]
  dot_S6400x256_S256x128_S6400x128_1_0_0_1_n_n_wf : DotDims.WF S6400x256 S256x128 S6400x128 [1] [0] [0] [1] [] []
  scatter_S20000x128_S640000x1_S640000x128_1_0_0_1_wf : ScatterDims.WF S20000x128 S640000x1 S640000x128 [1] [0] [0] 1
  dot_S2000x128_S128x384_S2000x384_1_0_0_1_n_n_wf : DotDims.WF S2000x128 S128x384 S2000x384 [1] [0] [0] [1] [] []
  scatter_S128x128_S20000x1_S20000x128_1_0_0_1_wf : ScatterDims.WF S128x128 S20000x1 S20000x128 [1] [0] [0] 1
  scatter_S128_S20000x1_S20000_n_0_0_1_wf : ScatterDims.WF S128 S20000x1 S20000 [] [0] [0] 1
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S640000x256.size a
  hwx0_0 : ∀ i : grid0.Coords, EltTy.bits .f32 = 32 ∨ (Rect.block (s := S640000x256) S6400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S640000x128.size a
  hwx0_3 : ∀ i : grid0.Coords, EltTy.bits .f32 = 32 ∨ (Rect.block (s := S640000x128) S6400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x256.size a ≤ S640000x256.size a
  hwx2_0 : ∀ i : grid2.Coords, EltTy.bits .f32 = 32 ∨ (Rect.block (s := S640000x256) S6400x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6400x128.size a ≤ S640000x128.size a
  hwx2_3 : ∀ i : grid2.Coords, EltTy.bits .f32 = 32 ∨ (Rect.block (s := S640000x128) S6400x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S20000x128.size a
  hwx3_1 : ∀ i : grid3.Coords, EltTy.bits .f32 = 32 ∨ (Rect.block (s := S20000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S20000x128.size a
  hwx3_6 : ∀ i : grid3.Coords, EltTy.bits .f32 = 32 ∨ (Rect.block (s := S20000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x256.size a ≤ S640000x256.size a
  hwx4_0 : ∀ i : grid4.Coords, EltTy.bits .f32 = 32 ∨ (Rect.block (s := S640000x256) S6400x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6400x128.size a ≤ S640000x128.size a
  hwx4_3 : ∀ i : grid4.Coords, EltTy.bits .f32 = 32 ∨ (Rect.block (s := S640000x128) S6400x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S20000x128.size a
  hwx5_1 : ∀ i : grid5.Coords, EltTy.bits .f32 = 32 ∨ (Rect.block (s := S20000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S20000x128.size a
  hwx5_6 : ∀ i : grid5.Coords, EltTy.bits .f32 = 32 ∨ (Rect.block (s := S20000x128) S2000x128.size (cc5_transform_6 i) (hinb5_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def scatter_S128x128_S20000x1_S20000x128_1_0_0_1 : ScatterDims S128x128 S20000x1 S20000x128 where
  updateWindowDims := [1]
  insertedWindowDims := [0]
  scatterDimsToOperandDims := [0]
  indexVectorDim := 1
  wf := scatter_S128x128_S20000x1_S20000x128_1_0_0_1_wf
def scatter_S128_S20000x1_S20000_n_0_0_1 : ScatterDims S128 S20000x1 S20000 where
  updateWindowDims := []
  insertedWindowDims := [0]
  scatterDimsToOperandDims := [0]
  indexVectorDim := 1
  wf := scatter_S128_S20000x1_S20000_n_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_v6) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S6400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S6400x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S6400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v58) S6400x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S6400x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S20000 : Shape := ⟨1, ![20000]⟩
abbrev S3x128x256 : Shape := ⟨3, ![3, 128, 256]⟩
abbrev S3x128 : Shape := ⟨2, ![3, 128]⟩
abbrev S3x384x128 : Shape := ⟨3, ![3, 384, 128]⟩
abbrev S3x384 : Shape := ⟨2, ![3, 384]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128x256 : Shape := ⟨3, ![1, 128, 256]⟩
abbrev S128x256 : Shape := ⟨2, ![128, 256]⟩
abbrev S256x128 : Shape := ⟨2, ![256, 128]⟩
abbrev S128 : Shape := ⟨1, ![128]⟩
abbrev S1x384x128 : Shape := ⟨3, ![1, 384, 128]⟩
abbrev S384x128 : Shape := ⟨2, ![384, 128]⟩
abbrev S1x384 : Shape := ⟨2, ![1, 384]⟩
abbrev S384 : Shape := ⟨1, ![384]⟩
abbrev S128x384 : Shape := ⟨2, ![128, 384]⟩
abbrev S20000x384 : Shape := ⟨2, ![20000, 384]⟩
abbrev S128x128 : Shape := ⟨2, ![128, 128]⟩
abbrev S20000x1 : Shape := ⟨2, ![20000, 1]⟩
abbrev S128x1 : Shape := ⟨2, ![128, 1]⟩
abbrev S1x1 : Shape := ⟨2, ![1, 1]⟩

abbrev nBuf : Space → Nat
  | .hbm => 295
  | .vmem => 0
  | .smem => 0
  | _ => 0

abbrev hbmTy0_0 (i : Nat) : BufTy := match i % 128 with
  | 0 => ⟨S20000x128, .f32⟩
  | 1 => ⟨S2x640000, .i32⟩
  | 2 => ⟨S20000, .i32⟩
  | 3 => ⟨S3x128x256, .f32⟩
  | 4 => ⟨S3x128, .f32⟩
  | 5 => ⟨S3x384x128, .f32⟩
  | 6 => ⟨S3x384x128, .f32⟩
  | 7 => ⟨S3x384, .f32⟩
  | 8 => ⟨S3x384, .f32⟩
  | 9 => ⟨S1x128, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S640000x256, .f32⟩
  | 34 => ⟨S1x128x256, .f32⟩
  | 35 => ⟨S128x256, .f32⟩
  | 36 => ⟨S256x128, .f32⟩
  | 37 => ⟨S640000x128, .f32⟩
  | 38 => ⟨S1x128, .f32⟩
  | 39 => ⟨S128, .f32⟩
  | 40 => ⟨S1x128, .f32⟩
  | 41 => ⟨S640000x128, .f32⟩
  | 42 => ⟨S640000x128, .f32⟩
  | 43 => ⟨S_, .f32⟩
  | 44 => ⟨S640000x128, .f32⟩
  | 45 => ⟨S640000x128, .f32⟩
  | 46 => ⟨S_, .f32⟩
  | 47 => ⟨S20000x128, .f32⟩
  | 48 => ⟨S640000x1, .i32⟩
  | 49 => ⟨S20000x128, .f32⟩
  | 50 => ⟨S1x384x128, .f32⟩
  | 51 => ⟨S384x128, .f32⟩
  | 52 => ⟨S1x384x128, .f32⟩
  | 53 => ⟨S384x128, .f32⟩
  | 54 => ⟨S1x384, .f32⟩
  | 55 => ⟨S384, .f32⟩
  | 56 => ⟨S1x384, .f32⟩
  | 57 => ⟨S384, .f32⟩
  | 58 => ⟨S128x384, .f32⟩
  | 59 => ⟨S20000x384, .f32⟩
  | 60 => ⟨S1x384, .f32⟩
  | 61 => ⟨S20000x384, .f32⟩
  | 62 => ⟨S20000x384, .f32⟩
  | 63 => ⟨S128x384, .f32⟩
  | 64 => ⟨S20000x384, .f32⟩
  | 65 => ⟨S1x384, .f32⟩
  | 66 => ⟨S20000x384, .f32⟩
  | 67 => ⟨S20000x384, .f32⟩
  | 68 => ⟨S20000x128, .f32⟩
  | 69 => ⟨S20000x128, .f32⟩
  | 70 => ⟨S20000x128, .f32⟩
  | 71 => ⟨S20000x128, .f32⟩
  | 72 => ⟨S20000x128, .f32⟩
  | 73 => ⟨S20000x128, .f32⟩
  | 74 => ⟨S20000x128, .f32⟩
  | 75 => ⟨S20000x128, .f32⟩
  | 76 => ⟨S20000x128, .f32⟩
  | 77 => ⟨S_, .f32⟩
  | 78 => ⟨S20000x128, .f32⟩
  | 79 => ⟨S20000x128, .f32⟩
  | 80 => ⟨S_, .f32⟩
  | 81 => ⟨S20000x128, .f32⟩
  | 82 => ⟨S20000x128, .f32⟩
  | 83 => ⟨S20000x128, .f32⟩
  | 84 => ⟨S20000x128, .f32⟩
  | 85 => ⟨S20000x128, .f32⟩
  | 86 => ⟨S_, .f32⟩
  | 87 => ⟨S20000x128, .f32⟩
  | 88 => ⟨S20000x128, .f32⟩
  | 89 => ⟨S_, .f32⟩
  | 90 => ⟨S20000x128, .f32⟩
  | 91 => ⟨S20000x128, .f32⟩
  | 92 => ⟨S20000x128, .f32⟩
  | 93 => ⟨S20000x128, .f32⟩
  | 94 => ⟨S20000x128, .f32⟩
  | 95 => ⟨S_, .f32⟩
  | 96 => ⟨S20000x128, .f32⟩
  | 97 => ⟨S20000x128, .f32⟩
  | 98 => ⟨S20000x128, .f32⟩
  | 99 => ⟨S20000x128, .f32⟩
  | 100 => ⟨S20000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S_, .i32⟩
  | 111 => ⟨S640000, .i32⟩
  | 112 => ⟨S640000, .i1⟩
  | 113 => ⟨S_, .i32⟩
  | 114 => ⟨S640000, .i32⟩
  | 115 => ⟨S640000, .i32⟩
  | 116 => ⟨S640000, .i32⟩
  | 117 => ⟨S640000x1, .i32⟩
  | 118 => ⟨S640000x128, .f32⟩
  | 119 => ⟨S640000x256, .f32⟩
  | 120 => ⟨S1x128x256, .f32⟩
  | 121 => ⟨S128x256, .f32⟩
  | 122 => ⟨S256x128, .f32⟩
  | 123 => ⟨S640000x128, .f32⟩
  | 124 => ⟨S1x128, .f32⟩
  | 125 => ⟨S128, .f32⟩
  | 126 => ⟨S1x128, .f32⟩
  | 127 => ⟨S640000x128, .f32⟩
  | _ => ⟨S20000x128, .f32⟩

abbrev hbmTy0_1 (i : Nat) : BufTy := match i % 128 with
  | 0 => ⟨S640000x128, .f32⟩
  | 1 => ⟨S_, .f32⟩
  | 2 => ⟨S640000x128, .f32⟩
  | 3 => ⟨S640000x128, .f32⟩
  | 4 => ⟨S_, .f32⟩
  | 5 => ⟨S20000x128, .f32⟩
  | 6 => ⟨S640000x1, .i32⟩
  | 7 => ⟨S20000x128, .f32⟩
  | 8 => ⟨S1x384x128, .f32⟩
  | 9 => ⟨S384x128, .f32⟩
  | 10 => ⟨S1x384x128, .f32⟩
  | 11 => ⟨S384x128, .f32⟩
  | 12 => ⟨S1x384, .f32⟩
  | 13 => ⟨S384, .f32⟩
  | 14 => ⟨S1x384, .f32⟩
  | 15 => ⟨S384, .f32⟩
  | 16 => ⟨S128x384, .f32⟩
  | 17 => ⟨S20000x384, .f32⟩
  | 18 => ⟨S1x384, .f32⟩
  | 19 => ⟨S20000x384, .f32⟩
  | 20 => ⟨S20000x384, .f32⟩
  | 21 => ⟨S128x384, .f32⟩
  | 22 => ⟨S20000x384, .f32⟩
  | 23 => ⟨S1x384, .f32⟩
  | 24 => ⟨S20000x384, .f32⟩
  | 25 => ⟨S20000x384, .f32⟩
  | 26 => ⟨S20000x128, .f32⟩
  | 27 => ⟨S20000x128, .f32⟩
  | 28 => ⟨S20000x128, .f32⟩
  | 29 => ⟨S20000x128, .f32⟩
  | 30 => ⟨S20000x128, .f32⟩
  | 31 => ⟨S20000x128, .f32⟩
  | 32 => ⟨S20000x128, .f32⟩
  | 33 => ⟨S20000x128, .f32⟩
  | 34 => ⟨S20000x128, .f32⟩
  | 35 => ⟨S_, .f32⟩
  | 36 => ⟨S20000x128, .f32⟩
  | 37 => ⟨S20000x128, .f32⟩
  | 38 => ⟨S_, .f32⟩
  | 39 => ⟨S20000x128, .f32⟩
  | 40 => ⟨S20000x128, .f32⟩
  | 41 => ⟨S20000x128, .f32⟩
  | 42 => ⟨S20000x128, .f32⟩
  | 43 => ⟨S20000x128, .f32⟩
  | 44 => ⟨S_, .f32⟩
  | 45 => ⟨S20000x128, .f32⟩
  | 46 => ⟨S20000x128, .f32⟩
  | 47 => ⟨S_, .f32⟩
  | 48 => ⟨S20000x128, .f32⟩
  | 49 => ⟨S20000x128, .f32⟩
  | 50 => ⟨S20000x128, .f32⟩
  | 51 => ⟨S20000x128, .f32⟩
  | 52 => ⟨S20000x128, .f32⟩
  | 53 => ⟨S_, .f32⟩
  | 54 => ⟨S20000x128, .f32⟩
  | 55 => ⟨S20000x128, .f32⟩
  | 56 => ⟨S20000x128, .f32⟩
  | 57 => ⟨S20000x128, .f32⟩
  | 58 => ⟨S20000x128, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S640000x128, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x128, .f32⟩
  | 77 => ⟨S640000x256, .f32⟩
  | 78 => ⟨S1x128x256, .f32⟩
  | 79 => ⟨S128x256, .f32⟩
  | 80 => ⟨S256x128, .f32⟩
  | 81 => ⟨S640000x128, .f32⟩
  | 82 => ⟨S1x128, .f32⟩
  | 83 => ⟨S128, .f32⟩
  | 84 => ⟨S1x128, .f32⟩
  | 85 => ⟨S640000x128, .f32⟩
  | 86 => ⟨S640000x128, .f32⟩
  | 87 => ⟨S_, .f32⟩
  | 88 => ⟨S640000x128, .f32⟩
  | 89 => ⟨S640000x128, .f32⟩
  | 90 => ⟨S_, .f32⟩
  | 91 => ⟨S20000x128, .f32⟩
  | 92 => ⟨S640000x1, .i32⟩
  | 93 => ⟨S20000x128, .f32⟩
  | 94 => ⟨S1x384x128, .f32⟩
  | 95 => ⟨S384x128, .f32⟩
  | 96 => ⟨S1x384x128, .f32⟩
  | 97 => ⟨S384x128, .f32⟩
  | 98 => ⟨S1x384, .f32⟩
  | 99 => ⟨S384, .f32⟩
  | 100 => ⟨S1x384, .f32⟩
  | 101 => ⟨S384, .f32⟩
  | 102 => ⟨S128x384, .f32⟩
  | 103 => ⟨S20000x384, .f32⟩
  | 104 => ⟨S1x384, .f32⟩
  | 105 => ⟨S20000x384, .f32⟩
  | 106 => ⟨S20000x384, .f32⟩
  | 107 => ⟨S128x384, .f32⟩
  | 108 => ⟨S20000x384, .f32⟩
  | 109 => ⟨S1x384, .f32⟩
  | 110 => ⟨S20000x384, .f32⟩
  | 111 => ⟨S20000x384, .f32⟩
  | 112 => ⟨S20000x128, .f32⟩
  | 113 => ⟨S20000x128, .f32⟩
  | 114 => ⟨S20000x128, .f32⟩
  | 115 => ⟨S20000x128, .f32⟩
  | 116 => ⟨S20000x128, .f32⟩
  | 117 => ⟨S20000x128, .f32⟩
  | 118 => ⟨S20000x128, .f32⟩
  | 119 => ⟨S20000x128, .f32⟩
  | 120 => ⟨S20000x128, .f32⟩
  | 121 => ⟨S_, .f32⟩
  | 122 => ⟨S20000x128, .f32⟩
  | 123 => ⟨S20000x128, .f32⟩
  | 124 => ⟨S_, .f32⟩
  | 125 => ⟨S20000x128, .f32⟩
  | 126 => ⟨S20000x128, .f32⟩
  | 127 => ⟨S20000x128, .f32⟩
  | _ => ⟨S20000x128, .f32⟩

abbrev hbmTy0_2 (i : Nat) : BufTy := match i % 128 with
  | 0 => ⟨S20000x128, .f32⟩
  | 1 => ⟨S20000x128, .f32⟩
  | 2 => ⟨S_, .f32⟩
  | 3 => ⟨S20000x128, .f32⟩
  | 4 => ⟨S20000x128, .f32⟩
  | 5 => ⟨S_, .f32⟩
  | 6 => ⟨S20000x128, .f32⟩
  | 7 => ⟨S20000x128, .f32⟩
  | 8 => ⟨S20000x128, .f32⟩
  | 9 => ⟨S20000x128, .f32⟩
  | 10 => ⟨S20000x128, .f32⟩
  | 11 => ⟨S_, .f32⟩
  | 12 => ⟨S20000x128, .f32⟩
  | 13 => ⟨S20000x128, .f32⟩
  | 14 => ⟨S20000x128, .f32⟩
  | 15 => ⟨S20000x128, .f32⟩
  | 16 => ⟨S20000x128, .f32⟩
  | 17 => ⟨S_, .f32⟩
  | 18 => ⟨S128x128, .f32⟩
  | 19 => ⟨S20000x1, .i32⟩
  | 20 => ⟨S128x128, .f32⟩
  | 21 => ⟨S_, .f32⟩
  | 22 => ⟨S20000, .f32⟩
  | 23 => ⟨S_, .f32⟩
  | 24 => ⟨S128, .f32⟩
  | 25 => ⟨S20000x1, .i32⟩
  | 26 => ⟨S128, .f32⟩
  | 27 => ⟨S_, .f32⟩
  | 28 => ⟨S128, .f32⟩
  | 29 => ⟨S128, .f32⟩
  | 30 => ⟨S128x1, .f32⟩
  | 31 => ⟨S128x128, .f32⟩
  | 32 => ⟨S128x128, .f32⟩
  | 33 => ⟨S128x1, .f32⟩
  | 34 => ⟨S128x1, .f32⟩
  | 35 => ⟨S1x1, .f32⟩
  | 36 => ⟨S128x1, .f32⟩
  | 37 => ⟨S128x1, .f32⟩
  | 38 => ⟨S128, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_3 : Ref sig .tc := ⟨.hbm, 77, rfl⟩
abbrev main_v59 : Ref sig .tc := ⟨.hbm, 78, rfl⟩
abbrev main_v60 : Ref sig .tc := ⟨.hbm, 79, rfl⟩
abbrev main_cst_4 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_5 : Ref sig .tc := ⟨.hbm, 86, rfl⟩
abbrev main_v66 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_8 : Ref sig .tc := ⟨.hbm, 101, rfl⟩
abbrev main_v78 : Ref sig .tc := ⟨.hbm, 102, rfl⟩
abbrev main_v79 : Ref sig .tc := ⟨.hbm, 103, rfl⟩
abbrev main_c_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_10 : Ref sig .tc := ⟨.hbm, 110, rfl⟩
abbrev main_v85 : Ref sig .tc := ⟨.hbm, 111, rfl⟩
abbrev main_v86 : Ref sig .tc := ⟨.hbm, 112, rfl⟩
abbrev main_c_11 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_call1_cst : Ref sig .tc := ⟨.hbm, 129, rfl⟩
abbrev main_call1_v0 : Ref sig .tc := ⟨.hbm, 130, rfl⟩
abbrev main_v102 : Ref sig .tc := ⟨.hbm, 131, rfl⟩
abbrev main_cst_12 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_13 : Ref sig .tc := ⟨.hbm, 163, rfl⟩
abbrev main_v133 : Ref sig .tc := ⟨.hbm, 164, rfl⟩
abbrev main_v134 : Ref sig .tc := ⟨.hbm, 165, rfl⟩
abbrev main_cst_14 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_15 : Ref sig .tc := ⟨.hbm, 172, rfl⟩
abbrev main_v140 : Ref sig .tc := ⟨.hbm, 173, rfl⟩
abbrev main_v141 : Ref sig .tc := ⟨.hbm, 174, rfl⟩
abbrev main_cst_16 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_17 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_c_18 : Ref sig .tc := ⟨.hbm, 187, rfl⟩
abbrev main_v152 : Ref sig .tc := ⟨.hbm, 188, rfl⟩
abbrev main_v153 : Ref sig .tc := ⟨.hbm, 189, rfl⟩
abbrev main_c_19 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_c_20 : Ref sig .tc := ⟨.hbm, 196, rfl⟩
abbrev main_v159 : Ref sig .tc := ⟨.hbm, 197, rfl⟩
abbrev main_v160 : Ref sig .tc := ⟨.hbm, 198, rfl⟩
abbrev main_c_21 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_call2_cst : Ref sig .tc := ⟨.hbm, 215, rfl⟩
abbrev main_call2_v0 : Ref sig .tc := ⟨.hbm, 216, rfl⟩
abbrev main_v176 : Ref sig .tc := ⟨.hbm, 217, rfl⟩
abbrev main_cst_22 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_cst_23 : Ref sig .tc := ⟨.hbm, 249, rfl⟩
abbrev main_v207 : Ref sig .tc := ⟨.hbm, 250, rfl⟩
abbrev main_v208 : Ref sig .tc := ⟨.hbm, 251, rfl⟩
abbrev main_cst_24 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_cst_25 : Ref sig .tc := ⟨.hbm, 258, rfl⟩
abbrev main_v214 : Ref sig .tc := ⟨.hbm, 259, rfl⟩
abbrev main_v215 : Ref sig .tc := ⟨.hbm, 260, rfl⟩
abbrev main_cst_26 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_cst_27 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_cst_28 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_cst_29 : Ref sig .tc := ⟨.hbm, 277, rfl⟩
abbrev main_v229 : Ref sig .tc := ⟨.hbm, 278, rfl⟩
abbrev main_cst_30 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_cst_31 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  slices_S3x128x256_S1x128x256_0_0_0 : S3x128x256.Slices ![0, 0, 0] S1x128x256
  shapeCasts_S1x128x256_S128x256 : S1x128x256.ShapeCasts S128x256
  transposes_S128x256_S256x128_1_0 : S128x256.Transposes [1, 0] S256x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S20000x128 : S_.BroadcastsInDim S20000x128 (![] : Fin 0 → Fin S20000x128.rank)
  slices_S3x384x128_S1x384x128_0_0_0 : S3x384x128.Slices ![0, 0, 0] S1x384x128
  shapeCasts_S1x384x128_S384x128 : S1x384x128.ShapeCasts S384x128
  slices_S3x384_S1x384_0_0 : S3x384.Slices ![0, 0] S1x384
  shapeCasts_S1x384_S384 : S1x384.ShapeCasts S384
  transposes_S384x128_S128x384_1_0 : S384x128.Transposes [1, 0] S128x384
  bcast_S384_S1x384_1 : S384.BroadcastsInDim S1x384 (![1] : Fin 1 → Fin S1x384.rank)
  bcast_S1x384_S20000x384_0_1 : S1x384.BroadcastsInDim S20000x384 (![0, 1] : Fin 2 → Fin S20000x384.rank)
  slices_S20000x384_S20000x128_0_0 : S20000x384.Slices ![0, 0] S20000x128
  slices_S20000x384_S20000x128_0_128 : S20000x384.Slices ![0, 128] S20000x128
  slices_S20000x384_S20000x128_0_256 : S20000x384.Slices ![0, 256] S20000x128
  slices_S3x128x256_S1x128x256_1_0_0 : S3x128x256.Slices ![1, 0, 0] S1x128x256
  slices_S3x128_S1x128_1_0 : S3x128.Slices ![1, 0] S1x128
  slices_S3x384x128_S1x384x128_1_0_0 : S3x384x128.Slices ![1, 0, 0] S1x384x128
  slices_S3x384_S1x384_1_0 : S3x384.Slices ![1, 0] S1x384
  slices_S3x128x256_S1x128x256_2_0_0 : S3x128x256.Slices ![2, 0, 0] S1x128x256
  slices_S3x128_S1x128_2_0 : S3x128.Slices ![2, 0] S1x128
  slices_S3x384x128_S1x384x128_2_0_0 : S3x384x128.Slices ![2, 0, 0] S1x384x128
  slices_S3x384_S1x384_2_0 : S3x384.Slices ![2, 0] S1x384
  bcast_S_S128x128 : S_.BroadcastsInDim S128x128 (![] : Fin 0 → Fin S128x128.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S1x128_S128x1_1_0 : S1x128.Transposes [1, 0] S128x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S20000x128_S640000x1_S640000x128_1_0_n_n_0_1_1128_wf : GatherDims.WF S20000x128 S640000x1 S640000x128 [1] [0] [] [0] [] 1 ![1, 128]
  dot_S640000x256_S256x128_S640000x128_1_0_0_1_n_n_wf : DotDims.WF S640000x256 S256x128 S640000x128 [1] [0] [0] [1] [] []
  scatter_S20000x128_S640000x1_S640000x128_1_0_0_1_wf : ScatterDims.WF S20000x128 S640000x1 S640000x128 [1] [0] [0] 1
  dot_S20000x128_S128x384_S20000x384_1_0_0_1_n_n_wf : DotDims.WF S20000x128 S128x384 S20000x384 [1] [0] [0] [1] [] []
  scatter_S128x128_S20000x1_S20000x128_1_0_0_1_wf : ScatterDims.WF S128x128 S20000x1 S20000x128 [1] [0] [0] 1
  scatter_S128_S20000x1_S20000_n_0_0_1_wf : ScatterDims.WF S128 S20000x1 S20000 [] [0] [0] 1
  dot_S128x128_S128x1_S128x1_1_0_0_1_n_n_wf : DotDims.WF S128x128 S128x1 S128x1 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x384_S20000x384_1_0_0_1_n_n : DotDims S20000x128 S128x384 S20000x384 where
  lhsContracting := [1]
  rhsContracting := [0]
  lhsNonContracting := [0]
  rhsNonContracting := [1]
  lhsBatch := []
  rhsBatch := []
  wf := dot_S20000x128_S128x384_S20000x384_1_0_0_1_n_n_wf
def scatter_S128x128_S20000x1_S20000x128_1_0_0_1 : ScatterDims S128x128 S20000x1 S20000x128 where
  updateWindowDims := [1]
  insertedWindowDims := [0]
  scatterDimsToOperandDims := [0]
  indexVectorDim := 1
  wf := scatter_S128x128_S20000x1_S20000x128_1_0_0_1_wf
def scatter_S128_S20000x1_S20000_n_0_0_1 : ScatterDims S128 S20000x1 S20000 where
  updateWindowDims := []
  insertedWindowDims := [0]
  scatterDimsToOperandDims := [0]
  indexVectorDim := 1
  wf := scatter_S128_S20000x1_S20000_n_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.Spec.lean ====
/-
  The mathematics both programs compute, stated once, index by index, on the extended reals.

  A message-passing layer has two dense pieces.
  * The message map: every edge's 256 gathered features (source row then target row) go through one
    affine map 256 → 128 and a rectifier: entry (e, d) is max (∑ₖ c(e,k)·w(k,d) + b(d)) 0.
  * The gated recurrent update of the 128 node features h from the aggregated messages a: with the two
    affine maps 128 → 384, gi = a·Wih + bih and gh = h·Whh + bhh, cut in three bands of 128 columns,
      r = σ(gi₀ + gh₀),  z = σ(gi₁ + gh₁),  n = tanh(gi₂ + r·gh₂),  h' = (1 − z)·n + z·h,
    where σ x = 1 / (1 + e⁻ˣ).
  Neither formula depends on how the rows are tiled, on the order of a sum, or on a change of float
  format, so a blocked product on rounded operands and one whole product are the same function here.
-/
import Idealize.ShloMosaic.PureOps.Ideal
import Idealize.ShloMosaic.PureOps.Ideal.Laws
import Idealize.ShloMosaic.Lib.ValueIdx

noncomputable section

namespace Cert.GnnSpec

open Idealize.ShloMosaic Idealize.ShloMosaic.ValueIdx

/-- Every endpoint of every edge is a node: an index in 0 … 19999 (read as a signed word). -/
def InRange (a1 : IVec ⟨2, ![2, 640000]⟩ 32) : Prop := ∀ i, 0 ≤ (a1 i).toInt ∧ (a1 i).toInt < 20000

/-- A bias kept as a one-row matrix, read as the vector it is. -/
def row0 {n : Nat} (v : FVec Ideal ⟨2, ![1, n]⟩ .f32) : FVec Ideal ⟨1, ![n]⟩ .f32 := fun j => v (ix2 0 (j 0))

/-- Entry (e, d) of the messages: the affine map 256 → 128 on edge `e`'s gathered features, then the
    rectifier. -/
def msgE {R : Nat} (c : FVec Ideal ⟨2, ![R, 256]⟩ .f32) (w : FVec Ideal ⟨2, ![256, 128]⟩ .f32)
    (b : FVec Ideal ⟨1, ![128]⟩ .f32) (e : Fin R) (d : Fin 128) : EReal :=
  max ((∑ k : Fin 256, c (ix2 e k) * w (ix2 k d)) + b (ix1 d)) (Ideal.ofBits .f32 0x00000000#32)

/-- The messages as an array over (edge, feature). -/
def msgG {R : Nat} (c : FVec Ideal ⟨2, ![R, 256]⟩ .f32) (w : FVec Ideal ⟨2, ![256, 128]⟩ .f32)
    (b : FVec Ideal ⟨1, ![128]⟩ .f32) : FVec Ideal ⟨2, ![R, 128]⟩ .f32 :=
  fun i => msgE c w b (i 0) (i 1)

theorem msgG_ix2 {R : Nat} (c : FVec Ideal ⟨2, ![R, 256]⟩ .f32) (w : FVec Ideal ⟨2, ![256, 128]⟩ .f32)
    (b : FVec Ideal ⟨1, ![128]⟩ .f32) (e : Fin R) (d : Fin 128) : msgG c w b (ix2 e d) = msgE c w b e d := rfl

/-- Column `j` of the affine map 128 → 384 on row `n`: ∑ₖ a(n,k)·W(k,j) + bias(j). -/
def gate {R : Nat} (a : FVec Ideal ⟨2, ![R, 128]⟩ .f32) (W : FVec Ideal ⟨2, ![128, 384]⟩ .f32)
    (bias : FVec Ideal ⟨1, ![384]⟩ .f32) (n : Fin R) (j : Fin 384) : EReal :=
  (∑ k : Fin 128, a (ix2 n k) * W (ix2 k j)) + bias (ix1 j)

/-- Column `d` of band `q` (0, 1 or 2) of the 384 gate columns. -/
def band (q : Nat) (hq : q < 3) (d : Fin 128) : Fin 384 := ⟨q * 128 + d.val, by have := d.isLt; omega⟩

/-- Entry (n, d) of the gated recurrent update from the aggregated messages `a`, the old features `h`
    and the two affine maps. -/
def gruE {R : Nat} (a h : FVec Ideal ⟨2, ![R, 128]⟩ .f32) (Wih Whh : FVec Ideal ⟨2, ![128, 384]⟩ .f32)
    (bih bhh : FVec Ideal ⟨1, ![384]⟩ .f32) (n : Fin R) (d : Fin 128) : EReal :=
  (Ideal.ofBits .f32 0x3F800000#32
      - Ideal.logistic (gate a Wih bih n (band 1 (by omega) d) + gate h Whh bhh n (band 1 (by omega) d)))
    * Ideal.tanh (gate a Wih bih n (band 2 (by omega) d)
        + Ideal.logistic (gate a Wih bih n (band 0 (by omega) d) + gate h Whh bhh n (band 0 (by omega) d))
          * gate h Whh bhh n (band 2 (by omega) d))
  + Ideal.logistic (gate a Wih bih n (band 1 (by omega) d) + gate h Whh bhh n (band 1 (by omega) d)) * h (ix2 n d)

/-- The update as an array over (node, feature). -/
def gruG {R : Nat} (a h : FVec Ideal ⟨2, ![R, 128]⟩ .f32) (Wih Whh : FVec Ideal ⟨2, ![128, 384]⟩ .f32)
    (bih bhh : FVec Ideal ⟨1, ![384]⟩ .f32) : FVec Ideal ⟨2, ![R, 128]⟩ .f32 :=
  fun i => gruE a h Wih Whh bih bhh (i 0) (i 1)

theorem gruG_ix2 {R : Nat} (a h : FVec Ideal ⟨2, ![R, 128]⟩ .f32) (Wih Whh : FVec Ideal ⟨2, ![128, 384]⟩ .f32)
    (bih bhh : FVec Ideal ⟨1, ![384]⟩ .f32) (n : Fin R) (d : Fin 128) :
    gruG a h Wih Whh bih bhh (ix2 n d) = gruE a h Wih Whh bih bhh n d := rfl

/-- The message map row by row: row `r` of a block of rows is row `off + r` of the whole. -/
theorem msgE_rows {R B : Nat} (off : Nat) (c : FVec Ideal ⟨2, ![R, 256]⟩ .f32)
    (w : FVec Ideal ⟨2, ![256, 128]⟩ .f32) (b : FVec Ideal ⟨1, ![128]⟩ .f32)
    (cb : FVec Ideal ⟨2, ![B, 256]⟩ .f32) (r : Fin B) (hr : off + r.val < R)
    (hcb : ∀ k : Fin 256, cb (ix2 r k) = c (ix2 ⟨off + r.val, hr⟩ k)) (d : Fin 128) :
    msgE cb w b r d = msgE c w b ⟨off + r.val, hr⟩ d := by
  unfold msgE
  simp only [hcb]

/-- The update row by row: row `r` of a block of rows is row `off + r` of the whole. -/
theorem gruE_rows {R B : Nat} (off : Nat) (a h : FVec Ideal ⟨2, ![R, 128]⟩ .f32)
    (Wih Whh : FVec Ideal ⟨2, ![128, 384]⟩ .f32) (bih bhh : FVec Ideal ⟨1, ![384]⟩ .f32)
    (ab hb : FVec Ideal ⟨2, ![B, 128]⟩ .f32) (r : Fin B) (hr : off + r.val < R)
    (hab : ∀ k : Fin 128, ab (ix2 r k) = a (ix2 ⟨off + r.val, hr⟩ k))
    (hhb : ∀ k : Fin 128, hb (ix2 r k) = h (ix2 ⟨off + r.val, hr⟩ k)) (d : Fin 128) :
    gruE ab hb Wih Whh bih bhh r d = gruE a h Wih Whh bih bhh ⟨off + r.val, hr⟩ d := by
  unfold gruE gate
  simp only [hab, hhb]

end Cert.GnnSpec

end
-- ==== Proof.KDefs.lean ====
/-
  The kernel program's host side as pure functions of the argument arrays at the ideal instance: the
  edge endpoints, the row gather as this program spells it, each layer's parameters cut out of the
  stacked parameter arrays, the sum of the messages at their source nodes, one layer (the message
  map and the gated update of Spec.lean around the gather and the sum), the mean pooling with the
  linear read-out, and the whole network: three layers, then the read-out.
-/
import proofs.«413579_j91036126806070_1_alg».proof.KernelIdeal
import proofs.«413579_j91036126806070_1_alg».proof.Proof.Gen.KernelIdeal
import proofs.«413579_j91036126806070_1_alg».proof.Proof.Spec

noncomputable section

namespace Cert.KernelIdeal.Hand

open Cert.KernelIdeal Cert.KernelIdeal.Facts₀ Cert.KernelIdeal.Facts Idealize.ShloMosaic Idealize.ShloMosaic.ValueIdx

/-- The source (row 0) and target (row 1) node of every edge. -/
def rowK (a1 : IVec S2x640000 32) : IVec S640000 32 :=
  shapeCast S640000 (extractStridedSlice S1x640000 ![0, 0] a1 slices_S2x640000_S1x640000_0_0) shapeCasts_S1x640000_S640000
def colK (a1 : IVec S2x640000 32) : IVec S640000 32 :=
  shapeCast S640000 (extractStridedSlice S1x640000 ![1, 0] a1 slices_S2x640000_S1x640000_1_0) shapeCasts_S1x640000_S640000

/-- A negative index counts from the end: `i + 20000` where `i < 0`, else `i`. -/
def wrapK (idx : IVec S640000 32) : IVec S640000 32 :=
  select (cmpi .slt idx (broadcastInDim S640000 ![] bcast_S_S640000 (constantI S_ 32 0#32)))
    (addi idx (broadcastInDim S640000 ![] bcast_S_S640000 (constantI S_ 32 20000#32))) idx
/-- The wrapped indices as a column. -/
def idx1K (idx : IVec S640000 32) : IVec S640000x1 32 :=
  broadcastInDim S640000x1 ![0] bcast_S640000_S640000x1_0 (wrapK idx)
def inRangeK (idx : IVec S640000 32) : IVec S640000 1 :=
  Host.reduce IntOp.andi
    (andi (cmpi .sge (idx1K idx) (broadcastInDim S640000x1 ![] bcast_S_S640000x1 (constantI S_ 32 0#32)))
      (cmpi .sle (idx1K idx) (broadcastInDim S640000x1 ![0, 1] bcast_S1x1_S640000x1_0_1 (broadcastInDim S1x1 ![1] bcast_S1_S1x1_1 (constantI S1 32 19999#32)))))
    (constantI S_ 1 1#1) reducesTo_S640000x1_S640000_d1 h_S_
/-- Rows of `x` at the (wrapped) indices as this program reads them: a row whose wrapped index is outside
    0 … 19999 is filled with the not-a-number pattern, every other row is the gathered one. -/
def takeK (x : FVec Ideal S20000x128 .f32) (idx : IVec S640000 32) : FVec Ideal S640000x128 .f32 :=
  select (broadcastInDim S640000x128 ![0] bcast_S640000_S640000x128_0 (inRangeK idx))
    (Host.gather gather_S20000x128_S640000x1_S640000x128_1_0_n_n_0_1_1128 x (idx1K idx))
    (broadcastInDim S640000x128 ![] bcast_S_S640000x128 (constant (F := Ideal) S_ .f32 0x7FC00000#32))

/-- Every edge's 256 features: its source node's row, then its target node's row. -/
def catK (x : FVec Ideal S20000x128 .f32) (row col : IVec S640000 32) : FVec Ideal S640000x256 .f32 :=
  concatenate S640000x256 1 [⟨S640000x128, takeK x row⟩, ⟨S640000x128, takeK x col⟩] concatenates_S640000x128_S640000x128_S640000x256_d1

/-- The messages summed at their source nodes (a message whose source index is out of range is dropped). -/
def aggK (row : IVec S640000 32) (msgs : FVec Ideal S640000x128 .f32) : FVec Ideal S20000x128 .f32 :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 row) msgs

/-- Layer 0's parameters, cut out of the stacked arrays (the weights transposed to input-major). -/
def wt0K (a3 : FVec Ideal S3x128x256 .f32) : FVec Ideal S256x128 .f32 :=
  transpose S256x128 [1, 0] (shapeCast S128x256 (extractStridedSlice S1x128x256 ![0, 0, 0] a3 slices_S3x128x256_S1x128x256_0_0_0) shapeCasts_S1x128x256_S128x256) transposes_S128x256_S256x128_1_0
def b0K (a4 : FVec Ideal S3x128 .f32) : FVec Ideal S128 .f32 :=
  shapeCast S128 (extractStridedSlice S1x128 ![0, 0] a4 slices_S3x128_S1x128_0_0) shapeCasts_S1x128_S128
def wih0K (a5 : FVec Ideal S3x384x128 .f32) : FVec Ideal S128x384 .f32 :=
  transpose S128x384 [1, 0] (shapeCast S384x128 (extractStridedSlice S1x384x128 ![0, 0, 0] a5 slices_S3x384x128_S1x384x128_0_0_0) shapeCasts_S1x384x128_S384x128) transposes_S384x128_S128x384_1_0
def bih0K (a7 : FVec Ideal S3x384 .f32) : FVec Ideal S384 .f32 :=
  shapeCast S384 (extractStridedSlice S1x384 ![0, 0] a7 slices_S3x384_S1x384_0_0) shapeCasts_S1x384_S384

/-- Layer 1's parameters, cut out of the stacked arrays (the weights transposed to input-major). -/
def wt1K (a3 : FVec Ideal S3x128x256 .f32) : FVec Ideal S256x128 .f32 :=
  transpose S256x128 [1, 0] (shapeCast S128x256 (extractStridedSlice S1x128x256 ![1, 0, 0] a3 slices_S3x128x256_S1x128x256_1_0_0) shapeCasts_S1x128x256_S128x256) transposes_S128x256_S256x128_1_0
def b1K (a4 : FVec Ideal S3x128 .f32) : FVec Ideal S128 .f32 :=
  shapeCast S128 (extractStridedSlice S1x128 ![1, 0] a4 slices_S3x128_S1x128_1_0) shapeCasts_S1x128_S128
def wih1K (a5 : FVec Ideal S3x384x128 .f32) : FVec Ideal S128x384 .f32 :=
  transpose S128x384 [1, 0] (shapeCast S384x128 (extractStridedSlice S1x384x128 ![1, 0, 0] a5 slices_S3x384x128_S1x384x128_1_0_0) shapeCasts_S1x384x128_S384x128) transposes_S384x128_S128x384_1_0
def bih1K (a7 : FVec Ideal S3x384 .f32) : FVec Ideal S384 .f32 :=
  shapeCast S384 (extractStridedSlice S1x384 ![1, 0] a7 slices_S3x384_S1x384_1_0) shapeCasts_S1x384_S384

/-- Layer 2's parameters, cut out of the stacked arrays (the weights transposed to input-major). -/
def wt2K (a3 : FVec Ideal S3x128x256 .f32) : FVec Ideal S256x128 .f32 :=
  transpose S256x128 [1, 0] (shapeCast S128x256 (extractStridedSlice S1x128x256 ![2, 0, 0] a3 slices_S3x128x256_S1x128x256_2_0_0) shapeCasts_S1x128x256_S128x256) transposes_S128x256_S256x128_1_0
def b2K (a4 : FVec Ideal S3x128 .f32) : FVec Ideal S128 .f32 :=
  shapeCast S128 (extractStridedSlice S1x128 ![2, 0] a4 slices_S3x128_S1x128_2_0) shapeCasts_S1x128_S128
def wih2K (a5 : FVec Ideal S3x384x128 .f32) : FVec Ideal S128x384 .f32 :=
  transpose S128x384 [1, 0] (shapeCast S384x128 (extractStridedSlice S1x384x128 ![2, 0, 0] a5 slices_S3x384x128_S1x384x128_2_0_0) shapeCasts_S1x384x128_S384x128) transposes_S384x128_S128x384_1_0
def bih2K (a7 : FVec Ideal S3x384 .f32) : FVec Ideal S384 .f32 :=
  shapeCast S384 (extractStridedSlice S1x384 ![2, 0] a7 slices_S3x384_S1x384_2_0) shapeCasts_S1x384_S384

/-- One message-passing layer: gather, message map, sum at the sources, gated update. -/
def layerK (x : FVec Ideal S20000x128 .f32) (row col : IVec S640000 32) (wt : FVec Ideal S256x128 .f32)
    (b : FVec Ideal S128 .f32) (wih whh : FVec Ideal S128x384 .f32) (bih bhh : FVec Ideal S384 .f32) :
    FVec Ideal S20000x128 .f32 :=
  Cert.GnnSpec.gruG (aggK row (Cert.GnnSpec.msgG (catK x row col) wt b)) x wih whh bih bhh

/-- The read-out: per graph, the mean of its nodes' features (an empty graph's count read as 1), then
    the linear map 128 → 1 and its bias. -/
def tailK (x : FVec Ideal S20000x128 .f32) (a2 : IVec S20000 32) (a9 : FVec Ideal S1x128 .f32) (a10 : FVec Ideal S1 .f32) :
    FVec Ideal S128 .f32 :=
  shapeCast S128 (addf (Host.dotGeneral dot_S128x128_S128x1_S128x1_1_0_0_1_n_n none
      (Host.divf
        (Host.scatterAdd scatter_S128x128_S20000x1_S20000x128_1_0_0_1
          (broadcastInDim S128x128 ![] bcast_S_S128x128 (constant (F := Ideal) S_ .f32 0x00000000#32))
          (broadcastInDim S20000x1 ![0] bcast_S20000_S20000x1_0 a2) x)
        (broadcastInDim S128x128 ![0, 1] bcast_S128x1_S128x128_0_1 (broadcastInDim S128x1 ![0] bcast_S128_S128x1_0
          (maximumf
            (Host.scatterAdd scatter_S128_S20000x1_S20000_n_0_0_1
              (broadcastInDim S128 ![] bcast_S_S128 (constant (F := Ideal) S_ .f32 0x00000000#32))
              (broadcastInDim S20000x1 ![0] bcast_S20000_S20000x1_0 a2)
              (broadcastInDim S20000 ![] bcast_S_S20000 (constant (F := Ideal) S_ .f32 0x3F800000#32)))
            (broadcastInDim S128 ![] bcast_S_S128 (constant (F := Ideal) S_ .f32 0x3F800000#32))))))
      (transpose S128x1 [1, 0] a9 transposes_S1x128_S128x1_1_0))
    (broadcastInDim S128x1 ![0, 1] bcast_S1x1_S128x1_0_1 (broadcastInDim S1x1 ![1] bcast_S1_S1x1_1 a10))) shapeCasts_S128x1_S128

/-- The whole network on the argument arrays. -/
def netK (a0 : FVec Ideal S20000x128 .f32) (a1 : IVec S2x640000 32) (a2 : IVec S20000 32) (a3 : FVec Ideal S3x128x256 .f32)
    (a4 : FVec Ideal S3x128 .f32) (a5 a6 : FVec Ideal S3x384x128 .f32) (a7 a8 : FVec Ideal S3x384 .f32)
    (a9 : FVec Ideal S1x128 .f32) (a10 : FVec Ideal S1 .f32) : FVec Ideal S128 .f32 :=
  tailK
    (layerK
      (layerK
        (layerK a0 (rowK a1) (colK a1) (wt0K a3) (b0K a4) (wih0K a5) (wih0K a6) (bih0K a7) (bih0K a8))
        (rowK a1) (colK a1) (wt1K a3) (b1K a4) (wih1K a5) (wih1K a6) (bih1K a7) (bih1K a8))
      (rowK a1) (colK a1) (wt2K a3) (b2K a4) (wih2K a5) (wih2K a6) (bih2K a7) (bih2K a8))
    a2 a9 a10

end Cert.KernelIdeal.Hand

end
-- ==== Proof.KMsg0.lean ====
/-
  Region 0, the message map. At a grid point the body reads a block of 6400 edges' gathered features
  (256 columns), the whole 256 × 128 weight matrix and the one-row bias, and leaves
  max (∑ₖ c(r,k)·w(k,d) + b(d)) 0 at every (r, d) of its 6400 × 128 block: the casts of layout and of
  float format are identities on the extended reals and the product into a zero accumulator is the plain sum.
  A message depends on its own row of features only, and the 100 blocks of 6400 rows tile the 640000 rows,
  so after the run the output array is the message map of the three whole arrays.
-/
import proofs.«413579_j91036126806070_1_alg».proof.Proof.Gen.KernelIdeal.Frame
import proofs.«413579_j91036126806070_1_alg».proof.Proof.Spec
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

namespace Msg0

/-! ### The product's operand indices, axis by axis

At output index `i` and contraction index `q` the left operand is read at (row of `i`, `q`) and the right
operand at (`q`, column of `i`). -/

theorem lhs_axis0 (i : S6400x128.Idx) (q : dot_S6400x256_S256x128_S6400x128_1_0_0_1_n_n.contr.Idx) :
    (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem lhs_axis1 (i : S6400x128.Idx) (q : dot_S6400x256_S256x128_S6400x128_1_0_0_1_n_n.contr.Idx) :
    (dot_S6400x256_S256x128_S6400x128_1_0_0_1_n_n.lhsIdx i q 1).val = (q ⟨0, by decide⟩).val :=
  dot_S6400x256_S256x128_S6400x128_1_0_0_1_n_n.lhsIdx_val_of_single rfl i q
theorem rhs_axis0 (i : S6400x128.Idx) (q : dot_S6400x256_S256x128_S6400x128_1_0_0_1_n_n.contr.Idx) :
    (dot_S6400x256_S256x128_S6400x128_1_0_0_1_n_n.rhsIdx i q 0).val = (q ⟨0, by decide⟩).val :=
  dot_S6400x256_S256x128_S6400x128_1_0_0_1_n_n.rhsIdx_val_of_single rfl i q
theorem rhs_axis1 (i : S6400x128.Idx) (q : dot_S6400x256_S256x128_S6400x128_1_0_0_1_n_n.contr.Idx) :
    (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- The product into a zero accumulator, read at (r, d): the sum over the 256 contracted columns of
    left (r, k) times right (k, d). -/
theorem prod_apply {φ₁ φ₂ : FTy} (l : FVec Ideal S6400x256 φ₁) (w : FVec Ideal S256x128 φ₂) (r : Fin 6400) (d : Fin 128) :
    FloatOps.matmul dot_S6400x256_S256x128_S6400x128_1_0_0_1_n_n none l w (constant (F := Ideal) S6400x128 .f32 0x00000000#32) (ix2 r d)
      = ∑ k : Fin 256, l (ix2 r k) * w (ix2 k d) := by
  refine (Ideal.matmul_constant_zero_apply dot_S6400x256_S256x128_S6400x128_1_0_0_1_n_n none l w (ix2 r d)).trans ?_
  rw [← Equiv.sum_comp (ValueIdx.contrEquiv1 dot_S6400x256_S256x128_S6400x128_1_0_0_1_n_n 256 rfl rfl).symm]
  refine Finset.sum_congr rfl fun k _ => ?_
  have hk := ValueIdx.contrEquiv1_symm_val dot_S6400x256_S256x128_S6400x128_1_0_0_1_n_n 256 rfl rfl k
  have el : dot_S6400x256_S256x128_S6400x128_1_0_0_1_n_n.lhsIdx (ix2 r d) ((ValueIdx.contrEquiv1 dot_S6400x256_S256x128_S6400x128_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S6400x256_S256x128_S6400x128_1_0_0_1_n_n.rhsIdx (ix2 r d) ((ValueIdx.contrEquiv1 dot_S6400x256_S256x128_S6400x128_1_0_0_1_n_n 256 rfl rfl).symm k) = ix2 k d := funext fun a => Fin.ext (by
    match a with
    | ⟨0, _⟩ => exact (rhs_axis0 _ _).trans hk
    | ⟨1, _⟩ => exact rhs_axis1 _ _)
  rw [el, er]

/-- The one-row bias spread over the 6400 rows, read at (r, d): its entry d. -/
theorem bias_apply (b : FVec Ideal S1x128 .f32) (h : S1x128.Broadcasts S6400x128) (r : Fin 6400) (d : Fin 128) :
    broadcastTo S6400x128 b h (ix2 r d) = b (ix2 0 d) :=
  broadcastTo_apply b h (ix2 r d) (ix2 0 d) (fun a => by
    match a with
    | ⟨0, _⟩ => rfl
    | ⟨1, _⟩ => rfl)

end Msg0

/-- The block's payload at (r, d): the rectifier of the affine map of row r. The layout casts and the
    changes of float format are identities on the extended reals; the product into a zero accumulator is
    the sum over the 256 contracted columns; the one-row bias is read at its entry d. -/
theorem pay_msg0 (x0 : FVec Ideal S6400x256 .f32) (x1 : FVec Ideal S256x128 .f32) (x2 : FVec Ideal S1x128 .f32)
    (r : Fin 6400) (d : Fin 128) :
    k0_pay1 (F := Ideal) x0 x1 x2 (ix2 r d) = Cert.GnnSpec.msgE x0 x1 (Cert.GnnSpec.row0 x2) r d := by
  unfold k0_pay1
  simp only [shapeCast_self]
  refine (maximumf_apply _ _ _).trans ?_
  unfold Cert.GnnSpec.msgE
  refine congrArg₂ max ?_ rfl
  refine (addf_apply _ _ _).trans ?_
  refine congrArg₂ (· + ·) ?_ ?_
  · exact (Msg0.prod_apply (truncf .bf16 x0 _) (truncf .bf16 x1 _) r d).trans
      (Finset.sum_congr rfl fun k _ => rfl)
  · exact (Msg0.bias_apply x2 _ r d).trans rfl

namespace Msg0

theorem zero_offsets : (![0, 0] : Fin 2 → Nat) = fun _ => 0 := funext fun a => by fin_cases a <;> rfl

/-- The index maps over the 100 grid points: the edge-feature window and the output window are at row
    block t, all columns; the weight and the bias are whole arrays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 100 := Nat.lt_of_lt_of_eq t.isLt N_0

section Blocks
variable (V : (c : Dev nD) → (b : Ref sig .tc) → Buf (Elt Ideal) ((c : Thread nD τ).loc b)) (c : Dev nD)

/-- Row r of the edge-feature block at point t is row 6400·t + r of the edge-feature array. -/
theorem features_rows (t : Fin cfg0.N) (r : Fin 6400) (k : Fin 256) (hr : 6400 * t.val + r.val < 640000) :
    (iblk0 V c 0 t : Vec Ideal S6400x256 .f32) (ix2 r k)
      = (V c main_v6 : S640000x256.Idx → EReal) (ix2 ⟨6400 * t.val + r.val, hr⟩ k) := by
  obtain ⟨e0, e1, -⟩ := block_index t
  unfold iblk0
  rw [View.read_apply]
  show V c main_v6 _ = V c main_v6 _
  congr 1
  funext a
  apply Fin.ext
  match a with
  | ⟨0, _⟩ => show win0_0.index t (0 : Fin 2) * 6400 + 1 * r.val = 6400 * t.val + r.val; rw [e0]; omega
  | ⟨1, _⟩ => show win0_0.index t (1 : Fin 2) * 256 + 1 * k.val = k.val; rw [e1]; omega

/-- The weight block at every point is the weight array. -/
theorem weights_whole (t : Fin cfg0.N) :
    (iblk0 V c 1 t : Vec Ideal S256x128 .f32) = (V c main_v9 : S256x128.Idx → EReal) := by
  obtain ⟨-, -, e0, e1, -⟩ := block_index t
  funext j
  unfold iblk0
  rw [View.read_apply]
  show V c main_v9 _ = V c main_v9 _
  congr 1
  funext a
  apply Fin.ext
  match a with
  | ⟨0, _⟩ => show win0_1.index t (0 : Fin 2) * 256 + 1 * (j 0).val = (j 0).val; rw [e0]; omega
  | ⟨1, _⟩ => show win0_1.index t (1 : Fin 2) * 128 + 1 * (j 1).val = (j 1).val; rw [e1]; omega

/-- The bias block at every point is the bias array. -/
theorem bias_whole (t : Fin cfg0.N) :
    (iblk0 V c 2 t : Vec Ideal S1x128 .f32) = (V c main_v12 : S1x128.Idx → EReal) := by
  obtain ⟨-, -, -, -, e0, e1, -⟩ := block_index t
  funext j
  unfold iblk0
  rw [View.read_apply]
  show V c main_v12 _ = V c main_v12 _
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

end Blocks

/-- Over any arrays and blocks: when row r of the feature block is row 6400·t + r of the feature array and
    the weight and bias blocks are the whole arrays, the payload at (r, d) is the message at
    (6400·t + r, d), because a message depends on its own row of features only. -/
theorem payload_is_message (A : FVec Ideal S640000x256 .f32) (W : FVec Ideal S256x128 .f32) (B : FVec Ideal S1x128 .f32)
    (x0 : FVec Ideal S6400x256 .f32) (x1 : FVec Ideal S256x128 .f32) (x2 : FVec Ideal S1x128 .f32)
    (tv : Nat) (r : Fin 6400) (hr : 6400 * tv + r.val < 640000)
    (h0 : ∀ k : Fin 256, x0 (ix2 r k) = A (ix2 ⟨6400 * tv + r.val, hr⟩ k)) (h1 : x1 = W) (h2 : x2 = B) (d : Fin 128) :
    k0_pay1 (F := Ideal) x0 x1 x2 (ix2 r d)
      = Cert.GnnSpec.msgG A W (Cert.GnnSpec.row0 B) (ix2 ⟨6400 * tv + r.val, hr⟩ d) := by
  subst h1 h2
  rw [pay_msg0, Cert.GnnSpec.msgG_ix2]
  exact Cert.GnnSpec.msgE_rows (6400 * tv) A x1 (Cert.GnnSpec.row0 x2) x0 r hr h0 d

section Array
variable (V : (c : Dev nD) → (b : Ref sig .tc) → Buf (Elt Ideal) ((c : Thread nD τ).loc b)) (c : Dev nD)

/-- The payload of the blocks at point t, at an index j of the block: the message at j's place in the array. -/
theorem payload_at_point (t : Fin cfg0.N) (j : S6400x128.Idx) :
    k0_pay1 (F := Ideal) (iblk0 V c 0 t) (iblk0 V c 1 t) (iblk0 V c 2 t) j
      = Cert.GnnSpec.msgG (V c main_v6) (V c main_v9) (Cert.GnnSpec.row0 (V c main_v12)) (((cfg0.win 3).blk t).view.emb j) := by
  obtain ⟨r, d, rfl⟩ : ∃ (r : Fin 6400) (d : Fin 128), j = ix2 r d := ⟨j 0, j 1, eq_ix2 j⟩
  have ht := point_lt t
  have hr : 6400 * t.val + r.val < 640000 := by have := r.isLt; omega
  obtain ⟨-, -, -, -, -, -, e0, e1⟩ := block_index t
  refine (payload_is_message (V c main_v6) (V c main_v9) (V c main_v12) (iblk0 V c 0 t) (iblk0 V c 1 t) (iblk0 V c 2 t)
    t.val r hr (fun k => features_rows V c t r k hr) (weights_whole V c t) (bias_whole V c t) d).trans ?_
  refine congrArg (Cert.GnnSpec.msgG (V c main_v6) (V c main_v9) (Cert.GnnSpec.row0 (V c main_v12))) ?_
  funext a
  apply Fin.ext
  match a with
  | ⟨0, _⟩ => show 6400 * t.val + r.val = win0_3.index t (0 : Fin 2) * 6400 + 1 * r.val; rw [e0]; omega
  | ⟨1, _⟩ => show d.val = win0_3.index t (1 : Fin 2) * 128 + 1 * d.val; rw [e1]; omega

/-- What point t writes back is block t of the messages of the three arrays. -/
theorem written_back (t : Fin cfg0.N) :
    (dat0 (F := Ideal) V c).flushed 3 t
      = ((cfg0.win 3).blk t).view.read (Elt Ideal)
          (Cert.GnnSpec.msgG (V c main_v6) (V c main_v9) (Cert.GnnSpec.row0 (V c main_v12))) := by
  show (cfg0.win 3).cut (grid0.coords t) ((dat0 (F := Ideal) V c).after 3 t) = _
  rw [after0_3]
  unfold out0_3
  rw [View.canon_unit_zero zero_offsets]
  simp only [View.ld_unit_zero (S := S6400x256) zero_offsets, View.ld_unit_zero (S := S256x128) zero_offsets,
    View.ld_unit_zero (S := S1x128) zero_offsets]
  funext j
  exact payload_at_point V c t j

/-- An index of the array is in point t's block iff each coordinate is in the block's range on its axis. -/
theorem mem_block (t : Fin cfg0.N) (i : S640000x128.Idx) :
    i ∈ ((cfg0.win 3).blk t).view.set ↔ ∀ a : Fin 2, win0_3.index t a * S6400x128.size a ≤ (i a).val ∧ (i a).val < win0_3.index t a * S6400x128.size a + S6400x128.size a := by
  show i ∈ ((View.whole (Pipeline.arrRef spec0 3)).slice (win0_3.rect t)).set ↔ _
  rw [View.set_slice_whole, Rect.mem_set_unit]
  exact Iff.rfl

/-- Row e of the array is in the block of point e / 6400: the 100 blocks of 6400 rows tile the 640000 rows. -/
theorem blocks_cover (i : S640000x128.Idx) :
    ∃ t : Fin cfg0.N, (cfg0.win 3).flush t = true ∧ i ∈ ((cfg0.win 3).blk t).view.set := by
  have hi0 : (i 0).val < 640000 := (i 0).isLt
  have hi1 : (i 1).val < 128 := (i 1).isLt
  have hN : cfg0.N = 100 := N_0
  let t : Fin cfg0.N := ⟨(i 0).val / 6400, by rw [hN]; omega⟩
  obtain ⟨-, -, -, -, -, -, e0, e1⟩ := block_index t
  have e0' : win0_3.index t (0 : Fin 2) = (i 0).val / 6400 := e0
  refine ⟨t, flush0_3 t, ?_⟩
  rw [mem_block]
  intro a
  match a with
  | ⟨0, _⟩ => show win0_3.index t (0 : Fin 2) * 6400 ≤ (i 0).val ∧ (i 0).val < win0_3.index t (0 : Fin 2) * 6400 + 6400; rw [e0']; omega
  | ⟨1, _⟩ => show win0_3.index t (1 : Fin 2) * 128 ≤ (i 1).val ∧ (i 1).val < win0_3.index t (1 : Fin 2) * 128 + 128; rw [e1]; omega

end Array

end Msg0

/-- The output array after the run: every one of its 640000 rows is in exactly the block of one grid
    point, which wrote there the messages of that block of edges, so the array is the messages of the
    three input arrays. -/
theorem arr0 (V : (c : Dev nD) → (b : Ref sig .tc) → Buf (Elt Ideal) ((c : Thread nD τ).loc b)) (c : Dev nD) :
    (dat0 (F := Ideal) V c).arrAt 3 cfg0.N
      = Cert.GnnSpec.msgG (V c main_v6) (V c main_v9) (Cert.GnnSpec.row0 (V c main_v12)) :=
  (dat0 (F := Ideal) V c).arrAt_eq_of_cover 3
    (Cert.GnnSpec.msgG (V c main_v6) (V c main_v9) (Cert.GnnSpec.row0 (V c main_v12)))
    (fun t _ => Msg0.written_back V c t) (Msg0.blocks_cover)

end Cert.KernelIdeal.Hand

end
-- ==== Proof.KMsg2.lean ====
/-
  Region 2, the message map. At a grid point the body reads a block of 6400 edges' gathered features
  (256 columns), the whole 256 × 128 weight matrix and the one-row bias, and leaves
  max (∑ₖ c(r,k)·w(k,d) + b(d)) 0 at every (r, d) of its 6400 × 128 block: the casts of layout and of
  float format are identities on the extended reals and the product into a zero accumulator is the plain sum.
  A message depends on its own row of features only, and the 100 blocks of 6400 rows tile the 640000 rows,
  so after the run the output array is the message map of the three whole arrays.
-/
import proofs.«413579_j91036126806070_1_alg».proof.Proof.Gen.KernelIdeal.Frame
import proofs.«413579_j91036126806070_1_alg».proof.Proof.Spec
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

namespace Msg2

/-! ### The product's operand indices, axis by axis

At output index `i` and contraction index `q` the left operand is read at (row of `i`, `q`) and the right
operand at (`q`, column of `i`). -/

theorem lhs_axis0 (i : S6400x128.Idx) (q : dot_S6400x256_S256x128_S6400x128_1_0_0_1_n_n.contr.Idx) :
    (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem lhs_axis1 (i : S6400x128.Idx) (q : dot_S6400x256_S256x128_S6400x128_1_0_0_1_n_n.contr.Idx) :
    (dot_S6400x256_S256x128_S6400x128_1_0_0_1_n_n.lhsIdx i q 1).val = (q ⟨0, by decide⟩).val :=
  dot_S6400x256_S256x128_S6400x128_1_0_0_1_n_n.lhsIdx_val_of_single rfl i q
theorem rhs_axis0 (i : S6400x128.Idx) (q : dot_S6400x256_S256x128_S6400x128_1_0_0_1_n_n.contr.Idx) :
    (dot_S6400x256_S256x128_S6400x128_1_0_0_1_n_n.rhsIdx i q 0).val = (q ⟨0, by decide⟩).val :=
  dot_S6400x256_S256x128_S6400x128_1_0_0_1_n_n.rhsIdx_val_of_single rfl i q
theorem rhs_axis1 (i : S6400x128.Idx) (q : dot_S6400x256_S256x128_S6400x128_1_0_0_1_n_n.contr.Idx) :
    (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- The product into a zero accumulator, read at (r, d): the sum over the 256 contracted columns of
    left (r, k) times right (k, d). -/
theorem prod_apply {φ₁ φ₂ : FTy} (l : FVec Ideal S6400x256 φ₁) (w : FVec Ideal S256x128 φ₂) (r : Fin 6400) (d : Fin 128) :
    FloatOps.matmul dot_S6400x256_S256x128_S6400x128_1_0_0_1_n_n none l w (constant (F := Ideal) S6400x128 .f32 0x00000000#32) (ix2 r d)
      = ∑ k : Fin 256, l (ix2 r k) * w (ix2 k d) := by
  refine (Ideal.matmul_constant_zero_apply dot_S6400x256_S256x128_S6400x128_1_0_0_1_n_n none l w (ix2 r d)).trans ?_
  rw [← Equiv.sum_comp (ValueIdx.contrEquiv1 dot_S6400x256_S256x128_S6400x128_1_0_0_1_n_n 256 rfl rfl).symm]
  refine Finset.sum_congr rfl fun k _ => ?_
  have hk := ValueIdx.contrEquiv1_symm_val dot_S6400x256_S256x128_S6400x128_1_0_0_1_n_n 256 rfl rfl k
  have el : dot_S6400x256_S256x128_S6400x128_1_0_0_1_n_n.lhsIdx (ix2 r d) ((ValueIdx.contrEquiv1 dot_S6400x256_S256x128_S6400x128_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S6400x256_S256x128_S6400x128_1_0_0_1_n_n.rhsIdx (ix2 r d) ((ValueIdx.contrEquiv1 dot_S6400x256_S256x128_S6400x128_1_0_0_1_n_n 256 rfl rfl).symm k) = ix2 k d := funext fun a => Fin.ext (by
    match a with
    | ⟨0, _⟩ => exact (rhs_axis0 _ _).trans hk
    | ⟨1, _⟩ => exact rhs_axis1 _ _)
  rw [el, er]

/-- The one-row bias spread over the 6400 rows, read at (r, d): its entry d. -/
theorem bias_apply (b : FVec Ideal S1x128 .f32) (h : S1x128.Broadcasts S6400x128) (r : Fin 6400) (d : Fin 128) :
    broadcastTo S6400x128 b h (ix2 r d) = b (ix2 0 d) :=
  broadcastTo_apply b h (ix2 r d) (ix2 0 d) (fun a => by
    match a with
    | ⟨0, _⟩ => rfl
    | ⟨1, _⟩ => rfl)

end Msg2

/-- The block's payload at (r, d): the rectifier of the affine map of row r. The layout casts and the
    changes of float format are identities on the extended reals; the product into a zero accumulator is
    the sum over the 256 contracted columns; the one-row bias is read at its entry d. -/
theorem pay_msg2 (x0 : FVec Ideal S6400x256 .f32) (x1 : FVec Ideal S256x128 .f32) (x2 : FVec Ideal S1x128 .f32)
    (r : Fin 6400) (d : Fin 128) :
    k2_pay1 (F := Ideal) x0 x1 x2 (ix2 r d) = Cert.GnnSpec.msgE x0 x1 (Cert.GnnSpec.row0 x2) r d := by
  unfold k2_pay1
  simp only [shapeCast_self]
  refine (maximumf_apply _ _ _).trans ?_
  unfold Cert.GnnSpec.msgE
  refine congrArg₂ max ?_ rfl
  refine (addf_apply _ _ _).trans ?_
  refine congrArg₂ (· + ·) ?_ ?_
  · exact (Msg2.prod_apply (truncf .bf16 x0 _) (truncf .bf16 x1 _) r d).trans
      (Finset.sum_congr rfl fun k _ => rfl)
  · exact (Msg2.bias_apply x2 _ r d).trans rfl

namespace Msg2

theorem zero_offsets : (![0, 0] : Fin 2 → Nat) = fun _ => 0 := funext fun a => by fin_cases a <;> rfl

/-- The index maps over the 100 grid points: the edge-feature window and the output window are at row
    block t, all columns; the weight and the bias are whole arrays. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 100 := Nat.lt_of_lt_of_eq t.isLt N_2

section Blocks
variable (V : (c : Dev nD) → (b : Ref sig .tc) → Buf (Elt Ideal) ((c : Thread nD τ).loc b)) (c : Dev nD)

/-- Row r of the edge-feature block at point t is row 6400·t + r of the edge-feature array. -/
theorem features_rows (t : Fin cfg2.N) (r : Fin 6400) (k : Fin 256) (hr : 6400 * t.val + r.val < 640000) :
    (iblk2 V c 0 t : Vec Ideal S6400x256 .f32) (ix2 r k)
      = (V c main_v32 : S640000x256.Idx → EReal) (ix2 ⟨6400 * t.val + r.val, hr⟩ k) := by
  obtain ⟨e0, e1, -⟩ := block_index t
  unfold iblk2
  rw [View.read_apply]
  show V c main_v32 _ = V c main_v32 _
  congr 1
  funext a
  apply Fin.ext
  match a with
  | ⟨0, _⟩ => show win2_0.index t (0 : Fin 2) * 6400 + 1 * r.val = 6400 * t.val + r.val; rw [e0]; omega
  | ⟨1, _⟩ => show win2_0.index t (1 : Fin 2) * 256 + 1 * k.val = k.val; rw [e1]; omega

/-- The weight block at every point is the weight array. -/
theorem weights_whole (t : Fin cfg2.N) :
    (iblk2 V c 1 t : Vec Ideal S256x128 .f32) = (V c main_v35 : S256x128.Idx → EReal) := by
  obtain ⟨-, -, e0, e1, -⟩ := block_index t
  funext j
  unfold iblk2
  rw [View.read_apply]
  show V c main_v35 _ = V c main_v35 _
  congr 1
  funext a
  apply Fin.ext
  match a with
  | ⟨0, _⟩ => show win2_1.index t (0 : Fin 2) * 256 + 1 * (j 0).val = (j 0).val; rw [e0]; omega
  | ⟨1, _⟩ => show win2_1.index t (1 : Fin 2) * 128 + 1 * (j 1).val = (j 1).val; rw [e1]; omega

/-- The bias block at every point is the bias array. -/
theorem bias_whole (t : Fin cfg2.N) :
    (iblk2 V c 2 t : Vec Ideal S1x128 .f32) = (V c main_v38 : S1x128.Idx → EReal) := by
  obtain ⟨-, -, -, -, e0, e1, -⟩ := block_index t
  funext j
  unfold iblk2
  rw [View.read_apply]
  show V c main_v38 _ = V c main_v38 _
  congr 1
  funext a
  apply Fin.ext
  match a with
  | ⟨0, _⟩ => show win2_2.index t (0 : Fin 2) * 1 + 1 * (j 0).val = (j 0).val; rw [e0]; omega
  | ⟨1, _⟩ => show win2_2.index t (1 : Fin 2) * 128 + 1 * (j 1).val = (j 1).val; rw [e1]; omega

end Blocks

/-- Over any arrays and blocks: when row r of the feature block is row 6400·t + r of the feature array and
    the weight and bias blocks are the whole arrays, the payload at (r, d) is the message at
    (6400·t + r, d), because a message depends on its own row of features only. -/
theorem payload_is_message (A : FVec Ideal S640000x256 .f32) (W : FVec Ideal S256x128 .f32) (B : FVec Ideal S1x128 .f32)
    (x0 : FVec Ideal S6400x256 .f32) (x1 : FVec Ideal S256x128 .f32) (x2 : FVec Ideal S1x128 .f32)
    (tv : Nat) (r : Fin 6400) (hr : 6400 * tv + r.val < 640000)
    (h0 : ∀ k : Fin 256, x0 (ix2 r k) = A (ix2 ⟨6400 * tv + r.val, hr⟩ k)) (h1 : x1 = W) (h2 : x2 = B) (d : Fin 128) :
    k2_pay1 (F := Ideal) x0 x1 x2 (ix2 r d)
      = Cert.GnnSpec.msgG A W (Cert.GnnSpec.row0 B) (ix2 ⟨6400 * tv + r.val, hr⟩ d) := by
  subst h1 h2
  rw [pay_msg2, Cert.GnnSpec.msgG_ix2]
  exact Cert.GnnSpec.msgE_rows (6400 * tv) A x1 (Cert.GnnSpec.row0 x2) x0 r hr h0 d

section Array
variable (V : (c : Dev nD) → (b : Ref sig .tc) → Buf (Elt Ideal) ((c : Thread nD τ).loc b)) (c : Dev nD)

/-- The payload of the blocks at point t, at an index j of the block: the message at j's place in the array. -/
theorem payload_at_point (t : Fin cfg2.N) (j : S6400x128.Idx) :
    k2_pay1 (F := Ideal) (iblk2 V c 0 t) (iblk2 V c 1 t) (iblk2 V c 2 t) j
      = Cert.GnnSpec.msgG (V c main_v32) (V c main_v35) (Cert.GnnSpec.row0 (V c main_v38)) (((cfg2.win 3).blk t).view.emb j) := by
  obtain ⟨r, d, rfl⟩ : ∃ (r : Fin 6400) (d : Fin 128), j = ix2 r d := ⟨j 0, j 1, eq_ix2 j⟩
  have ht := point_lt t
  have hr : 6400 * t.val + r.val < 640000 := by have := r.isLt; omega
  obtain ⟨-, -, -, -, -, -, e0, e1⟩ := block_index t
  refine (payload_is_message (V c main_v32) (V c main_v35) (V c main_v38) (iblk2 V c 0 t) (iblk2 V c 1 t) (iblk2 V c 2 t)
    t.val r hr (fun k => features_rows V c t r k hr) (weights_whole V c t) (bias_whole V c t) d).trans ?_
  refine congrArg (Cert.GnnSpec.msgG (V c main_v32) (V c main_v35) (Cert.GnnSpec.row0 (V c main_v38))) ?_
  funext a
  apply Fin.ext
  match a with
  | ⟨0, _⟩ => show 6400 * t.val + r.val = win2_3.index t (0 : Fin 2) * 6400 + 1 * r.val; rw [e0]; omega
  | ⟨1, _⟩ => show d.val = win2_3.index t (1 : Fin 2) * 128 + 1 * d.val; rw [e1]; omega

/-- What point t writes back is block t of the messages of the three arrays. -/
theorem written_back (t : Fin cfg2.N) :
    (dat2 (F := Ideal) V c).flushed 3 t
      = ((cfg2.win 3).blk t).view.read (Elt Ideal)
          (Cert.GnnSpec.msgG (V c main_v32) (V c main_v35) (Cert.GnnSpec.row0 (V c main_v38))) := by
  show (cfg2.win 3).cut (grid2.coords t) ((dat2 (F := Ideal) V c).after 3 t) = _
  rw [after2_3]
  unfold out2_3
  rw [View.canon_unit_zero zero_offsets]
  simp only [View.ld_unit_zero (S := S6400x256) zero_offsets, View.ld_unit_zero (S := S256x128) zero_offsets,
    View.ld_unit_zero (S := S1x128) zero_offsets]
  funext j
  exact payload_at_point V c t j

/-- An index of the array is in point t's block iff each coordinate is in the block's range on its axis. -/
theorem mem_block (t : Fin cfg2.N) (i : S640000x128.Idx) :
    i ∈ ((cfg2.win 3).blk t).view.set ↔ ∀ a : Fin 2, win2_3.index t a * S6400x128.size a ≤ (i a).val ∧ (i a).val < win2_3.index t a * S6400x128.size a + S6400x128.size a := by
  show i ∈ ((View.whole (Pipeline.arrRef spec2 3)).slice (win2_3.rect t)).set ↔ _
  rw [View.set_slice_whole, Rect.mem_set_unit]
  exact Iff.rfl

/-- Row e of the array is in the block of point e / 6400: the 100 blocks of 6400 rows tile the 640000 rows. -/
theorem blocks_cover (i : S640000x128.Idx) :
    ∃ t : Fin cfg2.N, (cfg2.win 3).flush t = true ∧ i ∈ ((cfg2.win 3).blk t).view.set := by
  have hi0 : (i 0).val < 640000 := (i 0).isLt
  have hi1 : (i 1).val < 128 := (i 1).isLt
  have hN : cfg2.N = 100 := N_2
  let t : Fin cfg2.N := ⟨(i 0).val / 6400, by rw [hN]; omega⟩
  obtain ⟨-, -, -, -, -, -, e0, e1⟩ := block_index t
  have e0' : win2_3.index t (0 : Fin 2) = (i 0).val / 6400 := e0
  refine ⟨t, flush2_3 t, ?_⟩
  rw [mem_block]
  intro a
  match a with
  | ⟨0, _⟩ => show win2_3.index t (0 : Fin 2) * 6400 ≤ (i 0).val ∧ (i 0).val < win2_3.index t (0 : Fin 2) * 6400 + 6400; rw [e0']; omega
  | ⟨1, _⟩ => show win2_3.index t (1 : Fin 2) * 128 ≤ (i 1).val ∧ (i 1).val < win2_3.index t (1 : Fin 2) * 128 + 128; rw [e1]; omega

end Array

end Msg2

/-- The output array after the run: every one of its 640000 rows is in exactly the block of one grid
    point, which wrote there the messages of that block of edges, so the array is the messages of the
    three input arrays. -/
theorem arr2 (V : (c : Dev nD) → (b : Ref sig .tc) → Buf (Elt Ideal) ((c : Thread nD τ).loc b)) (c : Dev nD) :
    (dat2 (F := Ideal) V c).arrAt 3 cfg2.N
      = Cert.GnnSpec.msgG (V c main_v32) (V c main_v35) (Cert.GnnSpec.row0 (V c main_v38)) :=
  (dat2 (F := Ideal) V c).arrAt_eq_of_cover 3
    (Cert.GnnSpec.msgG (V c main_v32) (V c main_v35) (Cert.GnnSpec.row0 (V c main_v38)))
    (fun t _ => Msg2.written_back V c t) (Msg2.blocks_cover)

end Cert.KernelIdeal.Hand

end
-- ==== Proof.KMsg4.lean ====
/-
  Region 4, the message map. At a grid point the body reads a block of 6400 edges' gathered features
  (256 columns), the whole 256 × 128 weight matrix and the one-row bias, and leaves
  max (∑ₖ c(r,k)·w(k,d) + b(d)) 0 at every (r, d) of its 6400 × 128 block: the casts of layout and of
  float format are identities on the extended reals and the product into a zero accumulator is the plain sum.
  A message depends on its own row of features only, and the 100 blocks of 6400 rows tile the 640000 rows,
  so after the run the output array is the message map of the three whole arrays.
-/
import proofs.«413579_j91036126806070_1_alg».proof.Proof.Gen.KernelIdeal.Frame
import proofs.«413579_j91036126806070_1_alg».proof.Proof.Spec
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

namespace Msg4

/-! ### The product's operand indices, axis by axis

At output index `i` and contraction index `q` the left operand is read at (row of `i`, `q`) and the right
operand at (`q`, column of `i`). -/

theorem lhs_axis0 (i : S6400x128.Idx) (q : dot_S6400x256_S256x128_S6400x128_1_0_0_1_n_n.contr.Idx) :
    (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem lhs_axis1 (i : S6400x128.Idx) (q : dot_S6400x256_S256x128_S6400x128_1_0_0_1_n_n.contr.Idx) :
    (dot_S6400x256_S256x128_S6400x128_1_0_0_1_n_n.lhsIdx i q 1).val = (q ⟨0, by decide⟩).val :=
  dot_S6400x256_S256x128_S6400x128_1_0_0_1_n_n.lhsIdx_val_of_single rfl i q
theorem rhs_axis0 (i : S6400x128.Idx) (q : dot_S6400x256_S256x128_S6400x128_1_0_0_1_n_n.contr.Idx) :
    (dot_S6400x256_S256x128_S6400x128_1_0_0_1_n_n.rhsIdx i q 0).val = (q ⟨0, by decide⟩).val :=
  dot_S6400x256_S256x128_S6400x128_1_0_0_1_n_n.rhsIdx_val_of_single rfl i q
theorem rhs_axis1 (i : S6400x128.Idx) (q : dot_S6400x256_S256x128_S6400x128_1_0_0_1_n_n.contr.Idx) :
    (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- The product into a zero accumulator, read at (r, d): the sum over the 256 contracted columns of
    left (r, k) times right (k, d). -/
theorem prod_apply {φ₁ φ₂ : FTy} (l : FVec Ideal S6400x256 φ₁) (w : FVec Ideal S256x128 φ₂) (r : Fin 6400) (d : Fin 128) :
    FloatOps.matmul dot_S6400x256_S256x128_S6400x128_1_0_0_1_n_n none l w (constant (F := Ideal) S6400x128 .f32 0x00000000#32) (ix2 r d)
      = ∑ k : Fin 256, l (ix2 r k) * w (ix2 k d) := by
  refine (Ideal.matmul_constant_zero_apply dot_S6400x256_S256x128_S6400x128_1_0_0_1_n_n none l w (ix2 r d)).trans ?_
  rw [← Equiv.sum_comp (ValueIdx.contrEquiv1 dot_S6400x256_S256x128_S6400x128_1_0_0_1_n_n 256 rfl rfl).symm]
  refine Finset.sum_congr rfl fun k _ => ?_
  have hk := ValueIdx.contrEquiv1_symm_val dot_S6400x256_S256x128_S6400x128_1_0_0_1_n_n 256 rfl rfl k
  have el : dot_S6400x256_S256x128_S6400x128_1_0_0_1_n_n.lhsIdx (ix2 r d) ((ValueIdx.contrEquiv1 dot_S6400x256_S256x128_S6400x128_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S6400x256_S256x128_S6400x128_1_0_0_1_n_n.rhsIdx (ix2 r d) ((ValueIdx.contrEquiv1 dot_S6400x256_S256x128_S6400x128_1_0_0_1_n_n 256 rfl rfl).symm k) = ix2 k d := funext fun a => Fin.ext (by
    match a with
    | ⟨0, _⟩ => exact (rhs_axis0 _ _).trans hk
    | ⟨1, _⟩ => exact rhs_axis1 _ _)
  rw [el, er]

/-- The one-row bias spread over the 6400 rows, read at (r, d): its entry d. -/
theorem bias_apply (b : FVec Ideal S1x128 .f32) (h : S1x128.Broadcasts S6400x128) (r : Fin 6400) (d : Fin 128) :
    broadcastTo S6400x128 b h (ix2 r d) = b (ix2 0 d) :=
  broadcastTo_apply b h (ix2 r d) (ix2 0 d) (fun a => by
    match a with
    | ⟨0, _⟩ => rfl
    | ⟨1, _⟩ => rfl)

end Msg4

/-- The block's payload at (r, d): the rectifier of the affine map of row r. The layout casts and the
    changes of float format are identities on the extended reals; the product into a zero accumulator is
    the sum over the 256 contracted columns; the one-row bias is read at its entry d. -/
theorem pay_msg4 (x0 : FVec Ideal S6400x256 .f32) (x1 : FVec Ideal S256x128 .f32) (x2 : FVec Ideal S1x128 .f32)
    (r : Fin 6400) (d : Fin 128) :
    k4_pay1 (F := Ideal) x0 x1 x2 (ix2 r d) = Cert.GnnSpec.msgE x0 x1 (Cert.GnnSpec.row0 x2) r d := by
  unfold k4_pay1
  simp only [shapeCast_self]
  refine (maximumf_apply _ _ _).trans ?_
  unfold Cert.GnnSpec.msgE
  refine congrArg₂ max ?_ rfl
  refine (addf_apply _ _ _).trans ?_
  refine congrArg₂ (· + ·) ?_ ?_
  · exact (Msg4.prod_apply (truncf .bf16 x0 _) (truncf .bf16 x1 _) r d).trans
      (Finset.sum_congr rfl fun k _ => rfl)
  · exact (Msg4.bias_apply x2 _ r d).trans rfl

namespace Msg4

theorem zero_offsets : (![0, 0] : Fin 2 → Nat) = fun _ => 0 := funext fun a => by fin_cases a <;> rfl

/-- The index maps over the 100 grid points: the edge-feature window and the output window are at row
    block t, all columns; the weight and the bias are whole arrays. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem point_lt (t : Fin cfg4.N) : t.val < 100 := Nat.lt_of_lt_of_eq t.isLt N_4

section Blocks
variable (V : (c : Dev nD) → (b : Ref sig .tc) → Buf (Elt Ideal) ((c : Thread nD τ).loc b)) (c : Dev nD)

/-- Row r of the edge-feature block at point t is row 6400·t + r of the edge-feature array. -/
theorem features_rows (t : Fin cfg4.N) (r : Fin 6400) (k : Fin 256) (hr : 6400 * t.val + r.val < 640000) :
    (iblk4 V c 0 t : Vec Ideal S6400x256 .f32) (ix2 r k)
      = (V c main_v58 : S640000x256.Idx → EReal) (ix2 ⟨6400 * t.val + r.val, hr⟩ k) := by
  obtain ⟨e0, e1, -⟩ := block_index t
  unfold iblk4
  rw [View.read_apply]
  show V c main_v58 _ = V c main_v58 _
  congr 1
  funext a
  apply Fin.ext
  match a with
  | ⟨0, _⟩ => show win4_0.index t (0 : Fin 2) * 6400 + 1 * r.val = 6400 * t.val + r.val; rw [e0]; omega
  | ⟨1, _⟩ => show win4_0.index t (1 : Fin 2) * 256 + 1 * k.val = k.val; rw [e1]; omega

/-- The weight block at every point is the weight array. -/
theorem weights_whole (t : Fin cfg4.N) :
    (iblk4 V c 1 t : Vec Ideal S256x128 .f32) = (V c main_v61 : S256x128.Idx → EReal) := by
  obtain ⟨-, -, e0, e1, -⟩ := block_index t
  funext j
  unfold iblk4
  rw [View.read_apply]
  show V c main_v61 _ = V c main_v61 _
  congr 1
  funext a
  apply Fin.ext
  match a with
  | ⟨0, _⟩ => show win4_1.index t (0 : Fin 2) * 256 + 1 * (j 0).val = (j 0).val; rw [e0]; omega
  | ⟨1, _⟩ => show win4_1.index t (1 : Fin 2) * 128 + 1 * (j 1).val = (j 1).val; rw [e1]; omega

/-- The bias block at every point is the bias array. -/
theorem bias_whole (t : Fin cfg4.N) :
    (iblk4 V c 2 t : Vec Ideal S1x128 .f32) = (V c main_v64 : S1x128.Idx → EReal) := by
  obtain ⟨-, -, -, -, e0, e1, -⟩ := block_index t
  funext j
  unfold iblk4
  rw [View.read_apply]
  show V c main_v64 _ = V c main_v64 _
  congr 1
  funext a
  apply Fin.ext
  match a with
  | ⟨0, _⟩ => show win4_2.index t (0 : Fin 2) * 1 + 1 * (j 0).val = (j 0).val; rw [e0]; omega
  | ⟨1, _⟩ => show win4_2.index t (1 : Fin 2) * 128 + 1 * (j 1).val = (j 1).val; rw [e1]; omega

end Blocks

/-- Over any arrays and blocks: when row r of the feature block is row 6400·t + r of the feature array and
    the weight and bias blocks are the whole arrays, the payload at (r, d) is the message at
    (6400·t + r, d), because a message depends on its own row of features only. -/
theorem payload_is_message (A : FVec Ideal S640000x256 .f32) (W : FVec Ideal S256x128 .f32) (B : FVec Ideal S1x128 .f32)
    (x0 : FVec Ideal S6400x256 .f32) (x1 : FVec Ideal S256x128 .f32) (x2 : FVec Ideal S1x128 .f32)
    (tv : Nat) (r : Fin 6400) (hr : 6400 * tv + r.val < 640000)
    (h0 : ∀ k : Fin 256, x0 (ix2 r k) = A (ix2 ⟨6400 * tv + r.val, hr⟩ k)) (h1 : x1 = W) (h2 : x2 = B) (d : Fin 128) :
    k4_pay1 (F := Ideal) x0 x1 x2 (ix2 r d)
      = Cert.GnnSpec.msgG A W (Cert.GnnSpec.row0 B) (ix2 ⟨6400 * tv + r.val, hr⟩ d) := by
  subst h1 h2
  rw [pay_msg4, Cert.GnnSpec.msgG_ix2]
  exact Cert.GnnSpec.msgE_rows (6400 * tv) A x1 (Cert.GnnSpec.row0 x2) x0 r hr h0 d

section Array
variable (V : (c : Dev nD) → (b : Ref sig .tc) → Buf (Elt Ideal) ((c : Thread nD τ).loc b)) (c : Dev nD)

/-- The payload of the blocks at point t, at an index j of the block: the message at j's place in the array. -/
theorem payload_at_point (t : Fin cfg4.N) (j : S6400x128.Idx) :
    k4_pay1 (F := Ideal) (iblk4 V c 0 t) (iblk4 V c 1 t) (iblk4 V c 2 t) j
      = Cert.GnnSpec.msgG (V c main_v58) (V c main_v61) (Cert.GnnSpec.row0 (V c main_v64)) (((cfg4.win 3).blk t).view.emb j) := by
  obtain ⟨r, d, rfl⟩ : ∃ (r : Fin 6400) (d : Fin 128), j = ix2 r d := ⟨j 0, j 1, eq_ix2 j⟩
  have ht := point_lt t
  have hr : 6400 * t.val + r.val < 640000 := by have := r.isLt; omega
  obtain ⟨-, -, -, -, -, -, e0, e1⟩ := block_index t
  refine (payload_is_message (V c main_v58) (V c main_v61) (V c main_v64) (iblk4 V c 0 t) (iblk4 V c 1 t) (iblk4 V c 2 t)
    t.val r hr (fun k => features_rows V c t r k hr) (weights_whole V c t) (bias_whole V c t) d).trans ?_
  refine congrArg (Cert.GnnSpec.msgG (V c main_v58) (V c main_v61) (Cert.GnnSpec.row0 (V c main_v64))) ?_
  funext a
  apply Fin.ext
  match a with
  | ⟨0, _⟩ => show 6400 * t.val + r.val = win4_3.index t (0 : Fin 2) * 6400 + 1 * r.val; rw [e0]; omega
  | ⟨1, _⟩ => show d.val = win4_3.index t (1 : Fin 2) * 128 + 1 * d.val; rw [e1]; omega

/-- What point t writes back is block t of the messages of the three arrays. -/
theorem written_back (t : Fin cfg4.N) :
    (dat4 (F := Ideal) V c).flushed 3 t
      = ((cfg4.win 3).blk t).view.read (Elt Ideal)
          (Cert.GnnSpec.msgG (V c main_v58) (V c main_v61) (Cert.GnnSpec.row0 (V c main_v64))) := by
  show (cfg4.win 3).cut (grid4.coords t) ((dat4 (F := Ideal) V c).after 3 t) = _
  rw [after4_3]
  unfold out4_3
  rw [View.canon_unit_zero zero_offsets]
  simp only [View.ld_unit_zero (S := S6400x256) zero_offsets, View.ld_unit_zero (S := S256x128) zero_offsets,
    View.ld_unit_zero (S := S1x128) zero_offsets]
  funext j
  exact payload_at_point V c t j

/-- An index of the array is in point t's block iff each coordinate is in the block's range on its axis. -/
theorem mem_block (t : Fin cfg4.N) (i : S640000x128.Idx) :
    i ∈ ((cfg4.win 3).blk t).view.set ↔ ∀ a : Fin 2, win4_3.index t a * S6400x128.size a ≤ (i a).val ∧ (i a).val < win4_3.index t a * S6400x128.size a + S6400x128.size a := by
  show i ∈ ((View.whole (Pipeline.arrRef spec4 3)).slice (win4_3.rect t)).set ↔ _
  rw [View.set_slice_whole, Rect.mem_set_unit]
  exact Iff.rfl

/-- Row e of the array is in the block of point e / 6400: the 100 blocks of 6400 rows tile the 640000 rows. -/
theorem blocks_cover (i : S640000x128.Idx) :
    ∃ t : Fin cfg4.N, (cfg4.win 3).flush t = true ∧ i ∈ ((cfg4.win 3).blk t).view.set := by
  have hi0 : (i 0).val < 640000 := (i 0).isLt
  have hi1 : (i 1).val < 128 := (i 1).isLt
  have hN : cfg4.N = 100 := N_4
  let t : Fin cfg4.N := ⟨(i 0).val / 6400, by rw [hN]; omega⟩
  obtain ⟨-, -, -, -, -, -, e0, e1⟩ := block_index t
  have e0' : win4_3.index t (0 : Fin 2) = (i 0).val / 6400 := e0
  refine ⟨t, flush4_3 t, ?_⟩
  rw [mem_block]
  intro a
  match a with
  | ⟨0, _⟩ => show win4_3.index t (0 : Fin 2) * 6400 ≤ (i 0).val ∧ (i 0).val < win4_3.index t (0 : Fin 2) * 6400 + 6400; rw [e0']; omega
  | ⟨1, _⟩ => show win4_3.index t (1 : Fin 2) * 128 ≤ (i 1).val ∧ (i 1).val < win4_3.index t (1 : Fin 2) * 128 + 128; rw [e1]; omega

end Array

end Msg4

/-- The output array after the run: every one of its 640000 rows is in exactly the block of one grid
    point, which wrote there the messages of that block of edges, so the array is the messages of the
    three input arrays. -/
theorem arr4 (V : (c : Dev nD) → (b : Ref sig .tc) → Buf (Elt Ideal) ((c : Thread nD τ).loc b)) (c : Dev nD) :
    (dat4 (F := Ideal) V c).arrAt 3 cfg4.N
      = Cert.GnnSpec.msgG (V c main_v58) (V c main_v61) (Cert.GnnSpec.row0 (V c main_v64)) :=
  (dat4 (F := Ideal) V c).arrAt_eq_of_cover 3
    (Cert.GnnSpec.msgG (V c main_v58) (V c main_v61) (Cert.GnnSpec.row0 (V c main_v64)))
    (fun t _ => Msg4.written_back V c t) (Msg4.blocks_cover)

end Cert.KernelIdeal.Hand

end
-- ==== Proof.KGru1.lean ====
/-
  The gated recurrent update of the node features, one region of the kernel program. Each of the ten grid points takes 2000 rows of
  the aggregated messages a and of the old features h, forms the two affine maps 128 → 384 (a·Wih + bih and
  h·Whh + bhh, each a sum over the contracted axis plus a bias row), cuts them in three bands of 128 columns
  and blends  h' = (1 − z)·n + z·h  with  r = σ(gi₀ + gh₀), z = σ(gi₁ + gh₁), n = tanh(gi₂ + r·gh₂).
  The update acts row by row, so block t of the result is rows 2000·t … 2000·t + 1999 of the update of the
  whole arrays, and the ten blocks tile the 20000 rows: the array the region leaves is that update.
-/
import proofs.«413579_j91036126806070_1_alg».proof.Proof.Gen.KernelIdeal.Frame
import proofs.«413579_j91036126806070_1_alg».proof.Proof.Spec
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

namespace Gru1

/-! ## The product's operand indices: output (r, j), contraction index k ↦ lhs (r, k), rhs (k, j) -/

theorem lhs_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- One blocked product into a zero accumulator, read at (r, j): the sum over the contracted axis. -/
theorem mm_apply (a : FVec Ideal S2000x128 .bf16) (W : FVec Ideal S128x384 .bf16) (r : Fin 2000) (j : Fin 384) :
    matmul dot_S2000x128_S128x384_S2000x384_1_0_0_1_n_n none a W (constant (F := Ideal) S2000x384 .f32 0x00000000#32) (ix2 r j)
      = ∑ k : Fin 128, a (ix2 r k) * W (ix2 k j) := by
  refine (Ideal.matmul_constant_zero_apply dot_S2000x128_S128x384_S2000x384_1_0_0_1_n_n none a W (ix2 r j)).trans ?_
  rw [← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 r j) ((ValueIdx.contrEquiv1 dot_S2000x128_S128x384_S2000x384_1_0_0_1_n_n 128 rfl rfl).symm k) = ix2 r k := funext fun a => Fin.ext (by
    match a with
    | ⟨0, _⟩ => exact lhs_0 _ _
    | ⟨1, _⟩ => exact (lhs_1 _ _).trans hk)
  have er : dot_S2000x128_S128x384_S2000x384_1_0_0_1_n_n.rhsIdx (ix2 r j) ((ValueIdx.contrEquiv1 dot_S2000x128_S128x384_S2000x384_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- One affine map 128 → 384 on a block of 2000 rows, as the body forms it (the product into a zero
    accumulator on operands in the narrower format, plus the bias row repeated down the rows), read at
    (r, j): column j of the map on row r. Narrowing is the identity on the extended reals. -/
theorem gates_apply (a : FVec Ideal S2000x128 .f32) (W : FVec Ideal S128x384 .f32) (b : FVec Ideal S1x384 .f32)
    (r : Fin 2000) (j : Fin 384) :
    matmul dot_S2000x128_S128x384_S2000x384_1_0_0_1_n_n none (truncf .bf16 a Gen.bitsLt_bf16_f32)
          (truncf .bf16 W Gen.bitsLt_bf16_f32) (constant (F := Ideal) S2000x384 .f32 0x00000000#32) (ix2 r j)
        + broadcastTo S2000x384 b Gen.broadcasts_S1x384_S2000x384 (ix2 r j)
      = Cert.GnnSpec.gate a W (Cert.GnnSpec.row0 b) r j := by
  rw [mm_apply]
  unfold Cert.GnnSpec.gate
  refine congrArg₂ (· + ·) rfl ?_
  exact broadcastTo_apply b Gen.broadcasts_S1x384_S2000x384 (ix2 r j) (ix2 0 j) (fun a => match a with
    | ⟨0, _⟩ => rfl
    | ⟨1, _⟩ => rfl)

/-- Band 0 of the 384 gate columns: columns 0 … 127. -/
theorem gates_band0 (g : FVec Ideal S2000x384 .f32) (r : Fin 2000) (d : Fin 128) :
    extractStridedSlice S2000x128 ![0, 0] g Gen.slices_S2000x384_o0_0_S2000x128 (ix2 r d)
      = g (ix2 r (Cert.GnnSpec.band 0 (by omega) d)) :=
  extractStridedSlice_apply ![0, 0] g Gen.slices_S2000x384_o0_0_S2000x128 (ix2 r d) (ix2 r (Cert.GnnSpec.band 0 (by omega) d))
    (fun a => match a with
      | ⟨0, _⟩ => by show r.val = 0 + r.val; omega
      | ⟨1, _⟩ => by show 0 * 128 + d.val = 0 + d.val; omega)

/-- Band 1: columns 128 … 255. -/
theorem gates_band1 (g : FVec Ideal S2000x384 .f32) (r : Fin 2000) (d : Fin 128) :
    extractStridedSlice S2000x128 ![0, 128] g Gen.slices_S2000x384_o0_128_S2000x128 (ix2 r d)
      = g (ix2 r (Cert.GnnSpec.band 1 (by omega) d)) :=
  extractStridedSlice_apply ![0, 128] g Gen.slices_S2000x384_o0_128_S2000x128 (ix2 r d) (ix2 r (Cert.GnnSpec.band 1 (by omega) d))
    (fun a => match a with
      | ⟨0, _⟩ => by show r.val = 0 + r.val; omega
      | ⟨1, _⟩ => by show 1 * 128 + d.val = 128 + d.val; omega)

/-- Band 2: columns 256 … 383. -/
theorem gates_band2 (g : FVec Ideal S2000x384 .f32) (r : Fin 2000) (d : Fin 128) :
    extractStridedSlice S2000x128 ![0, 256] g Gen.slices_S2000x384_o0_256_S2000x128 (ix2 r d)
      = g (ix2 r (Cert.GnnSpec.band 2 (by omega) d)) :=
  extractStridedSlice_apply ![0, 256] g Gen.slices_S2000x384_o0_256_S2000x128 (ix2 r d) (ix2 r (Cert.GnnSpec.band 2 (by omega) d))
    (fun a => match a with
      | ⟨0, _⟩ => by show r.val = 0 + r.val; omega
      | ⟨1, _⟩ => by show 2 * 128 + d.val = 256 + d.val; omega)

/-- The logistic map of a block, read at an index. -/
theorem logistic_at (a : FVec Ideal S2000x128 .f32) (i : S2000x128.Idx) : logistic a i = Ideal.logistic (a i) := rfl
/-- The hyperbolic tangent of a block, read at an index. -/
theorem tanh_at (a : FVec Ideal S2000x128 .f32) (i : S2000x128.Idx) : tanh a i = Ideal.tanh (a i) := rfl

end Gru1

/-- The body's payload at (r, d) is the update of the loaded blocks at (r, d): every pointwise operation is read at
    the index, each band is its 128 columns of the gates, and each gate column is the affine map. -/
theorem pay_gru1 (x0 x1 : FVec Ideal S2000x128 .f32) (x2 x3 : FVec Ideal S128x384 .f32) (x4 x5 : FVec Ideal S1x384 .f32)
    (r : Fin 2000) (d : Fin 128) :
    k1_pay1 (F := Ideal) x0 x1 x2 x3 x4 x5 (ix2 r d)
      = Cert.GnnSpec.gruE x0 x1 x2 x3 (Cert.GnnSpec.row0 x4) (Cert.GnnSpec.row0 x5) r d := by
  unfold k1_pay1
  simp only [shapeCast_self]
  simp only [addf_apply, mulf_apply, subf_apply, broadcast_apply, Gru1.logistic_at, Gru1.tanh_at, Gru1.gates_band0,
    Gru1.gates_band1, Gru1.gates_band2, Gru1.gates_apply, Ideal.ofBits_def]
  unfold Cert.GnnSpec.gruE
  rfl

namespace Gru1

/-! ## From the blocks to the array -/

theorem hz : (![0, 0] : Fin 2 → Nat) = fun _ => 0 := funext fun a => by fin_cases a <;> rfl

/-- The index maps over the ten grid points: the two row-blocked inputs and the output sit at
    block t on the row axis and block 0 on the column axis; the four parameter windows are whole. -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem t_lt (t : Fin cfg1.N) : t.val < 10 := by
  have h : t.val < grid1.N := t.isLt
  rw [N_1] at h; exact h

/-- Element (r, k) of block t of the aggregated messages is element (2000·t + r, k) of the array. -/
theorem iblk_0 (V : (c : Dev nD) → (b : Ref sig .tc) → Buf (Elt Ideal) ((c : Thread nD τ).loc b)) (c : Dev nD)
    (t : Fin cfg1.N) (r : Fin 2000) (k : Fin 128) (hr : 2000 * t.val + r.val < 20000) :
    iblk1 (F := Ideal) V c 0 t (ix2 r k) = V c main_v16 (ix2 ⟨2000 * t.val + r.val, hr⟩ k) := by
  obtain ⟨-, -, e0, e1, -⟩ := idx_facts t
  show V c main_v16 (((cfg1.win 0).blk t).view.emb (ix2 r k)) = _
  refine congrArg (V c main_v16) (Shape.idx_ext₂ ?_ ?_)
  · show win1_0.index t (0 : Fin 2) * 2000 + 1 * r.val = 2000 * t.val + r.val
    omega
  · show win1_0.index t (1 : Fin 2) * 128 + 1 * k.val = k.val
    omega

/-- Element (r, k) of block t of the old node features is element (2000·t + r, k) of the array. -/
theorem iblk_1 (V : (c : Dev nD) → (b : Ref sig .tc) → Buf (Elt Ideal) ((c : Thread nD τ).loc b)) (c : Dev nD)
    (t : Fin cfg1.N) (r : Fin 2000) (k : Fin 128) (hr : 2000 * t.val + r.val < 20000) :
    iblk1 (F := Ideal) V c 1 t (ix2 r k) = V c main_arg0 (ix2 ⟨2000 * t.val + r.val, hr⟩ k) := by
  obtain ⟨-, -, -, -, e0, e1, -⟩ := idx_facts t
  show V c main_arg0 (((cfg1.win 1).blk t).view.emb (ix2 r k)) = _
  refine congrArg (V c main_arg0) (Shape.idx_ext₂ ?_ ?_)
  · show win1_1.index t (0 : Fin 2) * 2000 + 1 * r.val = 2000 * t.val + r.val
    omega
  · show win1_1.index t (1 : Fin 2) * 128 + 1 * k.val = k.val
    omega

/-- The four parameter windows' one block is the whole array. -/
theorem iblk_2 (V : (c : Dev nD) → (b : Ref sig .tc) → Buf (Elt Ideal) ((c : Thread nD τ).loc b)) (c : Dev nD)
    (t : Fin cfg1.N) : iblk1 (F := Ideal) V c 2 t = V c main_v19 := by
  obtain ⟨-, -, -, -, -, -, e0, e1, -⟩ := idx_facts t
  funext j
  show V c main_v19 (((cfg1.win 2).blk t).view.emb j) = V c main_v19 j
  refine congrArg (V c main_v19) (Shape.idx_ext₂ ?_ ?_)
  · show win1_2.index t (0 : Fin 2) * 128 + 1 * (j 0).val = (j 0).val
    omega
  · show win1_2.index t (1 : Fin 2) * 384 + 1 * (j 1).val = (j 1).val
    omega
theorem iblk_3 (V : (c : Dev nD) → (b : Ref sig .tc) → Buf (Elt Ideal) ((c : Thread nD τ).loc b)) (c : Dev nD)
    (t : Fin cfg1.N) : iblk1 (F := Ideal) V c 3 t = V c main_v22 := by
  obtain ⟨-, -, -, -, -, -, -, -, e0, e1, -⟩ := idx_facts t
  funext j
  show V c main_v22 (((cfg1.win 3).blk t).view.emb j) = V c main_v22 j
  refine congrArg (V c main_v22) (Shape.idx_ext₂ ?_ ?_)
  · show win1_3.index t (0 : Fin 2) * 128 + 1 * (j 0).val = (j 0).val
    omega
  · show win1_3.index t (1 : Fin 2) * 384 + 1 * (j 1).val = (j 1).val
    omega
theorem iblk_4 (V : (c : Dev nD) → (b : Ref sig .tc) → Buf (Elt Ideal) ((c : Thread nD τ).loc b)) (c : Dev nD)
    (t : Fin cfg1.N) : iblk1 (F := Ideal) V c 4 t = V c main_v25 := by
  obtain ⟨-, -, -, -, -, -, -, -, -, -, e0, e1, -⟩ := idx_facts t
  funext j
  show V c main_v25 (((cfg1.win 4).blk t).view.emb j) = V c main_v25 j
  refine congrArg (V c main_v25) (Shape.idx_ext₂ ?_ ?_)
  · show win1_4.index t (0 : Fin 2) * 1 + 1 * (j 0).val = (j 0).val
    omega
  · show win1_4.index t (1 : Fin 2) * 384 + 1 * (j 1).val = (j 1).val
    omega
theorem iblk_5 (V : (c : Dev nD) → (b : Ref sig .tc) → Buf (Elt Ideal) ((c : Thread nD τ).loc b)) (c : Dev nD)
    (t : Fin cfg1.N) : iblk1 (F := Ideal) V c 5 t = V c main_v28 := by
  obtain ⟨-, -, -, -, -, -, -, -, -, -, -, -, e0, e1⟩ := idx_facts t
  funext j
  show V c main_v28 (((cfg1.win 5).blk t).view.emb j) = V c main_v28 j
  refine congrArg (V c main_v28) (Shape.idx_ext₂ ?_ ?_)
  · show win1_5.index t (0 : Fin 2) * 1 + 1 * (j 0).val = (j 0).val
    omega
  · show win1_5.index t (1 : Fin 2) * 384 + 1 * (j 1).val = (j 1).val
    omega

/-- One grid point, element by element: on blocks that are rows 2000·n … of the two node arrays the body's
    payload at (r, d) is the update of the whole arrays at row 2000·n + r (the update is row by row). -/
theorem point_eq (A H : FVec Ideal ⟨2, ![20000, 128]⟩ .f32) (x0 x1 : FVec Ideal S2000x128 .f32)
    (x2 x3 : FVec Ideal S128x384 .f32) (x4 x5 : FVec Ideal S1x384 .f32) (n : Nat) (r : Fin 2000)
    (hr : 2000 * n + r.val < 20000)
    (h0 : ∀ k : Fin 128, x0 (ix2 r k) = A (ix2 ⟨2000 * n + r.val, hr⟩ k))
    (h1 : ∀ k : Fin 128, x1 (ix2 r k) = H (ix2 ⟨2000 * n + r.val, hr⟩ k)) (d : Fin 128) :
    k1_pay1 (F := Ideal) x0 x1 x2 x3 x4 x5 (ix2 r d)
      = Cert.GnnSpec.gruG A H x2 x3 (Cert.GnnSpec.row0 x4) (Cert.GnnSpec.row0 x5) (ix2 ⟨2000 * n + r.val, hr⟩ d) :=
  (pay_gru1 x0 x1 x2 x3 x4 x5 r d).trans
    (Cert.GnnSpec.gruE_rows (2000 * n) A H x2 x3 (Cert.GnnSpec.row0 x4) (Cert.GnnSpec.row0 x5) x0 x1 r hr h0 h1 d)

/-- Where element j of the output's block t sits in the array: row 2000·t + j₀, column j₁. -/
theorem emb_6 (t : Fin cfg1.N) (j : ((cfg1.win 6).xblock (grid1.coords t)).Idx)
    (h0 : 2000 * t.val + (j 0).val < 20000) (h1 : (j 1).val < 128) :
    ((cfg1.win 6).blk t).view.emb j = ix2 ⟨2000 * t.val + (j 0).val, h0⟩ ⟨(j 1).val, h1⟩ := by
  obtain ⟨e0, e1, -⟩ := idx_facts t
  refine Shape.idx_ext₂ ?_ ?_
  · show win1_6.index t (0 : Fin 2) * 2000 + 1 * (j 0).val = 2000 * t.val + (j 0).val
    omega
  · show win1_6.index t (1 : Fin 2) * 128 + 1 * (j 1).val = (j 1).val
    omega

/-- What grid point t writes back is block t of the update of the whole arrays. -/
theorem flushed_eq (V : (c : Dev nD) → (b : Ref sig .tc) → Buf (Elt Ideal) ((c : Thread nD τ).loc b)) (c : Dev nD)
    (t : Fin cfg1.N) :
    (dat1 (F := Ideal) V c).flushed 6 t
      = ((cfg1.win 6).blk t).view.read (Elt Ideal)
          (Cert.GnnSpec.gruG (V c main_v16) (V c main_arg0) (V c main_v19) (V c main_v22)
            (Cert.GnnSpec.row0 (V c main_v25)) (Cert.GnnSpec.row0 (V c main_v28))) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x384) hz,
    View.ld_unit_zero (S := S1x384) hz]
  rw [iblk_2, iblk_3, iblk_4, iblk_5]
  funext j
  have hj0 : (j 0).val < 2000 := (j 0).isLt
  have hj1 : (j 1).val < 128 := (j 1).isLt
  have ht := t_lt t
  have hrow : 2000 * t.val + (j 0).val < 20000 := by omega
  have hl : (cfg1.win 6).xinj (grid1.coords t) j = ix2 ⟨(j 0).val, hj0⟩ ⟨(j 1).val, hj1⟩ :=
    funext fun a => match a with
      | ⟨0, _⟩ => rfl
      | ⟨1, _⟩ => rfl
  show k1_pay1 (F := Ideal) _ _ _ _ _ _ ((cfg1.win 6).xinj (grid1.coords t) j)
    = Cert.GnnSpec.gruG _ _ _ _ _ _ (((cfg1.win 6).blk t).view.emb j)
  rw [hl, emb_6 t j hrow hj1]
  exact point_eq _ _ _ _ _ _ _ _ t.val ⟨(j 0).val, hj0⟩ hrow (fun k => iblk_0 V c t _ k hrow)
    (fun k => iblk_1 V c t _ k hrow) ⟨(j 1).val, hj1⟩

/-- Every node row is in some point's block: row n is row n % 2000 of block n / 2000. -/
theorem cover (i : (⟨2, ![20000, 128]⟩ : Shape).Idx) :
    ∃ t : Fin cfg1.N, (cfg1.win 6).flush t = true ∧ i ∈ ((cfg1.win 6).blk t).view.set := by
  have hi0 : (i 0).val < 20000 := (i 0).isLt
  have hi1 : (i 1).val < 128 := (i 1).isLt
  have hq : (i 0).val / 2000 < grid1.N := by rw [N_1]; omega
  obtain ⟨t, ht⟩ : ∃ t : Fin cfg1.N, t.val = (i 0).val / 2000 := ⟨⟨(i 0).val / 2000, hq⟩, rfl⟩
  refine ⟨t, flush1_6 t, ?_⟩
  have hm : (i 0).val % 2000 < 2000 := Nat.mod_lt _ (by decide)
  have hrow : 2000 * t.val + (i 0).val % 2000 < 20000 := by omega
  have e' : ((cfg1.win 6).blk t).view.emb (ix2 ⟨(i 0).val % 2000, hm⟩ ⟨(i 1).val, hi1⟩) = i :=
    (emb_6 t _ hrow hi1).trans
      (Shape.idx_ext₂ (by show 2000 * t.val + (i 0).val % 2000 = (i 0).val; omega) rfl)
  rw [← e']
  exact View.emb_mem_set _ _

end Gru1

/-- The array the region leaves: the update of the whole arrays (each point writes its block of it, and the blocks
    cover every row). -/
theorem arr1 (V : (c : Dev nD) → (b : Ref sig .tc) → Buf (Elt Ideal) ((c : Thread nD τ).loc b)) (c : Dev nD) :
    (dat1 (F := Ideal) V c).arrAt 6 cfg1.N
      = Cert.GnnSpec.gruG (V c main_v16) (V c main_arg0) (V c main_v19) (V c main_v22)
          (Cert.GnnSpec.row0 (V c main_v25)) (Cert.GnnSpec.row0 (V c main_v28)) :=
  (dat1 (F := Ideal) V c).arrAt_eq_of_cover 6 _ (fun t _ => Gru1.flushed_eq V c t) Gru1.cover

end Cert.KernelIdeal.Hand

end
-- ==== Proof.KGru3.lean ====
/-
  The gated recurrent update of the node features, one region of the kernel program. Each of the ten grid points takes 2000 rows of
  the aggregated messages a and of the old features h, forms the two affine maps 128 → 384 (a·Wih + bih and
  h·Whh + bhh, each a sum over the contracted axis plus a bias row), cuts them in three bands of 128 columns
  and blends  h' = (1 − z)·n + z·h  with  r = σ(gi₀ + gh₀), z = σ(gi₁ + gh₁), n = tanh(gi₂ + r·gh₂).
  The update acts row by row, so block t of the result is rows 2000·t … 2000·t + 1999 of the update of the
  whole arrays, and the ten blocks tile the 20000 rows: the array the region leaves is that update.
-/
import proofs.«413579_j91036126806070_1_alg».proof.Proof.Gen.KernelIdeal.Frame
import proofs.«413579_j91036126806070_1_alg».proof.Proof.Spec
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

namespace Gru3

/-! ## The product's operand indices: output (r, j), contraction index k ↦ lhs (r, k), rhs (k, j) -/

theorem lhs_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- One blocked product into a zero accumulator, read at (r, j): the sum over the contracted axis. -/
theorem mm_apply (a : FVec Ideal S2000x128 .bf16) (W : FVec Ideal S128x384 .bf16) (r : Fin 2000) (j : Fin 384) :
    matmul dot_S2000x128_S128x384_S2000x384_1_0_0_1_n_n none a W (constant (F := Ideal) S2000x384 .f32 0x00000000#32) (ix2 r j)
      = ∑ k : Fin 128, a (ix2 r k) * W (ix2 k j) := by
  refine (Ideal.matmul_constant_zero_apply dot_S2000x128_S128x384_S2000x384_1_0_0_1_n_n none a W (ix2 r j)).trans ?_
  rw [← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 r j) ((ValueIdx.contrEquiv1 dot_S2000x128_S128x384_S2000x384_1_0_0_1_n_n 128 rfl rfl).symm k) = ix2 r k := funext fun a => Fin.ext (by
    match a with
    | ⟨0, _⟩ => exact lhs_0 _ _
    | ⟨1, _⟩ => exact (lhs_1 _ _).trans hk)
  have er : dot_S2000x128_S128x384_S2000x384_1_0_0_1_n_n.rhsIdx (ix2 r j) ((ValueIdx.contrEquiv1 dot_S2000x128_S128x384_S2000x384_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- One affine map 128 → 384 on a block of 2000 rows, as the body forms it (the product into a zero
    accumulator on operands in the narrower format, plus the bias row repeated down the rows), read at
    (r, j): column j of the map on row r. Narrowing is the identity on the extended reals. -/
theorem gates_apply (a : FVec Ideal S2000x128 .f32) (W : FVec Ideal S128x384 .f32) (b : FVec Ideal S1x384 .f32)
    (r : Fin 2000) (j : Fin 384) :
    matmul dot_S2000x128_S128x384_S2000x384_1_0_0_1_n_n none (truncf .bf16 a Gen.bitsLt_bf16_f32)
          (truncf .bf16 W Gen.bitsLt_bf16_f32) (constant (F := Ideal) S2000x384 .f32 0x00000000#32) (ix2 r j)
        + broadcastTo S2000x384 b Gen.broadcasts_S1x384_S2000x384 (ix2 r j)
      = Cert.GnnSpec.gate a W (Cert.GnnSpec.row0 b) r j := by
  rw [mm_apply]
  unfold Cert.GnnSpec.gate
  refine congrArg₂ (· + ·) rfl ?_
  exact broadcastTo_apply b Gen.broadcasts_S1x384_S2000x384 (ix2 r j) (ix2 0 j) (fun a => match a with
    | ⟨0, _⟩ => rfl
    | ⟨1, _⟩ => rfl)

/-- Band 0 of the 384 gate columns: columns 0 … 127. -/
theorem gates_band0 (g : FVec Ideal S2000x384 .f32) (r : Fin 2000) (d : Fin 128) :
    extractStridedSlice S2000x128 ![0, 0] g Gen.slices_S2000x384_o0_0_S2000x128 (ix2 r d)
      = g (ix2 r (Cert.GnnSpec.band 0 (by omega) d)) :=
  extractStridedSlice_apply ![0, 0] g Gen.slices_S2000x384_o0_0_S2000x128 (ix2 r d) (ix2 r (Cert.GnnSpec.band 0 (by omega) d))
    (fun a => match a with
      | ⟨0, _⟩ => by show r.val = 0 + r.val; omega
      | ⟨1, _⟩ => by show 0 * 128 + d.val = 0 + d.val; omega)

/-- Band 1: columns 128 … 255. -/
theorem gates_band1 (g : FVec Ideal S2000x384 .f32) (r : Fin 2000) (d : Fin 128) :
    extractStridedSlice S2000x128 ![0, 128] g Gen.slices_S2000x384_o0_128_S2000x128 (ix2 r d)
      = g (ix2 r (Cert.GnnSpec.band 1 (by omega) d)) :=
  extractStridedSlice_apply ![0, 128] g Gen.slices_S2000x384_o0_128_S2000x128 (ix2 r d) (ix2 r (Cert.GnnSpec.band 1 (by omega) d))
    (fun a => match a with
      | ⟨0, _⟩ => by show r.val = 0 + r.val; omega
      | ⟨1, _⟩ => by show 1 * 128 + d.val = 128 + d.val; omega)

/-- Band 2: columns 256 … 383. -/
theorem gates_band2 (g : FVec Ideal S2000x384 .f32) (r : Fin 2000) (d : Fin 128) :
    extractStridedSlice S2000x128 ![0, 256] g Gen.slices_S2000x384_o0_256_S2000x128 (ix2 r d)
      = g (ix2 r (Cert.GnnSpec.band 2 (by omega) d)) :=
  extractStridedSlice_apply ![0, 256] g Gen.slices_S2000x384_o0_256_S2000x128 (ix2 r d) (ix2 r (Cert.GnnSpec.band 2 (by omega) d))
    (fun a => match a with
      | ⟨0, _⟩ => by show r.val = 0 + r.val; omega
      | ⟨1, _⟩ => by show 2 * 128 + d.val = 256 + d.val; omega)

/-- The logistic map of a block, read at an index. -/
theorem logistic_at (a : FVec Ideal S2000x128 .f32) (i : S2000x128.Idx) : logistic a i = Ideal.logistic (a i) := rfl
/-- The hyperbolic tangent of a block, read at an index. -/
theorem tanh_at (a : FVec Ideal S2000x128 .f32) (i : S2000x128.Idx) : tanh a i = Ideal.tanh (a i) := rfl

end Gru3

/-- The body's payload at (r, d) is the update of the loaded blocks at (r, d): every pointwise operation is read at
    the index, each band is its 128 columns of the gates, and each gate column is the affine map. -/
theorem pay_gru3 (x0 x1 : FVec Ideal S2000x128 .f32) (x2 x3 : FVec Ideal S128x384 .f32) (x4 x5 : FVec Ideal S1x384 .f32)
    (r : Fin 2000) (d : Fin 128) :
    k3_pay1 (F := Ideal) x0 x1 x2 x3 x4 x5 (ix2 r d)
      = Cert.GnnSpec.gruE x0 x1 x2 x3 (Cert.GnnSpec.row0 x4) (Cert.GnnSpec.row0 x5) r d := by
  unfold k3_pay1
  simp only [shapeCast_self]
  simp only [addf_apply, mulf_apply, subf_apply, broadcast_apply, Gru3.logistic_at, Gru3.tanh_at, Gru3.gates_band0,
    Gru3.gates_band1, Gru3.gates_band2, Gru3.gates_apply, Ideal.ofBits_def]
  unfold Cert.GnnSpec.gruE
  rfl

namespace Gru3

/-! ## From the blocks to the array -/

theorem hz : (![0, 0] : Fin 2 → Nat) = fun _ => 0 := funext fun a => by fin_cases a <;> rfl

/-- The index maps over the ten grid points: the two row-blocked inputs and the output sit at
    block t on the row axis and block 0 on the column axis; the four parameter windows are whole. -/
theorem idx_facts : ∀ t : Fin cfg3.N,
    win3_6.index t (0 : Fin 2) = t.val ∧ win3_6.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem t_lt (t : Fin cfg3.N) : t.val < 10 := by
  have h : t.val < grid3.N := t.isLt
  rw [N_3] at h; exact h

/-- Element (r, k) of block t of the aggregated messages is element (2000·t + r, k) of the array. -/
theorem iblk_0 (V : (c : Dev nD) → (b : Ref sig .tc) → Buf (Elt Ideal) ((c : Thread nD τ).loc b)) (c : Dev nD)
    (t : Fin cfg3.N) (r : Fin 2000) (k : Fin 128) (hr : 2000 * t.val + r.val < 20000) :
    iblk3 (F := Ideal) V c 0 t (ix2 r k) = V c main_v42 (ix2 ⟨2000 * t.val + r.val, hr⟩ k) := by
  obtain ⟨-, -, e0, e1, -⟩ := idx_facts t
  show V c main_v42 (((cfg3.win 0).blk t).view.emb (ix2 r k)) = _
  refine congrArg (V c main_v42) (Shape.idx_ext₂ ?_ ?_)
  · show win3_0.index t (0 : Fin 2) * 2000 + 1 * r.val = 2000 * t.val + r.val
    omega
  · show win3_0.index t (1 : Fin 2) * 128 + 1 * k.val = k.val
    omega

/-- Element (r, k) of block t of the old node features is element (2000·t + r, k) of the array. -/
theorem iblk_1 (V : (c : Dev nD) → (b : Ref sig .tc) → Buf (Elt Ideal) ((c : Thread nD τ).loc b)) (c : Dev nD)
    (t : Fin cfg3.N) (r : Fin 2000) (k : Fin 128) (hr : 2000 * t.val + r.val < 20000) :
    iblk3 (F := Ideal) V c 1 t (ix2 r k) = V c main_v29 (ix2 ⟨2000 * t.val + r.val, hr⟩ k) := by
  obtain ⟨-, -, -, -, e0, e1, -⟩ := idx_facts t
  show V c main_v29 (((cfg3.win 1).blk t).view.emb (ix2 r k)) = _
  refine congrArg (V c main_v29) (Shape.idx_ext₂ ?_ ?_)
  · show win3_1.index t (0 : Fin 2) * 2000 + 1 * r.val = 2000 * t.val + r.val
    omega
  · show win3_1.index t (1 : Fin 2) * 128 + 1 * k.val = k.val
    omega

/-- The four parameter windows' one block is the whole array. -/
theorem iblk_2 (V : (c : Dev nD) → (b : Ref sig .tc) → Buf (Elt Ideal) ((c : Thread nD τ).loc b)) (c : Dev nD)
    (t : Fin cfg3.N) : iblk3 (F := Ideal) V c 2 t = V c main_v45 := by
  obtain ⟨-, -, -, -, -, -, e0, e1, -⟩ := idx_facts t
  funext j
  show V c main_v45 (((cfg3.win 2).blk t).view.emb j) = V c main_v45 j
  refine congrArg (V c main_v45) (Shape.idx_ext₂ ?_ ?_)
  · show win3_2.index t (0 : Fin 2) * 128 + 1 * (j 0).val = (j 0).val
    omega
  · show win3_2.index t (1 : Fin 2) * 384 + 1 * (j 1).val = (j 1).val
    omega
theorem iblk_3 (V : (c : Dev nD) → (b : Ref sig .tc) → Buf (Elt Ideal) ((c : Thread nD τ).loc b)) (c : Dev nD)
    (t : Fin cfg3.N) : iblk3 (F := Ideal) V c 3 t = V c main_v48 := by
  obtain ⟨-, -, -, -, -, -, -, -, e0, e1, -⟩ := idx_facts t
  funext j
  show V c main_v48 (((cfg3.win 3).blk t).view.emb j) = V c main_v48 j
  refine congrArg (V c main_v48) (Shape.idx_ext₂ ?_ ?_)
  · show win3_3.index t (0 : Fin 2) * 128 + 1 * (j 0).val = (j 0).val
    omega
  · show win3_3.index t (1 : Fin 2) * 384 + 1 * (j 1).val = (j 1).val
    omega
theorem iblk_4 (V : (c : Dev nD) → (b : Ref sig .tc) → Buf (Elt Ideal) ((c : Thread nD τ).loc b)) (c : Dev nD)
    (t : Fin cfg3.N) : iblk3 (F := Ideal) V c 4 t = V c main_v51 := by
  obtain ⟨-, -, -, -, -, -, -, -, -, -, e0, e1, -⟩ := idx_facts t
  funext j
  show V c main_v51 (((cfg3.win 4).blk t).view.emb j) = V c main_v51 j
  refine congrArg (V c main_v51) (Shape.idx_ext₂ ?_ ?_)
  · show win3_4.index t (0 : Fin 2) * 1 + 1 * (j 0).val = (j 0).val
    omega
  · show win3_4.index t (1 : Fin 2) * 384 + 1 * (j 1).val = (j 1).val
    omega
theorem iblk_5 (V : (c : Dev nD) → (b : Ref sig .tc) → Buf (Elt Ideal) ((c : Thread nD τ).loc b)) (c : Dev nD)
    (t : Fin cfg3.N) : iblk3 (F := Ideal) V c 5 t = V c main_v54 := by
  obtain ⟨-, -, -, -, -, -, -, -, -, -, -, -, e0, e1⟩ := idx_facts t
  funext j
  show V c main_v54 (((cfg3.win 5).blk t).view.emb j) = V c main_v54 j
  refine congrArg (V c main_v54) (Shape.idx_ext₂ ?_ ?_)
  · show win3_5.index t (0 : Fin 2) * 1 + 1 * (j 0).val = (j 0).val
    omega
  · show win3_5.index t (1 : Fin 2) * 384 + 1 * (j 1).val = (j 1).val
    omega

/-- One grid point, element by element: on blocks that are rows 2000·n … of the two node arrays the body's
    payload at (r, d) is the update of the whole arrays at row 2000·n + r (the update is row by row). -/
theorem point_eq (A H : FVec Ideal ⟨2, ![20000, 128]⟩ .f32) (x0 x1 : FVec Ideal S2000x128 .f32)
    (x2 x3 : FVec Ideal S128x384 .f32) (x4 x5 : FVec Ideal S1x384 .f32) (n : Nat) (r : Fin 2000)
    (hr : 2000 * n + r.val < 20000)
    (h0 : ∀ k : Fin 128, x0 (ix2 r k) = A (ix2 ⟨2000 * n + r.val, hr⟩ k))
    (h1 : ∀ k : Fin 128, x1 (ix2 r k) = H (ix2 ⟨2000 * n + r.val, hr⟩ k)) (d : Fin 128) :
    k3_pay1 (F := Ideal) x0 x1 x2 x3 x4 x5 (ix2 r d)
      = Cert.GnnSpec.gruG A H x2 x3 (Cert.GnnSpec.row0 x4) (Cert.GnnSpec.row0 x5) (ix2 ⟨2000 * n + r.val, hr⟩ d) :=
  (pay_gru3 x0 x1 x2 x3 x4 x5 r d).trans
    (Cert.GnnSpec.gruE_rows (2000 * n) A H x2 x3 (Cert.GnnSpec.row0 x4) (Cert.GnnSpec.row0 x5) x0 x1 r hr h0 h1 d)

/-- Where element j of the output's block t sits in the array: row 2000·t + j₀, column j₁. -/
theorem emb_6 (t : Fin cfg3.N) (j : ((cfg3.win 6).xblock (grid3.coords t)).Idx)
    (h0 : 2000 * t.val + (j 0).val < 20000) (h1 : (j 1).val < 128) :
    ((cfg3.win 6).blk t).view.emb j = ix2 ⟨2000 * t.val + (j 0).val, h0⟩ ⟨(j 1).val, h1⟩ := by
  obtain ⟨e0, e1, -⟩ := idx_facts t
  refine Shape.idx_ext₂ ?_ ?_
  · show win3_6.index t (0 : Fin 2) * 2000 + 1 * (j 0).val = 2000 * t.val + (j 0).val
    omega
  · show win3_6.index t (1 : Fin 2) * 128 + 1 * (j 1).val = (j 1).val
    omega

/-- What grid point t writes back is block t of the update of the whole arrays. -/
theorem flushed_eq (V : (c : Dev nD) → (b : Ref sig .tc) → Buf (Elt Ideal) ((c : Thread nD τ).loc b)) (c : Dev nD)
    (t : Fin cfg3.N) :
    (dat3 (F := Ideal) V c).flushed 6 t
      = ((cfg3.win 6).blk t).view.read (Elt Ideal)
          (Cert.GnnSpec.gruG (V c main_v42) (V c main_v29) (V c main_v45) (V c main_v48)
            (Cert.GnnSpec.row0 (V c main_v51)) (Cert.GnnSpec.row0 (V c main_v54))) := by
  show (cfg3.win 6).cut (grid3.coords t) ((dat3 V c).after 6 t) = _
  rw [after3_6]
  unfold out3_6
  rw [View.canon_unit_zero hz]
  simp only [View.ld_unit_zero (S := S2000x128) hz, View.ld_unit_zero (S := S128x384) hz,
    View.ld_unit_zero (S := S1x384) hz]
  rw [iblk_2, iblk_3, iblk_4, iblk_5]
  funext j
  have hj0 : (j 0).val < 2000 := (j 0).isLt
  have hj1 : (j 1).val < 128 := (j 1).isLt
  have ht := t_lt t
  have hrow : 2000 * t.val + (j 0).val < 20000 := by omega
  have hl : (cfg3.win 6).xinj (grid3.coords t) j = ix2 ⟨(j 0).val, hj0⟩ ⟨(j 1).val, hj1⟩ :=
    funext fun a => match a with
      | ⟨0, _⟩ => rfl
      | ⟨1, _⟩ => rfl
  show k3_pay1 (F := Ideal) _ _ _ _ _ _ ((cfg3.win 6).xinj (grid3.coords t) j)
    = Cert.GnnSpec.gruG _ _ _ _ _ _ (((cfg3.win 6).blk t).view.emb j)
  rw [hl, emb_6 t j hrow hj1]
  exact point_eq _ _ _ _ _ _ _ _ t.val ⟨(j 0).val, hj0⟩ hrow (fun k => iblk_0 V c t _ k hrow)
    (fun k => iblk_1 V c t _ k hrow) ⟨(j 1).val, hj1⟩

/-- Every node row is in some point's block: row n is row n % 2000 of block n / 2000. -/
theorem cover (i : (⟨2, ![20000, 128]⟩ : Shape).Idx) :
    ∃ t : Fin cfg3.N, (cfg3.win 6).flush t = true ∧ i ∈ ((cfg3.win 6).blk t).view.set := by
  have hi0 : (i 0).val < 20000 := (i 0).isLt
  have hi1 : (i 1).val < 128 := (i 1).isLt
  have hq : (i 0).val / 2000 < grid3.N := by rw [N_3]; omega
  obtain ⟨t, ht⟩ : ∃ t : Fin cfg3.N, t.val = (i 0).val / 2000 := ⟨⟨(i 0).val / 2000, hq⟩, rfl⟩
  refine ⟨t, flush3_6 t, ?_⟩
  have hm : (i 0).val % 2000 < 2000 := Nat.mod_lt _ (by decide)
  have hrow : 2000 * t.val + (i 0).val % 2000 < 20000 := by omega
  have e' : ((cfg3.win 6).blk t).view.emb (ix2 ⟨(i 0).val % 2000, hm⟩ ⟨(i 1).val, hi1⟩) = i :=
    (emb_6 t _ hrow hi1).trans
      (Shape.idx_ext₂ (by show 2000 * t.val + (i 0).val % 2000 = (i 0).val; omega) rfl)
  rw [← e']
  exact View.emb_mem_set _ _

end Gru3

/-- The array the region leaves: the update of the whole arrays (each point writes its block of it, and the blocks
    cover every row). -/
theorem arr3 (V : (c : Dev nD) → (b : Ref sig .tc) → Buf (Elt Ideal) ((c : Thread nD τ).loc b)) (c : Dev nD) :
    (dat3 (F := Ideal) V c).arrAt 6 cfg3.N
      = Cert.GnnSpec.gruG (V c main_v42) (V c main_v29) (V c main_v45) (V c main_v48)
          (Cert.GnnSpec.row0 (V c main_v51)) (Cert.GnnSpec.row0 (V c main_v54)) :=
  (dat3 (F := Ideal) V c).arrAt_eq_of_cover 6 _ (fun t _ => Gru3.flushed_eq V c t) Gru3.cover

end Cert.KernelIdeal.Hand

end
-- ==== Proof.KGru5.lean ====
/-
  The gated recurrent update of the node features, one region of the kernel program. Each of the ten grid points takes 2000 rows of
  the aggregated messages a and of the old features h, forms the two affine maps 128 → 384 (a·Wih + bih and
  h·Whh + bhh, each a sum over the contracted axis plus a bias row), cuts them in three bands of 128 columns
  and blends  h' = (1 − z)·n + z·h  with  r = σ(gi₀ + gh₀), z = σ(gi₁ + gh₁), n = tanh(gi₂ + r·gh₂).
  The update acts row by row, so block t of the result is rows 2000·t … 2000·t + 1999 of the update of the
  whole arrays, and the ten blocks tile the 20000 rows: the array the region leaves is that update.
-/
import proofs.«413579_j91036126806070_1_alg».proof.Proof.Gen.KernelIdeal.Frame
import proofs.«413579_j91036126806070_1_alg».proof.Proof.Spec
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)

namespace Gru5

/-! ## The product's operand indices: output (r, j), contraction index k ↦ lhs (r, k), rhs (k, j) -/

theorem lhs_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- One blocked product into a zero accumulator, read at (r, j): the sum over the contracted axis. -/
theorem mm_apply (a : FVec Ideal S2000x128 .bf16) (W : FVec Ideal S128x384 .bf16) (r : Fin 2000) (j : Fin 384) :
    matmul dot_S2000x128_S128x384_S2000x384_1_0_0_1_n_n none a W (constant (F := Ideal) S2000x384 .f32 0x00000000#32) (ix2 r j)
      = ∑ k : Fin 128, a (ix2 r k) * W (ix2 k j) := by
  refine (Ideal.matmul_constant_zero_apply dot_S2000x128_S128x384_S2000x384_1_0_0_1_n_n none a W (ix2 r j)).trans ?_
  rw [← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 r j) ((ValueIdx.contrEquiv1 dot_S2000x128_S128x384_S2000x384_1_0_0_1_n_n 128 rfl rfl).symm k) = ix2 r k := funext fun a => Fin.ext (by
    match a with
    | ⟨0, _⟩ => exact lhs_0 _ _
    | ⟨1, _⟩ => exact (lhs_1 _ _).trans hk)
  have er : dot_S2000x128_S128x384_S2000x384_1_0_0_1_n_n.rhsIdx (ix2 r j) ((ValueIdx.contrEquiv1 dot_S2000x128_S128x384_S2000x384_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- One affine map 128 → 384 on a block of 2000 rows, as the body forms it (the product into a zero
    accumulator on operands in the narrower format, plus the bias row repeated down the rows), read at
    (r, j): column j of the map on row r. Narrowing is the identity on the extended reals. -/
theorem gates_apply (a : FVec Ideal S2000x128 .f32) (W : FVec Ideal S128x384 .f32) (b : FVec Ideal S1x384 .f32)
    (r : Fin 2000) (j : Fin 384) :
    matmul dot_S2000x128_S128x384_S2000x384_1_0_0_1_n_n none (truncf .bf16 a Gen.bitsLt_bf16_f32)
          (truncf .bf16 W Gen.bitsLt_bf16_f32) (constant (F := Ideal) S2000x384 .f32 0x00000000#32) (ix2 r j)
        + broadcastTo S2000x384 b Gen.broadcasts_S1x384_S2000x384 (ix2 r j)
      = Cert.GnnSpec.gate a W (Cert.GnnSpec.row0 b) r j := by
  rw [mm_apply]
  unfold Cert.GnnSpec.gate
  refine congrArg₂ (· + ·) rfl ?_
  exact broadcastTo_apply b Gen.broadcasts_S1x384_S2000x384 (ix2 r j) (ix2 0 j) (fun a => match a with
    | ⟨0, _⟩ => rfl
    | ⟨1, _⟩ => rfl)

/-- Band 0 of the 384 gate columns: columns 0 … 127. -/
theorem gates_band0 (g : FVec Ideal S2000x384 .f32) (r : Fin 2000) (d : Fin 128) :
    extractStridedSlice S2000x128 ![0, 0] g Gen.slices_S2000x384_o0_0_S2000x128 (ix2 r d)
      = g (ix2 r (Cert.GnnSpec.band 0 (by omega) d)) :=
  extractStridedSlice_apply ![0, 0] g Gen.slices_S2000x384_o0_0_S2000x128 (ix2 r d) (ix2 r (Cert.GnnSpec.band 0 (by omega) d))
    (fun a => match a with
      | ⟨0, _⟩ => by show r.val = 0 + r.val; omega
      | ⟨1, _⟩ => by show 0 * 128 + d.val = 0 + d.val; omega)

/-- Band 1: columns 128 … 255. -/
theorem gates_band1 (g : FVec Ideal S2000x384 .f32) (r : Fin 2000) (d : Fin 128) :
    extractStridedSlice S2000x128 ![0, 128] g Gen.slices_S2000x384_o0_128_S2000x128 (ix2 r d)
      = g (ix2 r (Cert.GnnSpec.band 1 (by omega) d)) :=
  extractStridedSlice_apply ![0, 128] g Gen.slices_S2000x384_o0_128_S2000x128 (ix2 r d) (ix2 r (Cert.GnnSpec.band 1 (by omega) d))
    (fun a => match a with
      | ⟨0, _⟩ => by show r.val = 0 + r.val; omega
      | ⟨1, _⟩ => by show 1 * 128 + d.val = 128 + d.val; omega)

/-- Band 2: columns 256 … 383. -/
theorem gates_band2 (g : FVec Ideal S2000x384 .f32) (r : Fin 2000) (d : Fin 128) :
    extractStridedSlice S2000x128 ![0, 256] g Gen.slices_S2000x384_o0_256_S2000x128 (ix2 r d)
      = g (ix2 r (Cert.GnnSpec.band 2 (by omega) d)) :=
  extractStridedSlice_apply ![0, 256] g Gen.slices_S2000x384_o0_256_S2000x128 (ix2 r d) (ix2 r (Cert.GnnSpec.band 2 (by omega) d))
    (fun a => match a with
      | ⟨0, _⟩ => by show r.val = 0 + r.val; omega
      | ⟨1, _⟩ => by show 2 * 128 + d.val = 256 + d.val; omega)

/-- The logistic map of a block, read at an index. -/
theorem logistic_at (a : FVec Ideal S2000x128 .f32) (i : S2000x128.Idx) : logistic a i = Ideal.logistic (a i) := rfl
/-- The hyperbolic tangent of a block, read at an index. -/
theorem tanh_at (a : FVec Ideal S2000x128 .f32) (i : S2000x128.Idx) : tanh a i = Ideal.tanh (a i) := rfl

end Gru5

/-- The body's payload at (r, d) is the update of the loaded blocks at (r, d): every pointwise operation is read at
    the index, each band is its 128 columns of the gates, and each gate column is the affine map. -/
theorem pay_gru5 (x0 x1 : FVec Ideal S2000x128 .f32) (x2 x3 : FVec Ideal S128x384 .f32) (x4 x5 : FVec Ideal S1x384 .f32)
    (r : Fin 2000) (d : Fin 128) :
    k5_pay1 (F := Ideal) x0 x1 x2 x3 x4 x5 (ix2 r d)
      = Cert.GnnSpec.gruE x0 x1 x2 x3 (Cert.GnnSpec.row0 x4) (Cert.GnnSpec.row0 x5) r d := by
  unfold k5_pay1
  simp only [shapeCast_self]
  simp only [addf_apply, mulf_apply, subf_apply, broadcast_apply, Gru5.logistic_at, Gru5.tanh_at, Gru5.gates_band0,
    Gru5.gates_band1, Gru5.gates_band2, Gru5.gates_apply, Ideal.ofBits_def]
  unfold Cert.GnnSpec.gruE
  rfl

namespace Gru5

/-! ## From the blocks to the array -/

theorem hz : (![0, 0] : Fin 2 → Nat) = fun _ => 0 := funext fun a => by fin_cases a <;> rfl

/-- The index maps over the ten grid points: the two row-blocked inputs and the output sit at
    block t on the row axis and block 0 on the column axis; the four parameter windows are whole. -/
theorem idx_facts : ∀ t : Fin cfg5.N,
    win5_6.index t (0 : Fin 2) = t.val ∧ win5_6.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

theorem t_lt (t : Fin cfg5.N) : t.val < 10 := by
  have h : t.val < grid5.N := t.isLt
  rw [N_5] at h; exact h

/-- Element (r, k) of block t of the aggregated messages is element (2000·t + r, k) of the array. -/
theorem iblk_0 (V : (c : Dev nD) → (b : Ref sig .tc) → Buf (Elt Ideal) ((c : Thread nD τ).loc b)) (c : Dev nD)
    (t : Fin cfg5.N) (r : Fin 2000) (k : Fin 128) (hr : 2000 * t.val + r.val < 20000) :
    iblk5 (F := Ideal) V c 0 t (ix2 r k) = V c main_v68 (ix2 ⟨2000 * t.val + r.val, hr⟩ k) := by
  obtain ⟨-, -, e0, e1, -⟩ := idx_facts t
  show V c main_v68 (((cfg5.win 0).blk t).view.emb (ix2 r k)) = _
  refine congrArg (V c main_v68) (Shape.idx_ext₂ ?_ ?_)
  · show win5_0.index t (0 : Fin 2) * 2000 + 1 * r.val = 2000 * t.val + r.val
    omega
  · show win5_0.index t (1 : Fin 2) * 128 + 1 * k.val = k.val
    omega

/-- Element (r, k) of block t of the old node features is element (2000·t + r, k) of the array. -/
theorem iblk_1 (V : (c : Dev nD) → (b : Ref sig .tc) → Buf (Elt Ideal) ((c : Thread nD τ).loc b)) (c : Dev nD)
    (t : Fin cfg5.N) (r : Fin 2000) (k : Fin 128) (hr : 2000 * t.val + r.val < 20000) :
    iblk5 (F := Ideal) V c 1 t (ix2 r k) = V c main_v55 (ix2 ⟨2000 * t.val + r.val, hr⟩ k) := by
  obtain ⟨-, -, -, -, e0, e1, -⟩ := idx_facts t
  show V c main_v55 (((cfg5.win 1).blk t).view.emb (ix2 r k)) = _
  refine congrArg (V c main_v55) (Shape.idx_ext₂ ?_ ?_)
  · show win5_1.index t (0 : Fin 2) * 2000 + 1 * r.val = 2000 * t.val + r.val
    omega
  · show win5_1.index t (1 : Fin 2) * 128 + 1 * k.val = k.val
    omega

/-- The four parameter windows' one block is the whole array. -/
theorem iblk_2 (V : (c : Dev nD) → (b : Ref sig .tc) → Buf (Elt Ideal) ((c : Thread nD τ).loc b)) (c : Dev nD)
    (t : Fin cfg5.N) : iblk5 (F := Ideal) V c 2 t = V c main_v71 := by
  obtain ⟨-, -, -, -, -, -, e0, e1, -⟩ := idx_facts t
  funext j
  show V c main_v71 (((cfg5.win 2).blk t).view.emb j) = V c main_v71 j
  refine congrArg (V c main_v71) (Shape.idx_ext₂ ?_ ?_)
  · show win5_2.index t (0 : Fin 2) * 128 + 1 * (j 0).val = (j 0).val
    omega
  · show win5_2.index t (1 : Fin 2) * 384 + 1 * (j 1).val = (j 1).val
    omega
theorem iblk_3 (V : (c : Dev nD) → (b : Ref sig .tc) → Buf (Elt Ideal) ((c : Thread nD τ).loc b)) (c : Dev nD)
    (t : Fin cfg5.N) : iblk5 (F := Ideal) V c 3 t = V c main_v74 := by
  obtain ⟨-, -, -, -, -, -, -, -, e0, e1, -⟩ := idx_facts t
  funext j
  show V c main_v74 (((cfg5.win 3).blk t).view.emb j) = V c main_v74 j
  refine congrArg (V c main_v74) (Shape.idx_ext₂ ?_ ?_)
  · show win5_3.index t (0 : Fin 2) * 128 + 1 * (j 0).val = (j 0).val
    omega
  · show win5_3.index t (1 : Fin 2) * 384 + 1 * (j 1).val = (j 1).val
    omega
theorem iblk_4 (V : (c : Dev nD) → (b : Ref sig .tc) → Buf (Elt Ideal) ((c : Thread nD τ).loc b)) (c : Dev nD)
    (t : Fin cfg5.N) : iblk5 (F := Ideal) V c 4 t = V c main_v77 := by
  obtain ⟨-, -, -, -, -, -, -, -, -, -, e0, e1, -⟩ := idx_facts t
  funext j
  show V c main_v77 (((cfg5.win 4).blk t).view.emb j) = V c main_v77 j
  refine congrArg (V c main_v77) (Shape.idx_ext₂ ?_ ?_)
  · show win5_4.index t (0 : Fin 2) * 1 + 1 * (j 0).val = (j 0).val
    omega
  · show win5_4.index t (1 : Fin 2) * 384 + 1 * (j 1).val = (j 1).val
    omega
theorem iblk_5 (V : (c : Dev nD) → (b : Ref sig .tc) → Buf (Elt Ideal) ((c : Thread nD τ).loc b)) (c : Dev nD)
    (t : Fin cfg5.N) : iblk5 (F := Ideal) V c 5 t = V c main_v80 := by
  obtain ⟨-, -, -, -, -, -, -, -, -, -, -, -, e0, e1⟩ := idx_facts t
  funext j
  show V c main_v80 (((cfg5.win 5).blk t).view.emb j) = V c main_v80 j
  refine congrArg (V c main_v80) (Shape.idx_ext₂ ?_ ?_)
  · show win5_5.index t (0 : Fin 2) * 1 + 1 * (j 0).val = (j 0).val
    omega
  · show win5_5.index t (1 : Fin 2) * 384 + 1 * (j 1).val = (j 1).val
    omega

/-- One grid point, element by element: on blocks that are rows 2000·n … of the two node arrays the body's
    payload at (r, d) is the update of the whole arrays at row 2000·n + r (the update is row by row). -/
theorem point_eq (A H : FVec Ideal ⟨2, ![20000, 128]⟩ .f32) (x0 x1 : FVec Ideal S2000x128 .f32)
    (x2 x3 : FVec Ideal S128x384 .f32) (x4 x5 : FVec Ideal S1x384 .f32) (n : Nat) (r : Fin 2000)
    (hr : 2000 * n + r.val < 20000)
    (h0 : ∀ k : Fin 128, x0 (ix2 r k) = A (ix2 ⟨2000 * n + r.val, hr⟩ k))
    (h1 : ∀ k : Fin 128, x1 (ix2 r k) = H (ix2 ⟨2000 * n + r.val, hr⟩ k)) (d : Fin 128) :
    k5_pay1 (F := Ideal) x0 x1 x2 x3 x4 x5 (ix2 r d)
      = Cert.GnnSpec.gruG A H x2 x3 (Cert.GnnSpec.row0 x4) (Cert.GnnSpec.row0 x5) (ix2 ⟨2000 * n + r.val, hr⟩ d) :=
  (pay_gru5 x0 x1 x2 x3 x4 x5 r d).trans
    (Cert.GnnSpec.gruE_rows (2000 * n) A H x2 x3 (Cert.GnnSpec.row0 x4) (Cert.GnnSpec.row0 x5) x0 x1 r hr h0 h1 d)

/-- Where element j of the output's block t sits in the array: row 2000·t + j₀, column j₁. -/
theorem emb_6 (t : Fin cfg5.N) (j : ((cfg5.win 6).xblock (grid5.coords t)).Idx)
    (h0 : 2000 * t.val + (j 0).val < 20000) (h1 : (j 1).val < 128) :
    ((cfg5.win 6).blk t).view.emb j = ix2 ⟨2000 * t.val + (j 0).val, h0⟩ ⟨(j 1).val, h1⟩ := by
  obtain ⟨e0, e1, -⟩ := idx_facts t
  refine Shape.idx_ext₂ ?_ ?_
  · show win5_6.index t (0 : Fin 2) * 2000 + 1 * (j 0).val = 2000 * t.val + (j 0).val
    omega
  · show win5_6.index t (1 : Fin 2) * 128 + 1 * (j 1).val = (j 1).val
    omega

/-- What grid point t writes back is block t of the update of the whole arrays. -/
theorem flushed_eq (V : (c : Dev nD) → (b : Ref sig .tc) → Buf (Elt Ideal) ((c : Thread nD τ).loc b)) (c : Dev nD)
    (t : Fin cfg5.N) :
    (dat5 (F := Ideal) V c).flushed 6 t
      = ((cfg5.win 6).blk t).view.read (Elt Ideal)
          (Cert.GnnSpec.gruG (V c main_v68) (V c main_v55) (V c main_v71) (V c main_v74)
            (Cert.GnnSpec.row0 (V c main_v77)) (Cert.GnnSpec.row0 (V c main_v80))) := by
  show (cfg5.win 6).cut (grid5.coords t) ((dat5 V c).after 6 t) = _
  rw [after5_6]
  unfold out5_6
  rw [View.canon_unit_zero hz]
  simp only [View.ld_unit_zero (S := S2000x128) hz, View.ld_unit_zero (S := S128x384) hz,
    View.ld_unit_zero (S := S1x384) hz]
  rw [iblk_2, iblk_3, iblk_4, iblk_5]
  funext j
  have hj0 : (j 0).val < 2000 := (j 0).isLt
  have hj1 : (j 1).val < 128 := (j 1).isLt
  have ht := t_lt t
  have hrow : 2000 * t.val + (j 0).val < 20000 := by omega
  have hl : (cfg5.win 6).xinj (grid5.coords t) j = ix2 ⟨(j 0).val, hj0⟩ ⟨(j 1).val, hj1⟩ :=
    funext fun a => match a with
      | ⟨0, _⟩ => rfl
      | ⟨1, _⟩ => rfl
  show k5_pay1 (F := Ideal) _ _ _ _ _ _ ((cfg5.win 6).xinj (grid5.coords t) j)
    = Cert.GnnSpec.gruG _ _ _ _ _ _ (((cfg5.win 6).blk t).view.emb j)
  rw [hl, emb_6 t j hrow hj1]
  exact point_eq _ _ _ _ _ _ _ _ t.val ⟨(j 0).val, hj0⟩ hrow (fun k => iblk_0 V c t _ k hrow)
    (fun k => iblk_1 V c t _ k hrow) ⟨(j 1).val, hj1⟩

/-- Every node row is in some point's block: row n is row n % 2000 of block n / 2000. -/
theorem cover (i : (⟨2, ![20000, 128]⟩ : Shape).Idx) :
    ∃ t : Fin cfg5.N, (cfg5.win 6).flush t = true ∧ i ∈ ((cfg5.win 6).blk t).view.set := by
  have hi0 : (i 0).val < 20000 := (i 0).isLt
  have hi1 : (i 1).val < 128 := (i 1).isLt
  have hq : (i 0).val / 2000 < grid5.N := by rw [N_5]; omega
  obtain ⟨t, ht⟩ : ∃ t : Fin cfg5.N, t.val = (i 0).val / 2000 := ⟨⟨(i 0).val / 2000, hq⟩, rfl⟩
  refine ⟨t, flush5_6 t, ?_⟩
  have hm : (i 0).val % 2000 < 2000 := Nat.mod_lt _ (by decide)
  have hrow : 2000 * t.val + (i 0).val % 2000 < 20000 := by omega
  have e' : ((cfg5.win 6).blk t).view.emb (ix2 ⟨(i 0).val % 2000, hm⟩ ⟨(i 1).val, hi1⟩) = i :=
    (emb_6 t _ hrow hi1).trans
      (Shape.idx_ext₂ (by show 2000 * t.val + (i 0).val % 2000 = (i 0).val; omega) rfl)
  rw [← e']
  exact View.emb_mem_set _ _

end Gru5

/-- The array the region leaves: the update of the whole arrays (each point writes its block of it, and the blocks
    cover every row). -/
theorem arr5 (V : (c : Dev nD) → (b : Ref sig .tc) → Buf (Elt Ideal) ((c : Thread nD τ).loc b)) (c : Dev nD) :
    (dat5 (F := Ideal) V c).arrAt 6 cfg5.N
      = Cert.GnnSpec.gruG (V c main_v68) (V c main_v55) (V c main_v71) (V c main_v74)
          (Cert.GnnSpec.row0 (V c main_v77)) (Cert.GnnSpec.row0 (V c main_v80)) :=
  (dat5 (F := Ideal) V c).arrAt_eq_of_cover 6 _ (fun t _ => Gru5.flushed_eq V c t) Gru5.cover

end Cert.KernelIdeal.Hand

end
-- ==== Proof.KTakeOps.lean ====
/- The kernel program's six gathers of node rows at the edges' endpoints (source and target, in each of the three layers), each as the literal list of its 23 operations over the plain buffers, every function stated at its buffers' literal types. -/
import proofs.«413579_j91036126806070_1_alg».proof.KernelIdeal
import proofs.«413579_j91036126806070_1_alg».proof.Proof.Gen.KernelIdeal
import Idealize.ShloMosaic.Lib.StableHlo
import Idealize.ShloMosaic.PureOps.Ideal

noncomputable section

namespace Cert.KernelIdeal.Hand

open Cert.KernelIdeal Idealize.ShloMosaic Idealize.SL.Sem

/-- The rows of main_arg0 at the edges' source endpoints main_v1, into main_v4: the 23 operations of hostOps0_1. -/
abbrev hostOps0_1_plain : List (HloOp τ sig (Elt Ideal)) :=
  [ StableHlo.nullary main_call0_c (((constantI S_ 32 0#32)) : (⟨S_, .i32⟩ : BufTy).Contents (Elt Ideal)),
    StableHlo.unary main_call0_c main_call0_v0 (((broadcastInDim S640000 ![] Facts₀.bcast_S_S640000)) : (⟨S_, .i32⟩ : BufTy).Contents (Elt Ideal) → (⟨S640000, .i32⟩ : BufTy).Contents (Elt Ideal)),
    StableHlo.binary main_v1 main_call0_v0 main_call0_v1 (((cmpi .slt)) : (⟨S640000, .i32⟩ : BufTy).Contents (Elt Ideal) → (⟨S640000, .i32⟩ : BufTy).Contents (Elt Ideal) → (⟨S640000, .i1⟩ : BufTy).Contents (Elt Ideal)),
    StableHlo.nullary main_call0_c_0 (((constantI S_ 32 20000#32)) : (⟨S_, .i32⟩ : BufTy).Contents (Elt Ideal)),
    StableHlo.unary main_call0_c_0 main_call0_v2 (((broadcastInDim S640000 ![] Facts₀.bcast_S_S640000)) : (⟨S_, .i32⟩ : BufTy).Contents (Elt Ideal) → (⟨S640000, .i32⟩ : BufTy).Contents (Elt Ideal)),
    StableHlo.binary main_v1 main_call0_v2 main_call0_v3 ((addi) : (⟨S640000, .i32⟩ : BufTy).Contents (Elt Ideal) → (⟨S640000, .i32⟩ : BufTy).Contents (Elt Ideal) → (⟨S640000, .i32⟩ : BufTy).Contents (Elt Ideal)),
    StableHlo.ternary main_call0_v1 main_call0_v3 main_v1 main_call0_v4 ((select) : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)),
    StableHlo.unary main_call0_v4 main_call0_v5 (((broadcastInDim S640000x1 ![0] Facts₀.bcast_S640000_S640000x1_0)) : (⟨S640000, .i32⟩ : BufTy).Contents (Elt Ideal) → (⟨S640000x1, .i32⟩ : BufTy).Contents (Elt Ideal)),
    StableHlo.nullary main_call0_c_1 (((constantI S1 32 19999#32)) : (⟨S1, .i32⟩ : BufTy).Contents (Elt Ideal)),
    StableHlo.nullary main_call0_c_2 (((constantI S_ 32 0#32)) : (⟨S_, .i32⟩ : BufTy).Contents (Elt Ideal)),
    StableHlo.unary main_call0_c_2 main_call0_v6 (((broadcastInDim S640000x1 ![] Facts₀.bcast_S_S640000x1)) : (⟨S_, .i32⟩ : BufTy).Contents (Elt Ideal) → (⟨S640000x1, .i32⟩ : BufTy).Contents (Elt Ideal)),
    StableHlo.binary main_call0_v5 main_call0_v6 main_call0_v7 (((cmpi .sge)) : (⟨S640000x1, .i32⟩ : BufTy).Contents (Elt Ideal) → (⟨S640000x1, .i32⟩ : BufTy).Contents (Elt Ideal) → (⟨S640000x1, .i1⟩ : BufTy).Contents (Elt Ideal)),
    StableHlo.unary main_call0_c_1 main_call0_v8 (((broadcastInDim S1x1 ![1] Facts₀.bcast_S1_S1x1_1)) : (⟨S1, .i32⟩ : BufTy).Contents (Elt Ideal) → (⟨S1x1, .i32⟩ : BufTy).Contents (Elt Ideal)),
    StableHlo.unary main_call0_v8 main_call0_v9 (((broadcastInDim S640000x1 ![0, 1] Facts₀.bcast_S1x1_S640000x1_0_1)) : (⟨S1x1, .i32⟩ : BufTy).Contents (Elt Ideal) → (⟨S640000x1, .i32⟩ : BufTy).Contents (Elt Ideal)),
    StableHlo.binary main_call0_v5 main_call0_v9 main_call0_v10 (((cmpi .sle)) : (⟨S640000x1, .i32⟩ : BufTy).Contents (Elt Ideal) → (⟨S640000x1, .i32⟩ : BufTy).Contents (Elt Ideal) → (⟨S640000x1, .i1⟩ : BufTy).Contents (Elt Ideal)),
    StableHlo.binary main_call0_v7 main_call0_v10 main_call0_v11 ((andi) : (⟨S640000x1, .i1⟩ : BufTy).Contents (Elt Ideal) → (⟨S640000x1, .i1⟩ : BufTy).Contents (Elt Ideal) → (⟨S640000x1, .i1⟩ : BufTy).Contents (Elt Ideal)),
    StableHlo.nullary main_call0_c_3 (((constantI S_ 1 1#1)) : (⟨S_, .i1⟩ : BufTy).Contents (Elt Ideal)),
    StableHlo.binary main_call0_v11 main_call0_c_3 main_call0_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)),
    StableHlo.binary main_arg0 main_call0_v5 main_call0_v13 (((fun x i => Host.gather gather_S20000x128_S640000x1_S640000x128_1_0_n_n_0_1_1128 x i)) : (⟨S20000x128, .f32⟩ : BufTy).Contents (Elt Ideal) → (⟨S640000x1, .i32⟩ : BufTy).Contents (Elt Ideal) → (⟨S640000x128, .f32⟩ : BufTy).Contents (Elt Ideal)),
    StableHlo.unary main_call0_v12 main_call0_v14 (((broadcastInDim S640000x128 ![0] Facts₀.bcast_S640000_S640000x128_0)) : (⟨S640000, .i1⟩ : BufTy).Contents (Elt Ideal) → (⟨S640000x128, .i1⟩ : BufTy).Contents (Elt Ideal)),
    StableHlo.nullary main_call0_cst (((constant (F := Ideal) S_ .f32 0x7FC00000#32)) : (⟨S_, .f32⟩ : BufTy).Contents (Elt Ideal)),
    StableHlo.unary main_call0_cst main_call0_v15 (((broadcastInDim S640000x128 ![] Facts₀.bcast_S_S640000x128)) : (⟨S_, .f32⟩ : BufTy).Contents (Elt Ideal) → (⟨S640000x128, .f32⟩ : BufTy).Contents (Elt Ideal)),
    StableHlo.ternary main_call0_v14 main_call0_v13 main_call0_v15 main_v4 ((select) : (⟨S640000x128, .i1⟩ : BufTy).Contents (Elt Ideal) → (⟨S640000x128, .f32⟩ : BufTy).Contents (Elt Ideal) → (⟨S640000x128, .f32⟩ : BufTy).Contents (Elt Ideal) → (⟨S640000x128, .f32⟩ : BufTy).Contents (Elt Ideal)) ]

/-- The rows of main_arg0 at the edges' target endpoints main_v3, into main_v5: the 23 operations of hostOps0_2. -/
abbrev hostOps0_2_plain : List (HloOp τ sig (Elt Ideal)) :=
  [ StableHlo.nullary main_call1_c (((constantI S_ 32 0#32)) : (⟨S_, .i32⟩ : BufTy).Contents (Elt Ideal)),
    StableHlo.unary main_call1_c main_call1_v0 (((broadcastInDim S640000 ![] Facts₀.bcast_S_S640000)) : (⟨S_, .i32⟩ : BufTy).Contents (Elt Ideal) → (⟨S640000, .i32⟩ : BufTy).Contents (Elt Ideal)),
    StableHlo.binary main_v3 main_call1_v0 main_call1_v1 (((cmpi .slt)) : (⟨S640000, .i32⟩ : BufTy).Contents (Elt Ideal) → (⟨S640000, .i32⟩ : BufTy).Contents (Elt Ideal) → (⟨S640000, .i1⟩ : BufTy).Contents (Elt Ideal)),
    StableHlo.nullary main_call1_c_0 (((constantI S_ 32 20000#32)) : (⟨S_, .i32⟩ : BufTy).Contents (Elt Ideal)),
    StableHlo.unary main_call1_c_0 main_call1_v2 (((broadcastInDim S640000 ![] Facts₀.bcast_S_S640000)) : (⟨S_, .i32⟩ : BufTy).Contents (Elt Ideal) → (⟨S640000, .i32⟩ : BufTy).Contents (Elt Ideal)),
    StableHlo.binary main_v3 main_call1_v2 main_call1_v3 ((addi) : (⟨S640000, .i32⟩ : BufTy).Contents (Elt Ideal) → (⟨S640000, .i32⟩ : BufTy).Contents (Elt Ideal) → (⟨S640000, .i32⟩ : BufTy).Contents (Elt Ideal)),
    StableHlo.ternary main_call1_v1 main_call1_v3 main_v3 main_call1_v4 ((select) : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)),
    StableHlo.unary main_call1_v4 main_call1_v5 (((broadcastInDim S640000x1 ![0] Facts₀.bcast_S640000_S640000x1_0)) : (⟨S640000, .i32⟩ : BufTy).Contents (Elt Ideal) → (⟨S640000x1, .i32⟩ : BufTy).Contents (Elt Ideal)),
    StableHlo.nullary main_call1_c_1 (((constantI S1 32 19999#32)) : (⟨S1, .i32⟩ : BufTy).Contents (Elt Ideal)),
    StableHlo.nullary main_call1_c_2 (((constantI S_ 32 0#32)) : (⟨S_, .i32⟩ : BufTy).Contents (Elt Ideal)),
    StableHlo.unary main_call1_c_2 main_call1_v6 (((broadcastInDim S640000x1 ![] Facts₀.bcast_S_S640000x1)) : (⟨S_, .i32⟩ : BufTy).Contents (Elt Ideal) → (⟨S640000x1, .i32⟩ : BufTy).Contents (Elt Ideal)),
    StableHlo.binary main_call1_v5 main_call1_v6 main_call1_v7 (((cmpi .sge)) : (⟨S640000x1, .i32⟩ : BufTy).Contents (Elt Ideal) → (⟨S640000x1, .i32⟩ : BufTy).Contents (Elt Ideal) → (⟨S640000x1, .i1⟩ : BufTy).Contents (Elt Ideal)),
    StableHlo.unary main_call1_c_1 main_call1_v8 (((broadcastInDim S1x1 ![1] Facts₀.bcast_S1_S1x1_1)) : (⟨S1, .i32⟩ : BufTy).Contents (Elt Ideal) → (⟨S1x1, .i32⟩ : BufTy).Contents (Elt Ideal)),
    StableHlo.unary main_call1_v8 main_call1_v9 (((broadcastInDim S640000x1 ![0, 1] Facts₀.bcast_S1x1_S640000x1_0_1)) : (⟨S1x1, .i32⟩ : BufTy).Contents (Elt Ideal) → (⟨S640000x1, .i32⟩ : BufTy).Contents (Elt Ideal)),
    StableHlo.binary main_call1_v5 main_call1_v9 main_call1_v10 (((cmpi .sle)) : (⟨S640000x1, .i32⟩ : BufTy).Contents (Elt Ideal) → (⟨S640000x1, .i32⟩ : BufTy).Contents (Elt Ideal) → (⟨S640000x1, .i1⟩ : BufTy).Contents (Elt Ideal)),
    StableHlo.binary main_call1_v7 main_call1_v10 main_call1_v11 ((andi) : (⟨S640000x1, .i1⟩ : BufTy).Contents (Elt Ideal) → (⟨S640000x1, .i1⟩ : BufTy).Contents (Elt Ideal) → (⟨S640000x1, .i1⟩ : BufTy).Contents (Elt Ideal)),
    StableHlo.nullary main_call1_c_3 (((constantI S_ 1 1#1)) : (⟨S_, .i1⟩ : BufTy).Contents (Elt Ideal)),
    StableHlo.binary main_call1_v11 main_call1_c_3 main_call1_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)),
    StableHlo.binary main_arg0 main_call1_v5 main_call1_v13 (((fun x i => Host.gather gather_S20000x128_S640000x1_S640000x128_1_0_n_n_0_1_1128 x i)) : (⟨S20000x128, .f32⟩ : BufTy).Contents (Elt Ideal) → (⟨S640000x1, .i32⟩ : BufTy).Contents (Elt Ideal) → (⟨S640000x128, .f32⟩ : BufTy).Contents (Elt Ideal)),
    StableHlo.unary main_call1_v12 main_call1_v14 (((broadcastInDim S640000x128 ![0] Facts₀.bcast_S640000_S640000x128_0)) : (⟨S640000, .i1⟩ : BufTy).Contents (Elt Ideal) → (⟨S640000x128, .i1⟩ : BufTy).Contents (Elt Ideal)),
    StableHlo.nullary main_call1_cst (((constant (F := Ideal) S_ .f32 0x7FC00000#32)) : (⟨S_, .f32⟩ : BufTy).Contents (Elt Ideal)),
    StableHlo.unary main_call1_cst main_call1_v15 (((broadcastInDim S640000x128 ![] Facts₀.bcast_S_S640000x128)) : (⟨S_, .f32⟩ : BufTy).Contents (Elt Ideal) → (⟨S640000x128, .f32⟩ : BufTy).Contents (Elt Ideal)),
    StableHlo.ternary main_call1_v14 main_call1_v13 main_call1_v15 main_v5 ((select) : (⟨S640000x128, .i1⟩ : BufTy).Contents (Elt Ideal) → (⟨S640000x128, .f32⟩ : BufTy).Contents (Elt Ideal) → (⟨S640000x128, .f32⟩ : BufTy).Contents (Elt Ideal) → (⟨S640000x128, .f32⟩ : BufTy).Contents (Elt Ideal)) ]

/-- The rows of main_v29 at the edges' source endpoints main_v1, into main_v30: the 23 operations of hostOps2. -/
abbrev hostOps2_plain : List (HloOp τ sig (Elt Ideal)) :=
  [ StableHlo.nullary main_call2_c (((constantI S_ 32 0#32)) : (⟨S_, .i32⟩ : BufTy).Contents (Elt Ideal)),
    StableHlo.unary main_call2_c main_call2_v0 (((broadcastInDim S640000 ![] Facts₀.bcast_S_S640000)) : (⟨S_, .i32⟩ : BufTy).Contents (Elt Ideal) → (⟨S640000, .i32⟩ : BufTy).Contents (Elt Ideal)),
    StableHlo.binary main_v1 main_call2_v0 main_call2_v1 (((cmpi .slt)) : (⟨S640000, .i32⟩ : BufTy).Contents (Elt Ideal) → (⟨S640000, .i32⟩ : BufTy).Contents (Elt Ideal) → (⟨S640000, .i1⟩ : BufTy).Contents (Elt Ideal)),
    StableHlo.nullary main_call2_c_0 (((constantI S_ 32 20000#32)) : (⟨S_, .i32⟩ : BufTy).Contents (Elt Ideal)),
    StableHlo.unary main_call2_c_0 main_call2_v2 (((broadcastInDim S640000 ![] Facts₀.bcast_S_S640000)) : (⟨S_, .i32⟩ : BufTy).Contents (Elt Ideal) → (⟨S640000, .i32⟩ : BufTy).Contents (Elt Ideal)),
    StableHlo.binary main_v1 main_call2_v2 main_call2_v3 ((addi) : (⟨S640000, .i32⟩ : BufTy).Contents (Elt Ideal) → (⟨S640000, .i32⟩ : BufTy).Contents (Elt Ideal) → (⟨S640000, .i32⟩ : BufTy).Contents (Elt Ideal)),
    StableHlo.ternary main_call2_v1 main_call2_v3 main_v1 main_call2_v4 ((select) : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)),
    StableHlo.unary main_call2_v4 main_call2_v5 (((broadcastInDim S640000x1 ![0] Facts₀.bcast_S640000_S640000x1_0)) : (⟨S640000, .i32⟩ : BufTy).Contents (Elt Ideal) → (⟨S640000x1, .i32⟩ : BufTy).Contents (Elt Ideal)),
    StableHlo.nullary main_call2_c_1 (((constantI S1 32 19999#32)) : (⟨S1, .i32⟩ : BufTy).Contents (Elt Ideal)),
    StableHlo.nullary main_call2_c_2 (((constantI S_ 32 0#32)) : (⟨S_, .i32⟩ : BufTy).Contents (Elt Ideal)),
    StableHlo.unary main_call2_c_2 main_call2_v6 (((broadcastInDim S640000x1 ![] Facts₀.bcast_S_S640000x1)) : (⟨S_, .i32⟩ : BufTy).Contents (Elt Ideal) → (⟨S640000x1, .i32⟩ : BufTy).Contents (Elt Ideal)),
    StableHlo.binary main_call2_v5 main_call2_v6 main_call2_v7 (((cmpi .sge)) : (⟨S640000x1, .i32⟩ : BufTy).Contents (Elt Ideal) → (⟨S640000x1, .i32⟩ : BufTy).Contents (Elt Ideal) → (⟨S640000x1, .i1⟩ : BufTy).Contents (Elt Ideal)),
    StableHlo.unary main_call2_c_1 main_call2_v8 (((broadcastInDim S1x1 ![1] Facts₀.bcast_S1_S1x1_1)) : (⟨S1, .i32⟩ : BufTy).Contents (Elt Ideal) → (⟨S1x1, .i32⟩ : BufTy).Contents (Elt Ideal)),
    StableHlo.unary main_call2_v8 main_call2_v9 (((broadcastInDim S640000x1 ![0, 1] Facts₀.bcast_S1x1_S640000x1_0_1)) : (⟨S1x1, .i32⟩ : BufTy).Contents (Elt Ideal) → (⟨S640000x1, .i32⟩ : BufTy).Contents (Elt Ideal)),
    StableHlo.binary main_call2_v5 main_call2_v9 main_call2_v10 (((cmpi .sle)) : (⟨S640000x1, .i32⟩ : BufTy).Contents (Elt Ideal) → (⟨S640000x1, .i32⟩ : BufTy).Contents (Elt Ideal) → (⟨S640000x1, .i1⟩ : BufTy).Contents (Elt Ideal)),
    StableHlo.binary main_call2_v7 main_call2_v10 main_call2_v11 ((andi) : (⟨S640000x1, .i1⟩ : BufTy).Contents (Elt Ideal) → (⟨S640000x1, .i1⟩ : BufTy).Contents (Elt Ideal) → (⟨S640000x1, .i1⟩ : BufTy).Contents (Elt Ideal)),
    StableHlo.nullary main_call2_c_3 (((constantI S_ 1 1#1)) : (⟨S_, .i1⟩ : BufTy).Contents (Elt Ideal)),
    StableHlo.binary main_call2_v11 main_call2_c_3 main_call2_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)),
    StableHlo.binary main_v29 main_call2_v5 main_call2_v13 (((fun x i => Host.gather gather_S20000x128_S640000x1_S640000x128_1_0_n_n_0_1_1128 x i)) : (⟨S20000x128, .f32⟩ : BufTy).Contents (Elt Ideal) → (⟨S640000x1, .i32⟩ : BufTy).Contents (Elt Ideal) → (⟨S640000x128, .f32⟩ : BufTy).Contents (Elt Ideal)),
    StableHlo.unary main_call2_v12 main_call2_v14 (((broadcastInDim S640000x128 ![0] Facts₀.bcast_S640000_S640000x128_0)) : (⟨S640000, .i1⟩ : BufTy).Contents (Elt Ideal) → (⟨S640000x128, .i1⟩ : BufTy).Contents (Elt Ideal)),
    StableHlo.nullary main_call2_cst (((constant (F := Ideal) S_ .f32 0x7FC00000#32)) : (⟨S_, .f32⟩ : BufTy).Contents (Elt Ideal)),
    StableHlo.unary main_call2_cst main_call2_v15 (((broadcastInDim S640000x128 ![] Facts₀.bcast_S_S640000x128)) : (⟨S_, .f32⟩ : BufTy).Contents (Elt Ideal) → (⟨S640000x128, .f32⟩ : BufTy).Contents (Elt Ideal)),
    StableHlo.ternary main_call2_v14 main_call2_v13 main_call2_v15 main_v30 ((select) : (⟨S640000x128, .i1⟩ : BufTy).Contents (Elt Ideal) → (⟨S640000x128, .f32⟩ : BufTy).Contents (Elt Ideal) → (⟨S640000x128, .f32⟩ : BufTy).Contents (Elt Ideal) → (⟨S640000x128, .f32⟩ : BufTy).Contents (Elt Ideal)) ]

/-- The rows of main_v29 at the edges' target endpoints main_v3, into main_v31: the 23 operations of hostOps2_1. -/
abbrev hostOps2_1_plain : List (HloOp τ sig (Elt Ideal)) :=
  [ StableHlo.nullary main_call3_c (((constantI S_ 32 0#32)) : (⟨S_, .i32⟩ : BufTy).Contents (Elt Ideal)),
    StableHlo.unary main_call3_c main_call3_v0 (((broadcastInDim S640000 ![] Facts₀.bcast_S_S640000)) : (⟨S_, .i32⟩ : BufTy).Contents (Elt Ideal) → (⟨S640000, .i32⟩ : BufTy).Contents (Elt Ideal)),
    StableHlo.binary main_v3 main_call3_v0 main_call3_v1 (((cmpi .slt)) : (⟨S640000, .i32⟩ : BufTy).Contents (Elt Ideal) → (⟨S640000, .i32⟩ : BufTy).Contents (Elt Ideal) → (⟨S640000, .i1⟩ : BufTy).Contents (Elt Ideal)),
    StableHlo.nullary main_call3_c_0 (((constantI S_ 32 20000#32)) : (⟨S_, .i32⟩ : BufTy).Contents (Elt Ideal)),
    StableHlo.unary main_call3_c_0 main_call3_v2 (((broadcastInDim S640000 ![] Facts₀.bcast_S_S640000)) : (⟨S_, .i32⟩ : BufTy).Contents (Elt Ideal) → (⟨S640000, .i32⟩ : BufTy).Contents (Elt Ideal)),
    StableHlo.binary main_v3 main_call3_v2 main_call3_v3 ((addi) : (⟨S640000, .i32⟩ : BufTy).Contents (Elt Ideal) → (⟨S640000, .i32⟩ : BufTy).Contents (Elt Ideal) → (⟨S640000, .i32⟩ : BufTy).Contents (Elt Ideal)),
    StableHlo.ternary main_call3_v1 main_call3_v3 main_v3 main_call3_v4 ((select) : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)),
    StableHlo.unary main_call3_v4 main_call3_v5 (((broadcastInDim S640000x1 ![0] Facts₀.bcast_S640000_S640000x1_0)) : (⟨S640000, .i32⟩ : BufTy).Contents (Elt Ideal) → (⟨S640000x1, .i32⟩ : BufTy).Contents (Elt Ideal)),
    StableHlo.nullary main_call3_c_1 (((constantI S1 32 19999#32)) : (⟨S1, .i32⟩ : BufTy).Contents (Elt Ideal)),
    StableHlo.nullary main_call3_c_2 (((constantI S_ 32 0#32)) : (⟨S_, .i32⟩ : BufTy).Contents (Elt Ideal)),
    StableHlo.unary main_call3_c_2 main_call3_v6 (((broadcastInDim S640000x1 ![] Facts₀.bcast_S_S640000x1)) : (⟨S_, .i32⟩ : BufTy).Contents (Elt Ideal) → (⟨S640000x1, .i32⟩ : BufTy).Contents (Elt Ideal)),
    StableHlo.binary main_call3_v5 main_call3_v6 main_call3_v7 (((cmpi .sge)) : (⟨S640000x1, .i32⟩ : BufTy).Contents (Elt Ideal) → (⟨S640000x1, .i32⟩ : BufTy).Contents (Elt Ideal) → (⟨S640000x1, .i1⟩ : BufTy).Contents (Elt Ideal)),
    StableHlo.unary main_call3_c_1 main_call3_v8 (((broadcastInDim S1x1 ![1] Facts₀.bcast_S1_S1x1_1)) : (⟨S1, .i32⟩ : BufTy).Contents (Elt Ideal) → (⟨S1x1, .i32⟩ : BufTy).Contents (Elt Ideal)),
    StableHlo.unary main_call3_v8 main_call3_v9 (((broadcastInDim S640000x1 ![0, 1] Facts₀.bcast_S1x1_S640000x1_0_1)) : (⟨S1x1, .i32⟩ : BufTy).Contents (Elt Ideal) → (⟨S640000x1, .i32⟩ : BufTy).Contents (Elt Ideal)),
    StableHlo.binary main_call3_v5 main_call3_v9 main_call3_v10 (((cmpi .sle)) : (⟨S640000x1, .i32⟩ : BufTy).Contents (Elt Ideal) → (⟨S640000x1, .i32⟩ : BufTy).Contents (Elt Ideal) → (⟨S640000x1, .i1⟩ : BufTy).Contents (Elt Ideal)),
    StableHlo.binary main_call3_v7 main_call3_v10 main_call3_v11 ((andi) : (⟨S640000x1, .i1⟩ : BufTy).Contents (Elt Ideal) → (⟨S640000x1, .i1⟩ : BufTy).Contents (Elt Ideal) → (⟨S640000x1, .i1⟩ : BufTy).Contents (Elt Ideal)),
    StableHlo.nullary main_call3_c_3 (((constantI S_ 1 1#1)) : (⟨S_, .i1⟩ : BufTy).Contents (Elt Ideal)),
    StableHlo.binary main_call3_v11 main_call3_c_3 main_call3_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)),
    StableHlo.binary main_v29 main_call3_v5 main_call3_v13 (((fun x i => Host.gather gather_S20000x128_S640000x1_S640000x128_1_0_n_n_0_1_1128 x i)) : (⟨S20000x128, .f32⟩ : BufTy).Contents (Elt Ideal) → (⟨S640000x1, .i32⟩ : BufTy).Contents (Elt Ideal) → (⟨S640000x128, .f32⟩ : BufTy).Contents (Elt Ideal)),
    StableHlo.unary main_call3_v12 main_call3_v14 (((broadcastInDim S640000x128 ![0] Facts₀.bcast_S640000_S640000x128_0)) : (⟨S640000, .i1⟩ : BufTy).Contents (Elt Ideal) → (⟨S640000x128, .i1⟩ : BufTy).Contents (Elt Ideal)),
    StableHlo.nullary main_call3_cst (((constant (F := Ideal) S_ .f32 0x7FC00000#32)) : (⟨S_, .f32⟩ : BufTy).Contents (Elt Ideal)),
    StableHlo.unary main_call3_cst main_call3_v15 (((broadcastInDim S640000x128 ![] Facts₀.bcast_S_S640000x128)) : (⟨S_, .f32⟩ : BufTy).Contents (Elt Ideal) → (⟨S640000x128, .f32⟩ : BufTy).Contents (Elt Ideal)),
    StableHlo.ternary main_call3_v14 main_call3_v13 main_call3_v15 main_v31 ((select) : (⟨S640000x128, .i1⟩ : BufTy).Contents (Elt Ideal) → (⟨S640000x128, .f32⟩ : BufTy).Contents (Elt Ideal) → (⟨S640000x128, .f32⟩ : BufTy).Contents (Elt Ideal) → (⟨S640000x128, .f32⟩ : BufTy).Contents (Elt Ideal)) ]

/-- The rows of main_v55 at the edges' source endpoints main_v1, into main_v56: the 23 operations of hostOps4. -/
abbrev hostOps4_plain : List (HloOp τ sig (Elt Ideal)) :=
  [ StableHlo.nullary main_call4_c (((constantI S_ 32 0#32)) : (⟨S_, .i32⟩ : BufTy).Contents (Elt Ideal)),
    StableHlo.unary main_call4_c main_call4_v0 (((broadcastInDim S640000 ![] Facts₀.bcast_S_S640000)) : (⟨S_, .i32⟩ : BufTy).Contents (Elt Ideal) → (⟨S640000, .i32⟩ : BufTy).Contents (Elt Ideal)),
    StableHlo.binary main_v1 main_call4_v0 main_call4_v1 (((cmpi .slt)) : (⟨S640000, .i32⟩ : BufTy).Contents (Elt Ideal) → (⟨S640000, .i32⟩ : BufTy).Contents (Elt Ideal) → (⟨S640000, .i1⟩ : BufTy).Contents (Elt Ideal)),
    StableHlo.nullary main_call4_c_0 (((constantI S_ 32 20000#32)) : (⟨S_, .i32⟩ : BufTy).Contents (Elt Ideal)),
    StableHlo.unary main_call4_c_0 main_call4_v2 (((broadcastInDim S640000 ![] Facts₀.bcast_S_S640000)) : (⟨S_, .i32⟩ : BufTy).Contents (Elt Ideal) → (⟨S640000, .i32⟩ : BufTy).Contents (Elt Ideal)),
    StableHlo.binary main_v1 main_call4_v2 main_call4_v3 ((addi) : (⟨S640000, .i32⟩ : BufTy).Contents (Elt Ideal) → (⟨S640000, .i32⟩ : BufTy).Contents (Elt Ideal) → (⟨S640000, .i32⟩ : BufTy).Contents (Elt Ideal)),
    StableHlo.ternary main_call4_v1 main_call4_v3 main_v1 main_call4_v4 ((select) : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)),
    StableHlo.unary main_call4_v4 main_call4_v5 (((broadcastInDim S640000x1 ![0] Facts₀.bcast_S640000_S640000x1_0)) : (⟨S640000, .i32⟩ : BufTy).Contents (Elt Ideal) → (⟨S640000x1, .i32⟩ : BufTy).Contents (Elt Ideal)),
    StableHlo.nullary main_call4_c_1 (((constantI S1 32 19999#32)) : (⟨S1, .i32⟩ : BufTy).Contents (Elt Ideal)),
    StableHlo.nullary main_call4_c_2 (((constantI S_ 32 0#32)) : (⟨S_, .i32⟩ : BufTy).Contents (Elt Ideal)),
    StableHlo.unary main_call4_c_2 main_call4_v6 (((broadcastInDim S640000x1 ![] Facts₀.bcast_S_S640000x1)) : (⟨S_, .i32⟩ : BufTy).Contents (Elt Ideal) → (⟨S640000x1, .i32⟩ : BufTy).Contents (Elt Ideal)),
    StableHlo.binary main_call4_v5 main_call4_v6 main_call4_v7 (((cmpi .sge)) : (⟨S640000x1, .i32⟩ : BufTy).Contents (Elt Ideal) → (⟨S640000x1, .i32⟩ : BufTy).Contents (Elt Ideal) → (⟨S640000x1, .i1⟩ : BufTy).Contents (Elt Ideal)),
    StableHlo.unary main_call4_c_1 main_call4_v8 (((broadcastInDim S1x1 ![1] Facts₀.bcast_S1_S1x1_1)) : (⟨S1, .i32⟩ : BufTy).Contents (Elt Ideal) → (⟨S1x1, .i32⟩ : BufTy).Contents (Elt Ideal)),
    StableHlo.unary main_call4_v8 main_call4_v9 (((broadcastInDim S640000x1 ![0, 1] Facts₀.bcast_S1x1_S640000x1_0_1)) : (⟨S1x1, .i32⟩ : BufTy).Contents (Elt Ideal) → (⟨S640000x1, .i32⟩ : BufTy).Contents (Elt Ideal)),
    StableHlo.binary main_call4_v5 main_call4_v9 main_call4_v10 (((cmpi .sle)) : (⟨S640000x1, .i32⟩ : BufTy).Contents (Elt Ideal) → (⟨S640000x1, .i32⟩ : BufTy).Contents (Elt Ideal) → (⟨S640000x1, .i1⟩ : BufTy).Contents (Elt Ideal)),
    StableHlo.binary main_call4_v7 main_call4_v10 main_call4_v11 ((andi) : (⟨S640000x1, .i1⟩ : BufTy).Contents (Elt Ideal) → (⟨S640000x1, .i1⟩ : BufTy).Contents (Elt Ideal) → (⟨S640000x1, .i1⟩ : BufTy).Contents (Elt Ideal)),
    StableHlo.nullary main_call4_c_3 (((constantI S_ 1 1#1)) : (⟨S_, .i1⟩ : BufTy).Contents (Elt Ideal)),
    StableHlo.binary main_call4_v11 main_call4_c_3 main_call4_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)),
    StableHlo.binary main_v55 main_call4_v5 main_call4_v13 (((fun x i => Host.gather gather_S20000x128_S640000x1_S640000x128_1_0_n_n_0_1_1128 x i)) : (⟨S20000x128, .f32⟩ : BufTy).Contents (Elt Ideal) → (⟨S640000x1, .i32⟩ : BufTy).Contents (Elt Ideal) → (⟨S640000x128, .f32⟩ : BufTy).Contents (Elt Ideal)),
    StableHlo.unary main_call4_v12 main_call4_v14 (((broadcastInDim S640000x128 ![0] Facts₀.bcast_S640000_S640000x128_0)) : (⟨S640000, .i1⟩ : BufTy).Contents (Elt Ideal) → (⟨S640000x128, .i1⟩ : BufTy).Contents (Elt Ideal)),
    StableHlo.nullary main_call4_cst (((constant (F := Ideal) S_ .f32 0x7FC00000#32)) : (⟨S_, .f32⟩ : BufTy).Contents (Elt Ideal)),
    StableHlo.unary main_call4_cst main_call4_v15 (((broadcastInDim S640000x128 ![] Facts₀.bcast_S_S640000x128)) : (⟨S_, .f32⟩ : BufTy).Contents (Elt Ideal) → (⟨S640000x128, .f32⟩ : BufTy).Contents (Elt Ideal)),
    StableHlo.ternary main_call4_v14 main_call4_v13 main_call4_v15 main_v56 ((select) : (⟨S640000x128, .i1⟩ : BufTy).Contents (Elt Ideal) → (⟨S640000x128, .f32⟩ : BufTy).Contents (Elt Ideal) → (⟨S640000x128, .f32⟩ : BufTy).Contents (Elt Ideal) → (⟨S640000x128, .f32⟩ : BufTy).Contents (Elt Ideal)) ]

/-- The rows of main_v55 at the edges' target endpoints main_v3, into main_v57: the 23 operations of hostOps4_1. -/
abbrev hostOps4_1_plain : List (HloOp τ sig (Elt Ideal)) :=
  [ StableHlo.nullary main_call5_c (((constantI S_ 32 0#32)) : (⟨S_, .i32⟩ : BufTy).Contents (Elt Ideal)),
    StableHlo.unary main_call5_c main_call5_v0 (((broadcastInDim S640000 ![] Facts₀.bcast_S_S640000)) : (⟨S_, .i32⟩ : BufTy).Contents (Elt Ideal) → (⟨S640000, .i32⟩ : BufTy).Contents (Elt Ideal)),
    StableHlo.binary main_v3 main_call5_v0 main_call5_v1 (((cmpi .slt)) : (⟨S640000, .i32⟩ : BufTy).Contents (Elt Ideal) → (⟨S640000, .i32⟩ : BufTy).Contents (Elt Ideal) → (⟨S640000, .i1⟩ : BufTy).Contents (Elt Ideal)),
    StableHlo.nullary main_call5_c_0 (((constantI S_ 32 20000#32)) : (⟨S_, .i32⟩ : BufTy).Contents (Elt Ideal)),
    StableHlo.unary main_call5_c_0 main_call5_v2 (((broadcastInDim S640000 ![] Facts₀.bcast_S_S640000)) : (⟨S_, .i32⟩ : BufTy).Contents (Elt Ideal) → (⟨S640000, .i32⟩ : BufTy).Contents (Elt Ideal)),
    StableHlo.binary main_v3 main_call5_v2 main_call5_v3 ((addi) : (⟨S640000, .i32⟩ : BufTy).Contents (Elt Ideal) → (⟨S640000, .i32⟩ : BufTy).Contents (Elt Ideal) → (⟨S640000, .i32⟩ : BufTy).Contents (Elt Ideal)),
    StableHlo.ternary main_call5_v1 main_call5_v3 main_v3 main_call5_v4 ((select) : (⟨S640000, .i1⟩ : BufTy).Contents (Elt Ideal) → (⟨S640000, .i32⟩ : BufTy).Contents (Elt Ideal) → (⟨S640000, .i32⟩ : BufTy).Contents (Elt Ideal) → (⟨S640000, .i32⟩ : BufTy).Contents (Elt Ideal)),
    StableHlo.unary main_call5_v4 main_call5_v5 (((broadcastInDim S640000x1 ![0] Facts₀.bcast_S640000_S640000x1_0)) : (⟨S640000, .i32⟩ : BufTy).Contents (Elt Ideal) → (⟨S640000x1, .i32⟩ : BufTy).Contents (Elt Ideal)),
    StableHlo.nullary main_call5_c_1 (((constantI S1 32 19999#32)) : (⟨S1, .i32⟩ : BufTy).Contents (Elt Ideal)),
    StableHlo.nullary main_call5_c_2 (((constantI S_ 32 0#32)) : (⟨S_, .i32⟩ : BufTy).Contents (Elt Ideal)),
    StableHlo.unary main_call5_c_2 main_call5_v6 (((broadcastInDim S640000x1 ![] Facts₀.bcast_S_S640000x1)) : (⟨S_, .i32⟩ : BufTy).Contents (Elt Ideal) → (⟨S640000x1, .i32⟩ : BufTy).Contents (Elt Ideal)),
    StableHlo.binary main_call5_v5 main_call5_v6 main_call5_v7 (((cmpi .sge)) : (⟨S640000x1, .i32⟩ : BufTy).Contents (Elt Ideal) → (⟨S640000x1, .i32⟩ : BufTy).Contents (Elt Ideal) → (⟨S640000x1, .i1⟩ : BufTy).Contents (Elt Ideal)),
    StableHlo.unary main_call5_c_1 main_call5_v8 (((broadcastInDim S1x1 ![1] Facts₀.bcast_S1_S1x1_1)) : (⟨S1, .i32⟩ : BufTy).Contents (Elt Ideal) → (⟨S1x1, .i32⟩ : BufTy).Contents (Elt Ideal)),
    StableHlo.unary main_call5_v8 main_call5_v9 (((broadcastInDim S640000x1 ![0, 1] Facts₀.bcast_S1x1_S640000x1_0_1)) : (⟨S1x1, .i32⟩ : BufTy).Contents (Elt Ideal) → (⟨S640000x1, .i32⟩ : BufTy).Contents (Elt Ideal)),
    StableHlo.binary main_call5_v5 main_call5_v9 main_call5_v10 (((cmpi .sle)) : (⟨S640000x1, .i32⟩ : BufTy).Contents (Elt Ideal) → (⟨S640000x1, .i32⟩ : BufTy).Contents (Elt Ideal) → (⟨S640000x1, .i1⟩ : BufTy).Contents (Elt Ideal)),
    StableHlo.binary main_call5_v7 main_call5_v10 main_call5_v11 ((andi) : (⟨S640000x1, .i1⟩ : BufTy).Contents (Elt Ideal) → (⟨S640000x1, .i1⟩ : BufTy).Contents (Elt Ideal) → (⟨S640000x1, .i1⟩ : BufTy).Contents (Elt Ideal)),
    StableHlo.nullary main_call5_c_3 (((constantI S_ 1 1#1)) : (⟨S_, .i1⟩ : BufTy).Contents (Elt Ideal)),
    StableHlo.binary main_call5_v11 main_call5_c_3 main_call5_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)),
    StableHlo.binary main_v55 main_call5_v5 main_call5_v13 (((fun x i => Host.gather gather_S20000x128_S640000x1_S640000x128_1_0_n_n_0_1_1128 x i)) : (⟨S20000x128, .f32⟩ : BufTy).Contents (Elt Ideal) → (⟨S640000x1, .i32⟩ : BufTy).Contents (Elt Ideal) → (⟨S640000x128, .f32⟩ : BufTy).Contents (Elt Ideal)),
    StableHlo.unary main_call5_v12 main_call5_v14 (((broadcastInDim S640000x128 ![0] Facts₀.bcast_S640000_S640000x128_0)) : (⟨S640000, .i1⟩ : BufTy).Contents (Elt Ideal) → (⟨S640000x128, .i1⟩ : BufTy).Contents (Elt Ideal)),
    StableHlo.nullary main_call5_cst (((constant (F := Ideal) S_ .f32 0x7FC00000#32)) : (⟨S_, .f32⟩ : BufTy).Contents (Elt Ideal)),
    StableHlo.unary main_call5_cst main_call5_v15 (((broadcastInDim S640000x128 ![] Facts₀.bcast_S_S640000x128)) : (⟨S_, .f32⟩ : BufTy).Contents (Elt Ideal) → (⟨S640000x128, .f32⟩ : BufTy).Contents (Elt Ideal)),
    StableHlo.ternary main_call5_v14 main_call5_v13 main_call5_v15 main_v57 ((select) : (⟨S640000x128, .i1⟩ : BufTy).Contents (Elt Ideal) → (⟨S640000x128, .f32⟩ : BufTy).Contents (Elt Ideal) → (⟨S640000x128, .f32⟩ : BufTy).Contents (Elt Ideal) → (⟨S640000x128, .f32⟩ : BufTy).Contents (Elt Ideal)) ]

end Cert.KernelIdeal.Hand

end
-- ==== Proof.KStep0.lean ====
/-
  Layer 0 of the kernel program. From the launch memory the host side cuts the edge endpoints out of the
  edge array, gathers the node rows at both endpoints and joins them into the 256 edge features, and cuts
  layer 0's parameters out of the stacked arrays; the first kernel region leaves the messages (the affine map
  256 → 128 and the rectifier of Spec.lean), the host sums them at their source nodes, and the second region
  leaves the gated update. Each buffer is followed stage by stage: a stage that does not write a buffer leaves
  it as it was, a stage that writes it leaves its operation's value, and a bias kept as a one-row matrix is
  read back as the vector it was made from. Composed, region 1's result is one layer of KDefs.lean applied to
  the argument arrays, and the endpoints and the arguments a later layer reads are still what the launch held.
-/
import proofs.«413579_j91036126806070_1_alg».proof.Proof.Gen.KernelIdeal.Frame
import proofs.«413579_j91036126806070_1_alg».proof.Proof.Spec
import proofs.«413579_j91036126806070_1_alg».proof.Proof.KDefs
import proofs.«413579_j91036126806070_1_alg».proof.Proof.KMsg0
import proofs.«413579_j91036126806070_1_alg».proof.Proof.KMsg2
import proofs.«413579_j91036126806070_1_alg».proof.Proof.KMsg4
import proofs.«413579_j91036126806070_1_alg».proof.Proof.KGru1
import proofs.«413579_j91036126806070_1_alg».proof.Proof.KGru3
import proofs.«413579_j91036126806070_1_alg».proof.Proof.KGru5
import proofs.«413579_j91036126806070_1_alg».proof.Proof.KTakeOps
import Idealize.ShloMosaic.Lib.ValueLayout

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

namespace Step0

/-- A vector reshaped to a one-row matrix, read back along that row, is the vector. -/
theorem row0_cast {n : Nat} (v : FVec Ideal ⟨1, ![n]⟩ .f32) (h : (⟨1, ![n]⟩ : Shape).ShapeCasts ⟨2, ![1, n]⟩) :
    Cert.GnnSpec.row0 (shapeCast ⟨2, ![1, n]⟩ v h) = v := by
  funext j
  exact (shapeCast_a_1a_apply v h (0 : Fin 1) (j 0)).trans (congrArg v (eq_ix1 j).symm)

/-! ### The two row gathers: their operations over typed references are the plain operations
    (the plain spellings `hostOps0_1_plain`, `hostOps0_2_plain` are listed in KTakeOps.lean) -/

/-- The "all coordinates in range" reduction is the same operation over the plain references. -/
theorem hostOps0_1_red :
    (StableHlo.TRef.binary (.of main_call0_v11 : StableHlo.TRef sig ⟨S640000x1, .i1⟩) (.of main_call0_c_3 : StableHlo.TRef sig ⟨S_, .i1⟩) (.of main_call0_v12 : StableHlo.TRef sig ⟨S640000, .i1⟩) (fun x v => Host.reduce IntOp.andi x v Facts₀.reducesTo_S640000x1_S640000_d1 Facts₀.h_S_) : HloOp τ sig (Elt Ideal))
      = StableHlo.binary main_call0_v11 main_call0_c_3 main_call0_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)) := by
  simp only [StableHlo.TRef.binary, StableHlo.TRef.toBuf, StableHlo.TRef.ofBuf, cast_eq]
  rfl

/-- The operations over typed references are the plain ones: a transport along an equality of types that
    holds by computation is the identity. -/
theorem hostOps0_1_eq_plain : (hostOps0_1 (F := Ideal)) = hostOps0_1_plain := by
  unfold hostOps0_1
  rw [hostOps0_1_red]
  rfl

/-- After these operations the result buffer holds the rows of the node array at the wrapped source indices,
    a row whose index is out of range filled with the not-a-number pattern. -/
theorem take_main_v4 (V : Valuation τ sig (Elt Ideal)) :
    StableHlo.after (hostOps0_1 (F := Ideal)) V (Proc.devRef .tc main_v4)
      = takeK (V (Proc.devRef .tc main_arg0)) (V (Proc.devRef .tc main_v1)) := by
  rw [hostOps0_1_eq_plain]
  unfold takeK inRangeK idx1K wrapK
  after_results_simp

/-- The "all coordinates in range" reduction is the same operation over the plain references. -/
theorem hostOps0_2_red :
    (StableHlo.TRef.binary (.of main_call1_v11 : StableHlo.TRef sig ⟨S640000x1, .i1⟩) (.of main_call1_c_3 : StableHlo.TRef sig ⟨S_, .i1⟩) (.of main_call1_v12 : StableHlo.TRef sig ⟨S640000, .i1⟩) (fun x v => Host.reduce IntOp.andi x v Facts₀.reducesTo_S640000x1_S640000_d1 Facts₀.h_S_) : HloOp τ sig (Elt Ideal))
      = StableHlo.binary main_call1_v11 main_call1_c_3 main_call1_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)) := by
  simp only [StableHlo.TRef.binary, StableHlo.TRef.toBuf, StableHlo.TRef.ofBuf, cast_eq]
  rfl

/-- The operations over typed references are the plain ones: a transport along an equality of types that
    holds by computation is the identity. -/
theorem hostOps0_2_eq_plain : (hostOps0_2 (F := Ideal)) = hostOps0_2_plain := by
  unfold hostOps0_2
  rw [hostOps0_2_red]
  rfl

/-- After these operations the result buffer holds the rows of the node array at the wrapped target indices,
    a row whose index is out of range filled with the not-a-number pattern. -/
theorem take_main_v5 (V : Valuation τ sig (Elt Ideal)) :
    StableHlo.after (hostOps0_2 (F := Ideal)) V (Proc.devRef .tc main_v5)
      = takeK (V (Proc.devRef .tc main_arg0)) (V (Proc.devRef .tc main_v3)) := by
  rw [hostOps0_2_eq_plain]
  unfold takeK inRangeK idx1K wrapK
  after_results_simp

/-! ### What each host stretch leaves in the buffers it writes, from any contents `W` before it -/

section Stretch

variable (W : Valuation τ sig (Elt Ideal))

/-- Row 0 of the edge array: the source endpoints. -/
theorem H0_v1 : StableHlo.after (hostOps0 (F := Ideal)) W (Proc.devRef .tc main_v1) = rowK (W (Proc.devRef .tc main_arg1)) := by
  dsimp only [hostOps0]
  after_results
  rfl
/-- Row 1 of the edge array: the target endpoints. -/
theorem H0_v3 : StableHlo.after (hostOps0 (F := Ideal)) W (Proc.devRef .tc main_v3) = colK (W (Proc.devRef .tc main_arg1)) := by
  dsimp only [hostOps0]
  after_results
  rfl

/-- The node rows gathered at the source endpoints. -/
theorem H1_v4 : StableHlo.after (hostOps0_1 (F := Ideal)) W (Proc.devRef .tc main_v4)
    = takeK (W (Proc.devRef .tc main_arg0)) (W (Proc.devRef .tc main_v1)) := take_main_v4 W
/-- The node rows gathered at the target endpoints. -/
theorem H2_v5 : StableHlo.after (hostOps0_2 (F := Ideal)) W (Proc.devRef .tc main_v5)
    = takeK (W (Proc.devRef .tc main_arg0)) (W (Proc.devRef .tc main_v3)) := take_main_v5 W

/-- The two gathered blocks side by side. -/
theorem H3_v6 : StableHlo.after (hostOps0_3 (F := Ideal)) W (Proc.devRef .tc main_v6)
    = concatenate S640000x256 1 [⟨S640000x128, W (Proc.devRef .tc main_v4)⟩, ⟨S640000x128, W (Proc.devRef .tc main_v5)⟩]
        Facts₀.concatenates_S640000x128_S640000x128_S640000x256_d1 := by
  dsimp only [hostOps0_3]
  after_results
/-- Layer 0's message weights, input-major. -/
theorem H3_v9 : StableHlo.after (hostOps0_3 (F := Ideal)) W (Proc.devRef .tc main_v9) = wt0K (W (Proc.devRef .tc main_arg3)) := by
  dsimp only [hostOps0_3]
  after_results
  rfl
/-- Layer 0's message bias as a one-row matrix. -/
theorem H3_v12 : StableHlo.after (hostOps0_3 (F := Ideal)) W (Proc.devRef .tc main_v12)
    = shapeCast S1x128 (b0K (W (Proc.devRef .tc main_arg4))) Facts₀.shapeCasts_S128_S1x128 := by
  dsimp only [hostOps0_3]
  after_results
  rfl

/-- The messages summed at their source nodes. -/
theorem H4_v16 : StableHlo.after (hostOps1 (F := Ideal)) W (Proc.devRef .tc main_v16)
    = aggK (W (Proc.devRef .tc main_v1)) (W (Proc.devRef .tc main_v13)) := by
  dsimp only [hostOps1]
  after_results
  rfl
/-- Layer 0's two update weights, input-major, and its two update biases as one-row matrices. -/
theorem H4_v19 : StableHlo.after (hostOps1 (F := Ideal)) W (Proc.devRef .tc main_v19) = wih0K (W (Proc.devRef .tc main_arg5)) := by
  dsimp only [hostOps1]
  after_results
  rfl
theorem H4_v22 : StableHlo.after (hostOps1 (F := Ideal)) W (Proc.devRef .tc main_v22) = wih0K (W (Proc.devRef .tc main_arg6)) := by
  dsimp only [hostOps1]
  after_results
  rfl
theorem H4_v25 : StableHlo.after (hostOps1 (F := Ideal)) W (Proc.devRef .tc main_v25)
    = shapeCast S1x384 (bih0K (W (Proc.devRef .tc main_arg7))) Facts₀.shapeCasts_S384_S1x384 := by
  dsimp only [hostOps1]
  after_results
  rfl
theorem H4_v28 : StableHlo.after (hostOps1 (F := Ideal)) W (Proc.devRef .tc main_v28)
    = shapeCast S1x384 (bih0K (W (Proc.devRef .tc main_arg8))) Facts₀.shapeCasts_S384_S1x384 := by
  dsimp only [hostOps1]
  after_results
  rfl

end Stretch

/-- A buffer that no operation of a host stretch writes holds after the stretch what it held before:
    the buffer differs from the result buffer of every operation of the stretch. -/
local macro "host_keep" : tactic =>
  `(tactic| (refine StableHlo.after_of_forall_not_mem _ _ (List.forall_iff_forall_mem.mp ?_)
             simp only [hostOps0, hostOps0_1, hostOps0_2, hostOps0_3, hostOps1, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-! ### After the first host stretch: the two rows of the edge array, the arguments untouched -/

theorem E1_v1 : W1 (F := Ideal) m ρ c (Proc.devRef .tc main_v1) = rowK (m ((c.tc : Thread nD τ).loc main_arg1)) := H0_v1 (W0 m ρ c)
theorem E1_v3 : W1 (F := Ideal) m ρ c (Proc.devRef .tc main_v3) = colK (m ((c.tc : Thread nD τ).loc main_arg1)) := H0_v3 (W0 m ρ c)
theorem E1_arg0 : W1 (F := Ideal) m ρ c (Proc.devRef .tc main_arg0) = m ((c.tc : Thread nD τ).loc main_arg0) :=
  (show W1 (F := Ideal) m ρ c (Proc.devRef .tc main_arg0) = W0 m ρ c (Proc.devRef .tc main_arg0) by host_keep).trans rfl
theorem E1_arg2 : W1 (F := Ideal) m ρ c (Proc.devRef .tc main_arg2) = m ((c.tc : Thread nD τ).loc main_arg2) :=
  (show W1 (F := Ideal) m ρ c (Proc.devRef .tc main_arg2) = W0 m ρ c (Proc.devRef .tc main_arg2) by host_keep).trans rfl
theorem E1_arg3 : W1 (F := Ideal) m ρ c (Proc.devRef .tc main_arg3) = m ((c.tc : Thread nD τ).loc main_arg3) :=
  (show W1 (F := Ideal) m ρ c (Proc.devRef .tc main_arg3) = W0 m ρ c (Proc.devRef .tc main_arg3) by host_keep).trans rfl
theorem E1_arg4 : W1 (F := Ideal) m ρ c (Proc.devRef .tc main_arg4) = m ((c.tc : Thread nD τ).loc main_arg4) :=
  (show W1 (F := Ideal) m ρ c (Proc.devRef .tc main_arg4) = W0 m ρ c (Proc.devRef .tc main_arg4) by host_keep).trans rfl
theorem E1_arg5 : W1 (F := Ideal) m ρ c (Proc.devRef .tc main_arg5) = m ((c.tc : Thread nD τ).loc main_arg5) :=
  (show W1 (F := Ideal) m ρ c (Proc.devRef .tc main_arg5) = W0 m ρ c (Proc.devRef .tc main_arg5) by host_keep).trans rfl
theorem E1_arg6 : W1 (F := Ideal) m ρ c (Proc.devRef .tc main_arg6) = m ((c.tc : Thread nD τ).loc main_arg6) :=
  (show W1 (F := Ideal) m ρ c (Proc.devRef .tc main_arg6) = W0 m ρ c (Proc.devRef .tc main_arg6) by host_keep).trans rfl
theorem E1_arg7 : W1 (F := Ideal) m ρ c (Proc.devRef .tc main_arg7) = m ((c.tc : Thread nD τ).loc main_arg7) :=
  (show W1 (F := Ideal) m ρ c (Proc.devRef .tc main_arg7) = W0 m ρ c (Proc.devRef .tc main_arg7) by host_keep).trans rfl
theorem E1_arg8 : W1 (F := Ideal) m ρ c (Proc.devRef .tc main_arg8) = m ((c.tc : Thread nD τ).loc main_arg8) :=
  (show W1 (F := Ideal) m ρ c (Proc.devRef .tc main_arg8) = W0 m ρ c (Proc.devRef .tc main_arg8) by host_keep).trans rfl
theorem E1_arg9 : W1 (F := Ideal) m ρ c (Proc.devRef .tc main_arg9) = m ((c.tc : Thread nD τ).loc main_arg9) :=
  (show W1 (F := Ideal) m ρ c (Proc.devRef .tc main_arg9) = W0 m ρ c (Proc.devRef .tc main_arg9) by host_keep).trans rfl
theorem E1_arg10 : W1 (F := Ideal) m ρ c (Proc.devRef .tc main_arg10) = m ((c.tc : Thread nD τ).loc main_arg10) :=
  (show W1 (F := Ideal) m ρ c (Proc.devRef .tc main_arg10) = W0 m ρ c (Proc.devRef .tc main_arg10) by host_keep).trans rfl

/-! ### After the gather at the source endpoints -/

theorem E2_v4 : W2 (F := Ideal) m ρ c (Proc.devRef .tc main_v4) = takeK (m ((c.tc : Thread nD τ).loc main_arg0)) (rowK (m ((c.tc : Thread nD τ).loc main_arg1))) := by
  rw [show W2 (F := Ideal) m ρ c (Proc.devRef .tc main_v4) = _ from H1_v4 (W1 m ρ c), E1_arg0, E1_v1]
theorem E2_v1 : W2 (F := Ideal) m ρ c (Proc.devRef .tc main_v1) = rowK (m ((c.tc : Thread nD τ).loc main_arg1)) :=
  (show W2 (F := Ideal) m ρ c (Proc.devRef .tc main_v1) = W1 m ρ c (Proc.devRef .tc main_v1) by host_keep).trans (E1_v1 m ρ c)
theorem E2_v3 : W2 (F := Ideal) m ρ c (Proc.devRef .tc main_v3) = colK (m ((c.tc : Thread nD τ).loc main_arg1)) :=
  (show W2 (F := Ideal) m ρ c (Proc.devRef .tc main_v3) = W1 m ρ c (Proc.devRef .tc main_v3) by host_keep).trans (E1_v3 m ρ c)
theorem E2_arg0 : W2 (F := Ideal) m ρ c (Proc.devRef .tc main_arg0) = m ((c.tc : Thread nD τ).loc main_arg0) :=
  (show W2 (F := Ideal) m ρ c (Proc.devRef .tc main_arg0) = W1 m ρ c (Proc.devRef .tc main_arg0) by host_keep).trans (E1_arg0 m ρ c)
theorem E2_arg2 : W2 (F := Ideal) m ρ c (Proc.devRef .tc main_arg2) = m ((c.tc : Thread nD τ).loc main_arg2) :=
  (show W2 (F := Ideal) m ρ c (Proc.devRef .tc main_arg2) = W1 m ρ c (Proc.devRef .tc main_arg2) by host_keep).trans (E1_arg2 m ρ c)
theorem E2_arg3 : W2 (F := Ideal) m ρ c (Proc.devRef .tc main_arg3) = m ((c.tc : Thread nD τ).loc main_arg3) :=
  (show W2 (F := Ideal) m ρ c (Proc.devRef .tc main_arg3) = W1 m ρ c (Proc.devRef .tc main_arg3) by host_keep).trans (E1_arg3 m ρ c)
theorem E2_arg4 : W2 (F := Ideal) m ρ c (Proc.devRef .tc main_arg4) = m ((c.tc : Thread nD τ).loc main_arg4) :=
  (show W2 (F := Ideal) m ρ c (Proc.devRef .tc main_arg4) = W1 m ρ c (Proc.devRef .tc main_arg4) by host_keep).trans (E1_arg4 m ρ c)
theorem E2_arg5 : W2 (F := Ideal) m ρ c (Proc.devRef .tc main_arg5) = m ((c.tc : Thread nD τ).loc main_arg5) :=
  (show W2 (F := Ideal) m ρ c (Proc.devRef .tc main_arg5) = W1 m ρ c (Proc.devRef .tc main_arg5) by host_keep).trans (E1_arg5 m ρ c)
theorem E2_arg6 : W2 (F := Ideal) m ρ c (Proc.devRef .tc main_arg6) = m ((c.tc : Thread nD τ).loc main_arg6) :=
  (show W2 (F := Ideal) m ρ c (Proc.devRef .tc main_arg6) = W1 m ρ c (Proc.devRef .tc main_arg6) by host_keep).trans (E1_arg6 m ρ c)
theorem E2_arg7 : W2 (F := Ideal) m ρ c (Proc.devRef .tc main_arg7) = m ((c.tc : Thread nD τ).loc main_arg7) :=
  (show W2 (F := Ideal) m ρ c (Proc.devRef .tc main_arg7) = W1 m ρ c (Proc.devRef .tc main_arg7) by host_keep).trans (E1_arg7 m ρ c)
theorem E2_arg8 : W2 (F := Ideal) m ρ c (Proc.devRef .tc main_arg8) = m ((c.tc : Thread nD τ).loc main_arg8) :=
  (show W2 (F := Ideal) m ρ c (Proc.devRef .tc main_arg8) = W1 m ρ c (Proc.devRef .tc main_arg8) by host_keep).trans (E1_arg8 m ρ c)
theorem E2_arg9 : W2 (F := Ideal) m ρ c (Proc.devRef .tc main_arg9) = m ((c.tc : Thread nD τ).loc main_arg9) :=
  (show W2 (F := Ideal) m ρ c (Proc.devRef .tc main_arg9) = W1 m ρ c (Proc.devRef .tc main_arg9) by host_keep).trans (E1_arg9 m ρ c)
theorem E2_arg10 : W2 (F := Ideal) m ρ c (Proc.devRef .tc main_arg10) = m ((c.tc : Thread nD τ).loc main_arg10) :=
  (show W2 (F := Ideal) m ρ c (Proc.devRef .tc main_arg10) = W1 m ρ c (Proc.devRef .tc main_arg10) by host_keep).trans (E1_arg10 m ρ c)

/-! ### After the gather at the target endpoints -/

theorem E3_v5 : W3 (F := Ideal) m ρ c (Proc.devRef .tc main_v5) = takeK (m ((c.tc : Thread nD τ).loc main_arg0)) (colK (m ((c.tc : Thread nD τ).loc main_arg1))) := by
  rw [show W3 (F := Ideal) m ρ c (Proc.devRef .tc main_v5) = _ from H2_v5 (W2 m ρ c), E2_arg0, E2_v3]
theorem E3_v4 : W3 (F := Ideal) m ρ c (Proc.devRef .tc main_v4) = takeK (m ((c.tc : Thread nD τ).loc main_arg0)) (rowK (m ((c.tc : Thread nD τ).loc main_arg1))) :=
  (show W3 (F := Ideal) m ρ c (Proc.devRef .tc main_v4) = W2 m ρ c (Proc.devRef .tc main_v4) by host_keep).trans (E2_v4 m ρ c)
theorem E3_v1 : W3 (F := Ideal) m ρ c (Proc.devRef .tc main_v1) = rowK (m ((c.tc : Thread nD τ).loc main_arg1)) :=
  (show W3 (F := Ideal) m ρ c (Proc.devRef .tc main_v1) = W2 m ρ c (Proc.devRef .tc main_v1) by host_keep).trans (E2_v1 m ρ c)
theorem E3_v3 : W3 (F := Ideal) m ρ c (Proc.devRef .tc main_v3) = colK (m ((c.tc : Thread nD τ).loc main_arg1)) :=
  (show W3 (F := Ideal) m ρ c (Proc.devRef .tc main_v3) = W2 m ρ c (Proc.devRef .tc main_v3) by host_keep).trans (E2_v3 m ρ c)
theorem E3_arg0 : W3 (F := Ideal) m ρ c (Proc.devRef .tc main_arg0) = m ((c.tc : Thread nD τ).loc main_arg0) :=
  (show W3 (F := Ideal) m ρ c (Proc.devRef .tc main_arg0) = W2 m ρ c (Proc.devRef .tc main_arg0) by host_keep).trans (E2_arg0 m ρ c)
theorem E3_arg2 : W3 (F := Ideal) m ρ c (Proc.devRef .tc main_arg2) = m ((c.tc : Thread nD τ).loc main_arg2) :=
  (show W3 (F := Ideal) m ρ c (Proc.devRef .tc main_arg2) = W2 m ρ c (Proc.devRef .tc main_arg2) by host_keep).trans (E2_arg2 m ρ c)
theorem E3_arg3 : W3 (F := Ideal) m ρ c (Proc.devRef .tc main_arg3) = m ((c.tc : Thread nD τ).loc main_arg3) :=
  (show W3 (F := Ideal) m ρ c (Proc.devRef .tc main_arg3) = W2 m ρ c (Proc.devRef .tc main_arg3) by host_keep).trans (E2_arg3 m ρ c)
theorem E3_arg4 : W3 (F := Ideal) m ρ c (Proc.devRef .tc main_arg4) = m ((c.tc : Thread nD τ).loc main_arg4) :=
  (show W3 (F := Ideal) m ρ c (Proc.devRef .tc main_arg4) = W2 m ρ c (Proc.devRef .tc main_arg4) by host_keep).trans (E2_arg4 m ρ c)
theorem E3_arg5 : W3 (F := Ideal) m ρ c (Proc.devRef .tc main_arg5) = m ((c.tc : Thread nD τ).loc main_arg5) :=
  (show W3 (F := Ideal) m ρ c (Proc.devRef .tc main_arg5) = W2 m ρ c (Proc.devRef .tc main_arg5) by host_keep).trans (E2_arg5 m ρ c)
theorem E3_arg6 : W3 (F := Ideal) m ρ c (Proc.devRef .tc main_arg6) = m ((c.tc : Thread nD τ).loc main_arg6) :=
  (show W3 (F := Ideal) m ρ c (Proc.devRef .tc main_arg6) = W2 m ρ c (Proc.devRef .tc main_arg6) by host_keep).trans (E2_arg6 m ρ c)
theorem E3_arg7 : W3 (F := Ideal) m ρ c (Proc.devRef .tc main_arg7) = m ((c.tc : Thread nD τ).loc main_arg7) :=
  (show W3 (F := Ideal) m ρ c (Proc.devRef .tc main_arg7) = W2 m ρ c (Proc.devRef .tc main_arg7) by host_keep).trans (E2_arg7 m ρ c)
theorem E3_arg8 : W3 (F := Ideal) m ρ c (Proc.devRef .tc main_arg8) = m ((c.tc : Thread nD τ).loc main_arg8) :=
  (show W3 (F := Ideal) m ρ c (Proc.devRef .tc main_arg8) = W2 m ρ c (Proc.devRef .tc main_arg8) by host_keep).trans (E2_arg8 m ρ c)
theorem E3_arg9 : W3 (F := Ideal) m ρ c (Proc.devRef .tc main_arg9) = m ((c.tc : Thread nD τ).loc main_arg9) :=
  (show W3 (F := Ideal) m ρ c (Proc.devRef .tc main_arg9) = W2 m ρ c (Proc.devRef .tc main_arg9) by host_keep).trans (E2_arg9 m ρ c)
theorem E3_arg10 : W3 (F := Ideal) m ρ c (Proc.devRef .tc main_arg10) = m ((c.tc : Thread nD τ).loc main_arg10) :=
  (show W3 (F := Ideal) m ρ c (Proc.devRef .tc main_arg10) = W2 m ρ c (Proc.devRef .tc main_arg10) by host_keep).trans (E2_arg10 m ρ c)

/-! ### At region 0's entry: the edge features and layer 0's message parameters -/

theorem E4_v6 : W4 (F := Ideal) m ρ c (Proc.devRef .tc main_v6) = catK (m ((c.tc : Thread nD τ).loc main_arg0)) (rowK (m ((c.tc : Thread nD τ).loc main_arg1))) (colK (m ((c.tc : Thread nD τ).loc main_arg1))) := by
  rw [show W4 (F := Ideal) m ρ c (Proc.devRef .tc main_v6) = _ from H3_v6 (W3 m ρ c), E3_v4, E3_v5]
  rfl
theorem E4_v9 : W4 (F := Ideal) m ρ c (Proc.devRef .tc main_v9) = wt0K (m ((c.tc : Thread nD τ).loc main_arg3)) := by
  rw [show W4 (F := Ideal) m ρ c (Proc.devRef .tc main_v9) = _ from H3_v9 (W3 m ρ c), E3_arg3]
theorem E4_v12 : W4 (F := Ideal) m ρ c (Proc.devRef .tc main_v12) = shapeCast S1x128 (b0K (m ((c.tc : Thread nD τ).loc main_arg4))) Facts₀.shapeCasts_S128_S1x128 := by
  rw [show W4 (F := Ideal) m ρ c (Proc.devRef .tc main_v12) = _ from H3_v12 (W3 m ρ c), E3_arg4]
theorem E4_v1 : W4 (F := Ideal) m ρ c (Proc.devRef .tc main_v1) = rowK (m ((c.tc : Thread nD τ).loc main_arg1)) :=
  (show W4 (F := Ideal) m ρ c (Proc.devRef .tc main_v1) = W3 m ρ c (Proc.devRef .tc main_v1) by host_keep).trans (E3_v1 m ρ c)
theorem E4_v3 : W4 (F := Ideal) m ρ c (Proc.devRef .tc main_v3) = colK (m ((c.tc : Thread nD τ).loc main_arg1)) :=
  (show W4 (F := Ideal) m ρ c (Proc.devRef .tc main_v3) = W3 m ρ c (Proc.devRef .tc main_v3) by host_keep).trans (E3_v3 m ρ c)
theorem E4_arg0 : W4 (F := Ideal) m ρ c (Proc.devRef .tc main_arg0) = m ((c.tc : Thread nD τ).loc main_arg0) :=
  (show W4 (F := Ideal) m ρ c (Proc.devRef .tc main_arg0) = W3 m ρ c (Proc.devRef .tc main_arg0) by host_keep).trans (E3_arg0 m ρ c)
theorem E4_arg2 : W4 (F := Ideal) m ρ c (Proc.devRef .tc main_arg2) = m ((c.tc : Thread nD τ).loc main_arg2) :=
  (show W4 (F := Ideal) m ρ c (Proc.devRef .tc main_arg2) = W3 m ρ c (Proc.devRef .tc main_arg2) by host_keep).trans (E3_arg2 m ρ c)
theorem E4_arg3 : W4 (F := Ideal) m ρ c (Proc.devRef .tc main_arg3) = m ((c.tc : Thread nD τ).loc main_arg3) :=
  (show W4 (F := Ideal) m ρ c (Proc.devRef .tc main_arg3) = W3 m ρ c (Proc.devRef .tc main_arg3) by host_keep).trans (E3_arg3 m ρ c)
theorem E4_arg4 : W4 (F := Ideal) m ρ c (Proc.devRef .tc main_arg4) = m ((c.tc : Thread nD τ).loc main_arg4) :=
  (show W4 (F := Ideal) m ρ c (Proc.devRef .tc main_arg4) = W3 m ρ c (Proc.devRef .tc main_arg4) by host_keep).trans (E3_arg4 m ρ c)
theorem E4_arg5 : W4 (F := Ideal) m ρ c (Proc.devRef .tc main_arg5) = m ((c.tc : Thread nD τ).loc main_arg5) :=
  (show W4 (F := Ideal) m ρ c (Proc.devRef .tc main_arg5) = W3 m ρ c (Proc.devRef .tc main_arg5) by host_keep).trans (E3_arg5 m ρ c)
theorem E4_arg6 : W4 (F := Ideal) m ρ c (Proc.devRef .tc main_arg6) = m ((c.tc : Thread nD τ).loc main_arg6) :=
  (show W4 (F := Ideal) m ρ c (Proc.devRef .tc main_arg6) = W3 m ρ c (Proc.devRef .tc main_arg6) by host_keep).trans (E3_arg6 m ρ c)
theorem E4_arg7 : W4 (F := Ideal) m ρ c (Proc.devRef .tc main_arg7) = m ((c.tc : Thread nD τ).loc main_arg7) :=
  (show W4 (F := Ideal) m ρ c (Proc.devRef .tc main_arg7) = W3 m ρ c (Proc.devRef .tc main_arg7) by host_keep).trans (E3_arg7 m ρ c)
theorem E4_arg8 : W4 (F := Ideal) m ρ c (Proc.devRef .tc main_arg8) = m ((c.tc : Thread nD τ).loc main_arg8) :=
  (show W4 (F := Ideal) m ρ c (Proc.devRef .tc main_arg8) = W3 m ρ c (Proc.devRef .tc main_arg8) by host_keep).trans (E3_arg8 m ρ c)
theorem E4_arg9 : W4 (F := Ideal) m ρ c (Proc.devRef .tc main_arg9) = m ((c.tc : Thread nD τ).loc main_arg9) :=
  (show W4 (F := Ideal) m ρ c (Proc.devRef .tc main_arg9) = W3 m ρ c (Proc.devRef .tc main_arg9) by host_keep).trans (E3_arg9 m ρ c)
theorem E4_arg10 : W4 (F := Ideal) m ρ c (Proc.devRef .tc main_arg10) = m ((c.tc : Thread nD τ).loc main_arg10) :=
  (show W4 (F := Ideal) m ρ c (Proc.devRef .tc main_arg10) = W3 m ρ c (Proc.devRef .tc main_arg10) by host_keep).trans (E3_arg10 m ρ c)

/-! ### At region 0's exit: the messages -/

theorem R5_v13 : W5 (F := Ideal) m ρ c (Proc.devRef .tc main_v13)
    = Cert.GnnSpec.msgG (W4 (F := Ideal) m ρ c (Proc.devRef .tc main_v6)) (W4 (F := Ideal) m ρ c (Proc.devRef .tc main_v9)) (Cert.GnnSpec.row0 (W4 (F := Ideal) m ρ c (Proc.devRef .tc main_v12))) :=
  (W5_arr m ρ c 3).trans (arr0 (V4 m ρ) c)
theorem E5_v13 : W5 (F := Ideal) m ρ c (Proc.devRef .tc main_v13)
    = Cert.GnnSpec.msgG (catK (m ((c.tc : Thread nD τ).loc main_arg0)) (rowK (m ((c.tc : Thread nD τ).loc main_arg1))) (colK (m ((c.tc : Thread nD τ).loc main_arg1)))) (wt0K (m ((c.tc : Thread nD τ).loc main_arg3))) (b0K (m ((c.tc : Thread nD τ).loc main_arg4))) := by
  rw [R5_v13, E4_v6, E4_v9, E4_v12]
  exact congrArg _ (row0_cast _ _)
theorem E5_v1 : W5 (F := Ideal) m ρ c (Proc.devRef .tc main_v1) = rowK (m ((c.tc : Thread nD τ).loc main_arg1)) :=
  (W5_of_ne m ρ c main_v1 (by decide)).trans (E4_v1 m ρ c)
theorem E5_v3 : W5 (F := Ideal) m ρ c (Proc.devRef .tc main_v3) = colK (m ((c.tc : Thread nD τ).loc main_arg1)) :=
  (W5_of_ne m ρ c main_v3 (by decide)).trans (E4_v3 m ρ c)
theorem E5_arg0 : W5 (F := Ideal) m ρ c (Proc.devRef .tc main_arg0) = m ((c.tc : Thread nD τ).loc main_arg0) :=
  (W5_of_ne m ρ c main_arg0 (by decide)).trans (E4_arg0 m ρ c)
theorem E5_arg2 : W5 (F := Ideal) m ρ c (Proc.devRef .tc main_arg2) = m ((c.tc : Thread nD τ).loc main_arg2) :=
  (W5_of_ne m ρ c main_arg2 (by decide)).trans (E4_arg2 m ρ c)
theorem E5_arg3 : W5 (F := Ideal) m ρ c (Proc.devRef .tc main_arg3) = m ((c.tc : Thread nD τ).loc main_arg3) :=
  (W5_of_ne m ρ c main_arg3 (by decide)).trans (E4_arg3 m ρ c)
theorem E5_arg4 : W5 (F := Ideal) m ρ c (Proc.devRef .tc main_arg4) = m ((c.tc : Thread nD τ).loc main_arg4) :=
  (W5_of_ne m ρ c main_arg4 (by decide)).trans (E4_arg4 m ρ c)
theorem E5_arg5 : W5 (F := Ideal) m ρ c (Proc.devRef .tc main_arg5) = m ((c.tc : Thread nD τ).loc main_arg5) :=
  (W5_of_ne m ρ c main_arg5 (by decide)).trans (E4_arg5 m ρ c)
theorem E5_arg6 : W5 (F := Ideal) m ρ c (Proc.devRef .tc main_arg6) = m ((c.tc : Thread nD τ).loc main_arg6) :=
  (W5_of_ne m ρ c main_arg6 (by decide)).trans (E4_arg6 m ρ c)
theorem E5_arg7 : W5 (F := Ideal) m ρ c (Proc.devRef .tc main_arg7) = m ((c.tc : Thread nD τ).loc main_arg7) :=
  (W5_of_ne m ρ c main_arg7 (by decide)).trans (E4_arg7 m ρ c)
theorem E5_arg8 : W5 (F := Ideal) m ρ c (Proc.devRef .tc main_arg8) = m ((c.tc : Thread nD τ).loc main_arg8) :=
  (W5_of_ne m ρ c main_arg8 (by decide)).trans (E4_arg8 m ρ c)
theorem E5_arg9 : W5 (F := Ideal) m ρ c (Proc.devRef .tc main_arg9) = m ((c.tc : Thread nD τ).loc main_arg9) :=
  (W5_of_ne m ρ c main_arg9 (by decide)).trans (E4_arg9 m ρ c)
theorem E5_arg10 : W5 (F := Ideal) m ρ c (Proc.devRef .tc main_arg10) = m ((c.tc : Thread nD τ).loc main_arg10) :=
  (W5_of_ne m ρ c main_arg10 (by decide)).trans (E4_arg10 m ρ c)

/-! ### At region 1's entry: the summed messages and layer 0's update parameters -/

theorem E6_v16 : W6 (F := Ideal) m ρ c (Proc.devRef .tc main_v16)
    = aggK (rowK (m ((c.tc : Thread nD τ).loc main_arg1))) (Cert.GnnSpec.msgG (catK (m ((c.tc : Thread nD τ).loc main_arg0)) (rowK (m ((c.tc : Thread nD τ).loc main_arg1))) (colK (m ((c.tc : Thread nD τ).loc main_arg1)))) (wt0K (m ((c.tc : Thread nD τ).loc main_arg3))) (b0K (m ((c.tc : Thread nD τ).loc main_arg4)))) := by
  rw [show W6 (F := Ideal) m ρ c (Proc.devRef .tc main_v16) = _ from H4_v16 (W5 m ρ c), E5_v1, E5_v13]
theorem E6_v19 : W6 (F := Ideal) m ρ c (Proc.devRef .tc main_v19) = wih0K (m ((c.tc : Thread nD τ).loc main_arg5)) := by
  rw [show W6 (F := Ideal) m ρ c (Proc.devRef .tc main_v19) = _ from H4_v19 (W5 m ρ c), E5_arg5]
theorem E6_v22 : W6 (F := Ideal) m ρ c (Proc.devRef .tc main_v22) = wih0K (m ((c.tc : Thread nD τ).loc main_arg6)) := by
  rw [show W6 (F := Ideal) m ρ c (Proc.devRef .tc main_v22) = _ from H4_v22 (W5 m ρ c), E5_arg6]
theorem E6_v25 : W6 (F := Ideal) m ρ c (Proc.devRef .tc main_v25) = shapeCast S1x384 (bih0K (m ((c.tc : Thread nD τ).loc main_arg7))) Facts₀.shapeCasts_S384_S1x384 := by
  rw [show W6 (F := Ideal) m ρ c (Proc.devRef .tc main_v25) = _ from H4_v25 (W5 m ρ c), E5_arg7]
theorem E6_v28 : W6 (F := Ideal) m ρ c (Proc.devRef .tc main_v28) = shapeCast S1x384 (bih0K (m ((c.tc : Thread nD τ).loc main_arg8))) Facts₀.shapeCasts_S384_S1x384 := by
  rw [show W6 (F := Ideal) m ρ c (Proc.devRef .tc main_v28) = _ from H4_v28 (W5 m ρ c), E5_arg8]
theorem E6_v1 : W6 (F := Ideal) m ρ c (Proc.devRef .tc main_v1) = rowK (m ((c.tc : Thread nD τ).loc main_arg1)) :=
  (show W6 (F := Ideal) m ρ c (Proc.devRef .tc main_v1) = W5 m ρ c (Proc.devRef .tc main_v1) by host_keep).trans (E5_v1 m ρ c)
theorem E6_v3 : W6 (F := Ideal) m ρ c (Proc.devRef .tc main_v3) = colK (m ((c.tc : Thread nD τ).loc main_arg1)) :=
  (show W6 (F := Ideal) m ρ c (Proc.devRef .tc main_v3) = W5 m ρ c (Proc.devRef .tc main_v3) by host_keep).trans (E5_v3 m ρ c)
theorem E6_arg0 : W6 (F := Ideal) m ρ c (Proc.devRef .tc main_arg0) = m ((c.tc : Thread nD τ).loc main_arg0) :=
  (show W6 (F := Ideal) m ρ c (Proc.devRef .tc main_arg0) = W5 m ρ c (Proc.devRef .tc main_arg0) by host_keep).trans (E5_arg0 m ρ c)
theorem E6_arg2 : W6 (F := Ideal) m ρ c (Proc.devRef .tc main_arg2) = m ((c.tc : Thread nD τ).loc main_arg2) :=
  (show W6 (F := Ideal) m ρ c (Proc.devRef .tc main_arg2) = W5 m ρ c (Proc.devRef .tc main_arg2) by host_keep).trans (E5_arg2 m ρ c)
theorem E6_arg3 : W6 (F := Ideal) m ρ c (Proc.devRef .tc main_arg3) = m ((c.tc : Thread nD τ).loc main_arg3) :=
  (show W6 (F := Ideal) m ρ c (Proc.devRef .tc main_arg3) = W5 m ρ c (Proc.devRef .tc main_arg3) by host_keep).trans (E5_arg3 m ρ c)
theorem E6_arg4 : W6 (F := Ideal) m ρ c (Proc.devRef .tc main_arg4) = m ((c.tc : Thread nD τ).loc main_arg4) :=
  (show W6 (F := Ideal) m ρ c (Proc.devRef .tc main_arg4) = W5 m ρ c (Proc.devRef .tc main_arg4) by host_keep).trans (E5_arg4 m ρ c)
theorem E6_arg5 : W6 (F := Ideal) m ρ c (Proc.devRef .tc main_arg5) = m ((c.tc : Thread nD τ).loc main_arg5) :=
  (show W6 (F := Ideal) m ρ c (Proc.devRef .tc main_arg5) = W5 m ρ c (Proc.devRef .tc main_arg5) by host_keep).trans (E5_arg5 m ρ c)
theorem E6_arg6 : W6 (F := Ideal) m ρ c (Proc.devRef .tc main_arg6) = m ((c.tc : Thread nD τ).loc main_arg6) :=
  (show W6 (F := Ideal) m ρ c (Proc.devRef .tc main_arg6) = W5 m ρ c (Proc.devRef .tc main_arg6) by host_keep).trans (E5_arg6 m ρ c)
theorem E6_arg7 : W6 (F := Ideal) m ρ c (Proc.devRef .tc main_arg7) = m ((c.tc : Thread nD τ).loc main_arg7) :=
  (show W6 (F := Ideal) m ρ c (Proc.devRef .tc main_arg7) = W5 m ρ c (Proc.devRef .tc main_arg7) by host_keep).trans (E5_arg7 m ρ c)
theorem E6_arg8 : W6 (F := Ideal) m ρ c (Proc.devRef .tc main_arg8) = m ((c.tc : Thread nD τ).loc main_arg8) :=
  (show W6 (F := Ideal) m ρ c (Proc.devRef .tc main_arg8) = W5 m ρ c (Proc.devRef .tc main_arg8) by host_keep).trans (E5_arg8 m ρ c)
theorem E6_arg9 : W6 (F := Ideal) m ρ c (Proc.devRef .tc main_arg9) = m ((c.tc : Thread nD τ).loc main_arg9) :=
  (show W6 (F := Ideal) m ρ c (Proc.devRef .tc main_arg9) = W5 m ρ c (Proc.devRef .tc main_arg9) by host_keep).trans (E5_arg9 m ρ c)
theorem E6_arg10 : W6 (F := Ideal) m ρ c (Proc.devRef .tc main_arg10) = m ((c.tc : Thread nD τ).loc main_arg10) :=
  (show W6 (F := Ideal) m ρ c (Proc.devRef .tc main_arg10) = W5 m ρ c (Proc.devRef .tc main_arg10) by host_keep).trans (E5_arg10 m ρ c)

/-! ### At region 1's exit: the updated node features -/

theorem R7_v29 : W7 (F := Ideal) m ρ c (Proc.devRef .tc main_v29)
    = Cert.GnnSpec.gruG (W6 (F := Ideal) m ρ c (Proc.devRef .tc main_v16)) (W6 (F := Ideal) m ρ c (Proc.devRef .tc main_arg0)) (W6 (F := Ideal) m ρ c (Proc.devRef .tc main_v19)) (W6 (F := Ideal) m ρ c (Proc.devRef .tc main_v22))
        (Cert.GnnSpec.row0 (W6 (F := Ideal) m ρ c (Proc.devRef .tc main_v25))) (Cert.GnnSpec.row0 (W6 (F := Ideal) m ρ c (Proc.devRef .tc main_v28))) :=
  (W7_arr m ρ c 6).trans (arr1 (V6 m ρ) c)
theorem E7_v1 : W7 (F := Ideal) m ρ c (Proc.devRef .tc main_v1) = rowK (m ((c.tc : Thread nD τ).loc main_arg1)) :=
  (W7_of_ne m ρ c main_v1 (by decide)).trans (E6_v1 m ρ c)
theorem E7_v3 : W7 (F := Ideal) m ρ c (Proc.devRef .tc main_v3) = colK (m ((c.tc : Thread nD τ).loc main_arg1)) :=
  (W7_of_ne m ρ c main_v3 (by decide)).trans (E6_v3 m ρ c)
theorem E7_arg2 : W7 (F := Ideal) m ρ c (Proc.devRef .tc main_arg2) = m ((c.tc : Thread nD τ).loc main_arg2) :=
  (W7_of_ne m ρ c main_arg2 (by decide)).trans (E6_arg2 m ρ c)
theorem E7_arg3 : W7 (F := Ideal) m ρ c (Proc.devRef .tc main_arg3) = m ((c.tc : Thread nD τ).loc main_arg3) :=
  (W7_of_ne m ρ c main_arg3 (by decide)).trans (E6_arg3 m ρ c)
theorem E7_arg4 : W7 (F := Ideal) m ρ c (Proc.devRef .tc main_arg4) = m ((c.tc : Thread nD τ).loc main_arg4) :=
  (W7_of_ne m ρ c main_arg4 (by decide)).trans (E6_arg4 m ρ c)
theorem E7_arg5 : W7 (F := Ideal) m ρ c (Proc.devRef .tc main_arg5) = m ((c.tc : Thread nD τ).loc main_arg5) :=
  (W7_of_ne m ρ c main_arg5 (by decide)).trans (E6_arg5 m ρ c)
theorem E7_arg6 : W7 (F := Ideal) m ρ c (Proc.devRef .tc main_arg6) = m ((c.tc : Thread nD τ).loc main_arg6) :=
  (W7_of_ne m ρ c main_arg6 (by decide)).trans (E6_arg6 m ρ c)
theorem E7_arg7 : W7 (F := Ideal) m ρ c (Proc.devRef .tc main_arg7) = m ((c.tc : Thread nD τ).loc main_arg7) :=
  (W7_of_ne m ρ c main_arg7 (by decide)).trans (E6_arg7 m ρ c)
theorem E7_arg8 : W7 (F := Ideal) m ρ c (Proc.devRef .tc main_arg8) = m ((c.tc : Thread nD τ).loc main_arg8) :=
  (W7_of_ne m ρ c main_arg8 (by decide)).trans (E6_arg8 m ρ c)
theorem E7_arg9 : W7 (F := Ideal) m ρ c (Proc.devRef .tc main_arg9) = m ((c.tc : Thread nD τ).loc main_arg9) :=
  (W7_of_ne m ρ c main_arg9 (by decide)).trans (E6_arg9 m ρ c)
theorem E7_arg10 : W7 (F := Ideal) m ρ c (Proc.devRef .tc main_arg10) = m ((c.tc : Thread nD τ).loc main_arg10) :=
  (W7_of_ne m ρ c main_arg10 (by decide)).trans (E6_arg10 m ρ c)

end Step0

open Step0

theorem x1_eq : W7 (F := Ideal) m ρ c (Proc.devRef .tc main_v29)
    = layerK (m ((c.tc : Thread nD τ).loc main_arg0)) (rowK (m ((c.tc : Thread nD τ).loc main_arg1))) (colK (m ((c.tc : Thread nD τ).loc main_arg1))) (wt0K (m ((c.tc : Thread nD τ).loc main_arg3))) (b0K (m ((c.tc : Thread nD τ).loc main_arg4)))
        (wih0K (m ((c.tc : Thread nD τ).loc main_arg5))) (wih0K (m ((c.tc : Thread nD τ).loc main_arg6))) (bih0K (m ((c.tc : Thread nD τ).loc main_arg7))) (bih0K (m ((c.tc : Thread nD τ).loc main_arg8))) := by
  rw [R7_v29, E6_v16, E6_arg0, E6_v19, E6_v22, E6_v25, E6_v28, row0_cast, row0_cast]
  rfl
theorem W7_v1 : W7 (F := Ideal) m ρ c (Proc.devRef .tc main_v1) = rowK (m ((c.tc : Thread nD τ).loc main_arg1)) := E7_v1 m ρ c
theorem W7_v3 : W7 (F := Ideal) m ρ c (Proc.devRef .tc main_v3) = colK (m ((c.tc : Thread nD τ).loc main_arg1)) := E7_v3 m ρ c
theorem W7_arg2 : W7 (F := Ideal) m ρ c (Proc.devRef .tc main_arg2) = m ((c.tc : Thread nD τ).loc main_arg2) := E7_arg2 m ρ c
theorem W7_arg3 : W7 (F := Ideal) m ρ c (Proc.devRef .tc main_arg3) = m ((c.tc : Thread nD τ).loc main_arg3) := E7_arg3 m ρ c
theorem W7_arg4 : W7 (F := Ideal) m ρ c (Proc.devRef .tc main_arg4) = m ((c.tc : Thread nD τ).loc main_arg4) := E7_arg4 m ρ c
theorem W7_arg5 : W7 (F := Ideal) m ρ c (Proc.devRef .tc main_arg5) = m ((c.tc : Thread nD τ).loc main_arg5) := E7_arg5 m ρ c
theorem W7_arg6 : W7 (F := Ideal) m ρ c (Proc.devRef .tc main_arg6) = m ((c.tc : Thread nD τ).loc main_arg6) := E7_arg6 m ρ c
theorem W7_arg7 : W7 (F := Ideal) m ρ c (Proc.devRef .tc main_arg7) = m ((c.tc : Thread nD τ).loc main_arg7) := E7_arg7 m ρ c
theorem W7_arg8 : W7 (F := Ideal) m ρ c (Proc.devRef .tc main_arg8) = m ((c.tc : Thread nD τ).loc main_arg8) := E7_arg8 m ρ c
theorem W7_arg9 : W7 (F := Ideal) m ρ c (Proc.devRef .tc main_arg9) = m ((c.tc : Thread nD τ).loc main_arg9) := E7_arg9 m ρ c
theorem W7_arg10 : W7 (F := Ideal) m ρ c (Proc.devRef .tc main_arg10) = m ((c.tc : Thread nD τ).loc main_arg10) := E7_arg10 m ρ c

end Cert.KernelIdeal.Hand

end
-- ==== Proof.KStep1.lean ====
/-
  Layer 1 of the kernel program, read off the buffers: from the contents at the first update's exit to the
  contents at the second update's exit. Between the two the host gathers the node rows at both endpoints of every
  edge and joins them, cuts layer 1's weights and biases out of the stacked parameters, and sums the messages at
  their source nodes; the two kernel regions in between are the message map and the gated update of the
  specification. Every other buffer of interest is written by none of these and keeps its contents.
-/
import proofs.«413579_j91036126806070_1_alg».proof.Proof.Gen.KernelIdeal.Frame
import proofs.«413579_j91036126806070_1_alg».proof.Proof.Spec
import proofs.«413579_j91036126806070_1_alg».proof.Proof.KDefs
import proofs.«413579_j91036126806070_1_alg».proof.Proof.KMsg0
import proofs.«413579_j91036126806070_1_alg».proof.Proof.KMsg2
import proofs.«413579_j91036126806070_1_alg».proof.Proof.KMsg4
import proofs.«413579_j91036126806070_1_alg».proof.Proof.KGru1
import proofs.«413579_j91036126806070_1_alg».proof.Proof.KGru3
import proofs.«413579_j91036126806070_1_alg».proof.Proof.KGru5
import proofs.«413579_j91036126806070_1_alg».proof.Proof.KTakeOps

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

/-- No operation of a host stretch writes the buffer: the literal list of operations is walked, each
    operation's one result buffer told apart from the buffer as a reference. -/
local macro "not_written" : tactic => `(tactic| (
  refine List.forall_iff_forall_mem.mp ?_
  simp only [hostOps2, hostOps2_1, hostOps2_2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

namespace Step1

/-! ### What each host stretch leaves in the buffers it writes, from any contents -/

/-- A vector stored as a one-row matrix and read back as a vector is the vector. -/
theorem row0_cast {n : Nat} (x : FVec Ideal ⟨1, ![n]⟩ .f32) (h : (⟨1, ![n]⟩ : Shape).ShapeCasts ⟨2, ![1, n]⟩) :
    Cert.GnnSpec.row0 (n := n) (shapeCast ⟨2, ![1, n]⟩ x h) = x := by
  funext j
  unfold Cert.GnnSpec.row0
  refine (shapeCast_addUnit_apply ![n] x h (ix2 0 (j 0))).trans (congrArg x ?_)
  funext a
  match a with
  | ⟨0, _⟩ => rfl

/-- The "all coordinates in range" reduction is the same operation over the plain references. -/
theorem hostOps2_red :
    (StableHlo.TRef.binary (.of main_call2_v11 : StableHlo.TRef sig ⟨S640000x1, .i1⟩) (.of main_call2_c_3 : StableHlo.TRef sig ⟨S_, .i1⟩) (.of main_call2_v12 : StableHlo.TRef sig ⟨S640000, .i1⟩) (fun x v => Host.reduce IntOp.andi x v Facts₀.reducesTo_S640000x1_S640000_d1 Facts₀.h_S_) : HloOp τ sig (Elt Ideal))
      = StableHlo.binary main_call2_v11 main_call2_c_3 main_call2_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)) := by
  simp only [StableHlo.TRef.binary, StableHlo.TRef.toBuf, StableHlo.TRef.ofBuf, cast_eq]
  rfl

/-- The operations over typed references are the plain ones: a transport along an equality of types that
    holds by computation is the identity. -/
theorem hostOps2_eq_plain : (hostOps2 (F := Ideal)) = hostOps2_plain := by
  unfold hostOps2
  rw [hostOps2_red]
  rfl

/-- After these operations the result buffer holds the rows of the node array at the wrapped source indices,
    a row whose index is out of range filled with the not-a-number pattern. -/
theorem take_v30 (V : Valuation τ sig (Elt Ideal)) :
    StableHlo.after (hostOps2 (F := Ideal)) V (Proc.devRef .tc main_v30)
      = takeK (V (Proc.devRef .tc main_v29)) (V (Proc.devRef .tc main_v1)) := by
  rw [hostOps2_eq_plain]
  unfold takeK inRangeK idx1K wrapK
  after_results_simp

/-- The "all coordinates in range" reduction is the same operation over the plain references. -/
theorem hostOps2_1_red :
    (StableHlo.TRef.binary (.of main_call3_v11 : StableHlo.TRef sig ⟨S640000x1, .i1⟩) (.of main_call3_c_3 : StableHlo.TRef sig ⟨S_, .i1⟩) (.of main_call3_v12 : StableHlo.TRef sig ⟨S640000, .i1⟩) (fun x v => Host.reduce IntOp.andi x v Facts₀.reducesTo_S640000x1_S640000_d1 Facts₀.h_S_) : HloOp τ sig (Elt Ideal))
      = StableHlo.binary main_call3_v11 main_call3_c_3 main_call3_v12 (((fun x v => Host.reduce IntOp.andi x v Facts₀.reducesTo_S640000x1_S640000_d1 Facts₀.h_S_)) : (⟨S640000x1, .i1⟩ : BufTy).Contents (Elt Ideal) → (⟨S_, .i1⟩ : BufTy).Contents (Elt Ideal) → (⟨S640000, .i1⟩ : BufTy).Contents (Elt Ideal)) := by
  simp only [StableHlo.TRef.binary, StableHlo.TRef.toBuf, StableHlo.TRef.ofBuf, cast_eq]
  rfl

/-- The operations over typed references are the plain ones: a transport along an equality of types that
    holds by computation is the identity. -/
theorem hostOps2_1_eq_plain : (hostOps2_1 (F := Ideal)) = hostOps2_1_plain := by
  unfold hostOps2_1
  rw [hostOps2_1_red]
  rfl

/-- After these operations the result buffer holds the rows of the node array at the wrapped target indices,
    a row whose index is out of range filled with the not-a-number pattern. -/
theorem take_v31 (V : Valuation τ sig (Elt Ideal)) :
    StableHlo.after (hostOps2_1 (F := Ideal)) V (Proc.devRef .tc main_v31)
      = takeK (V (Proc.devRef .tc main_v29)) (V (Proc.devRef .tc main_v3)) := by
  rw [hostOps2_1_eq_plain]
  unfold takeK inRangeK idx1K wrapK
  after_results_simp

/-- The third stretch joins the two gathered halves along the feature axis, … -/
theorem cat_v32 (V : Valuation τ sig (Elt Ideal)) :
    StableHlo.after (hostOps2_2 : List (HloOp τ sig (Elt Ideal))) V (Proc.devRef .tc main_v32)
      = concatenate S640000x256 1 [⟨S640000x128, V (Proc.devRef .tc main_v30)⟩, ⟨S640000x128, V (Proc.devRef .tc main_v31)⟩]
          Facts₀.concatenates_S640000x128_S640000x128_S640000x256_d1 := by
  after_results <;> rfl

/-- … cuts layer 1's message weights out of the stack, transposed, … -/
theorem wt_v35 (V : Valuation τ sig (Elt Ideal)) :
    StableHlo.after (hostOps2_2 : List (HloOp τ sig (Elt Ideal))) V (Proc.devRef .tc main_v35)
      = wt1K (V (Proc.devRef .tc main_arg3)) := by
  unfold wt1K
  after_results <;> rfl

/-- … and layer 1's message bias, kept as a one-row matrix. -/
theorem b_v38 (V : Valuation τ sig (Elt Ideal)) :
    Cert.GnnSpec.row0 (n := 128) (StableHlo.after (hostOps2_2 : List (HloOp τ sig (Elt Ideal))) V (Proc.devRef .tc main_v38))
      = b1K (V (Proc.devRef .tc main_arg4)) := by
  have e : StableHlo.after (hostOps2_2 : List (HloOp τ sig (Elt Ideal))) V (Proc.devRef .tc main_v38)
      = shapeCast S1x128 (b1K (V (Proc.devRef .tc main_arg4))) Facts₀.shapeCasts_S128_S1x128 := by
    unfold b1K
    after_results <;> rfl
  rw [e]
  exact row0_cast _ _

/-- The stretch before the update sums the messages at their source nodes, … -/
theorem agg_v42 (V : Valuation τ sig (Elt Ideal)) :
    StableHlo.after (hostOps3 : List (HloOp τ sig (Elt Ideal))) V (Proc.devRef .tc main_v42)
      = aggK (V (Proc.devRef .tc main_v1)) (V (Proc.devRef .tc main_v39)) := by
  unfold aggK
  after_results <;> rfl

/-- … cuts layer 1's two gate weight matrices out of their stacks, transposed, … -/
theorem wih_v45 (V : Valuation τ sig (Elt Ideal)) :
    StableHlo.after (hostOps3 : List (HloOp τ sig (Elt Ideal))) V (Proc.devRef .tc main_v45)
      = wih1K (V (Proc.devRef .tc main_arg5)) := by
  unfold wih1K
  after_results <;> rfl

theorem whh_v48 (V : Valuation τ sig (Elt Ideal)) :
    StableHlo.after (hostOps3 : List (HloOp τ sig (Elt Ideal))) V (Proc.devRef .tc main_v48)
      = wih1K (V (Proc.devRef .tc main_arg6)) := by
  unfold wih1K
  after_results <;> rfl

/-- … and the two gate biases, each kept as a one-row matrix. -/
theorem bih_v51 (V : Valuation τ sig (Elt Ideal)) :
    Cert.GnnSpec.row0 (n := 384) (StableHlo.after (hostOps3 : List (HloOp τ sig (Elt Ideal))) V (Proc.devRef .tc main_v51))
      = bih1K (V (Proc.devRef .tc main_arg7)) := by
  have e : StableHlo.after (hostOps3 : List (HloOp τ sig (Elt Ideal))) V (Proc.devRef .tc main_v51)
      = shapeCast S1x384 (bih1K (V (Proc.devRef .tc main_arg7))) Facts₀.shapeCasts_S384_S1x384 := by
    unfold bih1K
    after_results <;> rfl
  rw [e]
  exact row0_cast _ _

theorem bhh_v54 (V : Valuation τ sig (Elt Ideal)) :
    Cert.GnnSpec.row0 (n := 384) (StableHlo.after (hostOps3 : List (HloOp τ sig (Elt Ideal))) V (Proc.devRef .tc main_v54))
      = bih1K (V (Proc.devRef .tc main_arg8)) := by
  have e : StableHlo.after (hostOps3 : List (HloOp τ sig (Elt Ideal))) V (Proc.devRef .tc main_v54)
      = shapeCast S1x384 (bih1K (V (Proc.devRef .tc main_arg8))) Facts₀.shapeCasts_S384_S1x384 := by
    unfold bih1K
    after_results <;> rfl
  rw [e]
  exact row0_cast _ _

/-! ### A buffer none of the stretches writes, and no region holds as an array, keeps its contents -/

variable (m : (ℓ : Loc nD τ sig) → Buf (Elt Ideal) ℓ) (ρ : Dev nD → PrngReg) (c : Dev nD)

theorem keep9 (b : Ref sig .tc)
    (h21 : ∀ op ∈ (hostOps2_1 : List (HloOp τ sig (Elt Ideal))), Proc.devRef .tc b ∉ op.writes)
    (h20 : ∀ op ∈ (hostOps2 : List (HloOp τ sig (Elt Ideal))), Proc.devRef .tc b ∉ op.writes) :
    W9 (F := Ideal) m ρ c (Proc.devRef .tc b) = W7 (F := Ideal) m ρ c (Proc.devRef .tc b) :=
  calc W9 (F := Ideal) m ρ c (Proc.devRef .tc b)
    _ = W8 (F := Ideal) m ρ c (Proc.devRef .tc b) := StableHlo.after_of_forall_not_mem _ _ h21
    _ = W7 (F := Ideal) m ρ c (Proc.devRef .tc b) := StableHlo.after_of_forall_not_mem _ _ h20

theorem keep10 (b : Ref sig .tc)
    (h22 : ∀ op ∈ (hostOps2_2 : List (HloOp τ sig (Elt Ideal))), Proc.devRef .tc b ∉ op.writes)
    (h21 : ∀ op ∈ (hostOps2_1 : List (HloOp τ sig (Elt Ideal))), Proc.devRef .tc b ∉ op.writes)
    (h20 : ∀ op ∈ (hostOps2 : List (HloOp τ sig (Elt Ideal))), Proc.devRef .tc b ∉ op.writes) :
    W10 (F := Ideal) m ρ c (Proc.devRef .tc b) = W7 (F := Ideal) m ρ c (Proc.devRef .tc b) :=
  (StableHlo.after_of_forall_not_mem _ _ h22).trans (keep9 m ρ c b h21 h20)

theorem keep11 (b : Ref sig .tc) (hr2 : ∀ w, Pipeline.arrRef spec2 w ≠ b)
    (h22 : ∀ op ∈ (hostOps2_2 : List (HloOp τ sig (Elt Ideal))), Proc.devRef .tc b ∉ op.writes)
    (h21 : ∀ op ∈ (hostOps2_1 : List (HloOp τ sig (Elt Ideal))), Proc.devRef .tc b ∉ op.writes)
    (h20 : ∀ op ∈ (hostOps2 : List (HloOp τ sig (Elt Ideal))), Proc.devRef .tc b ∉ op.writes) :
    W11 (F := Ideal) m ρ c (Proc.devRef .tc b) = W7 (F := Ideal) m ρ c (Proc.devRef .tc b) :=
  (W11_of_ne m ρ c b hr2).trans (keep10 m ρ c b h22 h21 h20)

theorem keep12 (b : Ref sig .tc)
    (h3 : ∀ op ∈ (hostOps3 : List (HloOp τ sig (Elt Ideal))), Proc.devRef .tc b ∉ op.writes)
    (hr2 : ∀ w, Pipeline.arrRef spec2 w ≠ b)
    (h22 : ∀ op ∈ (hostOps2_2 : List (HloOp τ sig (Elt Ideal))), Proc.devRef .tc b ∉ op.writes)
    (h21 : ∀ op ∈ (hostOps2_1 : List (HloOp τ sig (Elt Ideal))), Proc.devRef .tc b ∉ op.writes)
    (h20 : ∀ op ∈ (hostOps2 : List (HloOp τ sig (Elt Ideal))), Proc.devRef .tc b ∉ op.writes) :
    W12 (F := Ideal) m ρ c (Proc.devRef .tc b) = W7 (F := Ideal) m ρ c (Proc.devRef .tc b) :=
  (StableHlo.after_of_forall_not_mem _ _ h3).trans (keep11 m ρ c b hr2 h22 h21 h20)

theorem keep13 (b : Ref sig .tc) (hr3 : ∀ w, Pipeline.arrRef spec3 w ≠ b)
    (h3 : ∀ op ∈ (hostOps3 : List (HloOp τ sig (Elt Ideal))), Proc.devRef .tc b ∉ op.writes)
    (hr2 : ∀ w, Pipeline.arrRef spec2 w ≠ b)
    (h22 : ∀ op ∈ (hostOps2_2 : List (HloOp τ sig (Elt Ideal))), Proc.devRef .tc b ∉ op.writes)
    (h21 : ∀ op ∈ (hostOps2_1 : List (HloOp τ sig (Elt Ideal))), Proc.devRef .tc b ∉ op.writes)
    (h20 : ∀ op ∈ (hostOps2 : List (HloOp τ sig (Elt Ideal))), Proc.devRef .tc b ∉ op.writes) :
    W13 (F := Ideal) m ρ c (Proc.devRef .tc b) = W7 (F := Ideal) m ρ c (Proc.devRef .tc b) :=
  (W13_of_ne m ρ c b hr3).trans (keep12 m ρ c b h3 hr2 h22 h21 h20)

/-! ### The message map's three entry arrays and its exit -/

/-- Every edge's joined rows at the message map's entry. -/
theorem cat_10 : W10 (F := Ideal) m ρ c (Proc.devRef .tc main_v32)
    = catK (W7 (F := Ideal) m ρ c (Proc.devRef .tc main_v29)) (W7 (F := Ideal) m ρ c (Proc.devRef .tc main_v1))
        (W7 (F := Ideal) m ρ c (Proc.devRef .tc main_v3)) := by
  have e30 : W9 (F := Ideal) m ρ c (Proc.devRef .tc main_v30)
      = takeK (W7 (F := Ideal) m ρ c (Proc.devRef .tc main_v29)) (W7 (F := Ideal) m ρ c (Proc.devRef .tc main_v1)) :=
    (StableHlo.after_of_forall_not_mem _ _ (by not_written)).trans (take_v30 (W7 (F := Ideal) m ρ c))
  have e29 : W8 (F := Ideal) m ρ c (Proc.devRef .tc main_v29) = W7 (F := Ideal) m ρ c (Proc.devRef .tc main_v29) :=
    StableHlo.after_of_forall_not_mem _ _ (by not_written)
  have e3 : W8 (F := Ideal) m ρ c (Proc.devRef .tc main_v3) = W7 (F := Ideal) m ρ c (Proc.devRef .tc main_v3) :=
    StableHlo.after_of_forall_not_mem _ _ (by not_written)
  have e31 : W9 (F := Ideal) m ρ c (Proc.devRef .tc main_v31)
      = takeK (W7 (F := Ideal) m ρ c (Proc.devRef .tc main_v29)) (W7 (F := Ideal) m ρ c (Proc.devRef .tc main_v3)) := by
    refine (take_v31 (W8 (F := Ideal) m ρ c)).trans ?_
    rw [e29, e3]
  refine (cat_v32 (W9 (F := Ideal) m ρ c)).trans ?_
  rw [e30, e31]
  rfl

theorem wt_10 : W10 (F := Ideal) m ρ c (Proc.devRef .tc main_v35) = wt1K (W7 (F := Ideal) m ρ c (Proc.devRef .tc main_arg3)) :=
  (wt_v35 (W9 (F := Ideal) m ρ c)).trans
    (congrArg wt1K (keep9 m ρ c main_arg3 (by not_written) (by not_written)))

theorem b_10 : Cert.GnnSpec.row0 (n := 128) (W10 (F := Ideal) m ρ c (Proc.devRef .tc main_v38))
    = b1K (W7 (F := Ideal) m ρ c (Proc.devRef .tc main_arg4)) :=
  (b_v38 (W9 (F := Ideal) m ρ c)).trans
    (congrArg b1K (keep9 m ρ c main_arg4 (by not_written) (by not_written)))

/-- The messages at the message map's exit. -/
theorem msg_11 : W11 (F := Ideal) m ρ c (Proc.devRef .tc main_v39)
    = Cert.GnnSpec.msgG
        (catK (W7 (F := Ideal) m ρ c (Proc.devRef .tc main_v29)) (W7 (F := Ideal) m ρ c (Proc.devRef .tc main_v1))
          (W7 (F := Ideal) m ρ c (Proc.devRef .tc main_v3)))
        (wt1K (W7 (F := Ideal) m ρ c (Proc.devRef .tc main_arg3))) (b1K (W7 (F := Ideal) m ρ c (Proc.devRef .tc main_arg4))) := by
  refine (W11_arr m ρ c 3).trans ?_
  refine (arr2 (V10 (F := Ideal) m ρ) c).trans ?_
  have h1 : V10 (F := Ideal) m ρ c main_v32 = _ := cat_10 m ρ c
  have h2 : V10 (F := Ideal) m ρ c main_v35 = _ := wt_10 m ρ c
  have h3 : Cert.GnnSpec.row0 (n := 128) (V10 (F := Ideal) m ρ c main_v38) = _ := b_10 m ρ c
  rw [h1, h2, h3]

/-! ### The update's six entry arrays -/

theorem agg_12 : W12 (F := Ideal) m ρ c (Proc.devRef .tc main_v42)
    = aggK (W7 (F := Ideal) m ρ c (Proc.devRef .tc main_v1))
        (Cert.GnnSpec.msgG
          (catK (W7 (F := Ideal) m ρ c (Proc.devRef .tc main_v29)) (W7 (F := Ideal) m ρ c (Proc.devRef .tc main_v1))
            (W7 (F := Ideal) m ρ c (Proc.devRef .tc main_v3)))
          (wt1K (W7 (F := Ideal) m ρ c (Proc.devRef .tc main_arg3))) (b1K (W7 (F := Ideal) m ρ c (Proc.devRef .tc main_arg4)))) := by
  refine (agg_v42 (W11 (F := Ideal) m ρ c)).trans ?_
  rw [msg_11 m ρ c, keep11 m ρ c main_v1 (by decide) (by not_written) (by not_written) (by not_written)]

theorem x_12 : W12 (F := Ideal) m ρ c (Proc.devRef .tc main_v29) = W7 (F := Ideal) m ρ c (Proc.devRef .tc main_v29) :=
  keep12 m ρ c main_v29 (by not_written) (by decide) (by not_written) (by not_written) (by not_written)

theorem wih_12 : W12 (F := Ideal) m ρ c (Proc.devRef .tc main_v45) = wih1K (W7 (F := Ideal) m ρ c (Proc.devRef .tc main_arg5)) :=
  (wih_v45 (W11 (F := Ideal) m ρ c)).trans
    (congrArg wih1K (keep11 m ρ c main_arg5 (by decide) (by not_written) (by not_written) (by not_written)))

theorem whh_12 : W12 (F := Ideal) m ρ c (Proc.devRef .tc main_v48) = wih1K (W7 (F := Ideal) m ρ c (Proc.devRef .tc main_arg6)) :=
  (whh_v48 (W11 (F := Ideal) m ρ c)).trans
    (congrArg wih1K (keep11 m ρ c main_arg6 (by decide) (by not_written) (by not_written) (by not_written)))

theorem bih_12 : Cert.GnnSpec.row0 (n := 384) (W12 (F := Ideal) m ρ c (Proc.devRef .tc main_v51))
    = bih1K (W7 (F := Ideal) m ρ c (Proc.devRef .tc main_arg7)) :=
  (bih_v51 (W11 (F := Ideal) m ρ c)).trans
    (congrArg bih1K (keep11 m ρ c main_arg7 (by decide) (by not_written) (by not_written) (by not_written)))

theorem bhh_12 : Cert.GnnSpec.row0 (n := 384) (W12 (F := Ideal) m ρ c (Proc.devRef .tc main_v54))
    = bih1K (W7 (F := Ideal) m ρ c (Proc.devRef .tc main_arg8)) :=
  (bhh_v54 (W11 (F := Ideal) m ρ c)).trans
    (congrArg bih1K (keep11 m ρ c main_arg8 (by decide) (by not_written) (by not_written) (by not_written)))

end Step1

variable (m : (ℓ : Loc nD τ sig) → Buf (Elt Ideal) ℓ) (ρ : Dev nD → PrngReg) (c : Dev nD)

/-- The node features at the second update's exit are one layer applied to those at the first update's exit. -/
theorem x2_step : W13 (F := Ideal) m ρ c (Proc.devRef .tc main_v55)
    = layerK (W7 (F := Ideal) m ρ c (Proc.devRef .tc main_v29)) (W7 (F := Ideal) m ρ c (Proc.devRef .tc main_v1)) (W7 (F := Ideal) m ρ c (Proc.devRef .tc main_v3)) (wt1K (W7 (F := Ideal) m ρ c (Proc.devRef .tc main_arg3))) (b1K (W7 (F := Ideal) m ρ c (Proc.devRef .tc main_arg4)))
        (wih1K (W7 (F := Ideal) m ρ c (Proc.devRef .tc main_arg5))) (wih1K (W7 (F := Ideal) m ρ c (Proc.devRef .tc main_arg6))) (bih1K (W7 (F := Ideal) m ρ c (Proc.devRef .tc main_arg7))) (bih1K (W7 (F := Ideal) m ρ c (Proc.devRef .tc main_arg8))) := by
  refine (W13_arr m ρ c 6).trans ?_
  refine (arr3 (V12 (F := Ideal) m ρ) c).trans ?_
  have h1 : V12 (F := Ideal) m ρ c main_v42 = _ := Step1.agg_12 m ρ c
  have h2 : V12 (F := Ideal) m ρ c main_v29 = _ := Step1.x_12 m ρ c
  have h3 : V12 (F := Ideal) m ρ c main_v45 = _ := Step1.wih_12 m ρ c
  have h4 : V12 (F := Ideal) m ρ c main_v48 = _ := Step1.whh_12 m ρ c
  have h5 : Cert.GnnSpec.row0 (n := 384) (V12 (F := Ideal) m ρ c main_v51) = _ := Step1.bih_12 m ρ c
  have h6 : Cert.GnnSpec.row0 (n := 384) (V12 (F := Ideal) m ρ c main_v54) = _ := Step1.bhh_12 m ρ c
  unfold layerK
  rw [h1, h2, h3, h4, h5, h6]

theorem W13_v1 : W13 (F := Ideal) m ρ c (Proc.devRef .tc main_v1) = W7 (F := Ideal) m ρ c (Proc.devRef .tc main_v1) :=
  Step1.keep13 m ρ c main_v1 (by decide) (by not_written) (by decide) (by not_written) (by not_written) (by not_written)
theorem W13_v3 : W13 (F := Ideal) m ρ c (Proc.devRef .tc main_v3) = W7 (F := Ideal) m ρ c (Proc.devRef .tc main_v3) :=
  Step1.keep13 m ρ c main_v3 (by decide) (by not_written) (by decide) (by not_written) (by not_written) (by not_written)
theorem W13_arg2 : W13 (F := Ideal) m ρ c (Proc.devRef .tc main_arg2) = W7 (F := Ideal) m ρ c (Proc.devRef .tc main_arg2) :=
  Step1.keep13 m ρ c main_arg2 (by decide) (by not_written) (by decide) (by not_written) (by not_written) (by not_written)
theorem W13_arg3 : W13 (F := Ideal) m ρ c (Proc.devRef .tc main_arg3) = W7 (F := Ideal) m ρ c (Proc.devRef .tc main_arg3) :=
  Step1.keep13 m ρ c main_arg3 (by decide) (by not_written) (by decide) (by not_written) (by not_written) (by not_written)
theorem W13_arg4 : W13 (F := Ideal) m ρ c (Proc.devRef .tc main_arg4) = W7 (F := Ideal) m ρ c (Proc.devRef .tc main_arg4) :=
  Step1.keep13 m ρ c main_arg4 (by decide) (by not_written) (by decide) (by not_written) (by not_written) (by not_written)
theorem W13_arg5 : W13 (F := Ideal) m ρ c (Proc.devRef .tc main_arg5) = W7 (F := Ideal) m ρ c (Proc.devRef .tc main_arg5) :=
  Step1.keep13 m ρ c main_arg5 (by decide) (by not_written) (by decide) (by not_written) (by not_written) (by not_written)
theorem W13_arg6 : W13 (F := Ideal) m ρ c (Proc.devRef .tc main_arg6) = W7 (F := Ideal) m ρ c (Proc.devRef .tc main_arg6) :=
  Step1.keep13 m ρ c main_arg6 (by decide) (by not_written) (by decide) (by not_written) (by not_written) (by not_written)
theorem W13_arg7 : W13 (F := Ideal) m ρ c (Proc.devRef .tc main_arg7) = W7 (F := Ideal) m ρ c (Proc.devRef .tc main_arg7) :=
  Step1.keep13 m ρ c main_arg7 (by decide) (by not_written) (by decide) (by not_written) (by not_written) (by not_written)
theorem W13_arg8 : W13 (F := Ideal) m ρ c (Proc.devRef .tc main_arg8) = W7 (F := Ideal) m ρ c (Proc.devRef .tc main_arg8) :=
  Step1.keep13 m ρ c main_arg8 (by decide) (by not_written) (by decide) (by not_written) (by not_written) (by not_written)
theorem W13_arg9 : W13 (F := Ideal) m ρ c (Proc.devRef .tc main_arg9) = W7 (F := Ideal) m ρ c (Proc.devRef .tc main_arg9) :=
  Step1.keep13 m ρ c main_arg9 (by decide) (by not_written) (by decide) (by not_written) (by not_written) (by not_written)
theorem W13_arg10 : W13 (F := Ideal) m ρ c (Proc.devRef .tc main_arg10) = W7 (F := Ideal) m ρ c (Proc.devRef .tc main_arg10) :=
  Step1.keep13 m ρ c main_arg10 (by decide) (by not_written) (by decide) (by not_written) (by not_written) (by not_written)

end Cert.KernelIdeal.Hand

end
-- ==== Proof.KStep2.lean ====
/-
  Layer 2 of the kernel program, from region 3's exit to region 5's exit. Between the two the host
  gathers the current features' rows at every edge's two endpoints (a row whose index is out of range
  filled with the not-a-number pattern) and joins them, and cuts layer 2's message weights and bias out
  of the stacked parameters; region 4 is the message map on these; the host then sums the messages at
  their source nodes and cuts the layer's gate weights and biases; region 5 is the gated update. Read
  stretch by stretch, the features region 5 leaves are the layer function of the features, the
  endpoints and the layer's parameters as they stood at region 3's exit; the endpoints and the
  argument arrays are written by nothing in between.
-/
import proofs.«413579_j91036126806070_1_alg».proof.Proof.Gen.KernelIdeal.Frame
import proofs.«413579_j91036126806070_1_alg».proof.Proof.Spec
import proofs.«413579_j91036126806070_1_alg».proof.Proof.KDefs
import proofs.«413579_j91036126806070_1_alg».proof.Proof.KMsg0
import proofs.«413579_j91036126806070_1_alg».proof.Proof.KMsg2
import proofs.«413579_j91036126806070_1_alg».proof.Proof.KMsg4
import proofs.«413579_j91036126806070_1_alg».proof.Proof.KGru1
import proofs.«413579_j91036126806070_1_alg».proof.Proof.KGru3
import proofs.«413579_j91036126806070_1_alg».proof.Proof.KGru5
import proofs.«413579_j91036126806070_1_alg».proof.Proof.KTakeOps
import Idealize.ShloMosaic.Lib.Pipeline.Value

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A host stretch leaves a buffer none of its operations writes as it was. -/
local macro "step2_kept " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

set_option hygiene false in
/-- From region 4's exit back to region 3's exit, at a buffer nothing in between writes. -/
local macro "step2_w17 " b:ident : tactic =>
  `(tactic| exact
    calc W17 (F := Ideal) m ρ c (Proc.devRef .tc $b)
      _ = W16 (F := Ideal) m ρ c (Proc.devRef .tc $b) := W17_of_ne m ρ c $b (by decide)
      _ = W15 (F := Ideal) m ρ c (Proc.devRef .tc $b) := by step2_kept hostOps4_2
      _ = W14 (F := Ideal) m ρ c (Proc.devRef .tc $b) := by step2_kept hostOps4_1
      _ = W13 (F := Ideal) m ρ c (Proc.devRef .tc $b) := by step2_kept hostOps4)

set_option hygiene false in
/-- From region 5's exit back to region 4's exit likewise, then by the given equation to region 3's exit. -/
local macro "step2_w19 " b:ident lem:ident : tactic =>
  `(tactic| exact
    calc W19 (F := Ideal) m ρ c (Proc.devRef .tc $b)
      _ = W18 (F := Ideal) m ρ c (Proc.devRef .tc $b) := W19_of_ne m ρ c $b (by decide)
      _ = W17 (F := Ideal) m ρ c (Proc.devRef .tc $b) := by step2_kept hostOps5
      _ = W13 (F := Ideal) m ρ c (Proc.devRef .tc $b) := $lem m ρ c)

namespace Step2

/-! ## Buffers nothing writes between region 3's exit and region 4's exit -/

theorem W17_v1 : W17 (F := Ideal) m ρ c (Proc.devRef .tc main_v1) = W13 (F := Ideal) m ρ c (Proc.devRef .tc main_v1) := by
  step2_w17 main_v1
theorem W17_v3 : W17 (F := Ideal) m ρ c (Proc.devRef .tc main_v3) = W13 (F := Ideal) m ρ c (Proc.devRef .tc main_v3) := by
  step2_w17 main_v3
theorem W17_v55 : W17 (F := Ideal) m ρ c (Proc.devRef .tc main_v55) = W13 (F := Ideal) m ρ c (Proc.devRef .tc main_v55) := by
  step2_w17 main_v55
theorem W17_arg2 : W17 (F := Ideal) m ρ c (Proc.devRef .tc main_arg2) = W13 (F := Ideal) m ρ c (Proc.devRef .tc main_arg2) := by
  step2_w17 main_arg2
theorem W17_arg3 : W17 (F := Ideal) m ρ c (Proc.devRef .tc main_arg3) = W13 (F := Ideal) m ρ c (Proc.devRef .tc main_arg3) := by
  step2_w17 main_arg3
theorem W17_arg4 : W17 (F := Ideal) m ρ c (Proc.devRef .tc main_arg4) = W13 (F := Ideal) m ρ c (Proc.devRef .tc main_arg4) := by
  step2_w17 main_arg4
theorem W17_arg5 : W17 (F := Ideal) m ρ c (Proc.devRef .tc main_arg5) = W13 (F := Ideal) m ρ c (Proc.devRef .tc main_arg5) := by
  step2_w17 main_arg5
theorem W17_arg6 : W17 (F := Ideal) m ρ c (Proc.devRef .tc main_arg6) = W13 (F := Ideal) m ρ c (Proc.devRef .tc main_arg6) := by
  step2_w17 main_arg6
theorem W17_arg7 : W17 (F := Ideal) m ρ c (Proc.devRef .tc main_arg7) = W13 (F := Ideal) m ρ c (Proc.devRef .tc main_arg7) := by
  step2_w17 main_arg7
theorem W17_arg8 : W17 (F := Ideal) m ρ c (Proc.devRef .tc main_arg8) = W13 (F := Ideal) m ρ c (Proc.devRef .tc main_arg8) := by
  step2_w17 main_arg8
theorem W17_arg9 : W17 (F := Ideal) m ρ c (Proc.devRef .tc main_arg9) = W13 (F := Ideal) m ρ c (Proc.devRef .tc main_arg9) := by
  step2_w17 main_arg9
theorem W17_arg10 : W17 (F := Ideal) m ρ c (Proc.devRef .tc main_arg10) = W13 (F := Ideal) m ρ c (Proc.devRef .tc main_arg10) := by
  step2_w17 main_arg10

/-! ## What the host stretches write, as functions of what they read -/

/-- A vector kept as a one-row matrix, read back as a vector, is the vector. -/
theorem row0_cast {n : Nat} (v : FVec Ideal ⟨1, ![n]⟩ .f32) (h : (⟨1, ![n]⟩ : Shape).ShapeCasts ⟨2, ![1, n]⟩) :
    Cert.GnnSpec.row0 (shapeCast ⟨2, ![1, n]⟩ v h) = v := by
  funext j
  unfold Cert.GnnSpec.row0
  refine (shapeCast_apply v h (ix2 0 (j 0)) j ?_).trans rfl
  rw [Shape.rowMajor_val_two, Shape.rowMajor_val_one]
  show (j 0).val = 0 * n + (j 0).val
  omega

/-- The conjunction over the unit axis (the "wrapped index within 0 … 19999" test of a row), as the
    source gather states it over typed buffers, is that operation over the plain buffers. -/
theorem red4 :
    (StableHlo.TRef.binary (.of main_call4_v11 : StableHlo.TRef sig ⟨S640000x1, .i1⟩) (.of main_call4_c_3 : StableHlo.TRef sig ⟨S_, .i1⟩)
        (.of main_call4_v12 : StableHlo.TRef sig ⟨S640000, .i1⟩)
        (fun x v => Host.reduce IntOp.andi x v Facts₀.reducesTo_S640000x1_S640000_d1 Facts₀.h_S_) : HloOp τ sig (Elt Ideal))
      = StableHlo.binary main_call4_v11 main_call4_c_3 main_call4_v12
          ((fun x v => Host.reduce IntOp.andi x v Facts₀.reducesTo_S640000x1_S640000_d1 Facts₀.h_S_) :
            (⟨S640000x1, .i1⟩ : BufTy).Contents (Elt Ideal) → (⟨S_, .i1⟩ : BufTy).Contents (Elt Ideal) →
              (⟨S640000, .i1⟩ : BufTy).Contents (Elt Ideal)) := by
  simp only [StableHlo.TRef.binary, StableHlo.TRef.toBuf, StableHlo.TRef.ofBuf, cast_eq]
  rfl

/-- The source gather's operations are the same list over the plain buffers: reading a typed buffer is a
    transport along a type equality that holds by computation, the identity. -/
theorem hostOps4_as_plain : (hostOps4 (F := Ideal)) = hostOps4_plain := by
  unfold hostOps4
  rw [red4]
  rfl

/-- The first stretch gathers the features' rows at the (wrapped) source endpoints, a row whose index
    is out of range filled with the not-a-number pattern. -/
theorem v56_eq (V : Valuation τ sig (Elt Ideal)) :
    StableHlo.after (hostOps4 : List (HloOp τ sig (Elt Ideal))) V (Proc.devRef .tc main_v56)
      = takeK (V (Proc.devRef .tc main_v55)) (V (Proc.devRef .tc main_v1)) := by
  rw [hostOps4_as_plain]
  unfold takeK inRangeK idx1K wrapK
  after_results_simp

/-- The same conjunction in the target gather. -/
theorem red4_1 :
    (StableHlo.TRef.binary (.of main_call5_v11 : StableHlo.TRef sig ⟨S640000x1, .i1⟩) (.of main_call5_c_3 : StableHlo.TRef sig ⟨S_, .i1⟩)
        (.of main_call5_v12 : StableHlo.TRef sig ⟨S640000, .i1⟩)
        (fun x v => Host.reduce IntOp.andi x v Facts₀.reducesTo_S640000x1_S640000_d1 Facts₀.h_S_) : HloOp τ sig (Elt Ideal))
      = StableHlo.binary main_call5_v11 main_call5_c_3 main_call5_v12
          ((fun x v => Host.reduce IntOp.andi x v Facts₀.reducesTo_S640000x1_S640000_d1 Facts₀.h_S_) :
            (⟨S640000x1, .i1⟩ : BufTy).Contents (Elt Ideal) → (⟨S_, .i1⟩ : BufTy).Contents (Elt Ideal) →
              (⟨S640000, .i1⟩ : BufTy).Contents (Elt Ideal)) := by
  simp only [StableHlo.TRef.binary, StableHlo.TRef.toBuf, StableHlo.TRef.ofBuf, cast_eq]
  rfl

/-- The target gather's operations are the same list over the plain buffers. -/
theorem hostOps4_1_as_plain : (hostOps4_1 (F := Ideal)) = hostOps4_1_plain := by
  unfold hostOps4_1
  rw [red4_1]
  rfl

/-- The second stretch gathers them at the target endpoints. -/
theorem v57_eq (V : Valuation τ sig (Elt Ideal)) :
    StableHlo.after (hostOps4_1 : List (HloOp τ sig (Elt Ideal))) V (Proc.devRef .tc main_v57)
      = takeK (V (Proc.devRef .tc main_v55)) (V (Proc.devRef .tc main_v3)) := by
  rw [hostOps4_1_as_plain]
  unfold takeK inRangeK idx1K wrapK
  after_results_simp

/-- The third joins the two gathers along the feature axis … -/
theorem v58_eq (V : Valuation τ sig (Elt Ideal)) :
    StableHlo.after (hostOps4_2 : List (HloOp τ sig (Elt Ideal))) V (Proc.devRef .tc main_v58)
      = concatenate S640000x256 1 [⟨S640000x128, V (Proc.devRef .tc main_v56)⟩, ⟨S640000x128, V (Proc.devRef .tc main_v57)⟩]
          Facts₀.concatenates_S640000x128_S640000x128_S640000x256_d1 := by
  dsimp only [hostOps4_2]
  after_results

/-- … and cuts layer 2's message weights (transposed) … -/
theorem v61_eq (V : Valuation τ sig (Elt Ideal)) :
    StableHlo.after (hostOps4_2 : List (HloOp τ sig (Elt Ideal))) V (Proc.devRef .tc main_v61)
      = wt2K (V (Proc.devRef .tc main_arg3)) := by
  dsimp only [hostOps4_2]
  after_results
  rfl

/-- … and its message bias, kept as a one-row matrix. -/
theorem v64_eq (V : Valuation τ sig (Elt Ideal)) :
    StableHlo.after (hostOps4_2 : List (HloOp τ sig (Elt Ideal))) V (Proc.devRef .tc main_v64)
      = shapeCast S1x128 (b2K (V (Proc.devRef .tc main_arg4))) Facts₀.shapeCasts_S128_S1x128 := by
  dsimp only [hostOps4_2]
  after_results
  rfl

/-- After region 4 the host sums the messages at their source nodes … -/
theorem v68_eq (V : Valuation τ sig (Elt Ideal)) :
    StableHlo.after (hostOps5 : List (HloOp τ sig (Elt Ideal))) V (Proc.devRef .tc main_v68)
      = aggK (V (Proc.devRef .tc main_v1)) (V (Proc.devRef .tc main_v65)) := by
  dsimp only [hostOps5]
  after_results
  rfl

/-- … and cuts layer 2's two gate weight matrices (transposed) and two gate biases (as one-row matrices). -/
theorem v71_eq (V : Valuation τ sig (Elt Ideal)) :
    StableHlo.after (hostOps5 : List (HloOp τ sig (Elt Ideal))) V (Proc.devRef .tc main_v71)
      = wih2K (V (Proc.devRef .tc main_arg5)) := by
  dsimp only [hostOps5]
  after_results
  rfl

theorem v74_eq (V : Valuation τ sig (Elt Ideal)) :
    StableHlo.after (hostOps5 : List (HloOp τ sig (Elt Ideal))) V (Proc.devRef .tc main_v74)
      = wih2K (V (Proc.devRef .tc main_arg6)) := by
  dsimp only [hostOps5]
  after_results
  rfl

theorem v77_eq (V : Valuation τ sig (Elt Ideal)) :
    StableHlo.after (hostOps5 : List (HloOp τ sig (Elt Ideal))) V (Proc.devRef .tc main_v77)
      = shapeCast S1x384 (bih2K (V (Proc.devRef .tc main_arg7))) Facts₀.shapeCasts_S384_S1x384 := by
  dsimp only [hostOps5]
  after_results
  rfl

theorem v80_eq (V : Valuation τ sig (Elt Ideal)) :
    StableHlo.after (hostOps5 : List (HloOp τ sig (Elt Ideal))) V (Proc.devRef .tc main_v80)
      = shapeCast S1x384 (bih2K (V (Proc.devRef .tc main_arg8))) Facts₀.shapeCasts_S384_S1x384 := by
  dsimp only [hostOps5]
  after_results
  rfl

/-! ## Region 4's entry arrays and its result -/

theorem W14_v55 : W14 (F := Ideal) m ρ c (Proc.devRef .tc main_v55) = W13 (F := Ideal) m ρ c (Proc.devRef .tc main_v55) := by
  step2_kept hostOps4
theorem W14_v3 : W14 (F := Ideal) m ρ c (Proc.devRef .tc main_v3) = W13 (F := Ideal) m ρ c (Proc.devRef .tc main_v3) := by
  step2_kept hostOps4
theorem W15_v56 : W15 (F := Ideal) m ρ c (Proc.devRef .tc main_v56) = W14 (F := Ideal) m ρ c (Proc.devRef .tc main_v56) := by
  step2_kept hostOps4_1
theorem W15_arg3 : W15 (F := Ideal) m ρ c (Proc.devRef .tc main_arg3) = W13 (F := Ideal) m ρ c (Proc.devRef .tc main_arg3) :=
  calc W15 (F := Ideal) m ρ c (Proc.devRef .tc main_arg3)
    _ = W14 (F := Ideal) m ρ c (Proc.devRef .tc main_arg3) := by step2_kept hostOps4_1
    _ = W13 (F := Ideal) m ρ c (Proc.devRef .tc main_arg3) := by step2_kept hostOps4
theorem W15_arg4 : W15 (F := Ideal) m ρ c (Proc.devRef .tc main_arg4) = W13 (F := Ideal) m ρ c (Proc.devRef .tc main_arg4) :=
  calc W15 (F := Ideal) m ρ c (Proc.devRef .tc main_arg4)
    _ = W14 (F := Ideal) m ρ c (Proc.devRef .tc main_arg4) := by step2_kept hostOps4_1
    _ = W13 (F := Ideal) m ρ c (Proc.devRef .tc main_arg4) := by step2_kept hostOps4

theorem W14_v56 : W14 (F := Ideal) m ρ c (Proc.devRef .tc main_v56)
    = takeK (W13 (F := Ideal) m ρ c (Proc.devRef .tc main_v55)) (W13 (F := Ideal) m ρ c (Proc.devRef .tc main_v1)) :=
  v56_eq (W13 (F := Ideal) m ρ c)

theorem W15_v57 : W15 (F := Ideal) m ρ c (Proc.devRef .tc main_v57)
    = takeK (W13 (F := Ideal) m ρ c (Proc.devRef .tc main_v55)) (W13 (F := Ideal) m ρ c (Proc.devRef .tc main_v3)) := by
  refine (v57_eq (W14 (F := Ideal) m ρ c)).trans ?_
  rw [W14_v55 m ρ c, W14_v3 m ρ c]

/-- Region 4 reads every edge's two gathered rows, joined … -/
theorem W16_v58 : W16 (F := Ideal) m ρ c (Proc.devRef .tc main_v58)
    = catK (W13 (F := Ideal) m ρ c (Proc.devRef .tc main_v55)) (W13 (F := Ideal) m ρ c (Proc.devRef .tc main_v1))
        (W13 (F := Ideal) m ρ c (Proc.devRef .tc main_v3)) := by
  refine (v58_eq (W15 (F := Ideal) m ρ c)).trans ?_
  rw [W15_v56 m ρ c, W14_v56 m ρ c, W15_v57 m ρ c]
  rfl

/-- … layer 2's message weights … -/
theorem W16_v61 : W16 (F := Ideal) m ρ c (Proc.devRef .tc main_v61) = wt2K (W13 (F := Ideal) m ρ c (Proc.devRef .tc main_arg3)) := by
  refine (v61_eq (W15 (F := Ideal) m ρ c)).trans ?_
  rw [W15_arg3 m ρ c]

/-- … and its message bias. -/
theorem W16_v64 : Cert.GnnSpec.row0 (W16 (F := Ideal) m ρ c (Proc.devRef .tc main_v64)) = b2K (W13 (F := Ideal) m ρ c (Proc.devRef .tc main_arg4)) := by
  refine (congrArg Cert.GnnSpec.row0 (v64_eq (W15 (F := Ideal) m ρ c))).trans ?_
  rw [W15_arg4 m ρ c]
  exact row0_cast _ _

/-- Region 4 leaves layer 2's messages. -/
theorem W17_v65 : W17 (F := Ideal) m ρ c (Proc.devRef .tc main_v65)
    = Cert.GnnSpec.msgG (catK (W13 (F := Ideal) m ρ c (Proc.devRef .tc main_v55)) (W13 (F := Ideal) m ρ c (Proc.devRef .tc main_v1))
          (W13 (F := Ideal) m ρ c (Proc.devRef .tc main_v3)))
        (wt2K (W13 (F := Ideal) m ρ c (Proc.devRef .tc main_arg3))) (b2K (W13 (F := Ideal) m ρ c (Proc.devRef .tc main_arg4))) := by
  refine ((W17_arr m ρ c 3).trans (arr4 (V16 (F := Ideal) m ρ) c)).trans ?_
  show Cert.GnnSpec.msgG (W16 (F := Ideal) m ρ c (Proc.devRef .tc main_v58)) (W16 (F := Ideal) m ρ c (Proc.devRef .tc main_v61))
    (Cert.GnnSpec.row0 (W16 (F := Ideal) m ρ c (Proc.devRef .tc main_v64))) = _
  rw [W16_v58 m ρ c, W16_v61 m ρ c, W16_v64 m ρ c]

/-! ## Region 5's entry arrays -/

theorem W18_v55 : W18 (F := Ideal) m ρ c (Proc.devRef .tc main_v55) = W13 (F := Ideal) m ρ c (Proc.devRef .tc main_v55) :=
  calc W18 (F := Ideal) m ρ c (Proc.devRef .tc main_v55)
    _ = W17 (F := Ideal) m ρ c (Proc.devRef .tc main_v55) := by step2_kept hostOps5
    _ = W13 (F := Ideal) m ρ c (Proc.devRef .tc main_v55) := W17_v55 m ρ c

theorem W18_v68 : W18 (F := Ideal) m ρ c (Proc.devRef .tc main_v68)
    = aggK (W13 (F := Ideal) m ρ c (Proc.devRef .tc main_v1)) (W17 (F := Ideal) m ρ c (Proc.devRef .tc main_v65)) := by
  refine (v68_eq (W17 (F := Ideal) m ρ c)).trans ?_
  rw [W17_v1 m ρ c]

theorem W18_v71 : W18 (F := Ideal) m ρ c (Proc.devRef .tc main_v71) = wih2K (W13 (F := Ideal) m ρ c (Proc.devRef .tc main_arg5)) := by
  refine (v71_eq (W17 (F := Ideal) m ρ c)).trans ?_
  rw [W17_arg5 m ρ c]

theorem W18_v74 : W18 (F := Ideal) m ρ c (Proc.devRef .tc main_v74) = wih2K (W13 (F := Ideal) m ρ c (Proc.devRef .tc main_arg6)) := by
  refine (v74_eq (W17 (F := Ideal) m ρ c)).trans ?_
  rw [W17_arg6 m ρ c]

theorem W18_v77 : Cert.GnnSpec.row0 (W18 (F := Ideal) m ρ c (Proc.devRef .tc main_v77)) = bih2K (W13 (F := Ideal) m ρ c (Proc.devRef .tc main_arg7)) := by
  refine (congrArg Cert.GnnSpec.row0 (v77_eq (W17 (F := Ideal) m ρ c))).trans ?_
  rw [W17_arg7 m ρ c]
  exact row0_cast _ _

theorem W18_v80 : Cert.GnnSpec.row0 (W18 (F := Ideal) m ρ c (Proc.devRef .tc main_v80)) = bih2K (W13 (F := Ideal) m ρ c (Proc.devRef .tc main_arg8)) := by
  refine (congrArg Cert.GnnSpec.row0 (v80_eq (W17 (F := Ideal) m ρ c))).trans ?_
  rw [W17_arg8 m ρ c]
  exact row0_cast _ _

end Step2

open Step2

theorem x3_step : W19 (F := Ideal) m ρ c (Proc.devRef .tc main_v81)
    = layerK (W13 (F := Ideal) m ρ c (Proc.devRef .tc main_v55)) (W13 (F := Ideal) m ρ c (Proc.devRef .tc main_v1)) (W13 (F := Ideal) m ρ c (Proc.devRef .tc main_v3)) (wt2K (W13 (F := Ideal) m ρ c (Proc.devRef .tc main_arg3))) (b2K (W13 (F := Ideal) m ρ c (Proc.devRef .tc main_arg4)))
        (wih2K (W13 (F := Ideal) m ρ c (Proc.devRef .tc main_arg5))) (wih2K (W13 (F := Ideal) m ρ c (Proc.devRef .tc main_arg6))) (bih2K (W13 (F := Ideal) m ρ c (Proc.devRef .tc main_arg7))) (bih2K (W13 (F := Ideal) m ρ c (Proc.devRef .tc main_arg8))) := by
  refine ((W19_arr m ρ c 6).trans (arr5 (V18 (F := Ideal) m ρ) c)).trans ?_
  show Cert.GnnSpec.gruG (W18 (F := Ideal) m ρ c (Proc.devRef .tc main_v68)) (W18 (F := Ideal) m ρ c (Proc.devRef .tc main_v55))
    (W18 (F := Ideal) m ρ c (Proc.devRef .tc main_v71)) (W18 (F := Ideal) m ρ c (Proc.devRef .tc main_v74))
    (Cert.GnnSpec.row0 (W18 (F := Ideal) m ρ c (Proc.devRef .tc main_v77))) (Cert.GnnSpec.row0 (W18 (F := Ideal) m ρ c (Proc.devRef .tc main_v80))) = _
  rw [W18_v68 m ρ c, W18_v55 m ρ c, W18_v71 m ρ c, W18_v74 m ρ c, W18_v77 m ρ c, W18_v80 m ρ c, W17_v65 m ρ c]
  rfl
theorem W19_v1 : W19 (F := Ideal) m ρ c (Proc.devRef .tc main_v1) = W13 (F := Ideal) m ρ c (Proc.devRef .tc main_v1) := by
  step2_w19 main_v1 W17_v1
theorem W19_v3 : W19 (F := Ideal) m ρ c (Proc.devRef .tc main_v3) = W13 (F := Ideal) m ρ c (Proc.devRef .tc main_v3) := by
  step2_w19 main_v3 W17_v3
theorem W19_arg2 : W19 (F := Ideal) m ρ c (Proc.devRef .tc main_arg2) = W13 (F := Ideal) m ρ c (Proc.devRef .tc main_arg2) := by
  step2_w19 main_arg2 W17_arg2
theorem W19_arg3 : W19 (F := Ideal) m ρ c (Proc.devRef .tc main_arg3) = W13 (F := Ideal) m ρ c (Proc.devRef .tc main_arg3) := by
  step2_w19 main_arg3 W17_arg3
theorem W19_arg4 : W19 (F := Ideal) m ρ c (Proc.devRef .tc main_arg4) = W13 (F := Ideal) m ρ c (Proc.devRef .tc main_arg4) := by
  step2_w19 main_arg4 W17_arg4
theorem W19_arg5 : W19 (F := Ideal) m ρ c (Proc.devRef .tc main_arg5) = W13 (F := Ideal) m ρ c (Proc.devRef .tc main_arg5) := by
  step2_w19 main_arg5 W17_arg5
theorem W19_arg6 : W19 (F := Ideal) m ρ c (Proc.devRef .tc main_arg6) = W13 (F := Ideal) m ρ c (Proc.devRef .tc main_arg6) := by
  step2_w19 main_arg6 W17_arg6
theorem W19_arg7 : W19 (F := Ideal) m ρ c (Proc.devRef .tc main_arg7) = W13 (F := Ideal) m ρ c (Proc.devRef .tc main_arg7) := by
  step2_w19 main_arg7 W17_arg7
theorem W19_arg8 : W19 (F := Ideal) m ρ c (Proc.devRef .tc main_arg8) = W13 (F := Ideal) m ρ c (Proc.devRef .tc main_arg8) := by
  step2_w19 main_arg8 W17_arg8
theorem W19_arg9 : W19 (F := Ideal) m ρ c (Proc.devRef .tc main_arg9) = W13 (F := Ideal) m ρ c (Proc.devRef .tc main_arg9) := by
  step2_w19 main_arg9 W17_arg9
theorem W19_arg10 : W19 (F := Ideal) m ρ c (Proc.devRef .tc main_arg10) = W13 (F := Ideal) m ρ c (Proc.devRef .tc main_arg10) := by
  step2_w19 main_arg10 W17_arg10

end Cert.KernelIdeal.Hand

end
-- ==== Proof.KTail.lean ====
/-
  The read-out of the kernel program. After the last layer's update the host computes, per graph,
  the sum of its nodes' feature rows and the number of its nodes (both as sums of rows scattered at
  the graph index), divides the first by the second (a count below one read as one), applies the
  linear map 128 → 1 and adds its bias. Read operation by operation from the contents before this
  stretch, the written result is the read-out function of the last layer's features, the graph
  indices and the two read-out parameters, term for term.
-/
import proofs.«413579_j91036126806070_1_alg».proof.Proof.Gen.KernelIdeal.Frame
import proofs.«413579_j91036126806070_1_alg».proof.Proof.Spec
import proofs.«413579_j91036126806070_1_alg».proof.Proof.KDefs

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

set_option maxHeartbeats 1600000 in
theorem tail_step : W20 (F := Ideal) m ρ c (Proc.devRef .tc main_v99)
    = tailK (W19 (F := Ideal) m ρ c (Proc.devRef .tc main_v81)) (W19 (F := Ideal) m ρ c (Proc.devRef .tc main_arg2)) (W19 (F := Ideal) m ρ c (Proc.devRef .tc main_arg9)) (W19 (F := Ideal) m ρ c (Proc.devRef .tc main_arg10)) := by
  dsimp only [W20, hostOps6]
  after_results_simp
  unfold tailK
  rfl

end Cert.KernelIdeal.Hand

end
-- ==== Proof.KChain.lean ====
/-
  The kernel program's result is the network of the argument arrays. The read-out is applied to the
  third layer's output; each layer's output is one layer of the previous layer's output, of the edge
  endpoints and of that layer's parameters; and everything a later stage reads besides the previous
  layer's output (the endpoints, the stacked parameters, the graph labels, the read-out's weights) is
  still what the launch memory held. Substituting stage by stage gives three nested layers under the
  read-out, which is the network.
-/
import proofs.«413579_j91036126806070_1_alg».proof.Proof.Gen.KernelIdeal.Frame
import proofs.«413579_j91036126806070_1_alg».proof.Proof.Spec
import proofs.«413579_j91036126806070_1_alg».proof.Proof.KDefs
import proofs.«413579_j91036126806070_1_alg».proof.Proof.KStep0
import proofs.«413579_j91036126806070_1_alg».proof.Proof.KStep1
import proofs.«413579_j91036126806070_1_alg».proof.Proof.KStep2
import proofs.«413579_j91036126806070_1_alg».proof.Proof.KTail

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem W20_result : W20 (F := Ideal) m ρ c (Proc.devRef .tc main_v99)
    = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [tail_step m ρ c, x3_step m ρ c, W19_arg2 m ρ c, W19_arg9 m ρ c, W19_arg10 m ρ c,
    x2_step m ρ c, W13_v1 m ρ c, W13_v3 m ρ c, W13_arg2 m ρ c, W13_arg3 m ρ c, W13_arg4 m ρ c, W13_arg5 m ρ c,
    W13_arg6 m ρ c, W13_arg7 m ρ c, W13_arg8 m ρ c, W13_arg9 m ρ c, W13_arg10 m ρ c,
    x1_eq m ρ c, W7_v1 m ρ c, W7_v3 m ρ c, W7_arg2 m ρ c, W7_arg3 m ρ c, W7_arg4 m ρ c, W7_arg5 m ρ c,
    W7_arg6 m ρ c, W7_arg7 m ρ c, W7_arg8 m ρ c, W7_arg9 m ρ c, W7_arg10 m ρ c]
  rfl

end Cert.KernelIdeal.Hand

end
-- ==== Proof.RDefs.lean ====
/-
  The reference program's host side as pure functions of the argument arrays at the ideal instance: the
  edge endpoints, the row gather as this program spells it, each layer's parameters cut out of the
  stacked parameter arrays, the sum of the messages at their source nodes, one layer (the message
  map and the gated update of Spec.lean around the gather and the sum), the mean pooling with the
  linear read-out, and the whole network: three layers, then the read-out.
-/
import proofs.«413579_j91036126806070_1_alg».proof.ReferenceIdeal
import proofs.«413579_j91036126806070_1_alg».proof.Proof.Gen.ReferenceIdeal
import proofs.«413579_j91036126806070_1_alg».proof.Proof.Spec

noncomputable section

namespace Cert.ReferenceIdeal.Hand

open Cert.ReferenceIdeal Cert.ReferenceIdeal.Facts₀ Cert.ReferenceIdeal.Facts Idealize.ShloMosaic Idealize.ShloMosaic.ValueIdx

/-- The source (row 0) and target (row 1) node of every edge. -/
def rowR (a1 : IVec S2x640000 32) : IVec S640000 32 :=
  shapeCast S640000 (extractStridedSlice S1x640000 ![0, 0] a1 slices_S2x640000_S1x640000_0_0) shapeCasts_S1x640000_S640000
def colR (a1 : IVec S2x640000 32) : IVec S640000 32 :=
  shapeCast S640000 (extractStridedSlice S1x640000 ![1, 0] a1 slices_S2x640000_S1x640000_1_0) shapeCasts_S1x640000_S640000

/-- A negative index counts from the end: `i + 20000` where `i < 0`, else `i`. -/
def wrapR (idx : IVec S640000 32) : IVec S640000 32 :=
  select (cmpi .slt idx (broadcastInDim S640000 ![] bcast_S_S640000 (constantI S_ 32 0#32)))
    (addi idx (broadcastInDim S640000 ![] bcast_S_S640000 (constantI S_ 32 20000#32))) idx
/-- The wrapped indices as a column. -/
def idx1R (idx : IVec S640000 32) : IVec S640000x1 32 :=
  broadcastInDim S640000x1 ![0] bcast_S640000_S640000x1_0 (wrapR idx)
/-- Rows of `x` at the (wrapped) indices as this program reads them: one gather, which clamps. -/
def takeR (x : FVec Ideal S20000x128 .f32) (idx : IVec S640000 32) : FVec Ideal S640000x128 .f32 :=
  Host.gather gather_S20000x128_S640000x1_S640000x128_1_0_n_n_0_1_1128 x (idx1R idx)

/-- Every edge's 256 features: its source node's row, then its target node's row. -/
def catR (x : FVec Ideal S20000x128 .f32) (row col : IVec S640000 32) : FVec Ideal S640000x256 .f32 :=
  concatenate S640000x256 1 [⟨S640000x128, takeR x row⟩, ⟨S640000x128, takeR x col⟩] concatenates_S640000x128_S640000x128_S640000x256_d1

/-- The messages summed at their source nodes (a message whose source index is out of range is dropped). -/
def aggR (row : IVec S640000 32) (msgs : FVec Ideal S640000x128 .f32) : FVec Ideal S20000x128 .f32 :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 row) msgs

/-- Layer 0's parameters, cut out of the stacked arrays (the weights transposed to input-major). -/
def wt0R (a3 : FVec Ideal S3x128x256 .f32) : FVec Ideal S256x128 .f32 :=
  transpose S256x128 [1, 0] (shapeCast S128x256 (extractStridedSlice S1x128x256 ![0, 0, 0] a3 slices_S3x128x256_S1x128x256_0_0_0) shapeCasts_S1x128x256_S128x256) transposes_S128x256_S256x128_1_0
def b0R (a4 : FVec Ideal S3x128 .f32) : FVec Ideal S128 .f32 :=
  shapeCast S128 (extractStridedSlice S1x128 ![0, 0] a4 slices_S3x128_S1x128_0_0) shapeCasts_S1x128_S128
def wih0R (a5 : FVec Ideal S3x384x128 .f32) : FVec Ideal S128x384 .f32 :=
  transpose S128x384 [1, 0] (shapeCast S384x128 (extractStridedSlice S1x384x128 ![0, 0, 0] a5 slices_S3x384x128_S1x384x128_0_0_0) shapeCasts_S1x384x128_S384x128) transposes_S384x128_S128x384_1_0
def bih0R (a7 : FVec Ideal S3x384 .f32) : FVec Ideal S384 .f32 :=
  shapeCast S384 (extractStridedSlice S1x384 ![0, 0] a7 slices_S3x384_S1x384_0_0) shapeCasts_S1x384_S384

/-- Layer 1's parameters, cut out of the stacked arrays (the weights transposed to input-major). -/
def wt1R (a3 : FVec Ideal S3x128x256 .f32) : FVec Ideal S256x128 .f32 :=
  transpose S256x128 [1, 0] (shapeCast S128x256 (extractStridedSlice S1x128x256 ![1, 0, 0] a3 slices_S3x128x256_S1x128x256_1_0_0) shapeCasts_S1x128x256_S128x256) transposes_S128x256_S256x128_1_0
def b1R (a4 : FVec Ideal S3x128 .f32) : FVec Ideal S128 .f32 :=
  shapeCast S128 (extractStridedSlice S1x128 ![1, 0] a4 slices_S3x128_S1x128_1_0) shapeCasts_S1x128_S128
def wih1R (a5 : FVec Ideal S3x384x128 .f32) : FVec Ideal S128x384 .f32 :=
  transpose S128x384 [1, 0] (shapeCast S384x128 (extractStridedSlice S1x384x128 ![1, 0, 0] a5 slices_S3x384x128_S1x384x128_1_0_0) shapeCasts_S1x384x128_S384x128) transposes_S384x128_S128x384_1_0
def bih1R (a7 : FVec Ideal S3x384 .f32) : FVec Ideal S384 .f32 :=
  shapeCast S384 (extractStridedSlice S1x384 ![1, 0] a7 slices_S3x384_S1x384_1_0) shapeCasts_S1x384_S384

/-- Layer 2's parameters, cut out of the stacked arrays (the weights transposed to input-major). -/
def wt2R (a3 : FVec Ideal S3x128x256 .f32) : FVec Ideal S256x128 .f32 :=
  transpose S256x128 [1, 0] (shapeCast S128x256 (extractStridedSlice S1x128x256 ![2, 0, 0] a3 slices_S3x128x256_S1x128x256_2_0_0) shapeCasts_S1x128x256_S128x256) transposes_S128x256_S256x128_1_0
def b2R (a4 : FVec Ideal S3x128 .f32) : FVec Ideal S128 .f32 :=
  shapeCast S128 (extractStridedSlice S1x128 ![2, 0] a4 slices_S3x128_S1x128_2_0) shapeCasts_S1x128_S128
def wih2R (a5 : FVec Ideal S3x384x128 .f32) : FVec Ideal S128x384 .f32 :=
  transpose S128x384 [1, 0] (shapeCast S384x128 (extractStridedSlice S1x384x128 ![2, 0, 0] a5 slices_S3x384x128_S1x384x128_2_0_0) shapeCasts_S1x384x128_S384x128) transposes_S384x128_S128x384_1_0
def bih2R (a7 : FVec Ideal S3x384 .f32) : FVec Ideal S384 .f32 :=
  shapeCast S384 (extractStridedSlice S1x384 ![2, 0] a7 slices_S3x384_S1x384_2_0) shapeCasts_S1x384_S384

/-- One message-passing layer: gather, message map, sum at the sources, gated update. -/
def layerR (x : FVec Ideal S20000x128 .f32) (row col : IVec S640000 32) (wt : FVec Ideal S256x128 .f32)
    (b : FVec Ideal S128 .f32) (wih whh : FVec Ideal S128x384 .f32) (bih bhh : FVec Ideal S384 .f32) :
    FVec Ideal S20000x128 .f32 :=
  Cert.GnnSpec.gruG (aggR row (Cert.GnnSpec.msgG (catR x row col) wt b)) x wih whh bih bhh

/-- The message map as the reference spells it: one whole product, the bias broadcast over the edges, the
    rectifier as a maximum with a broadcast zero. -/
def msgHostR (cat : FVec Ideal S640000x256 .f32) (wt : FVec Ideal S256x128 .f32) (b : FVec Ideal S128 .f32) :
    FVec Ideal S640000x128 .f32 :=
  maximumf (addf (Host.dotGeneral dot_S640000x256_S256x128_S640000x128_1_0_0_1_n_n none cat wt)
      (broadcastInDim S640000x128 ![0, 1] bcast_S1x128_S640000x128_0_1 (broadcastInDim S1x128 ![1] bcast_S128_S1x128_1 b)))
    (broadcastInDim S640000x128 ![] bcast_S_S640000x128 (constant (F := Ideal) S_ .f32 0x00000000#32))

/-- An affine map 128 → 384 as the reference spells it: one whole product, the bias broadcast over the nodes. -/
def gatesHostR (a : FVec Ideal S20000x128 .f32) (W : FVec Ideal S128x384 .f32) (bias : FVec Ideal S384 .f32) :
    FVec Ideal S20000x384 .f32 :=
  addf (Host.dotGeneral dot_S20000x128_S128x384_S20000x384_1_0_0_1_n_n none a W)
    (broadcastInDim S20000x384 ![0, 1] bcast_S1x384_S20000x384_0_1 (broadcastInDim S1x384 ![1] bcast_S384_S1x384_1 bias))

/-- The array of ones. -/
def onesR : FVec Ideal S20000x128 .f32 :=
  broadcastInDim S20000x128 ![] bcast_S_S20000x128 (constant (F := Ideal) S_ .f32 0x3F800000#32)

/-- The logistic function as the reference spells it: 1 / (1 + e⁻ᵛ). -/
def sigHostR (v : FVec Ideal S20000x128 .f32) : FVec Ideal S20000x128 .f32 :=
  Host.divf onesR (addf onesR (Host.exp (Host.negf v)))

/-- The gated update as the reference spells it, over whole arrays: the three bands cut out of the two
    gate arrays, the two logistic gates, the candidate, the blend. -/
def gruHostR (agg x : FVec Ideal S20000x128 .f32) (wih whh : FVec Ideal S128x384 .f32) (bih bhh : FVec Ideal S384 .f32) :
    FVec Ideal S20000x128 .f32 :=
  addf
    (mulf
      (subf onesR
        (sigHostR (addf (extractStridedSlice S20000x128 ![0, 128] (gatesHostR agg wih bih) slices_S20000x384_S20000x128_0_128)
          (extractStridedSlice S20000x128 ![0, 128] (gatesHostR x whh bhh) slices_S20000x384_S20000x128_0_128))))
      (Host.tanh
        (addf (extractStridedSlice S20000x128 ![0, 256] (gatesHostR agg wih bih) slices_S20000x384_S20000x128_0_256)
          (mulf
            (sigHostR (addf (extractStridedSlice S20000x128 ![0, 0] (gatesHostR agg wih bih) slices_S20000x384_S20000x128_0_0)
              (extractStridedSlice S20000x128 ![0, 0] (gatesHostR x whh bhh) slices_S20000x384_S20000x128_0_0)))
            (extractStridedSlice S20000x128 ![0, 256] (gatesHostR x whh bhh) slices_S20000x384_S20000x128_0_256)))))
    (mulf
      (sigHostR (addf (extractStridedSlice S20000x128 ![0, 128] (gatesHostR agg wih bih) slices_S20000x384_S20000x128_0_128)
        (extractStridedSlice S20000x128 ![0, 128] (gatesHostR x whh bhh) slices_S20000x384_S20000x128_0_128)))
      x)

/-- One layer as the reference spells it. -/
def layerHostR (x : FVec Ideal S20000x128 .f32) (row col : IVec S640000 32) (wt : FVec Ideal S256x128 .f32)
    (b : FVec Ideal S128 .f32) (wih whh : FVec Ideal S128x384 .f32) (bih bhh : FVec Ideal S384 .f32) :
    FVec Ideal S20000x128 .f32 :=
  gruHostR (aggR row (msgHostR (catR x row col) wt b)) x wih whh bih bhh

/-- The read-out: per graph, the mean of its nodes' features (an empty graph's count read as 1), then
    the linear map 128 → 1 and its bias. -/
def tailR (x : FVec Ideal S20000x128 .f32) (a2 : IVec S20000 32) (a9 : FVec Ideal S1x128 .f32) (a10 : FVec Ideal S1 .f32) :
    FVec Ideal S128 .f32 :=
  shapeCast S128 (addf (Host.dotGeneral dot_S128x128_S128x1_S128x1_1_0_0_1_n_n none
      (Host.divf
        (Host.scatterAdd scatter_S128x128_S20000x1_S20000x128_1_0_0_1
          (broadcastInDim S128x128 ![] bcast_S_S128x128 (constant (F := Ideal) S_ .f32 0x00000000#32))
          (broadcastInDim S20000x1 ![0] bcast_S20000_S20000x1_0 a2) x)
        (broadcastInDim S128x128 ![0, 1] bcast_S128x1_S128x128_0_1 (broadcastInDim S128x1 ![0] bcast_S128_S128x1_0
          (maximumf
            (Host.scatterAdd scatter_S128_S20000x1_S20000_n_0_0_1
              (broadcastInDim S128 ![] bcast_S_S128 (constant (F := Ideal) S_ .f32 0x00000000#32))
              (broadcastInDim S20000x1 ![0] bcast_S20000_S20000x1_0 a2)
              (broadcastInDim S20000 ![] bcast_S_S20000 (constant (F := Ideal) S_ .f32 0x3F800000#32)))
            (broadcastInDim S128 ![] bcast_S_S128 (constant (F := Ideal) S_ .f32 0x3F800000#32))))))
      (transpose S128x1 [1, 0] a9 transposes_S1x128_S128x1_1_0))
    (broadcastInDim S128x1 ![0, 1] bcast_S1x1_S128x1_0_1 (broadcastInDim S1x1 ![1] bcast_S1_S1x1_1 a10))) shapeCasts_S128x1_S128

/-- The whole network on the argument arrays. -/
def netR (a0 : FVec Ideal S20000x128 .f32) (a1 : IVec S2x640000 32) (a2 : IVec S20000 32) (a3 : FVec Ideal S3x128x256 .f32)
    (a4 : FVec Ideal S3x128 .f32) (a5 a6 : FVec Ideal S3x384x128 .f32) (a7 a8 : FVec Ideal S3x384 .f32)
    (a9 : FVec Ideal S1x128 .f32) (a10 : FVec Ideal S1 .f32) : FVec Ideal S128 .f32 :=
  tailR
    (layerR
      (layerR
        (layerR a0 (rowR a1) (colR a1) (wt0R a3) (b0R a4) (wih0R a5) (wih0R a6) (bih0R a7) (bih0R a8))
        (rowR a1) (colR a1) (wt1R a3) (b1R a4) (wih1R a5) (wih1R a6) (bih1R a7) (bih1R a8))
      (rowR a1) (colR a1) (wt2R a3) (b2R a4) (wih2R a5) (wih2R a6) (bih2R a7) (bih2R a8))
    a2 a9 a10

/-- The whole network as the reference spells it. -/
def netHostR (a0 : FVec Ideal S20000x128 .f32) (a1 : IVec S2x640000 32) (a2 : IVec S20000 32) (a3 : FVec Ideal S3x128x256 .f32)
    (a4 : FVec Ideal S3x128 .f32) (a5 a6 : FVec Ideal S3x384x128 .f32) (a7 a8 : FVec Ideal S3x384 .f32)
    (a9 : FVec Ideal S1x128 .f32) (a10 : FVec Ideal S1 .f32) : FVec Ideal S128 .f32 :=
  tailR
    (layerHostR
      (layerHostR
        (layerHostR a0 (rowR a1) (colR a1) (wt0R a3) (b0R a4) (wih0R a5) (wih0R a6) (bih0R a7) (bih0R a8))
        (rowR a1) (colR a1) (wt1R a3) (b1R a4) (wih1R a5) (wih1R a6) (bih1R a7) (bih1R a8))
      (rowR a1) (colR a1) (wt2R a3) (b2R a4) (wih2R a5) (wih2R a6) (bih2R a7) (bih2R a8))
    a2 a9 a10

end Cert.ReferenceIdeal.Hand

end
-- ==== Proof.RefOps.lean ====
/- The reference program's 284 host operations, in order, as four literal lists: 90 + 86 + 86 + 22. -/
import proofs.«413579_j91036126806070_1_alg».proof.ReferenceIdeal
import proofs.«413579_j91036126806070_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 0: the edge endpoints, then gather, message map, sum at the sources, gated update (… main_v77). -/
def ops0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 20000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.nullary main_c_1 (constantI S_ 32 0#32),
    StableHlo.unary main_c_1 main_v11 (broadcastInDim S640000 ![] bcast_S_S640000 : (⟨S_, .i32⟩ : BufTy).Contents (Elt F) → (⟨S640000, .i32⟩ : BufTy).Contents (Elt F)),
    StableHlo.binary main_v3 main_v11 main_v12 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 20000#32),
    StableHlo.unary main_c_2 main_v13 (broadcastInDim S640000 ![] bcast_S_S640000 : (⟨S_, .i32⟩ : BufTy).Contents (Elt F) → (⟨S640000, .i32⟩ : BufTy).Contents (Elt F)),
    StableHlo.binary main_v3 main_v13 main_v14 (addi : (⟨S640000, .i32⟩ : BufTy).Contents (Elt F) → (⟨S640000, .i32⟩ : BufTy).Contents (Elt F) → (⟨S640000, .i32⟩ : BufTy).Contents (Elt F)),
    StableHlo.ternary main_v12 main_v14 main_v3 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v15 main_v16 (broadcastInDim S640000x1 ![0] bcast_S640000_S640000x1_0 : (⟨S640000, .i32⟩ : BufTy).Contents (Elt F) → (⟨S640000x1, .i32⟩ : BufTy).Contents (Elt F)),
    StableHlo.binary main_arg0 main_v16 main_v17 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.binary main_v10 main_v17 main_v18 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    StableHlo.unary main_arg3 main_v19 ((extractStridedSlice S1x128x256 ![0, 0, 0] · slices_S3x128x256_S1x128x256_0_0_0) : (⟨S3x128x256, .f32⟩ : BufTy).Contents (Elt F) → (⟨S1x128x256, .f32⟩ : BufTy).Contents (Elt F)),
    StableHlo.reshape main_v19 main_v20 rfl shapeCasts_S1x128x256_S128x256,
    StableHlo.unary main_v20 main_v21 ((transpose S256x128 [1, 0] · transposes_S128x256_S256x128_1_0) : (⟨S128x256, .f32⟩ : BufTy).Contents (Elt F) → (⟨S256x128, .f32⟩ : BufTy).Contents (Elt F)),
    StableHlo.binary main_v18 main_v21 main_v22 ((fun l r => Host.dotGeneral dot_S640000x256_S256x128_S640000x128_1_0_0_1_n_n none l r) : (⟨S640000x256, .f32⟩ : BufTy).Contents (Elt F) → (⟨S256x128, .f32⟩ : BufTy).Contents (Elt F) → (⟨S640000x128, .f32⟩ : BufTy).Contents (Elt F)),
    StableHlo.unary main_arg4 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_v24 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S640000x128 ![0, 1] bcast_S1x128_S640000x128_0_1 : (⟨S1x128, .f32⟩ : BufTy).Contents (Elt F) → (⟨S640000x128, .f32⟩ : BufTy).Contents (Elt F)),
    StableHlo.binary main_v22 main_v26 main_v27 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S640000x128, .f32⟩) main_call0_v0) (broadcastInDim S640000x128 ![] bcast_S_S640000x128),
    TRef.binary (TRef.of (T := ⟨S640000x128, .f32⟩) main_v27) (TRef.of (T := ⟨S640000x128, .f32⟩) main_call0_v0) (TRef.of (T := ⟨S640000x128, .f32⟩) main_v28) maximumf,
    StableHlo.nullary main_cst (constant S_ .f32 0x00000000#32),
    StableHlo.unary main_cst main_v29 (broadcastInDim S20000x128 ![] bcast_S_S20000x128 : (⟨S_, .f32⟩ : BufTy).Contents (Elt F) → (⟨S20000x128, .f32⟩ : BufTy).Contents (Elt F)),
    StableHlo.unary main_v1 main_v30 (broadcastInDim S640000x1 ![0] bcast_S640000_S640000x1_0 : (⟨S640000, .i32⟩ : BufTy).Contents (Elt F) → (⟨S640000x1, .i32⟩ : BufTy).Contents (Elt F)),
    StableHlo.ternary main_v29 main_v30 main_v28 main_v31 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    StableHlo.unary main_arg5 main_v32 ((extractStridedSlice S1x384x128 ![0, 0, 0] · slices_S3x384x128_S1x384x128_0_0_0) : (⟨S3x384x128, .f32⟩ : BufTy).Contents (Elt F) → (⟨S1x384x128, .f32⟩ : BufTy).Contents (Elt F)),
    StableHlo.reshape main_v32 main_v33 rfl shapeCasts_S1x384x128_S384x128,
    StableHlo.unary main_arg6 main_v34 ((extractStridedSlice S1x384x128 ![0, 0, 0] · slices_S3x384x128_S1x384x128_0_0_0) : (⟨S3x384x128, .f32⟩ : BufTy).Contents (Elt F) → (⟨S1x384x128, .f32⟩ : BufTy).Contents (Elt F)),
    StableHlo.reshape main_v34 main_v35 rfl shapeCasts_S1x384x128_S384x128,
    StableHlo.unary main_arg7 main_v36 ((extractStridedSlice S1x384 ![0, 0] · slices_S3x384_S1x384_0_0) : (⟨S3x384, .f32⟩ : BufTy).Contents (Elt F) → (⟨S1x384, .f32⟩ : BufTy).Contents (Elt F)),
    StableHlo.reshape main_v36 main_v37 rfl shapeCasts_S1x384_S384,
    StableHlo.unary main_arg8 main_v38 ((extractStridedSlice S1x384 ![0, 0] · slices_S3x384_S1x384_0_0) : (⟨S3x384, .f32⟩ : BufTy).Contents (Elt F) → (⟨S1x384, .f32⟩ : BufTy).Contents (Elt F)),
    StableHlo.reshape main_v38 main_v39 rfl shapeCasts_S1x384_S384,
    StableHlo.unary main_v33 main_v40 ((transpose S128x384 [1, 0] · transposes_S384x128_S128x384_1_0) : (⟨S384x128, .f32⟩ : BufTy).Contents (Elt F) → (⟨S128x384, .f32⟩ : BufTy).Contents (Elt F)),
    StableHlo.binary main_v31 main_v40 main_v41 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    StableHlo.unary main_v37 main_v42 (broadcastInDim S1x384 ![1] bcast_S384_S1x384_1 : (⟨S384, .f32⟩ : BufTy).Contents (Elt F) → (⟨S1x384, .f32⟩ : BufTy).Contents (Elt F)),
    StableHlo.unary main_v42 main_v43 (broadcastInDim S20000x384 ![0, 1] bcast_S1x384_S20000x384_0_1 : (⟨S1x384, .f32⟩ : BufTy).Contents (Elt F) → (⟨S20000x384, .f32⟩ : BufTy).Contents (Elt F)),
    StableHlo.binary main_v41 main_v43 main_v44 (addf : (⟨S20000x384, .f32⟩ : BufTy).Contents (Elt F) → (⟨S20000x384, .f32⟩ : BufTy).Contents (Elt F) → (⟨S20000x384, .f32⟩ : BufTy).Contents (Elt F)),
    StableHlo.unary main_v35 main_v45 ((transpose S128x384 [1, 0] · transposes_S384x128_S128x384_1_0) : (⟨S384x128, .f32⟩ : BufTy).Contents (Elt F) → (⟨S128x384, .f32⟩ : BufTy).Contents (Elt F)),
    StableHlo.binary main_arg0 main_v45 main_v46 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    StableHlo.unary main_v39 main_v47 (broadcastInDim S1x384 ![1] bcast_S384_S1x384_1 : (⟨S384, .f32⟩ : BufTy).Contents (Elt F) → (⟨S1x384, .f32⟩ : BufTy).Contents (Elt F)),
    StableHlo.unary main_v47 main_v48 (broadcastInDim S20000x384 ![0, 1] bcast_S1x384_S20000x384_0_1 : (⟨S1x384, .f32⟩ : BufTy).Contents (Elt F) → (⟨S20000x384, .f32⟩ : BufTy).Contents (Elt F)),
    StableHlo.binary main_v46 main_v48 main_v49 (addf : (⟨S20000x384, .f32⟩ : BufTy).Contents (Elt F) → (⟨S20000x384, .f32⟩ : BufTy).Contents (Elt F) → (⟨S20000x384, .f32⟩ : BufTy).Contents (Elt F)),
    StableHlo.unary main_v44 main_v50 ((extractStridedSlice S20000x128 ![0, 0] · slices_S20000x384_S20000x128_0_0) : (⟨S20000x384, .f32⟩ : BufTy).Contents (Elt F) → (⟨S20000x128, .f32⟩ : BufTy).Contents (Elt F)),
    StableHlo.unary main_v44 main_v51 ((extractStridedSlice S20000x128 ![0, 128] · slices_S20000x384_S20000x128_0_128) : (⟨S20000x384, .f32⟩ : BufTy).Contents (Elt F) → (⟨S20000x128, .f32⟩ : BufTy).Contents (Elt F)),
    StableHlo.unary main_v44 main_v52 ((extractStridedSlice S20000x128 ![0, 256] · slices_S20000x384_S20000x128_0_256) : (⟨S20000x384, .f32⟩ : BufTy).Contents (Elt F) → (⟨S20000x128, .f32⟩ : BufTy).Contents (Elt F)),
    StableHlo.unary main_v49 main_v53 ((extractStridedSlice S20000x128 ![0, 0] · slices_S20000x384_S20000x128_0_0) : (⟨S20000x384, .f32⟩ : BufTy).Contents (Elt F) → (⟨S20000x128, .f32⟩ : BufTy).Contents (Elt F)),
    StableHlo.unary main_v49 main_v54 ((extractStridedSlice S20000x128 ![0, 128] · slices_S20000x384_S20000x128_0_128) : (⟨S20000x384, .f32⟩ : BufTy).Contents (Elt F) → (⟨S20000x128, .f32⟩ : BufTy).Contents (Elt F)),
    StableHlo.unary main_v49 main_v55 ((extractStridedSlice S20000x128 ![0, 256] · slices_S20000x384_S20000x128_0_256) : (⟨S20000x384, .f32⟩ : BufTy).Contents (Elt F) → (⟨S20000x128, .f32⟩ : BufTy).Contents (Elt F)),
    StableHlo.binary main_v50 main_v53 main_v56 (addf : (⟨S20000x128, .f32⟩ : BufTy).Contents (Elt F) → (⟨S20000x128, .f32⟩ : BufTy).Contents (Elt F) → (⟨S20000x128, .f32⟩ : BufTy).Contents (Elt F)),
    StableHlo.unary main_v56 main_v57 (Host.negf : (⟨S20000x128, .f32⟩ : BufTy).Contents (Elt F) → (⟨S20000x128, .f32⟩ : BufTy).Contents (Elt F)),
    StableHlo.unary main_v57 main_v58 (Host.exp : (⟨S20000x128, .f32⟩ : BufTy).Contents (Elt F) → (⟨S20000x128, .f32⟩ : BufTy).Contents (Elt F)),
    StableHlo.nullary main_cst_3 (constant S_ .f32 0x3F800000#32),
    StableHlo.unary main_cst_3 main_v59 (broadcastInDim S20000x128 ![] bcast_S_S20000x128 : (⟨S_, .f32⟩ : BufTy).Contents (Elt F) → (⟨S20000x128, .f32⟩ : BufTy).Contents (Elt F)),
    StableHlo.binary main_v59 main_v58 main_v60 (addf : (⟨S20000x128, .f32⟩ : BufTy).Contents (Elt F) → (⟨S20000x128, .f32⟩ : BufTy).Contents (Elt F) → (⟨S20000x128, .f32⟩ : BufTy).Contents (Elt F)),
    StableHlo.nullary main_cst_4 (constant S_ .f32 0x3F800000#32),
    StableHlo.unary main_cst_4 main_v61 (broadcastInDim S20000x128 ![] bcast_S_S20000x128 : (⟨S_, .f32⟩ : BufTy).Contents (Elt F) → (⟨S20000x128, .f32⟩ : BufTy).Contents (Elt F)),
    StableHlo.binary main_v61 main_v60 main_v62 (Host.divf : (⟨S20000x128, .f32⟩ : BufTy).Contents (Elt F) → (⟨S20000x128, .f32⟩ : BufTy).Contents (Elt F) → (⟨S20000x128, .f32⟩ : BufTy).Contents (Elt F)),
    StableHlo.binary main_v51 main_v54 main_v63 (addf : (⟨S20000x128, .f32⟩ : BufTy).Contents (Elt F) → (⟨S20000x128, .f32⟩ : BufTy).Contents (Elt F) → (⟨S20000x128, .f32⟩ : BufTy).Contents (Elt F)),
    StableHlo.unary main_v63 main_v64 (Host.negf : (⟨S20000x128, .f32⟩ : BufTy).Contents (Elt F) → (⟨S20000x128, .f32⟩ : BufTy).Contents (Elt F)),
    StableHlo.unary main_v64 main_v65 (Host.exp : (⟨S20000x128, .f32⟩ : BufTy).Contents (Elt F) → (⟨S20000x128, .f32⟩ : BufTy).Contents (Elt F)),
    StableHlo.nullary main_cst_5 (constant S_ .f32 0x3F800000#32),
    StableHlo.unary main_cst_5 main_v66 (broadcastInDim S20000x128 ![] bcast_S_S20000x128 : (⟨S_, .f32⟩ : BufTy).Contents (Elt F) → (⟨S20000x128, .f32⟩ : BufTy).Contents (Elt F)),
    StableHlo.binary main_v66 main_v65 main_v67 (addf : (⟨S20000x128, .f32⟩ : BufTy).Contents (Elt F) → (⟨S20000x128, .f32⟩ : BufTy).Contents (Elt F) → (⟨S20000x128, .f32⟩ : BufTy).Contents (Elt F)),
    StableHlo.nullary main_cst_6 (constant S_ .f32 0x3F800000#32),
    StableHlo.unary main_cst_6 main_v68 (broadcastInDim S20000x128 ![] bcast_S_S20000x128 : (⟨S_, .f32⟩ : BufTy).Contents (Elt F) → (⟨S20000x128, .f32⟩ : BufTy).Contents (Elt F)),
    StableHlo.binary main_v68 main_v67 main_v69 (Host.divf : (⟨S20000x128, .f32⟩ : BufTy).Contents (Elt F) → (⟨S20000x128, .f32⟩ : BufTy).Contents (Elt F) → (⟨S20000x128, .f32⟩ : BufTy).Contents (Elt F)),
    StableHlo.binary main_v62 main_v55 main_v70 (mulf : (⟨S20000x128, .f32⟩ : BufTy).Contents (Elt F) → (⟨S20000x128, .f32⟩ : BufTy).Contents (Elt F) → (⟨S20000x128, .f32⟩ : BufTy).Contents (Elt F)),
    StableHlo.binary main_v52 main_v70 main_v71 (addf : (⟨S20000x128, .f32⟩ : BufTy).Contents (Elt F) → (⟨S20000x128, .f32⟩ : BufTy).Contents (Elt F) → (⟨S20000x128, .f32⟩ : BufTy).Contents (Elt F)),
    StableHlo.unary main_v71 main_v72 (Host.tanh : (⟨S20000x128, .f32⟩ : BufTy).Contents (Elt F) → (⟨S20000x128, .f32⟩ : BufTy).Contents (Elt F)),
    StableHlo.nullary main_cst_7 (constant S_ .f32 0x3F800000#32),
    StableHlo.unary main_cst_7 main_v73 (broadcastInDim S20000x128 ![] bcast_S_S20000x128 : (⟨S_, .f32⟩ : BufTy).Contents (Elt F) → (⟨S20000x128, .f32⟩ : BufTy).Contents (Elt F)),
    StableHlo.binary main_v73 main_v69 main_v74 (subf : (⟨S20000x128, .f32⟩ : BufTy).Contents (Elt F) → (⟨S20000x128, .f32⟩ : BufTy).Contents (Elt F) → (⟨S20000x128, .f32⟩ : BufTy).Contents (Elt F)),
    StableHlo.binary main_v74 main_v72 main_v75 (mulf : (⟨S20000x128, .f32⟩ : BufTy).Contents (Elt F) → (⟨S20000x128, .f32⟩ : BufTy).Contents (Elt F) → (⟨S20000x128, .f32⟩ : BufTy).Contents (Elt F)),
    StableHlo.binary main_v69 main_arg0 main_v76 (mulf : (⟨S20000x128, .f32⟩ : BufTy).Contents (Elt F) → (⟨S20000x128, .f32⟩ : BufTy).Contents (Elt F) → (⟨S20000x128, .f32⟩ : BufTy).Contents (Elt F)),
    StableHlo.binary main_v75 main_v76 main_v77 (addf : (⟨S20000x128, .f32⟩ : BufTy).Contents (Elt F) → (⟨S20000x128, .f32⟩ : BufTy).Contents (Elt F) → (⟨S20000x128, .f32⟩ : BufTy).Contents (Elt F)) ]

/-- Layer 1 (… main_v151). -/
def ops1 : List (HloOp τ sig (Elt F)) :=
  [ StableHlo.nullary main_c_8 (constantI S_ 32 0#32),
    StableHlo.unary main_c_8 main_v78 (broadcastInDim S640000 ![] bcast_S_S640000 : (⟨S_, .i32⟩ : BufTy).Contents (Elt F) → (⟨S640000, .i32⟩ : BufTy).Contents (Elt F)),
    StableHlo.binary main_v1 main_v78 main_v79 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 20000#32),
    StableHlo.unary main_c_9 main_v80 (broadcastInDim S640000 ![] bcast_S_S640000 : (⟨S_, .i32⟩ : BufTy).Contents (Elt F) → (⟨S640000, .i32⟩ : BufTy).Contents (Elt F)),
    StableHlo.binary main_v1 main_v80 main_v81 (addi : (⟨S640000, .i32⟩ : BufTy).Contents (Elt F) → (⟨S640000, .i32⟩ : BufTy).Contents (Elt F) → (⟨S640000, .i32⟩ : BufTy).Contents (Elt F)),
    StableHlo.ternary main_v79 main_v81 main_v1 main_v82 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v82 main_v83 (broadcastInDim S640000x1 ![0] bcast_S640000_S640000x1_0 : (⟨S640000, .i32⟩ : BufTy).Contents (Elt F) → (⟨S640000x1, .i32⟩ : BufTy).Contents (Elt F)),
    StableHlo.binary main_v77 main_v83 main_v84 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.nullary main_c_10 (constantI S_ 32 0#32),
    StableHlo.unary main_c_10 main_v85 (broadcastInDim S640000 ![] bcast_S_S640000 : (⟨S_, .i32⟩ : BufTy).Contents (Elt F) → (⟨S640000, .i32⟩ : BufTy).Contents (Elt F)),
    StableHlo.binary main_v3 main_v85 main_v86 (cmpi .slt : (⟨S640000, .i32⟩ : BufTy).Contents (Elt F) → (⟨S640000, .i32⟩ : BufTy).Contents (Elt F) → (⟨S640000, .i1⟩ : BufTy).Contents (Elt F)),
    StableHlo.nullary main_c_11 (constantI S_ 32 20000#32),
    StableHlo.unary main_c_11 main_v87 (broadcastInDim S640000 ![] bcast_S_S640000 : (⟨S_, .i32⟩ : BufTy).Contents (Elt F) → (⟨S640000, .i32⟩ : BufTy).Contents (Elt F)),
    StableHlo.binary main_v3 main_v87 main_v88 (addi : (⟨S640000, .i32⟩ : BufTy).Contents (Elt F) → (⟨S640000, .i32⟩ : BufTy).Contents (Elt F) → (⟨S640000, .i32⟩ : BufTy).Contents (Elt F)),
    StableHlo.ternary main_v86 main_v88 main_v3 main_v89 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v89 main_v90 (broadcastInDim S640000x1 ![0] bcast_S640000_S640000x1_0 : (⟨S640000, .i32⟩ : BufTy).Contents (Elt F) → (⟨S640000x1, .i32⟩ : BufTy).Contents (Elt F)),
    StableHlo.binary main_v77 main_v90 main_v91 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.binary main_v84 main_v91 main_v92 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    StableHlo.unary main_arg3 main_v93 ((extractStridedSlice S1x128x256 ![1, 0, 0] · slices_S3x128x256_S1x128x256_1_0_0) : (⟨S3x128x256, .f32⟩ : BufTy).Contents (Elt F) → (⟨S1x128x256, .f32⟩ : BufTy).Contents (Elt F)),
    StableHlo.reshape main_v93 main_v94 rfl shapeCasts_S1x128x256_S128x256,
    StableHlo.unary main_v94 main_v95 ((transpose S256x128 [1, 0] · transposes_S128x256_S256x128_1_0) : (⟨S128x256, .f32⟩ : BufTy).Contents (Elt F) → (⟨S256x128, .f32⟩ : BufTy).Contents (Elt F)),
    StableHlo.binary main_v92 main_v95 main_v96 ((fun l r => Host.dotGeneral dot_S640000x256_S256x128_S640000x128_1_0_0_1_n_n none l r) : (⟨S640000x256, .f32⟩ : BufTy).Contents (Elt F) → (⟨S256x128, .f32⟩ : BufTy).Contents (Elt F) → (⟨S640000x128, .f32⟩ : BufTy).Contents (Elt F)),
    StableHlo.unary main_arg4 main_v97 ((extractStridedSlice S1x128 ![1, 0] · slices_S3x128_S1x128_1_0) : (⟨S3x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S640000x128 ![0, 1] bcast_S1x128_S640000x128_0_1 : (⟨S1x128, .f32⟩ : BufTy).Contents (Elt F) → (⟨S640000x128, .f32⟩ : BufTy).Contents (Elt F)),
    StableHlo.binary main_v96 main_v100 main_v101 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S640000x128, .f32⟩) main_call1_v0) (broadcastInDim S640000x128 ![] bcast_S_S640000x128),
    TRef.binary (TRef.of (T := ⟨S640000x128, .f32⟩) main_v101) (TRef.of (T := ⟨S640000x128, .f32⟩) main_call1_v0) (TRef.of (T := ⟨S640000x128, .f32⟩) main_v102) maximumf,
    StableHlo.nullary main_cst_12 (constant S_ .f32 0x00000000#32),
    StableHlo.unary main_cst_12 main_v103 (broadcastInDim S20000x128 ![] bcast_S_S20000x128 : (⟨S_, .f32⟩ : BufTy).Contents (Elt F) → (⟨S20000x128, .f32⟩ : BufTy).Contents (Elt F)),
    StableHlo.unary main_v1 main_v104 (broadcastInDim S640000x1 ![0] bcast_S640000_S640000x1_0 : (⟨S640000, .i32⟩ : BufTy).Contents (Elt F) → (⟨S640000x1, .i32⟩ : BufTy).Contents (Elt F)),
    StableHlo.ternary main_v103 main_v104 main_v102 main_v105 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    StableHlo.unary main_arg5 main_v106 ((extractStridedSlice S1x384x128 ![1, 0, 0] · slices_S3x384x128_S1x384x128_1_0_0) : (⟨S3x384x128, .f32⟩ : BufTy).Contents (Elt F) → (⟨S1x384x128, .f32⟩ : BufTy).Contents (Elt F)),
    StableHlo.reshape main_v106 main_v107 rfl shapeCasts_S1x384x128_S384x128,
    StableHlo.unary main_arg6 main_v108 ((extractStridedSlice S1x384x128 ![1, 0, 0] · slices_S3x384x128_S1x384x128_1_0_0) : (⟨S3x384x128, .f32⟩ : BufTy).Contents (Elt F) → (⟨S1x384x128, .f32⟩ : BufTy).Contents (Elt F)),
    StableHlo.reshape main_v108 main_v109 rfl shapeCasts_S1x384x128_S384x128,
    StableHlo.unary main_arg7 main_v110 ((extractStridedSlice S1x384 ![1, 0] · slices_S3x384_S1x384_1_0) : (⟨S3x384, .f32⟩ : BufTy).Contents (Elt F) → (⟨S1x384, .f32⟩ : BufTy).Contents (Elt F)),
    StableHlo.reshape main_v110 main_v111 rfl shapeCasts_S1x384_S384,
    StableHlo.unary main_arg8 main_v112 ((extractStridedSlice S1x384 ![1, 0] · slices_S3x384_S1x384_1_0) : (⟨S3x384, .f32⟩ : BufTy).Contents (Elt F) → (⟨S1x384, .f32⟩ : BufTy).Contents (Elt F)),
    StableHlo.reshape main_v112 main_v113 rfl shapeCasts_S1x384_S384,
    StableHlo.unary main_v107 main_v114 ((transpose S128x384 [1, 0] · transposes_S384x128_S128x384_1_0) : (⟨S384x128, .f32⟩ : BufTy).Contents (Elt F) → (⟨S128x384, .f32⟩ : BufTy).Contents (Elt F)),
    StableHlo.binary main_v105 main_v114 main_v115 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    StableHlo.unary main_v111 main_v116 (broadcastInDim S1x384 ![1] bcast_S384_S1x384_1 : (⟨S384, .f32⟩ : BufTy).Contents (Elt F) → (⟨S1x384, .f32⟩ : BufTy).Contents (Elt F)),
    StableHlo.unary main_v116 main_v117 (broadcastInDim S20000x384 ![0, 1] bcast_S1x384_S20000x384_0_1 : (⟨S1x384, .f32⟩ : BufTy).Contents (Elt F) → (⟨S20000x384, .f32⟩ : BufTy).Contents (Elt F)),
    StableHlo.binary main_v115 main_v117 main_v118 (addf : (⟨S20000x384, .f32⟩ : BufTy).Contents (Elt F) → (⟨S20000x384, .f32⟩ : BufTy).Contents (Elt F) → (⟨S20000x384, .f32⟩ : BufTy).Contents (Elt F)),
    StableHlo.unary main_v109 main_v119 ((transpose S128x384 [1, 0] · transposes_S384x128_S128x384_1_0) : (⟨S384x128, .f32⟩ : BufTy).Contents (Elt F) → (⟨S128x384, .f32⟩ : BufTy).Contents (Elt F)),
    StableHlo.binary main_v77 main_v119 main_v120 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    StableHlo.unary main_v113 main_v121 (broadcastInDim S1x384 ![1] bcast_S384_S1x384_1 : (⟨S384, .f32⟩ : BufTy).Contents (Elt F) → (⟨S1x384, .f32⟩ : BufTy).Contents (Elt F)),
    StableHlo.unary main_v121 main_v122 (broadcastInDim S20000x384 ![0, 1] bcast_S1x384_S20000x384_0_1 : (⟨S1x384, .f32⟩ : BufTy).Contents (Elt F) → (⟨S20000x384, .f32⟩ : BufTy).Contents (Elt F)),
    StableHlo.binary main_v120 main_v122 main_v123 (addf : (⟨S20000x384, .f32⟩ : BufTy).Contents (Elt F) → (⟨S20000x384, .f32⟩ : BufTy).Contents (Elt F) → (⟨S20000x384, .f32⟩ : BufTy).Contents (Elt F)),
    StableHlo.unary main_v118 main_v124 ((extractStridedSlice S20000x128 ![0, 0] · slices_S20000x384_S20000x128_0_0) : (⟨S20000x384, .f32⟩ : BufTy).Contents (Elt F) → (⟨S20000x128, .f32⟩ : BufTy).Contents (Elt F)),
    StableHlo.unary main_v118 main_v125 ((extractStridedSlice S20000x128 ![0, 128] · slices_S20000x384_S20000x128_0_128) : (⟨S20000x384, .f32⟩ : BufTy).Contents (Elt F) → (⟨S20000x128, .f32⟩ : BufTy).Contents (Elt F)),
    StableHlo.unary main_v118 main_v126 ((extractStridedSlice S20000x128 ![0, 256] · slices_S20000x384_S20000x128_0_256) : (⟨S20000x384, .f32⟩ : BufTy).Contents (Elt F) → (⟨S20000x128, .f32⟩ : BufTy).Contents (Elt F)),
    StableHlo.unary main_v123 main_v127 ((extractStridedSlice S20000x128 ![0, 0] · slices_S20000x384_S20000x128_0_0) : (⟨S20000x384, .f32⟩ : BufTy).Contents (Elt F) → (⟨S20000x128, .f32⟩ : BufTy).Contents (Elt F)),
    StableHlo.unary main_v123 main_v128 ((extractStridedSlice S20000x128 ![0, 128] · slices_S20000x384_S20000x128_0_128) : (⟨S20000x384, .f32⟩ : BufTy).Contents (Elt F) → (⟨S20000x128, .f32⟩ : BufTy).Contents (Elt F)),
    StableHlo.unary main_v123 main_v129 ((extractStridedSlice S20000x128 ![0, 256] · slices_S20000x384_S20000x128_0_256) : (⟨S20000x384, .f32⟩ : BufTy).Contents (Elt F) → (⟨S20000x128, .f32⟩ : BufTy).Contents (Elt F)),
    StableHlo.binary main_v124 main_v127 main_v130 (addf : (⟨S20000x128, .f32⟩ : BufTy).Contents (Elt F) → (⟨S20000x128, .f32⟩ : BufTy).Contents (Elt F) → (⟨S20000x128, .f32⟩ : BufTy).Contents (Elt F)),
    StableHlo.unary main_v130 main_v131 (Host.negf : (⟨S20000x128, .f32⟩ : BufTy).Contents (Elt F) → (⟨S20000x128, .f32⟩ : BufTy).Contents (Elt F)),
    StableHlo.unary main_v131 main_v132 (Host.exp : (⟨S20000x128, .f32⟩ : BufTy).Contents (Elt F) → (⟨S20000x128, .f32⟩ : BufTy).Contents (Elt F)),
    StableHlo.nullary main_cst_13 (constant S_ .f32 0x3F800000#32),
    StableHlo.unary main_cst_13 main_v133 (broadcastInDim S20000x128 ![] bcast_S_S20000x128 : (⟨S_, .f32⟩ : BufTy).Contents (Elt F) → (⟨S20000x128, .f32⟩ : BufTy).Contents (Elt F)),
    StableHlo.binary main_v133 main_v132 main_v134 (addf : (⟨S20000x128, .f32⟩ : BufTy).Contents (Elt F) → (⟨S20000x128, .f32⟩ : BufTy).Contents (Elt F) → (⟨S20000x128, .f32⟩ : BufTy).Contents (Elt F)),
    StableHlo.nullary main_cst_14 (constant S_ .f32 0x3F800000#32),
    StableHlo.unary main_cst_14 main_v135 (broadcastInDim S20000x128 ![] bcast_S_S20000x128 : (⟨S_, .f32⟩ : BufTy).Contents (Elt F) → (⟨S20000x128, .f32⟩ : BufTy).Contents (Elt F)),
    StableHlo.binary main_v135 main_v134 main_v136 (Host.divf : (⟨S20000x128, .f32⟩ : BufTy).Contents (Elt F) → (⟨S20000x128, .f32⟩ : BufTy).Contents (Elt F) → (⟨S20000x128, .f32⟩ : BufTy).Contents (Elt F)),
    StableHlo.binary main_v125 main_v128 main_v137 (addf : (⟨S20000x128, .f32⟩ : BufTy).Contents (Elt F) → (⟨S20000x128, .f32⟩ : BufTy).Contents (Elt F) → (⟨S20000x128, .f32⟩ : BufTy).Contents (Elt F)),
    StableHlo.unary main_v137 main_v138 (Host.negf : (⟨S20000x128, .f32⟩ : BufTy).Contents (Elt F) → (⟨S20000x128, .f32⟩ : BufTy).Contents (Elt F)),
    StableHlo.unary main_v138 main_v139 (Host.exp : (⟨S20000x128, .f32⟩ : BufTy).Contents (Elt F) → (⟨S20000x128, .f32⟩ : BufTy).Contents (Elt F)),
    StableHlo.nullary main_cst_15 (constant S_ .f32 0x3F800000#32),
    StableHlo.unary main_cst_15 main_v140 (broadcastInDim S20000x128 ![] bcast_S_S20000x128 : (⟨S_, .f32⟩ : BufTy).Contents (Elt F) → (⟨S20000x128, .f32⟩ : BufTy).Contents (Elt F)),
    StableHlo.binary main_v140 main_v139 main_v141 (addf : (⟨S20000x128, .f32⟩ : BufTy).Contents (Elt F) → (⟨S20000x128, .f32⟩ : BufTy).Contents (Elt F) → (⟨S20000x128, .f32⟩ : BufTy).Contents (Elt F)),
    StableHlo.nullary main_cst_16 (constant S_ .f32 0x3F800000#32),
    StableHlo.unary main_cst_16 main_v142 (broadcastInDim S20000x128 ![] bcast_S_S20000x128 : (⟨S_, .f32⟩ : BufTy).Contents (Elt F) → (⟨S20000x128, .f32⟩ : BufTy).Contents (Elt F)),
    StableHlo.binary main_v142 main_v141 main_v143 (Host.divf : (⟨S20000x128, .f32⟩ : BufTy).Contents (Elt F) → (⟨S20000x128, .f32⟩ : BufTy).Contents (Elt F) → (⟨S20000x128, .f32⟩ : BufTy).Contents (Elt F)),
    StableHlo.binary main_v136 main_v129 main_v144 (mulf : (⟨S20000x128, .f32⟩ : BufTy).Contents (Elt F) → (⟨S20000x128, .f32⟩ : BufTy).Contents (Elt F) → (⟨S20000x128, .f32⟩ : BufTy).Contents (Elt F)),
    StableHlo.binary main_v126 main_v144 main_v145 (addf : (⟨S20000x128, .f32⟩ : BufTy).Contents (Elt F) → (⟨S20000x128, .f32⟩ : BufTy).Contents (Elt F) → (⟨S20000x128, .f32⟩ : BufTy).Contents (Elt F)),
    StableHlo.unary main_v145 main_v146 (Host.tanh : (⟨S20000x128, .f32⟩ : BufTy).Contents (Elt F) → (⟨S20000x128, .f32⟩ : BufTy).Contents (Elt F)),
    StableHlo.nullary main_cst_17 (constant S_ .f32 0x3F800000#32),
    StableHlo.unary main_cst_17 main_v147 (broadcastInDim S20000x128 ![] bcast_S_S20000x128 : (⟨S_, .f32⟩ : BufTy).Contents (Elt F) → (⟨S20000x128, .f32⟩ : BufTy).Contents (Elt F)),
    StableHlo.binary main_v147 main_v143 main_v148 (subf : (⟨S20000x128, .f32⟩ : BufTy).Contents (Elt F) → (⟨S20000x128, .f32⟩ : BufTy).Contents (Elt F) → (⟨S20000x128, .f32⟩ : BufTy).Contents (Elt F)),
    StableHlo.binary main_v148 main_v146 main_v149 (mulf : (⟨S20000x128, .f32⟩ : BufTy).Contents (Elt F) → (⟨S20000x128, .f32⟩ : BufTy).Contents (Elt F) → (⟨S20000x128, .f32⟩ : BufTy).Contents (Elt F)),
    StableHlo.binary main_v143 main_v77 main_v150 (mulf : (⟨S20000x128, .f32⟩ : BufTy).Contents (Elt F) → (⟨S20000x128, .f32⟩ : BufTy).Contents (Elt F) → (⟨S20000x128, .f32⟩ : BufTy).Contents (Elt F)),
    StableHlo.binary main_v149 main_v150 main_v151 (addf : (⟨S20000x128, .f32⟩ : BufTy).Contents (Elt F) → (⟨S20000x128, .f32⟩ : BufTy).Contents (Elt F) → (⟨S20000x128, .f32⟩ : BufTy).Contents (Elt F)) ]

/-- Layer 2 (… main_v225). -/
def ops2 : List (HloOp τ sig (Elt F)) :=
  [ StableHlo.nullary main_c_18 (constantI S_ 32 0#32),
    StableHlo.unary main_c_18 main_v152 (broadcastInDim S640000 ![] bcast_S_S640000 : (⟨S_, .i32⟩ : BufTy).Contents (Elt F) → (⟨S640000, .i32⟩ : BufTy).Contents (Elt F)),
    StableHlo.binary main_v1 main_v152 main_v153 (cmpi .slt : (⟨S640000, .i32⟩ : BufTy).Contents (Elt F) → (⟨S640000, .i32⟩ : BufTy).Contents (Elt F) → (⟨S640000, .i1⟩ : BufTy).Contents (Elt F)),
    StableHlo.nullary main_c_19 (constantI S_ 32 20000#32),
    StableHlo.unary main_c_19 main_v154 (broadcastInDim S640000 ![] bcast_S_S640000 : (⟨S_, .i32⟩ : BufTy).Contents (Elt F) → (⟨S640000, .i32⟩ : BufTy).Contents (Elt F)),
    StableHlo.binary main_v1 main_v154 main_v155 (addi : (⟨S640000, .i32⟩ : BufTy).Contents (Elt F) → (⟨S640000, .i32⟩ : BufTy).Contents (Elt F) → (⟨S640000, .i32⟩ : BufTy).Contents (Elt F)),
    StableHlo.ternary main_v153 main_v155 main_v1 main_v156 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v156 main_v157 (broadcastInDim S640000x1 ![0] bcast_S640000_S640000x1_0 : (⟨S640000, .i32⟩ : BufTy).Contents (Elt F) → (⟨S640000x1, .i32⟩ : BufTy).Contents (Elt F)),
    StableHlo.binary main_v151 main_v157 main_v158 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.nullary main_c_20 (constantI S_ 32 0#32),
    StableHlo.unary main_c_20 main_v159 (broadcastInDim S640000 ![] bcast_S_S640000 : (⟨S_, .i32⟩ : BufTy).Contents (Elt F) → (⟨S640000, .i32⟩ : BufTy).Contents (Elt F)),
    StableHlo.binary main_v3 main_v159 main_v160 (cmpi .slt : (⟨S640000, .i32⟩ : BufTy).Contents (Elt F) → (⟨S640000, .i32⟩ : BufTy).Contents (Elt F) → (⟨S640000, .i1⟩ : BufTy).Contents (Elt F)),
    StableHlo.nullary main_c_21 (constantI S_ 32 20000#32),
    StableHlo.unary main_c_21 main_v161 (broadcastInDim S640000 ![] bcast_S_S640000 : (⟨S_, .i32⟩ : BufTy).Contents (Elt F) → (⟨S640000, .i32⟩ : BufTy).Contents (Elt F)),
    StableHlo.binary main_v3 main_v161 main_v162 (addi : (⟨S640000, .i32⟩ : BufTy).Contents (Elt F) → (⟨S640000, .i32⟩ : BufTy).Contents (Elt F) → (⟨S640000, .i32⟩ : BufTy).Contents (Elt F)),
    StableHlo.ternary main_v160 main_v162 main_v3 main_v163 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v163 main_v164 (broadcastInDim S640000x1 ![0] bcast_S640000_S640000x1_0 : (⟨S640000, .i32⟩ : BufTy).Contents (Elt F) → (⟨S640000x1, .i32⟩ : BufTy).Contents (Elt F)),
    StableHlo.binary main_v151 main_v164 main_v165 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.binary main_v158 main_v165 main_v166 ((fun a b => concatenate S640000x256 1 [⟨S640000x128, a⟩, ⟨S640000x128, b⟩] concatenates_S640000x128_S640000x128_S640000x256_d1) : (⟨S640000x128, .f32⟩ : BufTy).Contents (Elt F) → (⟨S640000x128, .f32⟩ : BufTy).Contents (Elt F) → (⟨S640000x256, .f32⟩ : BufTy).Contents (Elt F)),
    StableHlo.unary main_arg3 main_v167 ((extractStridedSlice S1x128x256 ![2, 0, 0] · slices_S3x128x256_S1x128x256_2_0_0) : (⟨S3x128x256, .f32⟩ : BufTy).Contents (Elt F) → (⟨S1x128x256, .f32⟩ : BufTy).Contents (Elt F)),
    StableHlo.reshape main_v167 main_v168 rfl shapeCasts_S1x128x256_S128x256,
    StableHlo.unary main_v168 main_v169 ((transpose S256x128 [1, 0] · transposes_S128x256_S256x128_1_0) : (⟨S128x256, .f32⟩ : BufTy).Contents (Elt F) → (⟨S256x128, .f32⟩ : BufTy).Contents (Elt F)),
    StableHlo.binary main_v166 main_v169 main_v170 ((fun l r => Host.dotGeneral dot_S640000x256_S256x128_S640000x128_1_0_0_1_n_n none l r) : (⟨S640000x256, .f32⟩ : BufTy).Contents (Elt F) → (⟨S256x128, .f32⟩ : BufTy).Contents (Elt F) → (⟨S640000x128, .f32⟩ : BufTy).Contents (Elt F)),
    StableHlo.unary main_arg4 main_v171 ((extractStridedSlice S1x128 ![2, 0] · slices_S3x128_S1x128_2_0) : (⟨S3x128, .f32⟩ : BufTy).Contents (Elt F) → (⟨S1x128, .f32⟩ : BufTy).Contents (Elt F)),
    StableHlo.reshape main_v171 main_v172 rfl shapeCasts_S1x128_S128,
    StableHlo.unary main_v172 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S640000x128 ![0, 1] bcast_S1x128_S640000x128_0_1 : (⟨S1x128, .f32⟩ : BufTy).Contents (Elt F) → (⟨S640000x128, .f32⟩ : BufTy).Contents (Elt F)),
    StableHlo.binary main_v170 main_v174 main_v175 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S640000x128, .f32⟩) main_call2_v0) (broadcastInDim S640000x128 ![] bcast_S_S640000x128),
    TRef.binary (TRef.of (T := ⟨S640000x128, .f32⟩) main_v175) (TRef.of (T := ⟨S640000x128, .f32⟩) main_call2_v0) (TRef.of (T := ⟨S640000x128, .f32⟩) main_v176) maximumf,
    StableHlo.nullary main_cst_22 (constant S_ .f32 0x00000000#32),
    StableHlo.unary main_cst_22 main_v177 (broadcastInDim S20000x128 ![] bcast_S_S20000x128 : (⟨S_, .f32⟩ : BufTy).Contents (Elt F) → (⟨S20000x128, .f32⟩ : BufTy).Contents (Elt F)),
    StableHlo.unary main_v1 main_v178 (broadcastInDim S640000x1 ![0] bcast_S640000_S640000x1_0 : (⟨S640000, .i32⟩ : BufTy).Contents (Elt F) → (⟨S640000x1, .i32⟩ : BufTy).Contents (Elt F)),
    StableHlo.ternary main_v177 main_v178 main_v176 main_v179 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    StableHlo.unary main_arg5 main_v180 ((extractStridedSlice S1x384x128 ![2, 0, 0] · slices_S3x384x128_S1x384x128_2_0_0) : (⟨S3x384x128, .f32⟩ : BufTy).Contents (Elt F) → (⟨S1x384x128, .f32⟩ : BufTy).Contents (Elt F)),
    StableHlo.reshape main_v180 main_v181 rfl shapeCasts_S1x384x128_S384x128,
    StableHlo.unary main_arg6 main_v182 ((extractStridedSlice S1x384x128 ![2, 0, 0] · slices_S3x384x128_S1x384x128_2_0_0) : (⟨S3x384x128, .f32⟩ : BufTy).Contents (Elt F) → (⟨S1x384x128, .f32⟩ : BufTy).Contents (Elt F)),
    StableHlo.reshape main_v182 main_v183 rfl shapeCasts_S1x384x128_S384x128,
    StableHlo.unary main_arg7 main_v184 ((extractStridedSlice S1x384 ![2, 0] · slices_S3x384_S1x384_2_0) : (⟨S3x384, .f32⟩ : BufTy).Contents (Elt F) → (⟨S1x384, .f32⟩ : BufTy).Contents (Elt F)),
    StableHlo.reshape main_v184 main_v185 rfl shapeCasts_S1x384_S384,
    StableHlo.unary main_arg8 main_v186 ((extractStridedSlice S1x384 ![2, 0] · slices_S3x384_S1x384_2_0) : (⟨S3x384, .f32⟩ : BufTy).Contents (Elt F) → (⟨S1x384, .f32⟩ : BufTy).Contents (Elt F)),
    StableHlo.reshape main_v186 main_v187 rfl shapeCasts_S1x384_S384,
    StableHlo.unary main_v181 main_v188 ((transpose S128x384 [1, 0] · transposes_S384x128_S128x384_1_0) : (⟨S384x128, .f32⟩ : BufTy).Contents (Elt F) → (⟨S128x384, .f32⟩ : BufTy).Contents (Elt F)),
    StableHlo.binary main_v179 main_v188 main_v189 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    StableHlo.unary main_v185 main_v190 (broadcastInDim S1x384 ![1] bcast_S384_S1x384_1 : (⟨S384, .f32⟩ : BufTy).Contents (Elt F) → (⟨S1x384, .f32⟩ : BufTy).Contents (Elt F)),
    StableHlo.unary main_v190 main_v191 (broadcastInDim S20000x384 ![0, 1] bcast_S1x384_S20000x384_0_1 : (⟨S1x384, .f32⟩ : BufTy).Contents (Elt F) → (⟨S20000x384, .f32⟩ : BufTy).Contents (Elt F)),
    StableHlo.binary main_v189 main_v191 main_v192 (addf : (⟨S20000x384, .f32⟩ : BufTy).Contents (Elt F) → (⟨S20000x384, .f32⟩ : BufTy).Contents (Elt F) → (⟨S20000x384, .f32⟩ : BufTy).Contents (Elt F)),
    StableHlo.unary main_v183 main_v193 ((transpose S128x384 [1, 0] · transposes_S384x128_S128x384_1_0) : (⟨S384x128, .f32⟩ : BufTy).Contents (Elt F) → (⟨S128x384, .f32⟩ : BufTy).Contents (Elt F)),
    StableHlo.binary main_v151 main_v193 main_v194 ((fun l r => Host.dotGeneral dot_S20000x128_S128x384_S20000x384_1_0_0_1_n_n none l r) : (⟨S20000x128, .f32⟩ : BufTy).Contents (Elt F) → (⟨S128x384, .f32⟩ : BufTy).Contents (Elt F) → (⟨S20000x384, .f32⟩ : BufTy).Contents (Elt F)),
    StableHlo.unary main_v187 main_v195 (broadcastInDim S1x384 ![1] bcast_S384_S1x384_1 : (⟨S384, .f32⟩ : BufTy).Contents (Elt F) → (⟨S1x384, .f32⟩ : BufTy).Contents (Elt F)),
    StableHlo.unary main_v195 main_v196 (broadcastInDim S20000x384 ![0, 1] bcast_S1x384_S20000x384_0_1 : (⟨S1x384, .f32⟩ : BufTy).Contents (Elt F) → (⟨S20000x384, .f32⟩ : BufTy).Contents (Elt F)),
    StableHlo.binary main_v194 main_v196 main_v197 (addf : (⟨S20000x384, .f32⟩ : BufTy).Contents (Elt F) → (⟨S20000x384, .f32⟩ : BufTy).Contents (Elt F) → (⟨S20000x384, .f32⟩ : BufTy).Contents (Elt F)),
    StableHlo.unary main_v192 main_v198 ((extractStridedSlice S20000x128 ![0, 0] · slices_S20000x384_S20000x128_0_0) : (⟨S20000x384, .f32⟩ : BufTy).Contents (Elt F) → (⟨S20000x128, .f32⟩ : BufTy).Contents (Elt F)),
    StableHlo.unary main_v192 main_v199 ((extractStridedSlice S20000x128 ![0, 128] · slices_S20000x384_S20000x128_0_128) : (⟨S20000x384, .f32⟩ : BufTy).Contents (Elt F) → (⟨S20000x128, .f32⟩ : BufTy).Contents (Elt F)),
    StableHlo.unary main_v192 main_v200 ((extractStridedSlice S20000x128 ![0, 256] · slices_S20000x384_S20000x128_0_256) : (⟨S20000x384, .f32⟩ : BufTy).Contents (Elt F) → (⟨S20000x128, .f32⟩ : BufTy).Contents (Elt F)),
    StableHlo.unary main_v197 main_v201 ((extractStridedSlice S20000x128 ![0, 0] · slices_S20000x384_S20000x128_0_0) : (⟨S20000x384, .f32⟩ : BufTy).Contents (Elt F) → (⟨S20000x128, .f32⟩ : BufTy).Contents (Elt F)),
    StableHlo.unary main_v197 main_v202 ((extractStridedSlice S20000x128 ![0, 128] · slices_S20000x384_S20000x128_0_128) : (⟨S20000x384, .f32⟩ : BufTy).Contents (Elt F) → (⟨S20000x128, .f32⟩ : BufTy).Contents (Elt F)),
    StableHlo.unary main_v197 main_v203 ((extractStridedSlice S20000x128 ![0, 256] · slices_S20000x384_S20000x128_0_256) : (⟨S20000x384, .f32⟩ : BufTy).Contents (Elt F) → (⟨S20000x128, .f32⟩ : BufTy).Contents (Elt F)),
    StableHlo.binary main_v198 main_v201 main_v204 (addf : (⟨S20000x128, .f32⟩ : BufTy).Contents (Elt F) → (⟨S20000x128, .f32⟩ : BufTy).Contents (Elt F) → (⟨S20000x128, .f32⟩ : BufTy).Contents (Elt F)),
    StableHlo.unary main_v204 main_v205 (Host.negf : (⟨S20000x128, .f32⟩ : BufTy).Contents (Elt F) → (⟨S20000x128, .f32⟩ : BufTy).Contents (Elt F)),
    StableHlo.unary main_v205 main_v206 (Host.exp : (⟨S20000x128, .f32⟩ : BufTy).Contents (Elt F) → (⟨S20000x128, .f32⟩ : BufTy).Contents (Elt F)),
    StableHlo.nullary main_cst_23 (constant S_ .f32 0x3F800000#32),
    StableHlo.unary main_cst_23 main_v207 (broadcastInDim S20000x128 ![] bcast_S_S20000x128 : (⟨S_, .f32⟩ : BufTy).Contents (Elt F) → (⟨S20000x128, .f32⟩ : BufTy).Contents (Elt F)),
    StableHlo.binary main_v207 main_v206 main_v208 (addf : (⟨S20000x128, .f32⟩ : BufTy).Contents (Elt F) → (⟨S20000x128, .f32⟩ : BufTy).Contents (Elt F) → (⟨S20000x128, .f32⟩ : BufTy).Contents (Elt F)),
    StableHlo.nullary main_cst_24 (constant S_ .f32 0x3F800000#32),
    StableHlo.unary main_cst_24 main_v209 (broadcastInDim S20000x128 ![] bcast_S_S20000x128 : (⟨S_, .f32⟩ : BufTy).Contents (Elt F) → (⟨S20000x128, .f32⟩ : BufTy).Contents (Elt F)),
    StableHlo.binary main_v209 main_v208 main_v210 (Host.divf : (⟨S20000x128, .f32⟩ : BufTy).Contents (Elt F) → (⟨S20000x128, .f32⟩ : BufTy).Contents (Elt F) → (⟨S20000x128, .f32⟩ : BufTy).Contents (Elt F)),
    StableHlo.binary main_v199 main_v202 main_v211 (addf : (⟨S20000x128, .f32⟩ : BufTy).Contents (Elt F) → (⟨S20000x128, .f32⟩ : BufTy).Contents (Elt F) → (⟨S20000x128, .f32⟩ : BufTy).Contents (Elt F)),
    StableHlo.unary main_v211 main_v212 (Host.negf : (⟨S20000x128, .f32⟩ : BufTy).Contents (Elt F) → (⟨S20000x128, .f32⟩ : BufTy).Contents (Elt F)),
    StableHlo.unary main_v212 main_v213 (Host.exp : (⟨S20000x128, .f32⟩ : BufTy).Contents (Elt F) → (⟨S20000x128, .f32⟩ : BufTy).Contents (Elt F)),
    StableHlo.nullary main_cst_25 (constant S_ .f32 0x3F800000#32),
    StableHlo.unary main_cst_25 main_v214 (broadcastInDim S20000x128 ![] bcast_S_S20000x128 : (⟨S_, .f32⟩ : BufTy).Contents (Elt F) → (⟨S20000x128, .f32⟩ : BufTy).Contents (Elt F)),
    StableHlo.binary main_v214 main_v213 main_v215 (addf : (⟨S20000x128, .f32⟩ : BufTy).Contents (Elt F) → (⟨S20000x128, .f32⟩ : BufTy).Contents (Elt F) → (⟨S20000x128, .f32⟩ : BufTy).Contents (Elt F)),
    StableHlo.nullary main_cst_26 (constant S_ .f32 0x3F800000#32),
    StableHlo.unary main_cst_26 main_v216 (broadcastInDim S20000x128 ![] bcast_S_S20000x128 : (⟨S_, .f32⟩ : BufTy).Contents (Elt F) → (⟨S20000x128, .f32⟩ : BufTy).Contents (Elt F)),
    StableHlo.binary main_v216 main_v215 main_v217 (Host.divf : (⟨S20000x128, .f32⟩ : BufTy).Contents (Elt F) → (⟨S20000x128, .f32⟩ : BufTy).Contents (Elt F) → (⟨S20000x128, .f32⟩ : BufTy).Contents (Elt F)),
    StableHlo.binary main_v210 main_v203 main_v218 (mulf : (⟨S20000x128, .f32⟩ : BufTy).Contents (Elt F) → (⟨S20000x128, .f32⟩ : BufTy).Contents (Elt F) → (⟨S20000x128, .f32⟩ : BufTy).Contents (Elt F)),
    StableHlo.binary main_v200 main_v218 main_v219 (addf : (⟨S20000x128, .f32⟩ : BufTy).Contents (Elt F) → (⟨S20000x128, .f32⟩ : BufTy).Contents (Elt F) → (⟨S20000x128, .f32⟩ : BufTy).Contents (Elt F)),
    StableHlo.unary main_v219 main_v220 (Host.tanh : (⟨S20000x128, .f32⟩ : BufTy).Contents (Elt F) → (⟨S20000x128, .f32⟩ : BufTy).Contents (Elt F)),
    StableHlo.nullary main_cst_27 (constant S_ .f32 0x3F800000#32),
    StableHlo.unary main_cst_27 main_v221 (broadcastInDim S20000x128 ![] bcast_S_S20000x128 : (⟨S_, .f32⟩ : BufTy).Contents (Elt F) → (⟨S20000x128, .f32⟩ : BufTy).Contents (Elt F)),
    StableHlo.binary main_v221 main_v217 main_v222 (subf : (⟨S20000x128, .f32⟩ : BufTy).Contents (Elt F) → (⟨S20000x128, .f32⟩ : BufTy).Contents (Elt F) → (⟨S20000x128, .f32⟩ : BufTy).Contents (Elt F)),
    StableHlo.binary main_v222 main_v220 main_v223 (mulf : (⟨S20000x128, .f32⟩ : BufTy).Contents (Elt F) → (⟨S20000x128, .f32⟩ : BufTy).Contents (Elt F) → (⟨S20000x128, .f32⟩ : BufTy).Contents (Elt F)),
    StableHlo.binary main_v217 main_v151 main_v224 (mulf : (⟨S20000x128, .f32⟩ : BufTy).Contents (Elt F) → (⟨S20000x128, .f32⟩ : BufTy).Contents (Elt F) → (⟨S20000x128, .f32⟩ : BufTy).Contents (Elt F)),
    StableHlo.binary main_v223 main_v224 main_v225 (addf : (⟨S20000x128, .f32⟩ : BufTy).Contents (Elt F) → (⟨S20000x128, .f32⟩ : BufTy).Contents (Elt F) → (⟨S20000x128, .f32⟩ : BufTy).Contents (Elt F)) ]

/-- The read-out: mean pooling per graph and the linear map (… main_v243). -/
def opsT : List (HloOp τ sig (Elt F)) :=
  [ StableHlo.nullary main_cst_28 (constant S_ .f32 0x00000000#32),
    StableHlo.unary main_cst_28 main_v226 (broadcastInDim S128x128 ![] bcast_S_S128x128 : (⟨S_, .f32⟩ : BufTy).Contents (Elt F) → (⟨S128x128, .f32⟩ : BufTy).Contents (Elt F)),
    StableHlo.unary main_arg2 main_v227 (broadcastInDim S20000x1 ![0] bcast_S20000_S20000x1_0 : (⟨S20000, .i32⟩ : BufTy).Contents (Elt F) → (⟨S20000x1, .i32⟩ : BufTy).Contents (Elt F)),
    StableHlo.ternary main_v226 main_v227 main_v225 main_v228 ((fun x i u => Host.scatterAdd scatter_S128x128_S20000x1_S20000x128_1_0_0_1 x i u) : (⟨S128x128, .f32⟩ : BufTy).Contents (Elt F) → (⟨S20000x1, .i32⟩ : BufTy).Contents (Elt F) → (⟨S20000x128, .f32⟩ : BufTy).Contents (Elt F) → (⟨S128x128, .f32⟩ : BufTy).Contents (Elt F)),
    StableHlo.nullary main_cst_29 (constant S_ .f32 0x3F800000#32),
    StableHlo.unary main_cst_29 main_v229 (broadcastInDim S20000 ![] bcast_S_S20000 : (⟨S_, .f32⟩ : BufTy).Contents (Elt F) → (⟨S20000, .f32⟩ : BufTy).Contents (Elt F)),
    StableHlo.nullary main_cst_30 (constant S_ .f32 0x00000000#32),
    StableHlo.unary main_cst_30 main_v230 (broadcastInDim S128 ![] bcast_S_S128 : (⟨S_, .f32⟩ : BufTy).Contents (Elt F) → (⟨S128, .f32⟩ : BufTy).Contents (Elt F)),
    StableHlo.unary main_arg2 main_v231 (broadcastInDim S20000x1 ![0] bcast_S20000_S20000x1_0 : (⟨S20000, .i32⟩ : BufTy).Contents (Elt F) → (⟨S20000x1, .i32⟩ : BufTy).Contents (Elt F)),
    StableHlo.ternary main_v230 main_v231 main_v229 main_v232 ((fun x i u => Host.scatterAdd scatter_S128_S20000x1_S20000_n_0_0_1 x i u) : (⟨S128, .f32⟩ : BufTy).Contents (Elt F) → (⟨S20000x1, .i32⟩ : BufTy).Contents (Elt F) → (⟨S20000, .f32⟩ : BufTy).Contents (Elt F) → (⟨S128, .f32⟩ : BufTy).Contents (Elt F)),
    StableHlo.nullary main_cst_31 (constant S_ .f32 0x3F800000#32),
    StableHlo.unary main_cst_31 main_v233 (broadcastInDim S128 ![] bcast_S_S128 : (⟨S_, .f32⟩ : BufTy).Contents (Elt F) → (⟨S128, .f32⟩ : BufTy).Contents (Elt F)),
    StableHlo.binary main_v232 main_v233 main_v234 (maximumf : (⟨S128, .f32⟩ : BufTy).Contents (Elt F) → (⟨S128, .f32⟩ : BufTy).Contents (Elt F) → (⟨S128, .f32⟩ : BufTy).Contents (Elt F)),
    StableHlo.unary main_v234 main_v235 (broadcastInDim S128x1 ![0] bcast_S128_S128x1_0 : (⟨S128, .f32⟩ : BufTy).Contents (Elt F) → (⟨S128x1, .f32⟩ : BufTy).Contents (Elt F)),
    StableHlo.unary main_v235 main_v236 (broadcastInDim S128x128 ![0, 1] bcast_S128x1_S128x128_0_1 : (⟨S128x1, .f32⟩ : BufTy).Contents (Elt F) → (⟨S128x128, .f32⟩ : BufTy).Contents (Elt F)),
    StableHlo.binary main_v228 main_v236 main_v237 (Host.divf : (⟨S128x128, .f32⟩ : BufTy).Contents (Elt F) → (⟨S128x128, .f32⟩ : BufTy).Contents (Elt F) → (⟨S128x128, .f32⟩ : BufTy).Contents (Elt F)),
    StableHlo.unary main_arg9 main_v238 ((transpose S128x1 [1, 0] · transposes_S1x128_S128x1_1_0) : (⟨S1x128, .f32⟩ : BufTy).Contents (Elt F) → (⟨S128x1, .f32⟩ : BufTy).Contents (Elt F)),
    StableHlo.binary main_v237 main_v238 main_v239 ((fun l r => Host.dotGeneral dot_S128x128_S128x1_S128x1_1_0_0_1_n_n none l r) : (⟨S128x128, .f32⟩ : BufTy).Contents (Elt F) → (⟨S128x1, .f32⟩ : BufTy).Contents (Elt F) → (⟨S128x1, .f32⟩ : BufTy).Contents (Elt F)),
    StableHlo.unary main_arg10 main_v240 (broadcastInDim S1x1 ![1] bcast_S1_S1x1_1 : (⟨S1, .f32⟩ : BufTy).Contents (Elt F) → (⟨S1x1, .f32⟩ : BufTy).Contents (Elt F)),
    StableHlo.unary main_v240 main_v241 (broadcastInDim S128x1 ![0, 1] bcast_S1x1_S128x1_0_1 : (⟨S1x1, .f32⟩ : BufTy).Contents (Elt F) → (⟨S128x1, .f32⟩ : BufTy).Contents (Elt F)),
    StableHlo.binary main_v239 main_v241 main_v242 (addf : (⟨S128x1, .f32⟩ : BufTy).Contents (Elt F) → (⟨S128x1, .f32⟩ : BufTy).Contents (Elt F) → (⟨S128x1, .f32⟩ : BufTy).Contents (Elt F)),
    StableHlo.reshape main_v242 main_v243 rfl shapeCasts_S128x1_S128 ]

end Cert.ReferenceIdeal.Hand

end
-- ==== Proof.RRun.lean ====
/-
  The reference program is a straight line of 284 whole-array operations: three message-passing layers
  (gather at the edges' endpoints, message map, sum at the source nodes, gated update) and the read-out.
  Run from any contents, each layer's operations leave the layer map of the arrays they read in the layer's
  result and write neither an argument nor the endpoint arrays; composed, the result array holds the network
  of the argument arrays and every argument is as launched.
-/
import proofs.«413579_j91036126806070_1_alg».proof.ReferenceIdeal
import proofs.«413579_j91036126806070_1_alg».proof.Proof.Gen.ReferenceIdeal
import proofs.«413579_j91036126806070_1_alg».proof.Proof.Spec
import proofs.«413579_j91036126806070_1_alg».proof.Proof.RDefs
import proofs.«413579_j91036126806070_1_alg».proof.Proof.RefOps
import Idealize.ShloMosaic.Lib.StableHlo.Run
import Idealize.ShloMosaic.Lib.Pipeline.Frame

set_option maxRecDepth 16384

noncomputable section

namespace Cert.ReferenceIdeal.Hand

open Cert.ReferenceIdeal Cert.ReferenceIdeal.Gen Cert.ReferenceIdeal.Facts₀ Cert.ReferenceIdeal.Facts
open Idealize.ShloMosaic Idealize.ShloMosaic.TcCoe Idealize.ShloMosaic.ValueIdx Idealize.SL.Sem Idealize.ShloMosaic.StableHlo

/-! ## The program as one line of operations -/

section Line

variable {F : FTy → Type} [FloatOps F]

/-- The whole program's operations: the three layers, then the read-out. -/
abbrev ops : List (HloOp τ sig (Elt F)) := ops0 ++ (ops1 ++ (ops2 ++ opsT))

set_option maxHeartbeats 4000000 in
/-- The program is that line, run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-! Every operation touches buffers of the core only, and determines what it writes. -/

theorem ops0_sub : (ops0 : List (HloOp τ sig (Elt F))).Forall fun op => op.bufs ⊆ tcRefs τ sig := by
  unfold ops0
  simp only [List.Forall, nullary_bufs_sub, unary_bufs_sub, binary_bufs_sub, ternary_bufs_sub, reshape_bufs_sub, and_self]

theorem ops0_fresh : ∀ op ∈ (ops0 : List (HloOp τ sig (Elt F))), op.fresh = ∅ := by
  unfold ops0
  intro _ h; (repeat (cases h with | head => rfl | tail _ h => ?_)); exact nomatch h

theorem ops1_sub : (ops1 : List (HloOp τ sig (Elt F))).Forall fun op => op.bufs ⊆ tcRefs τ sig := by
  unfold ops1
  simp only [List.Forall, nullary_bufs_sub, unary_bufs_sub, binary_bufs_sub, ternary_bufs_sub, reshape_bufs_sub, and_self]

theorem ops1_fresh : ∀ op ∈ (ops1 : List (HloOp τ sig (Elt F))), op.fresh = ∅ := by
  unfold ops1
  intro _ h; (repeat (cases h with | head => rfl | tail _ h => ?_)); exact nomatch h

theorem ops2_sub : (ops2 : List (HloOp τ sig (Elt F))).Forall fun op => op.bufs ⊆ tcRefs τ sig := by
  unfold ops2
  simp only [List.Forall, nullary_bufs_sub, unary_bufs_sub, binary_bufs_sub, ternary_bufs_sub, reshape_bufs_sub, and_self]

theorem ops2_fresh : ∀ op ∈ (ops2 : List (HloOp τ sig (Elt F))), op.fresh = ∅ := by
  unfold ops2
  intro _ h; (repeat (cases h with | head => rfl | tail _ h => ?_)); exact nomatch h

theorem opsT_sub : (opsT : List (HloOp τ sig (Elt F))).Forall fun op => op.bufs ⊆ tcRefs τ sig := by
  unfold opsT
  simp only [List.Forall, nullary_bufs_sub, unary_bufs_sub, binary_bufs_sub, ternary_bufs_sub, reshape_bufs_sub, and_self]

theorem opsT_fresh : ∀ op ∈ (opsT : List (HloOp τ sig (Elt F))), op.fresh = ∅ := by
  unfold opsT
  intro _ h; (repeat (cases h with | head => rfl | tail _ h => ?_)); exact nomatch h

theorem ops_sub : (ops : List (HloOp τ sig (Elt F))).Forall fun op => op.bufs ⊆ tcRefs τ sig :=
  forall_append ops0_sub (forall_append ops1_sub (forall_append ops2_sub opsT_sub))

theorem ops_fresh : ∀ op ∈ (ops : List (HloOp τ sig (Elt F))), op.fresh = ∅ := fun op h =>
  (List.mem_append.mp h).elim (ops0_fresh op) fun h =>
    (List.mem_append.mp h).elim (ops1_fresh op) fun h =>
      (List.mem_append.mp h).elim (ops2_fresh op) (opsT_fresh op)

end Line

/-! ## Each stretch read from any contents

The contents `V` stand for whatever the earlier stretches left; a layer's result is the layer map of the
arrays it reads, so the three layers compose without any layer's term being opened inside the next. -/

set_option maxHeartbeats 4000000 in
/-- Layer 0: the endpoint arrays are cut out of the edge array, and the layer map is applied to the node
    features with layer 0's parameters. -/
theorem read_0 (V : Valuation τ sig (Elt Ideal)) :
    after (ops0 (F := Ideal)) V (Proc.devRef .tc main_v77)
      = layerHostR (V (Proc.devRef .tc main_arg0)) (rowR (V (Proc.devRef .tc main_arg1))) (colR (V (Proc.devRef .tc main_arg1)))
          (wt0R (V (Proc.devRef .tc main_arg3))) (b0R (V (Proc.devRef .tc main_arg4)))
          (wih0R (V (Proc.devRef .tc main_arg5))) (wih0R (V (Proc.devRef .tc main_arg6)))
          (bih0R (V (Proc.devRef .tc main_arg7))) (bih0R (V (Proc.devRef .tc main_arg8))) := by
  unfold ops0
  after_results_simp
  rfl

/-- Layer 0 leaves the edges' source nodes in their array. -/
theorem row_0 (V : Valuation τ sig (Elt Ideal)) :
    after (ops0 (F := Ideal)) V (Proc.devRef .tc main_v1) = rowR (V (Proc.devRef .tc main_arg1)) := by
  unfold ops0
  after_results_simp
  rfl

/-- Layer 0 leaves the edges' target nodes in their array. -/
theorem col_0 (V : Valuation τ sig (Elt Ideal)) :
    after (ops0 (F := Ideal)) V (Proc.devRef .tc main_v3) = colR (V (Proc.devRef .tc main_arg1)) := by
  unfold ops0
  after_results_simp
  rfl

set_option maxHeartbeats 4000000 in
/-- Layer 1: the layer map of the features, the endpoint arrays and layer 1's parameters. -/
theorem read_1 (V : Valuation τ sig (Elt Ideal)) :
    after (ops1 (F := Ideal)) V (Proc.devRef .tc main_v151)
      = layerHostR (V (Proc.devRef .tc main_v77)) (V (Proc.devRef .tc main_v1)) (V (Proc.devRef .tc main_v3))
          (wt1R (V (Proc.devRef .tc main_arg3))) (b1R (V (Proc.devRef .tc main_arg4)))
          (wih1R (V (Proc.devRef .tc main_arg5))) (wih1R (V (Proc.devRef .tc main_arg6)))
          (bih1R (V (Proc.devRef .tc main_arg7))) (bih1R (V (Proc.devRef .tc main_arg8))) := by
  unfold ops1
  after_results_simp
  rfl

set_option maxHeartbeats 4000000 in
/-- Layer 2: the layer map of the features, the endpoint arrays and layer 2's parameters. -/
theorem read_2 (V : Valuation τ sig (Elt Ideal)) :
    after (ops2 (F := Ideal)) V (Proc.devRef .tc main_v225)
      = layerHostR (V (Proc.devRef .tc main_v151)) (V (Proc.devRef .tc main_v1)) (V (Proc.devRef .tc main_v3))
          (wt2R (V (Proc.devRef .tc main_arg3))) (b2R (V (Proc.devRef .tc main_arg4)))
          (wih2R (V (Proc.devRef .tc main_arg5))) (wih2R (V (Proc.devRef .tc main_arg6)))
          (bih2R (V (Proc.devRef .tc main_arg7))) (bih2R (V (Proc.devRef .tc main_arg8))) := by
  unfold ops2
  after_results_simp
  rfl

set_option maxHeartbeats 4000000 in
/-- The read-out of the features, the graph assignment and the read-out's weights and bias. -/
theorem read_T (V : Valuation τ sig (Elt Ideal)) :
    after (opsT (F := Ideal)) V (Proc.devRef .tc main_v243)
      = tailR (V (Proc.devRef .tc main_v225)) (V (Proc.devRef .tc main_arg2)) (V (Proc.devRef .tc main_arg9)) (V (Proc.devRef .tc main_arg10)) := by
  unfold opsT
  after_results_simp
  rfl

/-! ## What a stretch does not write, it keeps -/

set_option maxHeartbeats 4000000 in
/-- Layer 0 writes no argument. -/
theorem kept_0 (r : Ref sig .tc) (hr : r ∈ [main_arg0, main_arg1, main_arg2, main_arg3, main_arg4, main_arg5, main_arg6, main_arg7, main_arg8, main_arg9, main_arg10] := by decide)
    (V : Valuation τ sig (Elt Ideal)) :
    after (ops0 (F := Ideal)) V (Proc.devRef .tc r) = V (Proc.devRef .tc r) := by
  simp only [List.mem_cons, List.not_mem_nil, or_false] at hr
  rcases hr with rfl | rfl | rfl | rfl | rfl | rfl | rfl | rfl | rfl | rfl | rfl
  all_goals (unfold ops0; after_results_simp)

set_option maxHeartbeats 4000000 in
/-- Layer 1 writes no argument and neither endpoint array. -/
theorem kept_1 (r : Ref sig .tc) (hr : r ∈ [main_arg0, main_arg1, main_arg2, main_arg3, main_arg4, main_arg5, main_arg6, main_arg7, main_arg8, main_arg9, main_arg10, main_v1, main_v3] := by decide)
    (V : Valuation τ sig (Elt Ideal)) :
    after (ops1 (F := Ideal)) V (Proc.devRef .tc r) = V (Proc.devRef .tc r) := by
  simp only [List.mem_cons, List.not_mem_nil, or_false] at hr
  rcases hr with rfl | rfl | rfl | rfl | rfl | rfl | rfl | rfl | rfl | rfl | rfl | rfl | rfl
  all_goals (unfold ops1; after_results_simp)

set_option maxHeartbeats 4000000 in
/-- Layer 2 writes no argument. -/
theorem kept_2 (r : Ref sig .tc) (hr : r ∈ [main_arg0, main_arg1, main_arg2, main_arg3, main_arg4, main_arg5, main_arg6, main_arg7, main_arg8, main_arg9, main_arg10] := by decide)
    (V : Valuation τ sig (Elt Ideal)) :
    after (ops2 (F := Ideal)) V (Proc.devRef .tc r) = V (Proc.devRef .tc r) := by
  simp only [List.mem_cons, List.not_mem_nil, or_false] at hr
  rcases hr with rfl | rfl | rfl | rfl | rfl | rfl | rfl | rfl | rfl | rfl | rfl
  all_goals (unfold ops2; after_results_simp)

set_option maxHeartbeats 4000000 in
/-- The read-out writes no argument. -/
theorem kept_T (r : Ref sig .tc) (hr : r ∈ [main_arg0, main_arg1, main_arg2, main_arg3, main_arg4, main_arg5, main_arg6, main_arg7, main_arg8, main_arg9, main_arg10] := by decide)
    (V : Valuation τ sig (Elt Ideal)) :
    after (opsT (F := Ideal)) V (Proc.devRef .tc r) = V (Proc.devRef .tc r) := by
  simp only [List.mem_cons, List.not_mem_nil, or_false] at hr
  rcases hr with rfl | rfl | rfl | rfl | rfl | rfl | rfl | rfl | rfl | rfl | rfl
  all_goals (unfold opsT; after_results_simp)

/-! ## The whole line -/

/-- No operation writes an argument. -/
theorem kept_all (r : Ref sig .tc) (hr : r ∈ [main_arg0, main_arg1, main_arg2, main_arg3, main_arg4, main_arg5, main_arg6, main_arg7, main_arg8, main_arg9, main_arg10] := by decide)
    (V : Valuation τ sig (Elt Ideal)) :
    after (ops (F := Ideal)) V (Proc.devRef .tc r) = V (Proc.devRef .tc r) := by
  rw [StableHlo.after_append, StableHlo.after_append, StableHlo.after_append,
    kept_T r hr, kept_2 r hr, kept_1 r (List.mem_append_left [main_v1, main_v3] hr), kept_0 r hr]

/-- From any contents the line leaves the network of the argument arrays in the result array: the read-out
    of layer 2 of layer 1 of layer 0, each layer reading the endpoint arrays layer 0 cut out and its own
    parameters out of arguments no stretch has written. -/
theorem read_net (V : Valuation τ sig (Elt Ideal)) :
    after (ops (F := Ideal)) V (Proc.devRef .tc main_v243)
      = netHostR (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) := by
  unfold netHostR
  rw [StableHlo.after_append, StableHlo.after_append, StableHlo.after_append, read_T,
    kept_2 main_arg2, kept_2 main_arg9, kept_2 main_arg10, read_2,
    kept_1 main_arg2, kept_1 main_arg9, kept_1 main_arg10, kept_1 main_v1, kept_1 main_v3,
    kept_1 main_arg3, kept_1 main_arg4, kept_1 main_arg5, kept_1 main_arg6, kept_1 main_arg7, kept_1 main_arg8, read_1,
    kept_0 main_arg2, kept_0 main_arg9, kept_0 main_arg10,
    kept_0 main_arg3, kept_0 main_arg4, kept_0 main_arg5, kept_0 main_arg6, kept_0 main_arg7, kept_0 main_arg8,
    row_0, col_0, read_0]

/-- Every weakly fair execution of the reference terminates with the network of the launch's argument arrays
    in its result and the arguments as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v243)
          = netHostR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v243).trans (read_net _),
      (h c main_arg0).trans (kept_all main_arg0 (by decide) _),
      (h c main_arg1).trans (kept_all main_arg1 (by decide) _),
      (h c main_arg2).trans (kept_all main_arg2 (by decide) _),
      (h c main_arg3).trans (kept_all main_arg3 (by decide) _),
      (h c main_arg4).trans (kept_all main_arg4 (by decide) _),
      (h c main_arg5).trans (kept_all main_arg5 (by decide) _),
      (h c main_arg6).trans (kept_all main_arg6 (by decide) _),
      (h c main_arg7).trans (kept_all main_arg7 (by decide) _),
      (h c main_arg8).trans (kept_all main_arg8 (by decide) _),
      (h c main_arg9).trans (kept_all main_arg9 (by decide) _),
      (h c main_arg10).trans (kept_all main_arg10 (by decide) _)⟩)
    (run_seq scopedRefs_eq scopedSems_eq defs main (fun _ => ops) main_eq (fun _ => ops_sub) m ρ (fun _ => ops_fresh))

end Cert.ReferenceIdeal.Hand

end
-- ==== Proof.RHostEq.lean ====
/-
  The reference's whole-array spellings are the index-by-index functions of the specification. A whole
  product with one contracted axis, read at (row, column), is the sum over the contracted coordinate of
  the products of the two entries; a bias broadcast over the rows, read at (row, column), is the bias at
  the column; a band of the 384 gate columns cut out as a slice is the column shifted by the band's
  offset; and 1 / (1 + e⁻ᵛ) entry by entry is the logistic function. Entry by entry, the rectified
  affine map and the gated update are then the specification's formulas.
-/
import proofs.«413579_j91036126806070_1_alg».proof.ReferenceIdeal
import proofs.«413579_j91036126806070_1_alg».proof.Proof.Gen.ReferenceIdeal
import proofs.«413579_j91036126806070_1_alg».proof.Proof.Spec
import proofs.«413579_j91036126806070_1_alg».proof.Proof.RDefs
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.ReferenceIdeal.Hand

open Cert.ReferenceIdeal Cert.ReferenceIdeal.Gen Cert.ReferenceIdeal.Facts₀ Cert.ReferenceIdeal.Facts
open Idealize.ShloMosaic Idealize.ShloMosaic.TcCoe Idealize.ShloMosaic.ValueIdx Idealize.SL.Sem

/-! ## The message map: one whole product 640000×256 · 256×128 -/

/-- The left operand's row coordinate is the result's row. -/
theorem lhsM_0 (i : S640000x128.Idx) (q : dot_S640000x256_S256x128_S640000x128_1_0_0_1_n_n.contr.Idx) :
    (dot_S640000x256_S256x128_S640000x128_1_0_0_1_n_n.lhsIdx i q 0).val = (i 0).val := by
  unfold DotDims.lhsIdx
  rw [dif_neg (show ¬(0 : Fin S640000x256.rank) ∈ dot_S640000x256_S256x128_S640000x128_1_0_0_1_n_n.lhsBatch by decide),
    dif_pos (show (0 : Fin S640000x256.rank) ∈ dot_S640000x256_S256x128_S640000x128_1_0_0_1_n_n.lhsNonContracting by decide)]
  rfl
/-- The left operand's column coordinate is the contracted coordinate. -/
theorem lhsM_1 (i : S640000x128.Idx) (q : dot_S640000x256_S256x128_S640000x128_1_0_0_1_n_n.contr.Idx) :
    (dot_S640000x256_S256x128_S640000x128_1_0_0_1_n_n.lhsIdx i q 1).val = (q ⟨0, by decide⟩).val :=
  dot_S640000x256_S256x128_S640000x128_1_0_0_1_n_n.lhsIdx_val_of_single rfl i q
/-- The right operand's row coordinate is the contracted coordinate. -/
theorem rhsM_0 (i : S640000x128.Idx) (q : dot_S640000x256_S256x128_S640000x128_1_0_0_1_n_n.contr.Idx) :
    (dot_S640000x256_S256x128_S640000x128_1_0_0_1_n_n.rhsIdx i q 0).val = (q ⟨0, by decide⟩).val :=
  dot_S640000x256_S256x128_S640000x128_1_0_0_1_n_n.rhsIdx_val_of_single rfl i q
/-- The right operand's column coordinate is the result's column. -/
theorem rhsM_1 (i : S640000x128.Idx) (q : dot_S640000x256_S256x128_S640000x128_1_0_0_1_n_n.contr.Idx) :
    (dot_S640000x256_S256x128_S640000x128_1_0_0_1_n_n.rhsIdx i q 1).val = (i 1).val := by
  unfold DotDims.rhsIdx
  rw [dif_neg (show ¬(1 : Fin S256x128.rank) ∈ dot_S640000x256_S256x128_S640000x128_1_0_0_1_n_n.rhsBatch by decide),
    dif_pos (show (1 : Fin S256x128.rank) ∈ dot_S640000x256_S256x128_S640000x128_1_0_0_1_n_n.rhsNonContracting by decide)]
  rfl

/-- The whole product at (row, column): the sum over the contracted coordinate of the products. -/
theorem dotM_apply (l : FVec Ideal S640000x256 .f32) (r : FVec Ideal S256x128 .f32) (e : Fin 640000) (d : Fin 128) :
    Host.dotGeneral dot_S640000x256_S256x128_S640000x128_1_0_0_1_n_n none l r (ix2 e d) = ∑ k : Fin 256, l (ix2 e k) * r (ix2 k d) := by
  simp only [Host.dotGeneral]
  rw [Ideal.dotGeneral_apply, ← Equiv.sum_comp (ValueIdx.contrEquiv1 dot_S640000x256_S256x128_S640000x128_1_0_0_1_n_n 256 rfl rfl).symm]
  refine Finset.sum_congr rfl fun k _ => ?_
  have hk := ValueIdx.contrEquiv1_symm_val dot_S640000x256_S256x128_S640000x128_1_0_0_1_n_n 256 rfl rfl k
  have el : dot_S640000x256_S256x128_S640000x128_1_0_0_1_n_n.lhsIdx (ix2 e d) ((ValueIdx.contrEquiv1 dot_S640000x256_S256x128_S640000x128_1_0_0_1_n_n 256 rfl rfl).symm k) = ix2 e k :=
    funext fun a => Fin.ext (by
      match a with
      | ⟨0, _⟩ => exact lhsM_0 _ _
      | ⟨1, _⟩ => exact (lhsM_1 _ _).trans hk)
  have er : dot_S640000x256_S256x128_S640000x128_1_0_0_1_n_n.rhsIdx (ix2 e d) ((ValueIdx.contrEquiv1 dot_S640000x256_S256x128_S640000x128_1_0_0_1_n_n 256 rfl rfl).symm k) = ix2 k d :=
    funext fun a => Fin.ext (by
      match a with
      | ⟨0, _⟩ => exact (rhsM_0 _ _).trans hk
      | ⟨1, _⟩ => exact rhsM_1 _ _)
  rw [el, er]

/-- The bias as a one-row matrix, then broadcast over the edges, read at (edge, column): the bias at the column. -/
theorem biasM_apply (b : FVec Ideal S128 .f32) (e : Fin 640000) (d : Fin 128) :
    broadcastInDim S640000x128 ![0, 1] Facts₀.bcast_S1x128_S640000x128_0_1 (broadcastInDim S1x128 ![1] Facts₀.bcast_S128_S1x128_1 b) (ix2 e d)
      = b (ix1 d) := by
  refine (broadcastInDim_apply _ Facts₀.bcast_S1x128_S640000x128_0_1 _ (ix2 e d) (ix2 (0 : Fin 1) d) (fun a => match a with
    | ⟨0, _⟩ => by show 0 = if (1 : Nat) = 1 then 0 else e.val; rw [if_pos rfl]
    | ⟨1, _⟩ => by show d.val = if (128 : Nat) = 1 then 0 else d.val; rw [if_neg (by decide)])).trans ?_
  exact broadcastInDim_apply _ Facts₀.bcast_S128_S1x128_1 b (ix2 (0 : Fin 1) d) (ix1 d) (fun a => match a with
    | ⟨0, _⟩ => by show d.val = if (128 : Nat) = 1 then 0 else d.val; rw [if_neg (by decide)])

/-- The broadcast zero read anywhere is the zero literal. -/
theorem zeroM_apply (i : S640000x128.Idx) :
    broadcastInDim S640000x128 ![] Facts₀.bcast_S_S640000x128 (constant (F := Ideal) S_ .f32 0x00000000#32) i
      = Ideal.ofBits .f32 0x00000000#32 :=
  broadcastInDim_apply _ Facts₀.bcast_S_S640000x128 (constant (F := Ideal) S_ .f32 0x00000000#32) i (fun a => a.elim0) (fun a => a.elim0)

theorem msgHostR_eq (cat : FVec Ideal S640000x256 .f32) (wt : FVec Ideal S256x128 .f32) (b : FVec Ideal S128 .f32) :
    msgHostR cat wt b = Cert.GnnSpec.msgG cat wt b := by
  funext i
  obtain ⟨e, d, rfl⟩ : ∃ (e : Fin 640000) (d : Fin 128), i = ix2 e d := ⟨i 0, i 1, eq_ix2 i⟩
  rw [Cert.GnnSpec.msgG_ix2]
  unfold msgHostR Cert.GnnSpec.msgE
  rw [maximumf_apply, addf_apply, dotM_apply, biasM_apply, zeroM_apply]

/-! ## The gates: one whole product 20000×128 · 128×384 -/

/-- The left operand's row coordinate is the result's row. -/
theorem lhsG_0 (i : S20000x384.Idx) (q : dot_S20000x128_S128x384_S20000x384_1_0_0_1_n_n.contr.Idx) :
    (dot_S20000x128_S128x384_S20000x384_1_0_0_1_n_n.lhsIdx i q 0).val = (i 0).val := by
  unfold DotDims.lhsIdx
  rw [dif_neg (show ¬(0 : Fin S20000x128.rank) ∈ dot_S20000x128_S128x384_S20000x384_1_0_0_1_n_n.lhsBatch by decide),
    dif_pos (show (0 : Fin S20000x128.rank) ∈ dot_S20000x128_S128x384_S20000x384_1_0_0_1_n_n.lhsNonContracting by decide)]
  rfl
/-- The left operand's column coordinate is the contracted coordinate. -/
theorem lhsG_1 (i : S20000x384.Idx) (q : dot_S20000x128_S128x384_S20000x384_1_0_0_1_n_n.contr.Idx) :
    (dot_S20000x128_S128x384_S20000x384_1_0_0_1_n_n.lhsIdx i q 1).val = (q ⟨0, by decide⟩).val :=
  dot_S20000x128_S128x384_S20000x384_1_0_0_1_n_n.lhsIdx_val_of_single rfl i q
/-- The right operand's row coordinate is the contracted coordinate. -/
theorem rhsG_0 (i : S20000x384.Idx) (q : dot_S20000x128_S128x384_S20000x384_1_0_0_1_n_n.contr.Idx) :
    (dot_S20000x128_S128x384_S20000x384_1_0_0_1_n_n.rhsIdx i q 0).val = (q ⟨0, by decide⟩).val :=
  dot_S20000x128_S128x384_S20000x384_1_0_0_1_n_n.rhsIdx_val_of_single rfl i q
/-- The right operand's column coordinate is the result's column. -/
theorem rhsG_1 (i : S20000x384.Idx) (q : dot_S20000x128_S128x384_S20000x384_1_0_0_1_n_n.contr.Idx) :
    (dot_S20000x128_S128x384_S20000x384_1_0_0_1_n_n.rhsIdx i q 1).val = (i 1).val := by
  unfold DotDims.rhsIdx
  rw [dif_neg (show ¬(1 : Fin S128x384.rank) ∈ dot_S20000x128_S128x384_S20000x384_1_0_0_1_n_n.rhsBatch by decide),
    dif_pos (show (1 : Fin S128x384.rank) ∈ dot_S20000x128_S128x384_S20000x384_1_0_0_1_n_n.rhsNonContracting by decide)]
  rfl

/-- The whole product at (row, column): the sum over the contracted coordinate of the products. -/
theorem dotG_apply (l : FVec Ideal S20000x128 .f32) (r : FVec Ideal S128x384 .f32) (e : Fin 20000) (d : Fin 384) :
    Host.dotGeneral dot_S20000x128_S128x384_S20000x384_1_0_0_1_n_n none l r (ix2 e d) = ∑ k : Fin 128, l (ix2 e k) * r (ix2 k d) := by
  simp only [Host.dotGeneral]
  rw [Ideal.dotGeneral_apply, ← Equiv.sum_comp (ValueIdx.contrEquiv1 dot_S20000x128_S128x384_S20000x384_1_0_0_1_n_n 128 rfl rfl).symm]
  refine Finset.sum_congr rfl fun k _ => ?_
  have hk := ValueIdx.contrEquiv1_symm_val dot_S20000x128_S128x384_S20000x384_1_0_0_1_n_n 128 rfl rfl k
  have el : dot_S20000x128_S128x384_S20000x384_1_0_0_1_n_n.lhsIdx (ix2 e d) ((ValueIdx.contrEquiv1 dot_S20000x128_S128x384_S20000x384_1_0_0_1_n_n 128 rfl rfl).symm k) = ix2 e k :=
    funext fun a => Fin.ext (by
      match a with
      | ⟨0, _⟩ => exact lhsG_0 _ _
      | ⟨1, _⟩ => exact (lhsG_1 _ _).trans hk)
  have er : dot_S20000x128_S128x384_S20000x384_1_0_0_1_n_n.rhsIdx (ix2 e d) ((ValueIdx.contrEquiv1 dot_S20000x128_S128x384_S20000x384_1_0_0_1_n_n 128 rfl rfl).symm k) = ix2 k d :=
    funext fun a => Fin.ext (by
      match a with
      | ⟨0, _⟩ => exact (rhsG_0 _ _).trans hk
      | ⟨1, _⟩ => exact rhsG_1 _ _)
  rw [el, er]

/-- The bias as a one-row matrix, then broadcast over the nodes, read at (node, column): the bias at the column. -/
theorem biasG_apply (bias : FVec Ideal S384 .f32) (n : Fin 20000) (j : Fin 384) :
    broadcastInDim S20000x384 ![0, 1] Facts₀.bcast_S1x384_S20000x384_0_1 (broadcastInDim S1x384 ![1] Facts₀.bcast_S384_S1x384_1 bias) (ix2 n j)
      = bias (ix1 j) := by
  refine (broadcastInDim_apply _ Facts₀.bcast_S1x384_S20000x384_0_1 _ (ix2 n j) (ix2 (0 : Fin 1) j) (fun a => match a with
    | ⟨0, _⟩ => by show 0 = if (1 : Nat) = 1 then 0 else n.val; rw [if_pos rfl]
    | ⟨1, _⟩ => by show j.val = if (384 : Nat) = 1 then 0 else j.val; rw [if_neg (by decide)])).trans ?_
  exact broadcastInDim_apply _ Facts₀.bcast_S384_S1x384_1 bias (ix2 (0 : Fin 1) j) (ix1 j) (fun a => match a with
    | ⟨0, _⟩ => by show j.val = if (384 : Nat) = 1 then 0 else j.val; rw [if_neg (by decide)])

/-- The affine map 128 → 384 as one whole product plus the broadcast bias, read at (node, column). -/
theorem gatesHostR_apply (a : FVec Ideal S20000x128 .f32) (W : FVec Ideal S128x384 .f32) (bias : FVec Ideal S384 .f32)
    (n : Fin 20000) (j : Fin 384) :
    gatesHostR a W bias (ix2 n j) = Cert.GnnSpec.gate a W bias n j := by
  unfold gatesHostR Cert.GnnSpec.gate
  rw [addf_apply, dotG_apply, biasG_apply]

/-! ## The three bands of the gate columns -/

/-- Band 0 cut out of the 384 gate columns, read at (node, column): column 0 + d of the whole. -/
theorem band0_apply (g : FVec Ideal S20000x384 .f32) (n : Fin 20000) (d : Fin 128) :
    extractStridedSlice S20000x128 ![0, 0] g Facts₀.slices_S20000x384_S20000x128_0_0 (ix2 n d)
      = g (ix2 n (Cert.GnnSpec.band 0 (by omega) d)) :=
  extractStridedSlice_apply ![0, 0] g Facts₀.slices_S20000x384_S20000x128_0_0 (ix2 n d)
    (ix2 n (Cert.GnnSpec.band 0 (by omega) d)) (fun a => match a with
    | ⟨0, _⟩ => by show n.val = 0 + n.val; omega
    | ⟨1, _⟩ => by show 0 * 128 + d.val = 0 + d.val; omega)

/-- Band 1 cut out of the 384 gate columns, read at (node, column): column 128 + d of the whole. -/
theorem band1_apply (g : FVec Ideal S20000x384 .f32) (n : Fin 20000) (d : Fin 128) :
    extractStridedSlice S20000x128 ![0, 128] g Facts₀.slices_S20000x384_S20000x128_0_128 (ix2 n d)
      = g (ix2 n (Cert.GnnSpec.band 1 (by omega) d)) :=
  extractStridedSlice_apply ![0, 128] g Facts₀.slices_S20000x384_S20000x128_0_128 (ix2 n d)
    (ix2 n (Cert.GnnSpec.band 1 (by omega) d)) (fun a => match a with
    | ⟨0, _⟩ => by show n.val = 0 + n.val; omega
    | ⟨1, _⟩ => by show 1 * 128 + d.val = 128 + d.val; omega)

/-- Band 2 cut out of the 384 gate columns, read at (node, column): column 256 + d of the whole. -/
theorem band2_apply (g : FVec Ideal S20000x384 .f32) (n : Fin 20000) (d : Fin 128) :
    extractStridedSlice S20000x128 ![0, 256] g Facts₀.slices_S20000x384_S20000x128_0_256 (ix2 n d)
      = g (ix2 n (Cert.GnnSpec.band 2 (by omega) d)) :=
  extractStridedSlice_apply ![0, 256] g Facts₀.slices_S20000x384_S20000x128_0_256 (ix2 n d)
    (ix2 n (Cert.GnnSpec.band 2 (by omega) d)) (fun a => match a with
    | ⟨0, _⟩ => by show n.val = 0 + n.val; omega
    | ⟨1, _⟩ => by show 2 * 128 + d.val = 256 + d.val; omega)

/-! ## The logistic function and the hyperbolic tangent, entry by entry -/

/-- The array of ones read anywhere is the literal of 1. -/
theorem onesR_apply (i : S20000x128.Idx) : onesR i = Ideal.ofBits .f32 0x3F800000#32 := by
  unfold onesR
  exact broadcastInDim_apply _ Facts₀.bcast_S_S20000x128 (constant (F := Ideal) S_ .f32 0x3F800000#32) i (fun a => a.elim0)
    (fun a => a.elim0)

/-- 1 / (1 + e⁻ᵛ) entry by entry is the logistic function of the entry. -/
theorem sigHostR_apply (v : FVec Ideal S20000x128 .f32) (i : S20000x128.Idx) : sigHostR v i = Ideal.logistic (v i) := by
  show Ideal.div (onesR i) (onesR i + Ideal.exp (-(v i))) = Ideal.div 1 (1 + Ideal.exp (-(v i)))
  rw [onesR_apply, Ideal.ofBits_one_f32]

/-- The hyperbolic tangent of an array reads entry by entry. -/
theorem tanhHost_apply (v : FVec Ideal S20000x128 .f32) (i : S20000x128.Idx) : Host.tanh v i = Ideal.tanh (v i) := rfl

/-! ## The gated update -/

theorem gruHostR_eq (agg x : FVec Ideal S20000x128 .f32) (wih whh : FVec Ideal S128x384 .f32) (bih bhh : FVec Ideal S384 .f32) :
    gruHostR agg x wih whh bih bhh = Cert.GnnSpec.gruG agg x wih whh bih bhh := by
  funext i
  obtain ⟨n, d, rfl⟩ : ∃ (n : Fin 20000) (d : Fin 128), i = ix2 n d := ⟨i 0, i 1, eq_ix2 i⟩
  rw [Cert.GnnSpec.gruG_ix2]
  unfold gruHostR Cert.GnnSpec.gruE
  have hgi : ∀ j, gatesHostR agg wih bih (ix2 n j) = Cert.GnnSpec.gate agg wih bih n j := gatesHostR_apply agg wih bih n
  have hgh : ∀ j, gatesHostR x whh bhh (ix2 n j) = Cert.GnnSpec.gate x whh bhh n j := gatesHostR_apply x whh bhh n
  generalize gatesHostR agg wih bih = gi at hgi ⊢
  generalize gatesHostR x whh bhh = gh at hgh ⊢
  simp only [addf_apply, mulf_apply, subf_apply, sigHostR_apply, tanhHost_apply, band0_apply, band1_apply, band2_apply,
    onesR_apply, hgi, hgh]

theorem layerHostR_eq (x : FVec Ideal S20000x128 .f32) (row col : IVec S640000 32) (wt : FVec Ideal S256x128 .f32)
    (b : FVec Ideal S128 .f32) (wih whh : FVec Ideal S128x384 .f32) (bih bhh : FVec Ideal S384 .f32) :
    layerHostR x row col wt b wih whh bih bhh = layerR x row col wt b wih whh bih bhh := by
  unfold layerHostR layerR
  rw [msgHostR_eq, gruHostR_eq]

theorem netHostR_eq (a0 : FVec Ideal S20000x128 .f32) (a1 : IVec S2x640000 32) (a2 : IVec S20000 32) (a3 : FVec Ideal S3x128x256 .f32)
    (a4 : FVec Ideal S3x128 .f32) (a5 a6 : FVec Ideal S3x384x128 .f32) (a7 a8 : FVec Ideal S3x384 .f32)
    (a9 : FVec Ideal S1x128 .f32) (a10 : FVec Ideal S1 .f32) :
    netHostR a0 a1 a2 a3 a4 a5 a6 a7 a8 a9 a10 = netR a0 a1 a2 a3 a4 a5 a6 a7 a8 a9 a10 := by
  unfold netHostR netR
  simp only [layerHostR_eq]

end Cert.ReferenceIdeal.Hand

end
-- ==== Proof.NetEq.lean ====
/-
  With every edge endpoint a node, the two programs' networks are one function. The programs differ in
  one place only: the kernel program's row gather tests each (wrapped) index against 0 … 19999 and
  writes a not-a-number row where the test fails, the reference's gathers alone. Under the range
  hypothesis the wrap is the identity and the test is passed at every row, so the selection returns
  the gathered row; every other piece of the two host sides is the same term.
-/
import proofs.«413579_j91036126806070_1_alg».proof.Proof.Spec
import proofs.«413579_j91036126806070_1_alg».proof.Proof.KDefs
import proofs.«413579_j91036126806070_1_alg».proof.Proof.RDefs
import Idealize.ShloMosaic.Lib.ReduceAll

set_option maxRecDepth 16384

noncomputable section

namespace Cert.Gnn

open Idealize.ShloMosaic Idealize.ShloMosaic.TcCoe Idealize.ShloMosaic.ValueIdx Idealize.SL.Sem
open Cert.KernelIdeal.Hand Cert.ReferenceIdeal.Hand

/-! ## The two programs' twin definitions are the same terms -/

theorem gatherDims_eq :
    Cert.KernelIdeal.gather_S20000x128_S640000x1_S640000x128_1_0_n_n_0_1_1128
      = Cert.ReferenceIdeal.gather_S20000x128_S640000x1_S640000x128_1_0_n_n_0_1_1128 := rfl

theorem idx1_eq (idx : IVec ⟨1, ![640000]⟩ 32) : idx1K idx = idx1R idx := rfl

/-! ## Words: a conjunction of ones folds to one -/

/-- A left fold by "and" from 1 over one-bit words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-! ## The wrap and the range test under the range hypothesis -/

/-- A nonnegative index is not wrapped. -/
theorem wrapK_apply (idx : IVec ⟨1, ![640000]⟩ 32)
    (h : ∀ e, 0 ≤ (idx e).toInt ∧ (idx e).toInt < 20000) (e : (⟨1, ![640000]⟩ : Shape).Idx) :
    wrapK idx e = idx e := by
  have hc : ¬ IntOp.cmpi .slt (idx e) 0#32 = 1#1 := by
    rw [IntOp.cmpi_slt, show (0#32 : BitVec 32).toInt = 0 from by decide]
    exact not_lt.2 (h e).1
  show Scalar.select (IntOp.cmpi .slt (idx e) 0#32) _ (idx e) = idx e
  exact if_neg hc

/-- Every entry of the index column is one of the given indices. -/
theorem idx1K_apply (idx : IVec ⟨1, ![640000]⟩ 32)
    (h : ∀ e, 0 ≤ (idx e).toInt ∧ (idx e).toInt < 20000) (i : (⟨2, ![640000, 1]⟩ : Shape).Idx) :
    0 ≤ (idx1K idx i).toInt ∧ (idx1K idx i).toInt < 20000 := by
  show 0 ≤ (wrapK idx _).toInt ∧ (wrapK idx _).toInt < 20000
  rw [wrapK_apply idx h]
  exact h _

/-- The range test is passed at every row. -/
theorem inRangeK_apply (idx : IVec ⟨1, ![640000]⟩ 32)
    (h : ∀ e, 0 ≤ (idx e).toInt ∧ (idx e).toInt < 20000) (e : (⟨1, ![640000]⟩ : Shape).Idx) :
    inRangeK idx e = 1#1 := by
  unfold inRangeK
  rw [Host.reduce_eq_foldl]
  refine foldl_andi_ones _ _ (fun i _ => ?_)
  show IntOp.andi (IntOp.cmpi .sge (idx1K idx i) 0#32) (IntOp.cmpi .sle (idx1K idx i) 19999#32) = 1#1
  obtain ⟨h0, h1⟩ := idx1K_apply idx h i
  rw [IntOp.andi_eq_one, IntOp.cmpi_sge, IntOp.cmpi_sle, show (0#32 : BitVec 32).toInt = 0 from by decide,
    show (19999#32 : BitVec 32).toInt = 19999 from by decide]
  exact ⟨h0, by omega⟩

theorem take_eq (x : FVec Ideal ⟨2, ![20000, 128]⟩ .f32) (idx : IVec ⟨1, ![640000]⟩ 32)
    (h : ∀ e, 0 ≤ (idx e).toInt ∧ (idx e).toInt < 20000) :
    Cert.KernelIdeal.Hand.takeK x idx = Cert.ReferenceIdeal.Hand.takeR x idx := by
  funext i
  unfold Cert.KernelIdeal.Hand.takeK Cert.ReferenceIdeal.Hand.takeR
  rw [select_apply]
  have hm : broadcastInDim Cert.KernelIdeal.S640000x128 ![0] Cert.KernelIdeal.Facts₀.bcast_S640000_S640000x128_0 (inRangeK idx) i = 1#1 :=
    inRangeK_apply idx h _
  rw [hm, select_one, gatherDims_eq, idx1_eq]

/-! ## The layers and the network -/

/-- The source endpoints are entries of the edge array … -/
theorem rowK_range (a1 : IVec ⟨2, ![2, 640000]⟩ 32) (h : Cert.GnnSpec.InRange a1) (e : (⟨1, ![640000]⟩ : Shape).Idx) :
    0 ≤ (rowK a1 e).toInt ∧ (rowK a1 e).toInt < 20000 := h _

/-- … and so are the target endpoints. -/
theorem colK_range (a1 : IVec ⟨2, ![2, 640000]⟩ 32) (h : Cert.GnnSpec.InRange a1) (e : (⟨1, ![640000]⟩ : Shape).Idx) :
    0 ≤ (colK a1 e).toInt ∧ (colK a1 e).toInt < 20000 := h _

theorem row_eq (a1 : IVec ⟨2, ![2, 640000]⟩ 32) : rowK a1 = rowR a1 := rfl
theorem col_eq (a1 : IVec ⟨2, ![2, 640000]⟩ 32) : colK a1 = colR a1 := rfl
theorem wt0_eq (a3 : FVec Ideal ⟨3, ![3, 128, 256]⟩ .f32) : wt0K a3 = wt0R a3 := rfl
theorem wt1_eq (a3 : FVec Ideal ⟨3, ![3, 128, 256]⟩ .f32) : wt1K a3 = wt1R a3 := rfl
theorem wt2_eq (a3 : FVec Ideal ⟨3, ![3, 128, 256]⟩ .f32) : wt2K a3 = wt2R a3 := rfl
theorem b0_eq (a4 : FVec Ideal ⟨2, ![3, 128]⟩ .f32) : b0K a4 = b0R a4 := rfl
theorem b1_eq (a4 : FVec Ideal ⟨2, ![3, 128]⟩ .f32) : b1K a4 = b1R a4 := rfl
theorem b2_eq (a4 : FVec Ideal ⟨2, ![3, 128]⟩ .f32) : b2K a4 = b2R a4 := rfl
theorem wih0_eq (a5 : FVec Ideal ⟨3, ![3, 384, 128]⟩ .f32) : wih0K a5 = wih0R a5 := rfl
theorem wih1_eq (a5 : FVec Ideal ⟨3, ![3, 384, 128]⟩ .f32) : wih1K a5 = wih1R a5 := rfl
theorem wih2_eq (a5 : FVec Ideal ⟨3, ![3, 384, 128]⟩ .f32) : wih2K a5 = wih2R a5 := rfl
theorem bih0_eq (a7 : FVec Ideal ⟨2, ![3, 384]⟩ .f32) : bih0K a7 = bih0R a7 := rfl
theorem bih1_eq (a7 : FVec Ideal ⟨2, ![3, 384]⟩ .f32) : bih1K a7 = bih1R a7 := rfl
theorem bih2_eq (a7 : FVec Ideal ⟨2, ![3, 384]⟩ .f32) : bih2K a7 = bih2R a7 := rfl
theorem agg_eq (row : IVec ⟨1, ![640000]⟩ 32) (msgs : FVec Ideal ⟨2, ![640000, 128]⟩ .f32) : aggK row msgs = aggR row msgs := rfl
theorem tail_eq (x : FVec Ideal ⟨2, ![20000, 128]⟩ .f32) (a2 : IVec ⟨1, ![20000]⟩ 32) (a9 : FVec Ideal ⟨2, ![1, 128]⟩ .f32)
    (a10 : FVec Ideal ⟨1, ![1]⟩ .f32) : tailK x a2 a9 a10 = tailR x a2 a9 a10 := rfl

/-- The two gathers joined along the feature axis. -/
theorem cat_eq (x : FVec Ideal ⟨2, ![20000, 128]⟩ .f32) (row col : IVec ⟨1, ![640000]⟩ 32)
    (hr : ∀ e, 0 ≤ (row e).toInt ∧ (row e).toInt < 20000) (hc : ∀ e, 0 ≤ (col e).toInt ∧ (col e).toInt < 20000) :
    catK x row col = catR x row col := by
  unfold Cert.KernelIdeal.Hand.catK Cert.ReferenceIdeal.Hand.catR
  rw [take_eq x row hr, take_eq x col hc]

/-- One layer: the same message map, sum and update around the same gathered rows. -/
theorem layer_eq (x : FVec Ideal ⟨2, ![20000, 128]⟩ .f32) (row col : IVec ⟨1, ![640000]⟩ 32)
    (hr : ∀ e, 0 ≤ (row e).toInt ∧ (row e).toInt < 20000) (hc : ∀ e, 0 ≤ (col e).toInt ∧ (col e).toInt < 20000)
    (wt : FVec Ideal ⟨2, ![256, 128]⟩ .f32) (b : FVec Ideal ⟨1, ![128]⟩ .f32) (wih whh : FVec Ideal ⟨2, ![128, 384]⟩ .f32)
    (bih bhh : FVec Ideal ⟨1, ![384]⟩ .f32) :
    layerK x row col wt b wih whh bih bhh = layerR x row col wt b wih whh bih bhh := by
  unfold Cert.KernelIdeal.Hand.layerK Cert.ReferenceIdeal.Hand.layerR
  rw [cat_eq x row col hr hc, agg_eq]

theorem net_eq (a0 : FVec Ideal ⟨2, ![20000, 128]⟩ .f32) (a1 : IVec ⟨2, ![2, 640000]⟩ 32) (a2 : IVec ⟨1, ![20000]⟩ 32) (a3 : FVec Ideal ⟨3, ![3, 128, 256]⟩ .f32)
    (a4 : FVec Ideal ⟨2, ![3, 128]⟩ .f32) (a5 a6 : FVec Ideal ⟨3, ![3, 384, 128]⟩ .f32) (a7 a8 : FVec Ideal ⟨2, ![3, 384]⟩ .f32)
    (a9 : FVec Ideal ⟨2, ![1, 128]⟩ .f32) (a10 : FVec Ideal ⟨1, ![1]⟩ .f32)
    (h : Cert.GnnSpec.InRange a1) :
    Cert.KernelIdeal.Hand.netK a0 a1 a2 a3 a4 a5 a6 a7 a8 a9 a10 = Cert.ReferenceIdeal.Hand.netR a0 a1 a2 a3 a4 a5 a6 a7 a8 a9 a10 := by
  have hr := rowK_range a1 h
  have hc := colK_range a1 h
  unfold Cert.KernelIdeal.Hand.netK Cert.ReferenceIdeal.Hand.netR
  rw [layer_eq _ _ _ hr hc, layer_eq _ _ _ hr hc, layer_eq _ _ _ hr hc, tail_eq, row_eq, col_eq,
    wt0_eq, wt1_eq, wt2_eq, b0_eq, b1_eq, b2_eq, wih0_eq, wih0_eq, wih1_eq, wih1_eq, wih2_eq, wih2_eq,
    bih0_eq, bih0_eq, bih1_eq, bih1_eq, bih2_eq, bih2_eq]

end Cert.Gnn

end
-- ==== Proof.PreRange.lean ====
/-
  The precondition says every edge endpoint is a node. Its last conjunct is the conjunction, over all
  entries of the 2 × 640000 endpoint array, of "0 ≤ entry" and "entry < 20000" as signed words. A
  conjunction of one-bit words is 1 exactly when every word is 1, so every entry satisfies both
  comparisons, and a signed comparison of words that is 1 is the order of their signed values.
-/
import proofs.«413579_j91036126806070_1_alg».proof.Defs
import proofs.«413579_j91036126806070_1_alg».proof.Proof.Gen.Pre_finite_inputs
import proofs.«413579_j91036126806070_1_alg».proof.Proof.Gen.KernelIdeal
import proofs.«413579_j91036126806070_1_alg».proof.Proof.Spec
import Idealize.ShloMosaic.Lib.ReduceAll
import Idealize.ShloMosaic.Lib.Affine

set_option maxRecDepth 16384

noncomputable section

namespace Cert.Gnn

open Idealize.ShloMosaic Idealize.ShloMosaic.TcCoe Idealize.ShloMosaic.ValueIdx Idealize.SL.Sem

/-- The scalar shape has one index. -/
local instance scalarIdxSubsingleton : Subsingleton Cert.Pre_finite_inputs.S_.Idx := ⟨fun a b => funext fun d => d.elim0⟩

/-- The signed value of the word 0. -/
theorem toInt_zero32 : (0#32 : BitVec 32).toInt = 0 := by decide
/-- The signed value of the word 20000. -/
theorem toInt_20000 : (20000#32 : BitVec 32).toInt = 20000 := by decide

/-- The predicate over plain arrays: if it is 1, every entry of the endpoint array lies in 0 … 19999. -/
theorem range_of_fn {F : FTy → Type} [FloatOps F]
    (a0 : FVec F Cert.Pre_finite_inputs.S20000x128 .f32) (a1 : IVec Cert.Pre_finite_inputs.S2x640000 32)
    (a2 : IVec Cert.Pre_finite_inputs.S20000 32) (a3 : FVec F Cert.Pre_finite_inputs.S3x128x256 .f32)
    (a4 : FVec F Cert.Pre_finite_inputs.S3x128 .f32) (a5 a6 : FVec F Cert.Pre_finite_inputs.S3x384x128 .f32)
    (a7 a8 : FVec F Cert.Pre_finite_inputs.S3x384 .f32) (a9 : FVec F Cert.Pre_finite_inputs.S1x128 .f32)
    (a10 : FVec F Cert.Pre_finite_inputs.S1 .f32)
    (h : Cert.Pre_finite_inputs.fn (F := F) a0 a1 a2 a3 a4 a5 a6 a7 a8 a9 a10 = (fun _ => 1#1)) :
    Cert.GnnSpec.InRange a1 := by
  intro i
  have h0 := congrFun h ValueIdx.ix0
  dsimp only [Cert.Pre_finite_inputs.fn, Cert.Pre_finite_inputs.fn_part1, Cert.Pre_finite_inputs.fn_part2] at h0
  have h1 := (IntOp.andi_eq_one.1 h0).2
  have hall := Host.reduce_andi_all _ _ _ _ ValueIdx.ix0 h1 i
  obtain ⟨hge, hlt⟩ := IntOp.andi_eq_one.1 hall
  have h2 : (0#32 : BitVec 32).toInt ≤ (a1 i).toInt := IntOp.cmpi_sge.1 hge
  have h3 : (a1 i).toInt < (20000#32 : BitVec 32).toInt := IntOp.cmpi_slt.1 hlt
  rw [toInt_zero32] at h2
  rw [toInt_20000] at h3
  exact ⟨h2, h3⟩

theorem range_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.GnnSpec.InRange (m ((c.tc : Thread Cert.KernelIdeal.nD Cert.KernelIdeal.τ).loc Cert.KernelIdeal.main_arg1)) :=
  range_of_fn (F := Ideal) _ _ _ _ _ _ _ _ _ _ _ (h c)

end Cert.Gnn

end
-- ==== Proof.lean ====
/-
  The certificate of a three-layer message-passing network on a graph of 20000 nodes and 640000 edges:
  per layer a gather of the node features at the edges' endpoints, the message map
  relu(concat · Wᵀ + b) over the edges, the sum of the messages at their source nodes, and a gated
  recurrent update of the node features; then the mean over each graph's nodes and a linear read-out.
  The kernel program runs the message map and the gated update as blocked matrix products on operands
  rounded to bf16 (100 blocks of 6400 edges, 10 blocks of 2000 nodes); the reference runs whole
  products. On the extended reals a rounding is the identity and a blocked product is the whole one row
  by row, so both programs compute the network `netK` / `netR` of the argument arrays. The two differ in
  how they gather rows: the kernel program fills a row whose index is outside 0 … 19999 with the
  not-a-number pattern, the reference clamps; where every endpoint is a node (the precondition says so)
  the two gathers agree and the networks are one function.
-/
import proofs.«413579_j91036126806070_1_alg».proof.Defs
import proofs.«413579_j91036126806070_1_alg».proof.Proof.Gen.Kernel
import proofs.«413579_j91036126806070_1_alg».proof.Proof.Gen.Kernel.Skeleton
import proofs.«413579_j91036126806070_1_alg».proof.Proof.Gen.Kernel.Launch
import proofs.«413579_j91036126806070_1_alg».proof.Proof.Gen.Kernel.Points
import proofs.«413579_j91036126806070_1_alg».proof.Proof.Gen.Kernel.Frame
import proofs.«413579_j91036126806070_1_alg».proof.Proof.Gen.KernelIdeal
import proofs.«413579_j91036126806070_1_alg».proof.Proof.Gen.KernelIdeal.Skeleton
import proofs.«413579_j91036126806070_1_alg».proof.Proof.Gen.KernelIdeal.Launch
import proofs.«413579_j91036126806070_1_alg».proof.Proof.Gen.KernelIdeal.Points
import proofs.«413579_j91036126806070_1_alg».proof.Proof.Gen.KernelIdeal.Frame
import proofs.«413579_j91036126806070_1_alg».proof.Proof.Gen.ReferenceIdeal
import proofs.«413579_j91036126806070_1_alg».proof.Proof.Gen.Pre_finite_inputs
import proofs.«413579_j91036126806070_1_alg».proof.Proof.KRun
import proofs.«413579_j91036126806070_1_alg».proof.Proof.KChain
import proofs.«413579_j91036126806070_1_alg».proof.Proof.RRun
import proofs.«413579_j91036126806070_1_alg».proof.Proof.RHostEq
import proofs.«413579_j91036126806070_1_alg».proof.Proof.NetEq
import proofs.«413579_j91036126806070_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Gen.frame m ρ

/-- So does its reading on the extended reals. -/
theorem frame_pi : Cert.frame_KernelIdeal := fun m ρ _ => Cert.KernelIdeal.Gen.frame m ρ

/-- The reference is host operations only: its frame is its run with the result's value dropped. -/
theorem frame_ri : Cert.frame_ReferenceIdeal := fun m ρ _ =>
  (θ_run Cert.ReferenceIdeal.defs _ _).mono (fun _ h c => (h c).2) (Cert.ReferenceIdeal.Hand.ref_run m ρ)

/-- The word-level program and its reading on the extended reals are one text: nothing is owed. -/
theorem preserves : Cert.preserves_Kernel_KernelIdeal := trivial

/-- From memories agreeing on the arguments, with every edge endpoint a node, both programs end with
    the network of the argument arrays in their result. -/
theorem algebraic : Cert.algebraic_KernelIdeal_ReferenceIdeal := by
  intro m ρ m' ρ' hpre hagree
  refine ⟨fun c => Cert.KernelIdeal.Hand.netK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.W20_result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Hand.ref_run m' ρ')
    obtain ⟨e0, e1, e2, e3, e4, e5, e6, e7, e8, e9, e10⟩ := hagree c
    rw [Cert.ReferenceIdeal.Hand.netHostR_eq, e0, e1, e2, e3, e4, e5, e6, e7, e8, e9, e10]
    exact (Cert.Gnn.net_eq _ _ _ _ _ _ _ _ _ _ _ (Cert.Gnn.range_of_pre m hpre c)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
